-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) (main_arg2 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Pre_finite_inputs_ReferenceIdeal.lean ====
abbrev S512x4096 : Shape := ⟨2, ![512, 4096]⟩
abbrev S4096 : Shape := ⟨1, ![4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S512x4096 .f32) (main_arg1 : FVec F S4096 .f32) (main_arg2 : FVec F S4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S512x256 : Shape := ⟨2, ![512, 256]⟩
abbrev S256 : Shape := ⟨1, ![256]⟩
abbrev S16x8x128 : Shape := ⟨3, ![16, 8, 128]⟩
abbrev S16 : Shape := ⟨1, ![16]⟩
abbrev S_ : Shape := ⟨0, ![]⟩
abbrev S512 : Shape := ⟨1, ![512]⟩
abbrev S4x128 : Shape := ⟨2, ![4, 128]⟩
abbrev S1x4x128 : Shape := ⟨3, ![1, 4, 128]⟩
abbrev S1 : Shape := ⟨1, ![1]⟩
abbrev S1x8x128 : Shape := ⟨3, ![1, 8, 128]⟩
abbrev S8x128 : Shape := ⟨2, ![8, 128]⟩
abbrev S1x256 : Shape := ⟨2, ![1, 256]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S256, .f32⟩
  | .hbm, ⟨3, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S256, .f32⟩
  | .local _ .vmem, ⟨3, _⟩ => ⟨S512x256, .f32⟩
  | .local _ .vmem, ⟨4, _⟩ => ⟨S16x8x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let v212 : BitVec 32 := Scalar.addi v2 c1_i32_143
  let c16_i32_144 : BitVec 32 := 16#32
  let c0_i32_145 : BitVec 32 := 0#32
  let v213 : BitVec 1 := Scalar.cmpi .eq c16_i32_144 c0_i32_145
  let c1_i32_146 : BitVec 32 := 1#32
  let v214 : BitVec 32 := Scalar.select v213 c1_i32_146 c16_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_154 : BitVec 32 := 1#32
  let v223 : BitVec 32 := Scalar.muli v222 c1_i32_154
  let v224 : BitVec 32 := Scalar.addi c0_i32_155 v223
  v224.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_160 : BitVec 32 := 2#32
  let v233 : BitVec 32 := Scalar.addi v2 c2_i32_160
  let c16_i32_161 : BitVec 32 := 16#32
  let c0_i32_162 : BitVec 32 := 0#32
  let v234 : BitVec 1 := Scalar.cmpi .eq c16_i32_161 c0_i32_162
  let c1_i32_163 : BitVec 32 := 1#32
  let v235 : BitVec 32 := Scalar.select v234 c1_i32_163 c16_i32_161
  let v236 : BitVec 32 := Scalar.remsi v233 v235
  let c0_i32_165 : BitVec 32 := 0#32
  let v238 : BitVec 1 := Scalar.cmpi .slt v236 c0_i32_165
  let c0_i32_166 : BitVec 32 := 0#32
  let v239 : BitVec 1 := Scalar.cmpi .slt v235 c0_i32_166
  let v240 : BitVec 1 := Scalar.xori v238 v239
  let c0_i32_164 : BitVec 32 := 0#32
  let v237 : BitVec 1 := Scalar.cmpi .ne v236 c0_i32_164
  let v241 : BitVec 1 := Scalar.andi v240 v237
  let v242 : BitVec 32 := Scalar.addi v236 v235
  let v243 : BitVec 32 := Scalar.select v241 v242 v236
  let c1_i32_171 : BitVec 32 := 1#32
  let v244 : BitVec 32 := Scalar.muli v243 c1_i32_171
  let v245 : BitVec 32 := Scalar.addi c0_i32_172 v244
  v245.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_177 : BitVec 32 := 3#32
  let v254 : BitVec 32 := Scalar.addi v2 c3_i32_177
  let c16_i32_178 : BitVec 32 := 16#32
  let c0_i32_179 : BitVec 32 := 0#32
  let v255 : BitVec 1 := Scalar.cmpi .eq c16_i32_178 c0_i32_179
  let c1_i32_180 : BitVec 32 := 1#32
  let v256 : BitVec 32 := Scalar.select v255 c1_i32_180 c16_i32_178
  let v257 : BitVec 32 := Scalar.remsi v254 v256
  let c0_i32_182 : BitVec 32 := 0#32
  let v259 : BitVec 1 := Scalar.cmpi .slt v257 c0_i32_182
  let c0_i32_183 : BitVec 32 := 0#32
  let v260 : BitVec 1 := Scalar.cmpi .slt v256 c0_i32_183
  let v261 : BitVec 1 := Scalar.xori v259 v260
  let c0_i32_181 : BitVec 32 := 0#32
  let v258 : BitVec 1 := Scalar.cmpi .ne v257 c0_i32_181
  let v262 : BitVec 1 := Scalar.andi v261 v258
  let v263 : BitVec 32 := Scalar.addi v257 v256
  let v264 : BitVec 32 := Scalar.select v262 v263 v257
  let c1_i32_188 : BitVec 32 := 1#32
  let v265 : BitVec 32 := Scalar.muli v264 c1_i32_188
  let v266 : BitVec 32 := Scalar.addi c0_i32_189 v265
  v266.toNat
def k0_dev19 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_194 : BitVec 32 := 4#32
  let v275 : BitVec 32 := Scalar.addi v2 c4_i32_194
  let c16_i32_195 : BitVec 32 := 16#32
  let c0_i32_196 : BitVec 32 := 0#32
  let v276 : BitVec 1 := Scalar.cmpi .eq c16_i32_195 c0_i32_196
  let c1_i32_197 : BitVec 32 := 1#32
  let v277 : BitVec 32 := Scalar.select v276 c1_i32_197 c16_i32_195
  let v278 : BitVec 32 := Scalar.remsi v275 v277
  let c0_i32_199 : BitVec 32 := 0#32
  let v280 : BitVec 1 := Scalar.cmpi .slt v278 c0_i32_199
  let c0_i32_200 : BitVec 32 := 0#32
  let v281 : BitVec 1 := Scalar.cmpi .slt v277 c0_i32_200
  let v282 : BitVec 1 := Scalar.xori v280 v281
  let c0_i32_198 : BitVec 32 := 0#32
  let v279 : BitVec 1 := Scalar.cmpi .ne v278 c0_i32_198
  let v283 : BitVec 1 := Scalar.andi v282 v279
  let v284 : BitVec 32 := Scalar.addi v278 v277
  let v285 : BitVec 32 := Scalar.select v283 v284 v278
  let c1_i32_205 : BitVec 32 := 1#32
  let v286 : BitVec 32 := Scalar.muli v285 c1_i32_205
  let v287 : BitVec 32 := Scalar.addi c0_i32_206 v286
  v287.toNat
def k0_dev20 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_211 : BitVec 32 := 5#32
  let v296 : BitVec 32 := Scalar.addi v2 c5_i32_211
  let c16_i32_212 : BitVec 32 := 16#32
  let c0_i32_213 : BitVec 32 := 0#32
  let v297 : BitVec 1 := Scalar.cmpi .eq c16_i32_212 c0_i32_213
  let c1_i32_214 : BitVec 32 := 1#32
  let v298 : BitVec 32 := Scalar.select v297 c1_i32_214 c16_i32_212
  let v299 : BitVec 32 := Scalar.remsi v296 v298
  let c0_i32_216 : BitVec 32 := 0#32
  let v301 : BitVec 1 := Scalar.cmpi .slt v299 c0_i32_216
  let c0_i32_217 : BitVec 32 := 0#32
  let v302 : BitVec 1 := Scalar.cmpi .slt v298 c0_i32_217
  let v303 : BitVec 1 := Scalar.xori v301 v302
  let c0_i32_215 : BitVec 32 := 0#32
  let v300 : BitVec 1 := Scalar.cmpi .ne v299 c0_i32_215
  let v304 : BitVec 1 := Scalar.andi v303 v300
  let v305 : BitVec 32 := Scalar.addi v299 v298
  let v306 : BitVec 32 := Scalar.select v304 v305 v299
  let c1_i32_222 : BitVec 32 := 1#32
  let v307 : BitVec 32 := Scalar.muli v306 c1_i32_222
  let v308 : BitVec 32 := Scalar.addi c0_i32_223 v307
  v308.toNat
def k0_dev21 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_228 : BitVec 32 := 6#32
  let v317 : BitVec 32 := Scalar.addi v2 c6_i32_228
  let c16_i32_229 : BitVec 32 := 16#32
  let c0_i32_230 : BitVec 32 := 0#32
  let v318 : BitVec 1 := Scalar.cmpi .eq c16_i32_229 c0_i32_230
  let c1_i32_231 : BitVec 32 := 1#32
  let v319 : BitVec 32 := Scalar.select v318 c1_i32_231 c16_i32_229
  let v320 : BitVec 32 := Scalar.remsi v317 v319
  let c0_i32_233 : BitVec 32 := 0#32
  let v322 : BitVec 1 := Scalar.cmpi .slt v320 c0_i32_233
  let c0_i32_234 : BitVec 32 := 0#32
  let v323 : BitVec 1 := Scalar.cmpi .slt v319 c0_i32_234
  let v324 : BitVec 1 := Scalar.xori v322 v323
  let c0_i32_232 : BitVec 32 := 0#32
  let v321 : BitVec 1 := Scalar.cmpi .ne v320 c0_i32_232
  let v325 : BitVec 1 := Scalar.andi v324 v321
  let v326 : BitVec 32 := Scalar.addi v320 v319
  let v327 : BitVec 32 := Scalar.select v325 v326 v320
  let c1_i32_239 : BitVec 32 := 1#32
  let v328 : BitVec 32 := Scalar.muli v327 c1_i32_239
  let v329 : BitVec 32 := Scalar.addi c0_i32_240 v328
  v329.toNat
def k0_dev22 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_245 : BitVec 32 := 7#32
  let v338 : BitVec 32 := Scalar.addi v2 c7_i32_245
  let c16_i32_246 : BitVec 32 := 16#32
  let c0_i32_247 : BitVec 32 := 0#32
  let v339 : BitVec 1 := Scalar.cmpi .eq c16_i32_246 c0_i32_247
  let c1_i32_248 : BitVec 32 := 1#32
  let v340 : BitVec 32 := Scalar.select v339 c1_i32_248 c16_i32_246
  let v341 : BitVec 32 := Scalar.remsi v338 v340
  let c0_i32_250 : BitVec 32 := 0#32
  let v343 : BitVec 1 := Scalar.cmpi .slt v341 c0_i32_250
  let c0_i32_251 : BitVec 32 := 0#32
  let v344 : BitVec 1 := Scalar.cmpi .slt v340 c0_i32_251
  let v345 : BitVec 1 := Scalar.xori v343 v344
  let c0_i32_249 : BitVec 32 := 0#32
  let v342 : BitVec 1 := Scalar.cmpi .ne v341 c0_i32_249
  let v346 : BitVec 1 := Scalar.andi v345 v342
  let v347 : BitVec 32 := Scalar.addi v341 v340
  let v348 : BitVec 32 := Scalar.select v346 v347 v341
  let c1_i32_256 : BitVec 32 := 1#32
  let v349 : BitVec 32 := Scalar.muli v348 c1_i32_256
  let v350 : BitVec 32 := Scalar.addi c0_i32_257 v349
  v350.toNat
def k0_dev23 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_262 : BitVec 32 := 8#32
  let v359 : BitVec 32 := Scalar.addi v2 c8_i32_262
  let c16_i32_263 : BitVec 32 := 16#32
  let c0_i32_264 : BitVec 32 := 0#32
  let v360 : BitVec 1 := Scalar.cmpi .eq c16_i32_263 c0_i32_264
  let c1_i32_265 : BitVec 32 := 1#32
  let v361 : BitVec 32 := Scalar.select v360 c1_i32_265 c16_i32_263
  let v362 : BitVec 32 := Scalar.remsi v359 v361
  let c0_i32_267 : BitVec 32 := 0#32
  let v364 : BitVec 1 := Scalar.cmpi .slt v362 c0_i32_267
  let c0_i32_268 : BitVec 32 := 0#32
  let v365 : BitVec 1 := Scalar.cmpi .slt v361 c0_i32_268
  let v366 : BitVec 1 := Scalar.xori v364 v365
  let c0_i32_266 : BitVec 32 := 0#32
  let v363 : BitVec 1 := Scalar.cmpi .ne v362 c0_i32_266
  let v367 : BitVec 1 := Scalar.andi v366 v363
  let v368 : BitVec 32 := Scalar.addi v362 v361
  let v369 : BitVec 32 := Scalar.select v367 v368 v362
  let c1_i32_273 : BitVec 32 := 1#32
  let v370 : BitVec 32 := Scalar.muli v369 c1_i32_273
  let v371 : BitVec 32 := Scalar.addi c0_i32_274 v370
  v371.toNat
def k0_dev24 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_279 : BitVec 32 := 9#32
  let v380 : BitVec 32 := Scalar.addi v2 c9_i32_279
  let c16_i32_280 : BitVec 32 := 16#32
  let c0_i32_281 : BitVec 32 := 0#32
  let v381 : BitVec 1 := Scalar.cmpi .eq c16_i32_280 c0_i32_281
  let c1_i32_282 : BitVec 32 := 1#32
  let v382 : BitVec 32 := Scalar.select v381 c1_i32_282 c16_i32_280
  let v383 : BitVec 32 := Scalar.remsi v380 v382
  let c0_i32_284 : BitVec 32 := 0#32
  let v385 : BitVec 1 := Scalar.cmpi .slt v383 c0_i32_284
  let c0_i32_285 : BitVec 32 := 0#32
  let v386 : BitVec 1 := Scalar.cmpi .slt v382 c0_i32_285
  let v387 : BitVec 1 := Scalar.xori v385 v386
  let c0_i32_283 : BitVec 32 := 0#32
  let v384 : BitVec 1 := Scalar.cmpi .ne v383 c0_i32_283
  let v388 : BitVec 1 := Scalar.andi v387 v384
  let v389 : BitVec 32 := Scalar.addi v383 v382
  let v390 : BitVec 32 := Scalar.select v388 v389 v383
  let c1_i32_290 : BitVec 32 := 1#32
  let v391 : BitVec 32 := Scalar.muli v390 c1_i32_290
  let v392 : BitVec 32 := Scalar.addi c0_i32_291 v391
  v392.toNat
def k0_dev25 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_296 : BitVec 32 := 10#32
  let v401 : BitVec 32 := Scalar.addi v2 c10_i32_296
  let c16_i32_297 : BitVec 32 := 16#32
  let c0_i32_298 : BitVec 32 := 0#32
  let v402 : BitVec 1 := Scalar.cmpi .eq c16_i32_297 c0_i32_298
  let c1_i32_299 : BitVec 32 := 1#32
  let v403 : BitVec 32 := Scalar.select v402 c1_i32_299 c16_i32_297
  let v404 : BitVec 32 := Scalar.remsi v401 v403
  let c0_i32_301 : BitVec 32 := 0#32
  let v406 : BitVec 1 := Scalar.cmpi .slt v404 c0_i32_301
  let c0_i32_302 : BitVec 32 := 0#32
  let v407 : BitVec 1 := Scalar.cmpi .slt v403 c0_i32_302
  let v408 : BitVec 1 := Scalar.xori v406 v407
  let c0_i32_300 : BitVec 32 := 0#32
  let v405 : BitVec 1 := Scalar.cmpi .ne v404 c0_i32_300
  let v409 : BitVec 1 := Scalar.andi v408 v405
  let v410 : BitVec 32 := Scalar.addi v404 v403
  let v411 : BitVec 32 := Scalar.select v409 v410 v404
  let c1_i32_307 : BitVec 32 := 1#32
  let v412 : BitVec 32 := Scalar.muli v411 c1_i32_307
  let v413 : BitVec 32 := Scalar.addi c0_i32_308 v412
  v413.toNat
def k0_dev26 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_313 : BitVec 32 := 11#32
  let v422 : BitVec 32 := Scalar.addi v2 c11_i32_313
  let c16_i32_314 : BitVec 32 := 16#32
  let c0_i32_315 : BitVec 32 := 0#32
  let v423 : BitVec 1 := Scalar.cmpi .eq c16_i32_314 c0_i32_315
  let c1_i32_316 : BitVec 32 := 1#32
  let v424 : BitVec 32 := Scalar.select v423 c1_i32_316 c16_i32_314
  let v425 : BitVec 32 := Scalar.remsi v422 v424
  let c0_i32_318 : BitVec 32 := 0#32
  let v427 : BitVec 1 := Scalar.cmpi .slt v425 c0_i32_318
  let c0_i32_319 : BitVec 32 := 0#32
  let v428 : BitVec 1 := Scalar.cmpi .slt v424 c0_i32_319
  let v429 : BitVec 1 := Scalar.xori v427 v428
  let c0_i32_317 : BitVec 32 := 0#32
  let v426 : BitVec 1 := Scalar.cmpi .ne v425 c0_i32_317
  let v430 : BitVec 1 := Scalar.andi v429 v426
  let v431 : BitVec 32 := Scalar.addi v425 v424
  let v432 : BitVec 32 := Scalar.select v430 v431 v425
  let c1_i32_324 : BitVec 32 := 1#32
  let v433 : BitVec 32 := Scalar.muli v432 c1_i32_324
  let v434 : BitVec 32 := Scalar.addi c0_i32_325 v433
  v434.toNat
def k0_dev27 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_330 : BitVec 32 := 12#32
  let v443 : BitVec 32 := Scalar.addi v2 c12_i32_330
  let c16_i32_331 : BitVec 32 := 16#32
  let c0_i32_332 : BitVec 32 := 0#32
  let v444 : BitVec 1 := Scalar.cmpi .eq c16_i32_331 c0_i32_332
  let c1_i32_333 : BitVec 32 := 1#32
  let v445 : BitVec 32 := Scalar.select v444 c1_i32_333 c16_i32_331
  let v446 : BitVec 32 := Scalar.remsi v443 v445
  let c0_i32_335 : BitVec 32 := 0#32
  let v448 : BitVec 1 := Scalar.cmpi .slt v446 c0_i32_335
  let c0_i32_336 : BitVec 32 := 0#32
  let v449 : BitVec 1 := Scalar.cmpi .slt v445 c0_i32_336
  let v450 : BitVec 1 := Scalar.xori v448 v449
  let c0_i32_334 : BitVec 32 := 0#32
  let v447 : BitVec 1 := Scalar.cmpi .ne v446 c0_i32_334
  let v451 : BitVec 1 := Scalar.andi v450 v447
  let v452 : BitVec 32 := Scalar.addi v446 v445
  let v453 : BitVec 32 := Scalar.select v451 v452 v446
  let c1_i32_341 : BitVec 32 := 1#32
  let v454 : BitVec 32 := Scalar.muli v453 c1_i32_341
  let v455 : BitVec 32 := Scalar.addi c0_i32_342 v454
  v455.toNat
def k0_dev28 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_347 : BitVec 32 := 13#32
  let v464 : BitVec 32 := Scalar.addi v2 c13_i32_347
  let c16_i32_348 : BitVec 32 := 16#32
  let c0_i32_349 : BitVec 32 := 0#32
  let v465 : BitVec 1 := Scalar.cmpi .eq c16_i32_348 c0_i32_349
  let c1_i32_350 : BitVec 32 := 1#32
  let v466 : BitVec 32 := Scalar.select v465 c1_i32_350 c16_i32_348
  let v467 : BitVec 32 := Scalar.remsi v464 v466
  let c0_i32_352 : BitVec 32 := 0#32
  let v469 : BitVec 1 := Scalar.cmpi .slt v467 c0_i32_352
  let c0_i32_353 : BitVec 32 := 0#32
  let v470 : BitVec 1 := Scalar.cmpi .slt v466 c0_i32_353
  let v471 : BitVec 1 := Scalar.xori v469 v470
  let c0_i32_351 : BitVec 32 := 0#32
  let v468 : BitVec 1 := Scalar.cmpi .ne v467 c0_i32_351
  let v472 : BitVec 1 := Scalar.andi v471 v468
  let v473 : BitVec 32 := Scalar.addi v467 v466
  let v474 : BitVec 32 := Scalar.select v472 v473 v467
  let c1_i32_358 : BitVec 32 := 1#32
  let v475 : BitVec 32 := Scalar.muli v474 c1_i32_358
  let v476 : BitVec 32 := Scalar.addi c0_i32_359 v475
  v476.toNat
def k0_dev29 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_364 : BitVec 32 := 14#32
  let v485 : BitVec 32 := Scalar.addi v2 c14_i32_364
  let c16_i32_365 : BitVec 32 := 16#32
  let c0_i32_366 : BitVec 32 := 0#32
  let v486 : BitVec 1 := Scalar.cmpi .eq c16_i32_365 c0_i32_366
  let c1_i32_367 : BitVec 32 := 1#32
  let v487 : BitVec 32 := Scalar.select v486 c1_i32_367 c16_i32_365
  let v488 : BitVec 32 := Scalar.remsi v485 v487
  let c0_i32_369 : BitVec 32 := 0#32
  let v490 : BitVec 1 := Scalar.cmpi .slt v488 c0_i32_369
  let c0_i32_370 : BitVec 32 := 0#32
  let v491 : BitVec 1 := Scalar.cmpi .slt v487 c0_i32_370
  let v492 : BitVec 1 := Scalar.xori v490 v491
  let c0_i32_368 : BitVec 32 := 0#32
  let v489 : BitVec 1 := Scalar.cmpi .ne v488 c0_i32_368
  let v493 : BitVec 1 := Scalar.andi v492 v489
  let v494 : BitVec 32 := Scalar.addi v488 v487
  let v495 : BitVec 32 := Scalar.select v493 v494 v488
  let c1_i32_375 : BitVec 32 := 1#32
  let v496 : BitVec 32 := Scalar.muli v495 c1_i32_375
  let v497 : BitVec 32 := Scalar.addi c0_i32_376 v496
  v497.toNat
def k0_dev30 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_381 : BitVec 32 := 15#32
  let v506 : BitVec 32 := Scalar.addi v2 c15_i32_381
  let c16_i32_382 : BitVec 32 := 16#32
  let c0_i32_383 : BitVec 32 := 0#32
  let v507 : BitVec 1 := Scalar.cmpi .eq c16_i32_382 c0_i32_383
  let c1_i32_384 : BitVec 32 := 1#32
  let v508 : BitVec 32 := Scalar.select v507 c1_i32_384 c16_i32_382
  let v509 : BitVec 32 := Scalar.remsi v506 v508
  let c0_i32_386 : BitVec 32 := 0#32
  let v511 : BitVec 1 := Scalar.cmpi .slt v509 c0_i32_386
  let c0_i32_387 : BitVec 32 := 0#32
  let v512 : BitVec 1 := Scalar.cmpi .slt v508 c0_i32_387
  let v513 : BitVec 1 := Scalar.xori v511 v512
  let c0_i32_385 : BitVec 32 := 0#32
  let v510 : BitVec 1 := Scalar.cmpi .ne v509 c0_i32_385
  let v514 : BitVec 1 := Scalar.andi v513 v510
  let v515 : BitVec 32 := Scalar.addi v509 v508
  let v516 : BitVec 32 := Scalar.select v514 v515 v509
  let c1_i32_392 : BitVec 32 := 1#32
  let v517 : BitVec 32 := Scalar.muli v516 c1_i32_392
  let v518 : BitVec 32 := Scalar.addi c0_i32_393 v517
  v518.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S4x128 : S512.ShapeCasts S4x128
  inb_S16x8x128_S1x4x128_0_0_0 : ∀ a, (![0, 0, 0] : Fin 3 → Nat) a + S1x4x128.size a ≤ S16x8x128.size a
  h_S1x4x128 : 0 < S1x4x128.numel
  shapeCasts_S1x4x128_S4x128 : S1x4x128.ShapeCasts S4x128
  shapeCasts_S4x128_S1x4x128 : S4x128.ShapeCasts S1x4x128
  inb_S16x8x128_S1x4x128_0_4_0 : ∀ a, (![0, 4, 0] : Fin 3 → Nat) a + S1x4x128.size a ≤ S16x8x128.size a
  hamt_15 : (15#32 : BitVec 32).msb = false
  inb_S16_S1_1 : ∀ a, (![1] : Fin 1 → Nat) a + S1.size a ≤ S16.size a
  squeezes_S1_S_ : S1.Squeezes S_
  inb_S16x8x128_S1x8x128_1_0_0 : ∀ a, (![1, 0, 0] : Fin 3 → Nat) a + S1x8x128.size a ≤ S16x8x128.size a
  squeezes_S1x8x128_S8x128 : S1x8x128.Squeezes S8x128
  inb_S16x8x128_S1x8x128_0_0_0 : ∀ a, (![0, 0, 0] : Fin 3 → Nat) a + S1x8x128.size a ≤ S16x8x128.size a
  inb_S16_S1_2 : ∀ a, (![2] : Fin 1 → Nat) a + S1.size a ≤ S16.size a
  inb_S16x8x128_S1x8x128_2_0_0 : ∀ a, (![2, 0, 0] : Fin 3 → Nat) a + S1x8x128.size a ≤ S16x8x128.size a
  inb_S16_S1_3 : ∀ a, (![3] : Fin 1 → Nat) a + S1.size a ≤ S16.size a
  inb_S16x8x128_S1x8x128_3_0_0 : ∀ a, (![3, 0, 0] : Fin 3 → Nat) a + S1x8x128.size a ≤ S16x8x128.size a
  inb_S16_S1_4 : ∀ a, (![4] : Fin 1 → Nat) a + S1.size a ≤ S16.size a
  inb_S16x8x128_S1x8x128_4_0_0 : ∀ a, (![4, 0, 0] : Fin 3 → Nat) a + S1x8x128.size a ≤ S16x8x128.size a
  inb_S16_S1_5 : ∀ a, (![5] : Fin 1 → Nat) a + S1.size a ≤ S16.size a
  inb_S16x8x128_S1x8x128_5_0_0 : ∀ a, (![5, 0, 0] : Fin 3 → Nat) a + S1x8x128.size a ≤ S16x8x128.size a
  inb_S16_S1_6 : ∀ a, (![6] : Fin 1 → Nat) a + S1.size a ≤ S16.size a
  inb_S16x8x128_S1x8x128_6_0_0 : ∀ a, (![6, 0, 0] : Fin 3 → Nat) a + S1x8x128.size a ≤ S16x8x128.size a
  inb_S16_S1_7 : ∀ a, (![7] : Fin 1 → Nat) a + S1.size a ≤ S16.size a
  inb_S16x8x128_S1x8x128_7_0_0 : ∀ a, (![7, 0, 0] : Fin 3 → Nat) a + S1x8x128.size a ≤ S16x8x128.size a
  inb_S16_S1_8 : ∀ a, (![8] : Fin 1 → Nat) a + S1.size a ≤ S16.size a
  inb_S16x8x128_S1x8x128_8_0_0 : ∀ a, (![8, 0, 0] : Fin 3 → Nat) a + S1x8x128.size a ≤ S16x8x128.size a
  inb_S16_S1_9 : ∀ a, (![9] : Fin 1 → Nat) a + S1.size a ≤ S16.size a
  inb_S16x8x128_S1x8x128_9_0_0 : ∀ a, (![9, 0, 0] : Fin 3 → Nat) a + S1x8x128.size a ≤ S16x8x128.size a
  inb_S16_S1_10 : ∀ a, (![10] : Fin 1 → Nat) a + S1.size a ≤ S16.size a
  inb_S16x8x128_S1x8x128_10_0_0 : ∀ a, (![10, 0, 0] : Fin 3 → Nat) a + S1x8x128.size a ≤ S16x8x128.size a
  inb_S16_S1_11 : ∀ a, (![11] : Fin 1 → Nat) a + S1.size a ≤ S16.size a
  inb_S16x8x128_S1x8x128_11_0_0 : ∀ a, (![11, 0, 0] : Fin 3 → Nat) a + S1x8x128.size a ≤ S16x8x128.size a
  inb_S16_S1_12 : ∀ a, (![12] : Fin 1 → Nat) a + S1.size a ≤ S16.size a
  inb_S16x8x128_S1x8x128_12_0_0 : ∀ a, (![12, 0, 0] : Fin 3 → Nat) a + S1x8x128.size a ≤ S16x8x128.size a
  inb_S16_S1_13 : ∀ a, (![13] : Fin 1 → Nat) a + S1.size a ≤ S16.size a
  inb_S16x8x128_S1x8x128_13_0_0 : ∀ a, (![13, 0, 0] : Fin 3 → Nat) a + S1x8x128.size a ≤ S16x8x128.size a
  inb_S16_S1_14 : ∀ a, (![14] : Fin 1 → Nat) a + S1.size a ≤ S16.size a
  inb_S16x8x128_S1x8x128_14_0_0 : ∀ a, (![14, 0, 0] : Fin 3 → Nat) a + S1x8x128.size a ≤ S16x8x128.size a
  inb_S16_S1_15 : ∀ a, (![15] : Fin 1 → Nat) a + S1.size a ≤ S16.size a
  inb_S16x8x128_S1x8x128_15_0_0 : ∀ a, (![15, 0, 0] : Fin 3 → Nat) a + S1x8x128.size a ≤ S16x8x128.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  h_S1x8x128 : 0 < S1x8x128.numel
  shapeCasts_S1x8x128_S8x128 : S1x8x128.ShapeCasts S8x128
  slices_S8x128_o0_0_S4x128 : S8x128.Slices ![0, 0] S4x128
  shapeCasts_S4x128_S512 : S4x128.ShapeCasts S512
  slices_S8x128_o4_0_S4x128 : S8x128.Slices ![4, 0] S4x128
  shapeCasts_S512_S512x1 : S512.ShapeCasts S512x1
  broadcasts_S512x1_S512x256 : S512x1.Broadcasts S512x256
  hcc0_scratch1 : 4 + S16.numel ≤ 36
  hcc0_scratch2 : 20 + S16.numel ≤ 36
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch1 : DmaSems sig S16 := SemArray.consecutive 4 S16 hcc0_scratch1
abbrev cc0_scratch2 : DmaSems sig S16 := SemArray.consecutive 20 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x4096 : Shape := ⟨2, ![512, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .i32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x4096, .f32⟩
  | .hbm, ⟨17, _⟩ => ⟨S512x4096, .f32⟩
  | .hbm, ⟨18, _⟩ => ⟨S512x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x4096, .f32⟩
  | .hbm, ⟨34, _⟩ => ⟨S512x4096, .f32⟩
  | .hbm, ⟨35, _⟩ => ⟨S1x4096, .f32⟩
  | .hbm, ⟨36, _⟩ => ⟨S512x4096, .f32⟩
  | .hbm, ⟨37, _⟩ => ⟨S512x4096, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x4096, .f32⟩
  | .hbm, ⟨43, _⟩ => ⟨S512x4096, .f32⟩
  | .hbm, ⟨44, _⟩ => ⟨S1x4096, .f32⟩
  | .hbm, ⟨45, _⟩ => ⟨S512x4096, .f32⟩
  | .hbm, ⟨46, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  reducesTo_S512x4096_S512_d1 : S512x4096.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x4096_0_1 : S512x1.BroadcastsInDim S512x4096 (![0, 1] : Fin 2 → Fin S512x4096.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)

variable [Facts₀]

class Facts : Prop extends Facts₀ where

variable [Facts]
-- ==== Proof.RefRun.lean ====
/-
  The reference layer norm as a straight line of host operations, and what its run leaves in the result.

  The reference computes, for `x : ℝ^{512 × 4096}`, the row mean `μ_i = (0 + ∑_k x_ik) / 4096`, then (in an
  outlined function) the row variance `σ²_i = (0 + ∑_k (x_ik - μ_i)²) / (4096 - 0)`, kept where `4096 - 0 > 0`
  and replaced by a not-a-number constant elsewhere, and finally `γ_j (x_ij - μ_i) / √(σ²_i + ε) + β_j`.
  Two functions are called along the way (the variance, and inside it the selection); a call executes the
  callee's body on the caller's buffers, so the whole program is ONE list of forty-four operations, each writing
  a buffer of its own. `refMean`, `refVar` and `refOut` are the composed values of the operations that end in
  the mean, the selected variance and the result; `run` says every execution ends with the result buffer at
  `refOut` of the three arguments' launch contents and the arguments untouched.
-/
import proofs.«900827_g7700000000000828_dist_layernorm_colshard_i_m512_n256_v7x_i16_f32_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The row means as a column: `(0 + ∑_k x_ik) / 4096`. -/
def refMean (x : (⟨S512x4096, .f32⟩ : BufTy).Contents (Elt F)) : (⟨S512x1, .f32⟩ : BufTy).Contents (Elt F) :=
  Host.divf
    (broadcastInDim S512x1 ![0] bcast_S512_S512x1_0
      (Host.reduceAdd x (constant S_ .f32 0x00000000#32) reducesTo_S512x4096_S512_d1 h_S_))
    (broadcastInDim S512x1 ![] bcast_S_S512x1 (constant S_ .f32 0x45800000#32))

/-- The squared deviations from the row mean. -/
def refSq (x : (⟨S512x4096, .f32⟩ : BufTy).Contents (Elt F)) : (⟨S512x4096, .f32⟩ : BufTy).Contents (Elt F) :=
  mulf (subf x (broadcastInDim S512x4096 ![0, 1] bcast_S512x1_S512x4096_0_1 (refMean x)))
    (subf x (broadcastInDim S512x4096 ![0, 1] bcast_S512x1_S512x4096_0_1 (refMean x)))

/-- The divisor of the variance, `4096 - 0` (the `0` an integer converted to a float). -/
def refCount : (⟨S_, .f32⟩ : BufTy).Contents (Elt F) :=
  subf (constant S_ .f32 0x45800000#32) (sitofp .f32 (constantI S_ 32 0#32))

/-- The row variances as a column: `(0 + ∑_k (x_ik - μ_i)²) / (4096 - 0)` where `4096 - 0 > 0`, else the
    not-a-number constant. -/
def refVar (x : (⟨S512x4096, .f32⟩ : BufTy).Contents (Elt F)) : (⟨S512x1, .f32⟩ : BufTy).Contents (Elt F) :=
  select
    (broadcastInDim S512x1 ![] bcast_S_S512x1 (cmpf .ogt (refCount (F := F)) (constant S_ .f32 0x00000000#32)))
    (Host.divf
      (broadcastInDim S512x1 ![0] bcast_S512_S512x1_0
        (Host.reduceAdd (refSq x) (constant S_ .f32 0x00000000#32) reducesTo_S512x4096_S512_d1 h_S_))
      (broadcastInDim S512x1 ![] bcast_S_S512x1 (refCount (F := F))))
    (broadcastInDim S512x1 ![] bcast_S_S512x1 (id (constant S_ .f32 0x7FC00000#32)))

/-- The reference's result: `γ_j (x_ij - μ_i) / √(σ²_i + ε) + β_j` as the composition of its operations. -/
def refOut (x : (⟨S512x4096, .f32⟩ : BufTy).Contents (Elt F)) (g b : (⟨S4096, .f32⟩ : BufTy).Contents (Elt F)) : (⟨S512x4096, .f32⟩ : BufTy).Contents (Elt F) :=
  addf
    (Host.divf
      (mulf
        (broadcastInDim S512x4096 ![0, 1] bcast_S1x4096_S512x4096_0_1 (broadcastInDim S1x4096 ![1] bcast_S4096_S1x4096_1 g))
        (subf x (broadcastInDim S512x4096 ![0, 1] bcast_S512x1_S512x4096_0_1 (refMean x))))
      (broadcastInDim S512x4096 ![0, 1] bcast_S512x1_S512x4096_0_1
        (Host.sqrt (addf (refVar x) (broadcastInDim S512x1 ![] bcast_S_S512x1 (constant S_ .f32 0x3727C5AC#32))))))
    (broadcastInDim S512x4096 ![0, 1] bcast_S1x4096_S512x4096_0_1 (broadcastInDim S1x4096 ![1] bcast_S4096_S1x4096_1 b))

/-- The program's forty-four operations in order: seven of the main function (the mean), the variance function's
    twenty inlined over its call's buffers, the selection function's three inlined over its own, then the main
    function's last fourteen. -/
abbrev ops : List (HloOp τ sig (Elt F)) :=
  [ nullary main_cst (constant S_ .f32 0x00000000#32),
    binary main_arg0 main_cst main_v0 ((fun x v => Host.reduceAdd x v reducesTo_S512x4096_S512_d1 h_S_) : (⟨S512x4096, .f32⟩ : BufTy).Contents (Elt F) → (⟨S_, .f32⟩ : BufTy).Contents (Elt F) → (⟨S512, .f32⟩ : BufTy).Contents (Elt F)),
    unary main_v0 main_v1 (broadcastInDim S512x1 ![0] bcast_S512_S512x1_0 : (⟨S512, .f32⟩ : BufTy).Contents (Elt F) → (⟨S512x1, .f32⟩ : BufTy).Contents (Elt F)),
    nullary main_cst_0 (constant S_ .f32 0x45800000#32),
    unary main_cst_0 main_v2 (broadcastInDim S512x1 ![] bcast_S_S512x1 : (⟨S_, .f32⟩ : BufTy).Contents (Elt F) → (⟨S512x1, .f32⟩ : BufTy).Contents (Elt F)),
    binary main_v1 main_v2 main_v3 (Host.divf : (⟨S512x1, .f32⟩ : BufTy).Contents (Elt F) → (⟨S512x1, .f32⟩ : BufTy).Contents (Elt F) → (⟨S512x1, .f32⟩ : BufTy).Contents (Elt F)),
    nullary main_c (constantI S_ 32 0#32),
    TRef.nullary main_call0.cst (constant S_ .f32 0x00000000#32),
    TRef.binary (.of main_arg0 : TRef sig ⟨S512x4096, .f32⟩) main_call0.cst main_call0.v0 (fun x v => Host.reduceAdd x v reducesTo_S512x4096_S512_d1 h_S_),
    TRef.unary main_call0.v0 main_call0.v1 (broadcastInDim S512x1 ![0] bcast_S512_S512x1_0),
    TRef.nullary main_call0.cst_0 (constant S_ .f32 0x45800000#32),
    TRef.unary main_call0.cst_0 main_call0.v2 (broadcastInDim S512x1 ![] bcast_S_S512x1),
    TRef.binary main_call0.v1 main_call0.v2 main_call0.v3 Host.divf,
    TRef.unary main_call0.v3 main_call0.v4 (broadcastInDim S512x4096 ![0, 1] bcast_S512x1_S512x4096_0_1),
    TRef.binary (.of main_arg0 : TRef sig ⟨S512x4096, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x4096_S512_d1 h_S_),
    TRef.unary main_call0.v9 main_call0.v10 (broadcastInDim S512x1 ![0] bcast_S512_S512x1_0),
    TRef.unary main_call0.v8 main_call0.v11 (broadcastInDim S512x1 ![] bcast_S_S512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S512x1 ![] bcast_S_S512x1),
    TRef.ternary main_call0.v13 main_call0.v12 main_call0.call0.v1 main_call0.call0.v2 (fun p a b => select (broadcastInDim S512x1 ![] bcast_S_S512x1 p) a b),
    unary main_v3 main_v5 (broadcastInDim S512x4096 ![0, 1] bcast_S512x1_S512x4096_0_1 : (⟨S512x1, .f32⟩ : BufTy).Contents (Elt F) → (⟨S512x4096, .f32⟩ : BufTy).Contents (Elt F)),
    binary main_arg0 main_v5 main_v6 (subf : (⟨S512x4096, .f32⟩ : BufTy).Contents (Elt F) → (⟨S512x4096, .f32⟩ : BufTy).Contents (Elt F) → (⟨S512x4096, .f32⟩ : BufTy).Contents (Elt F)),
    unary main_arg1 main_v7 (broadcastInDim S1x4096 ![1] bcast_S4096_S1x4096_1 : (⟨S4096, .f32⟩ : BufTy).Contents (Elt F) → (⟨S1x4096, .f32⟩ : BufTy).Contents (Elt F)),
    unary main_v7 main_v8 (broadcastInDim S512x4096 ![0, 1] bcast_S1x4096_S512x4096_0_1 : (⟨S1x4096, .f32⟩ : BufTy).Contents (Elt F) → (⟨S512x4096, .f32⟩ : BufTy).Contents (Elt F)),
    binary main_v8 main_v6 main_v9 (mulf : (⟨S512x4096, .f32⟩ : BufTy).Contents (Elt F) → (⟨S512x4096, .f32⟩ : BufTy).Contents (Elt F) → (⟨S512x4096, .f32⟩ : BufTy).Contents (Elt F)),
    nullary main_cst_1 (constant S_ .f32 0x3727C5AC#32),
    unary main_cst_1 main_v10 (broadcastInDim S512x1 ![] bcast_S_S512x1 : (⟨S_, .f32⟩ : BufTy).Contents (Elt F) → (⟨S512x1, .f32⟩ : BufTy).Contents (Elt F)),
    binary main_v4 main_v10 main_v11 (addf : (⟨S512x1, .f32⟩ : BufTy).Contents (Elt F) → (⟨S512x1, .f32⟩ : BufTy).Contents (Elt F) → (⟨S512x1, .f32⟩ : BufTy).Contents (Elt F)),
    unary main_v11 main_v12 (Host.sqrt : (⟨S512x1, .f32⟩ : BufTy).Contents (Elt F) → (⟨S512x1, .f32⟩ : BufTy).Contents (Elt F)),
    unary main_v12 main_v13 (broadcastInDim S512x4096 ![0, 1] bcast_S512x1_S512x4096_0_1 : (⟨S512x1, .f32⟩ : BufTy).Contents (Elt F) → (⟨S512x4096, .f32⟩ : BufTy).Contents (Elt F)),
    binary main_v9 main_v13 main_v14 (Host.divf : (⟨S512x4096, .f32⟩ : BufTy).Contents (Elt F) → (⟨S512x4096, .f32⟩ : BufTy).Contents (Elt F) → (⟨S512x4096, .f32⟩ : BufTy).Contents (Elt F)),
    unary main_arg2 main_v15 (broadcastInDim S1x4096 ![1] bcast_S4096_S1x4096_1 : (⟨S4096, .f32⟩ : BufTy).Contents (Elt F) → (⟨S1x4096, .f32⟩ : BufTy).Contents (Elt F)),
    unary main_v15 main_v16 (broadcastInDim S512x4096 ![0, 1] bcast_S1x4096_S512x4096_0_1 : (⟨S1x4096, .f32⟩ : BufTy).Contents (Elt F) → (⟨S512x4096, .f32⟩ : BufTy).Contents (Elt F)),
    binary main_v14 main_v16 main_v17 (addf : (⟨S512x4096, .f32⟩ : BufTy).Contents (Elt F) → (⟨S512x4096, .f32⟩ : BufTy).Contents (Elt F) → (⟨S512x4096, .f32⟩ : BufTy).Contents (Elt F)) ]

-- the program is one chain of forty-four sequenced steps
set_option maxRecDepth 2048 in
/-- The main function is that straight line: the two called functions unfolded at their calls and the records at
    their fields, both sides are one chain of steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub ..⟩

attribute [local irreducible] Host.reduceAdd Host.divf Host.sqrt broadcastInDim select cmpf sitofp subf mulf addf constant constantI in
set_option maxRecDepth 8192 in
/-- The fold of the operations at the result buffer is `refOut` of the arguments: each operation's result is read
    at the buffer it writes and passed through at every other, and the typed references' transports are the
    identity at these literal references. The equation holds whatever the arithmetic operations are: it only
    follows which buffer each operation reads and which it writes. -/
theorem out_eq (V : Valuation τ sig (Elt F)) :
    after ops V (main_v17 : DevRef τ sig)
      = refOut (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-- On the one device, for any float values, from any memory with zero counters: every weakly fair execution of the
    main function terminates with the result buffer at `refOut` of the arguments' launch contents and the three
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v17)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v17).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Hand

end
-- ==== Proof.SpecDefs.lean ====
/-
  The layer norm both programs compute, as a function of REAL arrays.

  For a row `i` of `x : ℝ^{512 × 4096}` write `μ_i = (∑_k x_ik) / 4096` and `σ²_i = (∑_k (x_ik - μ_i)²) / 4096`; the result is
  `γ_j · (x_ij - μ_i) / √(σ²_i + ε) + β_j`, with `ε` the real number the single-precision word `0x3727C5AC` denotes.
  Column `j` of the whole array is column `k` of block `p` when `j = 256 p + k` (sixteen blocks of 256 columns).
-/
import Idealize.ShloMosaic.PureOps.Ideal

noncomputable section

namespace Cert.LN

open Idealize.ShloMosaic

/-- The real number the single-precision word `0x3727C5AC` (about `1e-5`) denotes. -/
def epsR : ℝ := (Ideal.ofBits .f32 0x3727C5AC#32 : EReal).toReal

/-- Column `k` of block `p` in the whole array: `256 p + k`. -/
def col (p : Fin 16) (k : Fin 256) : Fin 4096 := ⟨256 * p.val + k.val, by omega⟩

/-- The mean of row `i`. -/
def meanR (x : Fin 512 → Fin 4096 → ℝ) (i : Fin 512) : ℝ := (∑ k, x i k) / 4096

/-- The (population) variance of row `i`: the mean of the squared deviations. -/
def varR (x : Fin 512 → Fin 4096 → ℝ) (i : Fin 512) : ℝ := (∑ k, (x i k - meanR x i) * (x i k - meanR x i)) / 4096

/-- The layer norm at `(i, j)`. -/
def lnR (x : Fin 512 → Fin 4096 → ℝ) (g b : Fin 4096 → ℝ) (i : Fin 512) (j : Fin 4096) : ℝ :=
  g j * (x i j - meanR x i) / Real.sqrt (varR x i + epsR) + b j

end Cert.LN

end
-- ==== Proof.Finite.lean ====
/-
  From the precondition to real numbers, and the blocks of the whole arrays index by index.

  The precondition says, of each of the sixteen devices' three blocks, that every entry `x` has `|x| < +∞`
  (`max x (-x)` below the extended real the single-precision word `0x7F800000` denotes, which is `⊤`).
  An extended real whose absolute value is below `⊤` is neither `⊤` nor `⊥`: it is the coercion of a real.
  Column `j` of a whole array lies in exactly one block: block `j / 256`, at column `j % 256` of it
  (`j = 256 p + k`, `col p k`). So every entry of the whole arrays is an entry of some block, hence a real,
  and the real arrays `xr`, `gr`, `br` read off the whole arrays (`EReal.toReal`) coerce back to them;
  block `c`'s entry `(i, k)` is then `xr i (col c k)`, and likewise for the two vectors.
-/
import proofs.«900827_g7700000000000828_dist_layernorm_colshard_i_m512_n256_v7x_i16_f32_1_alg».proof.Defs
import proofs.«900827_g7700000000000828_dist_layernorm_colshard_i_m512_n256_v7x_i16_f32_1_alg».proof.Proof.Gen.Pre_finite_inputs_Kernel
import proofs.«900827_g7700000000000828_dist_layernorm_colshard_i_m512_n256_v7x_i16_f32_1_alg».proof.Proof.SpecDefs
import Idealize.ShloMosaic.Lib.ReduceAll
import Idealize.ShloMosaic.Lib.ValueIdx

noncomputable section

namespace Cert.LN.Finite

open Idealize.ShloMosaic Idealize.SL.Sem Idealize.ShloMosaic.ValueIdx

/-! ## Columns: every column of the whole array is column `k` of one block `p` -/

/-- `j = 256 · (j / 256) + j % 256`. -/
theorem col_surj (j : Fin 4096) : ∃ (c : Fin 16) (k : Fin 256), col c k = j :=
  ⟨⟨j.val / 256, by omega⟩, ⟨j.val % 256, by omega⟩,
    Fin.ext (by show 256 * (j.val / 256) + j.val % 256 = j.val; omega)⟩

/-! ## A block read at an index -/

/-- A matrix cut along its columns: block `c`'s entry `(i, k)` is the whole's entry `(i, 256 c + k)`. -/
theorem block2_apply {α : Type} (v : (⟨2, ![512, 4096]⟩ : Shape).Idx → α) (c : Fin 16) (i : Fin 512) (k : Fin 256) :
    (Layout.block ⟨2, ![512, 256]⟩ ⟨2, ![512, 4096]⟩ 1 16 c v) (ix2 i k) = v (ix2 i (col c k)) := by
  show v _ = v _
  congr 1
  funext a
  match a with
  | ⟨0, _⟩ => rfl
  | ⟨1, _⟩ => exact Fin.ext (by show c.val * 256 + k.val = 256 * c.val + k.val; omega)

/-- A vector cut into sixteen: block `c`'s entry `k` is the whole's entry `256 c + k`. -/
theorem block1_apply {α : Type} (v : (⟨1, ![4096]⟩ : Shape).Idx → α) (c : Fin 16) (k : Fin 256) :
    (Layout.block ⟨1, ![256]⟩ ⟨1, ![4096]⟩ 0 16 c v) (ix1 k) = v (ix1 (col c k)) := by
  show v _ = v _
  congr 1
  funext a
  match a with
  | ⟨0, _⟩ => exact Fin.ext (by show c.val * 256 + k.val = 256 * c.val + k.val; omega)

/-- The same for the reference's result array: block `c` of it, at `(i, k)`. -/
theorem block_out_apply (v0 : Buf (Elt Ideal) (((0 : Dev Cert.ReferenceIdeal.nD).tc : Thread Cert.ReferenceIdeal.nD Cert.ReferenceIdeal.τ).loc Cert.ReferenceIdeal.main_v17))
    (c : Dev Cert.KernelIdeal.nD) (i : Fin 512) (k : Fin 256) :
    (Layout.block ⟨2, ![512, 256]⟩ ⟨2, ![512, 4096]⟩ 1 16 c v0) (ix2 i k) = v0 (ix2 i (col c k)) :=
  block2_apply v0 c i k

/-! ## Two matrices are equal when equal at every pair of coordinates -/

theorem ext_ix2 {α : Type} {n0 n1 : Nat} (u v : (⟨2, ![n0, n1]⟩ : Shape).Idx → α)
    (h : ∀ (i : Fin n0) (k : Fin n1), u (ix2 i k) = v (ix2 i k)) : u = v := by
  funext j
  rw [eq_ix2 j]
  exact h _ _

/-- The same, stated for a device's result buffer. -/
theorem ext_out (c : Dev Cert.KernelIdeal.nD) (u v : Buf (Elt Ideal) ((c.tc : Thread Cert.KernelIdeal.nD Cert.KernelIdeal.τ).loc Cert.KernelIdeal.main_v1))
    (h : ∀ (i : Fin 512) (k : Fin 256), u (ix2 i k) = v (ix2 i k)) : u = v :=
  ext_ix2 u v h

/-! ## `|x| < +∞` makes `x` a real -/

/-- The single-precision word of `+∞` denotes `⊤`. -/
theorem top_word : Ideal.ofBits .f32 0x7F800000#32 = (⊤ : EReal) := by
  simp [Ideal.ofBits, Ideal.ieee]

/-- A one-bit word made from a Boolean is `1` exactly when the Boolean is true. -/
theorem ofBool_eq_one {b : Bool} : BitVec.ofBool b = 1#1 ↔ b = true := by cases b <;> decide

/-- An extended real whose absolute value `max x (-x)` compares below `+∞` is the coercion of its real part:
    at `⊤` and at `⊥` the absolute value is `⊤`. -/
theorem real_of_abs_lt (x : EReal) (h : Ideal.cmp .olt (max x (-x)) (Ideal.ofBits .f32 0x7F800000#32) = 1#1) :
    x = ((x.toReal : ℝ) : EReal) := by
  rw [top_word] at h
  have h' : max x (-x) < ⊤ := by
    simpa [Ideal.cmp, ofBool_eq_one] using h
  induction x using EReal.rec with
  | bot => simp at h'
  | top => simp at h'
  | coe r => rfl

/-! ## The precondition, entry by entry -/

/-- The scalar shape has one index. -/
instance : Subsingleton Cert.Pre_finite_inputs_Kernel.S_.Idx := ⟨fun a b => funext fun d => d.elim0⟩

/-- The precondition of one device's three blocks: the conjunction of three "all entries have `|x| < +∞`",
    each an `and` over all the entries; so every entry of each block is a real. -/
theorem entries_of_pre [Cert.Pre_finite_inputs_Kernel.Facts]
    (a0 : FVec Ideal Cert.Pre_finite_inputs_Kernel.S512x256 .f32)
    (a1 a2 : FVec Ideal Cert.Pre_finite_inputs_Kernel.S256 .f32)
    (h : Cert.Pre_finite_inputs_Kernel.fn (F := Ideal) a0 a1 a2 = fun _ => 1#1) :
    (∀ i, a0 i = (((a0 i).toReal : ℝ) : EReal)) ∧ (∀ i, a1 i = (((a1 i).toReal : ℝ) : EReal))
      ∧ (∀ i, a2 i = (((a2 i).toReal : ℝ) : EReal)) := by
  have h0 := congrFun h ix0
  dsimp only [Cert.Pre_finite_inputs_Kernel.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ ix0 h0' i)
  · exact real_of_abs_lt _ (Host.reduce_andi_all _ _ _ _ ix0 h1 i)
  · exact real_of_abs_lt _ (Host.reduce_andi_all _ _ _ _ ix0 h2 i)

/-! ## The real arrays -/

/-- From the precondition of the sixteen blocks and the blocks being the blocks of the whole arrays: real arrays
    `xr`, `gr`, `br` whose coercions are the whole arrays, entry by entry, and of which each device's blocks hold
    the entries at `col c k`. -/
theorem reals_of_pre [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hblk : ∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg2))) :
    ∃ (xr : Fin 512 → Fin 4096 → ℝ) (gr br : Fin 4096 → ℝ),
      (∀ (i : Fin 512) (j : Fin 4096), m' (((0 : Dev Cert.ReferenceIdeal.nD).tc : Thread Cert.ReferenceIdeal.nD Cert.ReferenceIdeal.τ).loc Cert.ReferenceIdeal.main_arg0) (ix2 i j) = ((xr i j : ℝ) : EReal))
      ∧ (∀ j : Fin 4096, m' (((0 : Dev Cert.ReferenceIdeal.nD).tc : Thread Cert.ReferenceIdeal.nD Cert.ReferenceIdeal.τ).loc Cert.ReferenceIdeal.main_arg1) (ix1 j) = ((gr j : ℝ) : EReal))
      ∧ (∀ j : Fin 4096, m' (((0 : Dev Cert.ReferenceIdeal.nD).tc : Thread Cert.ReferenceIdeal.nD Cert.ReferenceIdeal.τ).loc Cert.ReferenceIdeal.main_arg2) (ix1 j) = ((br j : ℝ) : EReal))
      ∧ (∀ (c : Dev Cert.KernelIdeal.nD) (i : Fin 512) (k : Fin 256),
          m ((c.tc : Thread Cert.KernelIdeal.nD Cert.KernelIdeal.τ).loc Cert.KernelIdeal.main_arg0) (ix2 i k) = ((xr i (col c k) : ℝ) : EReal))
      ∧ (∀ (c : Dev Cert.KernelIdeal.nD) (k : Fin 256),
          m ((c.tc : Thread Cert.KernelIdeal.nD Cert.KernelIdeal.τ).loc Cert.KernelIdeal.main_arg1) (ix1 k) = ((gr (col c k) : ℝ) : EReal))
      ∧ (∀ (c : Dev Cert.KernelIdeal.nD) (k : Fin 256),
          m ((c.tc : Thread Cert.KernelIdeal.nD Cert.KernelIdeal.τ).loc Cert.KernelIdeal.main_arg2) (ix1 k) = ((br (col c k) : ℝ) : EReal)) := by
  -- the whole arrays' entries at a column of block `c` are that block's entries, which are real
  have key0 : ∀ (c : Dev Cert.KernelIdeal.nD) (i : Fin 512) (k : Fin 256),
      m' (((0 : Dev Cert.ReferenceIdeal.nD).tc : Thread Cert.ReferenceIdeal.nD Cert.ReferenceIdeal.τ).loc Cert.ReferenceIdeal.main_arg0) (ix2 i (col c k))
        = (((m' (((0 : Dev Cert.ReferenceIdeal.nD).tc : Thread Cert.ReferenceIdeal.nD Cert.ReferenceIdeal.τ).loc Cert.ReferenceIdeal.main_arg0) (ix2 i (col c k))).toReal : ℝ) : EReal) := by
    intro c i k
    have h := (entries_of_pre _ _ _ (hpre c)).1 (ix2 i k)
    rw [(hblk c).1, block2_apply] at h
    exact h
  have key1 : ∀ (c : Dev Cert.KernelIdeal.nD) (k : Fin 256),
      m' (((0 : Dev Cert.ReferenceIdeal.nD).tc : Thread Cert.ReferenceIdeal.nD Cert.ReferenceIdeal.τ).loc Cert.ReferenceIdeal.main_arg1) (ix1 (col c k))
        = (((m' (((0 : Dev Cert.ReferenceIdeal.nD).tc : Thread Cert.ReferenceIdeal.nD Cert.ReferenceIdeal.τ).loc Cert.ReferenceIdeal.main_arg1) (ix1 (col c k))).toReal : ℝ) : EReal) := by
    intro c k
    have h := (entries_of_pre _ _ _ (hpre c)).2.1 (ix1 k)
    rw [(hblk c).2.1, block1_apply] at h
    exact h
  have key2 : ∀ (c : Dev Cert.KernelIdeal.nD) (k : Fin 256),
      m' (((0 : Dev Cert.ReferenceIdeal.nD).tc : Thread Cert.ReferenceIdeal.nD Cert.ReferenceIdeal.τ).loc Cert.ReferenceIdeal.main_arg2) (ix1 (col c k))
        = (((m' (((0 : Dev Cert.ReferenceIdeal.nD).tc : Thread Cert.ReferenceIdeal.nD Cert.ReferenceIdeal.τ).loc Cert.ReferenceIdeal.main_arg2) (ix1 (col c k))).toReal : ℝ) : EReal) := by
    intro c k
    have h := (entries_of_pre _ _ _ (hpre c)).2.2 (ix1 k)
    rw [(hblk c).2.2, block1_apply] at h
    exact h
  refine ⟨fun i j => (m' (((0 : Dev Cert.ReferenceIdeal.nD).tc : Thread Cert.ReferenceIdeal.nD Cert.ReferenceIdeal.τ).loc Cert.ReferenceIdeal.main_arg0) (ix2 i j)).toReal,
    fun j => (m' (((0 : Dev Cert.ReferenceIdeal.nD).tc : Thread Cert.ReferenceIdeal.nD Cert.ReferenceIdeal.τ).loc Cert.ReferenceIdeal.main_arg1) (ix1 j)).toReal,
    fun j => (m' (((0 : Dev Cert.ReferenceIdeal.nD).tc : Thread Cert.ReferenceIdeal.nD Cert.ReferenceIdeal.τ).loc Cert.ReferenceIdeal.main_arg2) (ix1 j)).toReal, ?_, ?_, ?_, ?_, ?_, ?_⟩
  · intro i j
    obtain ⟨c, k, rfl⟩ := col_surj j
    exact key0 c i k
  · intro j
    obtain ⟨c, k, rfl⟩ := col_surj j
    exact key1 c k
  · intro j
    obtain ⟨c, k, rfl⟩ := col_surj j
    exact key2 c k
  · intro c i k
    rw [(hblk c).1, block2_apply]
    exact key0 c i k
  · intro c k
    rw [(hblk c).2.1, block1_apply]
    exact key1 c k
  · intro c k
    rw [(hblk c).2.2, block1_apply]
    exact key2 c k

end Cert.LN.Finite

end
-- ==== Proof.Spec.lean ====
/-
  Facts about the layer norm both programs compute, as a function of REAL arrays.

  For a row `i` of `x : ℝ^{512 × 4096}` write `μ_i = (∑_k x_ik) / 4096` and `σ²_i = (∑_k (x_ik - μ_i)²) / 4096`; the result is
  `γ_j · (x_ij - μ_i) / √(σ²_i + ε) + β_j`, with `ε` the real number the single-precision word `0x3727C5AC` denotes.
  Column `j` of the whole array is column `k` of block `p` when `j = 256 p + k` (sixteen blocks of 256 columns).

  Here: the three float constants as real numbers; sums of reals among the extended reals and the regrouping of the
  columns by blocks; the identity `E[x²] − μ² = σ²` and with it the kernel's expression as the layer norm; division,
  square root and reciprocal square root at real arguments.
-/
import Idealize.ShloMosaic.PureOps.Ideal
import proofs.«900827_g7700000000000828_dist_layernorm_colshard_i_m512_n256_v7x_i16_f32_1_alg».proof.Proof.SpecDefs

noncomputable section

namespace Cert.LN

open Idealize.ShloMosaic

/-! ### The three constants of the two programs, as real numbers -/

/-- The word `0x3727C5AC` has sign `0`, exponent field `110` and fraction field `2606508`: it denotes
    `(2^23 + 2606508) · 2^(110 - 127 - 23) = 10995116 · 2^(-40)`. -/
theorem eps_val : (Ideal.ofBits .f32 0x3727C5AC#32 : EReal) = ((10995116 * (2 : ℝ) ^ (-40 : ℤ) : ℝ) : EReal) := by
  simp [Ideal.ofBits, Ideal.ieee, -EReal.coe_mul]

theorem epsR_val : epsR = 10995116 * (2 : ℝ) ^ (-40 : ℤ) := by
  unfold epsR; rw [eps_val, EReal.toReal_coe]

theorem eps_eq : (Ideal.ofBits .f32 0x3727C5AC#32 : EReal) = ((epsR : ℝ) : EReal) := by
  rw [epsR_val, eps_val]

theorem epsR_pos : 0 < epsR := by
  rw [epsR_val]; positivity

/-- The word `0x45800000` (exponent field `139`, fraction `0`) denotes `2^23 · 2^(139 - 127 - 23) = 2^12`. -/
theorem c4096_eq : (Ideal.ofBits .f32 0x45800000#32 : EReal) = ((4096 : ℝ) : EReal) := by
  simp [Ideal.ofBits, Ideal.ieee, -EReal.coe_mul]; norm_num

/-- The word `0x39800000` (exponent field `115`, fraction `0`) denotes `2^23 · 2^(115 - 127 - 23) = 2^(-12)`. -/
theorem inv4096_eq : (Ideal.ofBits .f32 0x39800000#32 : EReal) = (((1 : ℝ) / 4096 : ℝ) : EReal) := by
  simp [Ideal.ofBits, Ideal.ieee, -EReal.coe_mul]; norm_num

/-! ### Sums -/

/-- A finite sum of real numbers, taken among the extended reals, is the real sum. -/
theorem sum_coe {ι : Type} (s : Finset ι) (f : ι → ℝ) :
    (∑ k ∈ s, ((f k : ℝ) : EReal)) = (((∑ k ∈ s, f k : ℝ)) : EReal) := by
  classical
  induction s using Finset.induction_on with
  | empty => simp
  | insert a s ha ih => rw [Finset.sum_insert ha, Finset.sum_insert ha, ih, EReal.coe_add]

/-- Every column is column `k` of block `p` for exactly one `(p, k)`: a sum over the 4096 columns is the
    sum over the sixteen blocks of the sums over each block's 256 columns. -/
theorem sum_cols (f : Fin 4096 → ℝ) : (∑ j : Fin 4096, f j) = ∑ p : Fin 16, ∑ k : Fin 256, f (col p k) := by
  rw [← Fintype.sum_prod_type' (f := fun p k => f (col p k))]
  symm
  refine Fintype.sum_equiv (finProdFinEquiv (m := 16) (n := 256)) _ _ ?_
  rintro ⟨p, k⟩
  congr 1
  apply Fin.ext
  simp [col, finProdFinEquiv]
  omega

/-! ### The kernel's arithmetic is the layer norm

The kernel adds sixteen partial row sums `∑_k x_{i,256p+k}` and `∑_k x²_{i,256p+k}`, scales both by `2^(-12)`, and
uses `E[x²] - μ²` for the variance. -/

/-- The row sum, block by block. -/
def S1 (x : Fin 512 → Fin 4096 → ℝ) (i : Fin 512) : ℝ := ∑ p : Fin 16, ∑ k : Fin 256, x i (col p k)

/-- The row sum of squares, block by block. -/
def S2 (x : Fin 512 → Fin 4096 → ℝ) (i : Fin 512) : ℝ :=
  ∑ p : Fin 16, ∑ k : Fin 256, x i (col p k) * x i (col p k)

theorem S1_eq (x : Fin 512 → Fin 4096 → ℝ) (i : Fin 512) : S1 x i = ∑ j, x i j :=
  (sum_cols (fun j => x i j)).symm

theorem S2_eq (x : Fin 512 → Fin 4096 → ℝ) (i : Fin 512) : S2 x i = ∑ j, x i j * x i j :=
  (sum_cols (fun j => x i j * x i j)).symm

/-- The scaled row sum is the mean. -/
theorem mean_eq (x : Fin 512 → Fin 4096 → ℝ) (i : Fin 512) : S1 x i * (1 / 4096) = meanR x i := by
  rw [S1_eq, meanR]; ring

/-- `E[x²] − μ²` is the mean squared deviation: with `T = ∑ x_k` and `μ = T / 4096`,
    `∑ (x_k − μ)² = ∑ x_k² − 2 μ T + 4096 μ² = ∑ x_k² − 4096 μ²`. -/
theorem var_eq (x : Fin 512 → Fin 4096 → ℝ) (i : Fin 512) :
    S2 x i * (1 / 4096) - (S1 x i * (1 / 4096)) * (S1 x i * (1 / 4096)) = varR x i := by
  rw [mean_eq, S2_eq, varR]
  have hsq : ∀ k, (x i k - meanR x i) * (x i k - meanR x i)
      = x i k * x i k - 2 * meanR x i * x i k + meanR x i * meanR x i := fun k => by ring
  have hT : ∑ k, x i k = 4096 * meanR x i := by rw [meanR]; ring
  simp only [hsq, Finset.sum_add_distrib, Finset.sum_sub_distrib, ← Finset.mul_sum, Finset.sum_const,
    Finset.card_univ, Fintype.card_fin, nsmul_eq_mul, hT]
  push_cast
  ring

theorem varR_nonneg (x : Fin 512 → Fin 4096 → ℝ) (i : Fin 512) : 0 ≤ varR x i :=
  div_nonneg (Finset.sum_nonneg (fun k _ => mul_self_nonneg _)) (by norm_num)

theorem var_arg_pos (x : Fin 512 → Fin 4096 → ℝ) (i : Fin 512) :
    0 < S2 x i * (1 / 4096) - (S1 x i * (1 / 4096)) * (S1 x i * (1 / 4096)) + epsR := by
  rw [var_eq]
  exact add_pos_of_nonneg_of_pos (varR_nonneg x i) epsR_pos

/-- With `r = 1 / √(σ² + ε)`: `(x γ) r − γ (μ r) + β = γ (x − μ) / √(σ² + ε) + β`. -/
theorem ker_real (x : Fin 512 → Fin 4096 → ℝ) (g b : Fin 4096 → ℝ) (i : Fin 512) (j : Fin 4096) :
    (x i j * g j) * (Real.sqrt (S2 x i * (1 / 4096) - (S1 x i * (1 / 4096)) * (S1 x i * (1 / 4096)) + epsR))⁻¹
      - g j * ((S1 x i * (1 / 4096)) * (Real.sqrt (S2 x i * (1 / 4096) - (S1 x i * (1 / 4096)) * (S1 x i * (1 / 4096)) + epsR))⁻¹) + b j
    = lnR x g b i j := by
  rw [var_eq, mean_eq, lnR, div_eq_mul_inv]
  ring

/-! ### Division, square root and reciprocal square root of real arguments -/

/-- The quotient of a real by a nonzero real is the real quotient. -/
theorem div_coe' (a b : ℝ) (hb : b ≠ 0) : Ideal.div ((a : ℝ) : EReal) ((b : ℝ) : EReal) = (((a / b : ℝ)) : EReal) := by
  rw [Ideal.div_coe hb, ← EReal.coe_mul, mul_one_div]

/-- The square root of a nonnegative real is the real square root. -/
theorem sqrt_coe' (a : ℝ) (ha : 0 ≤ a) : Ideal.sqrt ((a : ℝ) : EReal) = ((Real.sqrt a : ℝ) : EReal) := by
  rw [Ideal.sqrt_coe, if_neg (not_lt.mpr ha)]

/-- The reciprocal square root of a positive real is the inverse of the real square root. -/
theorem rsqrt_coe' (a : ℝ) (ha : 0 < a) : Ideal.rsqrt ((a : ℝ) : EReal) = (((Real.sqrt a)⁻¹ : ℝ) : EReal) := by
  rw [Ideal.rsqrt_coe, if_neg (not_lt.mpr ha.le), if_neg ha.ne']

end Cert.LN

end
-- ==== Proof.RefValue.lean ====
/-
  The reference layer norm's result read at an index, as a real number.

  With every input entry a real number, each operation of the reference is the textbook one on reals: the row sum from
  a zero initial value is `∑_k x_ik`, the quotient by the constant 4096 is the mean `μ_i`, the variance function's
  sum of squared deviations over `4096 - 0` is `σ²_i` (its guard `4096 - 0 > 0` holds, so the quotient and not the
  not-a-number constant is selected), the square root of `σ²_i + ε` is the real square root of a positive number,
  and the last quotient has a divisor that is not zero. So the result at `(i, j)` is
  `γ_j (x_ij - μ_i) / √(σ²_i + ε) + β_j`. Each operation is read at one index of its result.
-/
import proofs.«900827_g7700000000000828_dist_layernorm_colshard_i_m512_n256_v7x_i16_f32_1_alg».proof.Proof.RefRun
import proofs.«900827_g7700000000000828_dist_layernorm_colshard_i_m512_n256_v7x_i16_f32_1_alg».proof.Proof.Spec
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

open Idealize.ShloMosaic.ValueIdx Cert.LN
open scoped BigOperators

/-- The one-axis reduction fact in the form that names the inserted coordinate. -/
theorem reduces_row : S512x4096.Reduces [1] S512 := by decide

/-- Row `i` with the column `k` inserted is the index `(i, k)`. -/
theorem lift_row (i : Fin 512) (k : Fin 4096) : reduces_row.lift (ix1 i) k = ix2 i k :=
  funext fun c => match c with
    | ⟨0, _⟩ => Fin.ext rfl
    | ⟨1, _⟩ => Fin.ext rfl

/-- The host's row sum from a zero initial value, at row `i`: the sum over the 4096 columns. -/
theorem rowSum_apply (y : (⟨S512x4096, .f32⟩ : BufTy).Contents (Elt Ideal)) (i : Fin 512) :
    Host.reduceAdd y (constant (F := Ideal) S_ .f32 0x00000000#32) reducesTo_S512x4096_S512_d1 h_S_ (ix1 i)
      = ∑ k : Fin 4096, y (ix2 i k) := by
  rw [hostReduceAdd_apply, Ideal.hostReduceAdd_single reducesTo_S512x4096_S512_d1 reduces_row, constant_apply,
    Ideal.ofBits_zero_f32, zero_add]
  exact Finset.sum_congr rfl fun k _ => congrArg y (lift_row i k)

/-- A row vector broadcast to a one-column matrix, at `(i, 0)`: entry `i`. -/
theorem bcast_col_apply {α : Type} (v : (S512).Idx → α) (i : Fin 512) :
    broadcastInDim S512x1 ![0] bcast_S512_S512x1_0 v (ix2 i (0 : Fin 1)) = v (ix1 i) :=
  broadcastInDim_apply _ _ _ _ (ix1 i) fun a => match a with | ⟨0, _⟩ => rfl

/-- A one-column matrix broadcast along the columns, at `(i, j)`: entry `(i, 0)`. -/
theorem bcast_rows_apply {α : Type} (v : (S512x1).Idx → α) (i : Fin 512) (j : Fin 4096) :
    broadcastInDim S512x4096 ![0, 1] bcast_S512x1_S512x4096_0_1 v (ix2 i j) = v (ix2 i (0 : Fin 1)) :=
  broadcastInDim_apply _ _ _ _ (ix2 i (0 : Fin 1)) fun a => match a with | ⟨0, _⟩ => rfl | ⟨1, _⟩ => rfl

/-- A vector over the columns broadcast down the rows (through a one-row matrix), at `(i, j)`: entry `j`. -/
theorem bcast_cols_apply {α : Type} (v : (S4096).Idx → α) (i : Fin 512) (j : Fin 4096) :
    broadcastInDim S512x4096 ![0, 1] bcast_S1x4096_S512x4096_0_1 (broadcastInDim S1x4096 ![1] bcast_S4096_S1x4096_1 v) (ix2 i j)
      = v (ix1 j) := by
  rw [broadcastInDim_apply _ _ _ _ (ix2 (0 : Fin 1) j) fun a => match a with | ⟨0, _⟩ => rfl | ⟨1, _⟩ => rfl]
  exact broadcastInDim_apply _ _ _ _ (ix1 j) fun a => match a with | ⟨0, _⟩ => rfl

section Value

variable (xr : Fin 512 → Fin 4096 → ℝ) (x : (⟨S512x4096, .f32⟩ : BufTy).Contents (Elt Ideal))
  (hx : ∀ i j, x (ix2 i j) = ((xr i j : ℝ) : EReal))
include hx

/-- The mean column at row `i` is the real mean of the row. -/
theorem refMean_apply (i : Fin 512) : refMean x (ix2 i (0 : Fin 1)) = ((meanR xr i : ℝ) : EReal) := by
  unfold refMean
  rw [hostDivf_apply, bcast_col_apply, rowSum_apply, broadcastInDim_scalar_apply, constant_apply, c4096_eq]
  simp only [hx]
  rw [sum_coe, div_coe' _ _ (by norm_num)]
  rfl

/-- The squared deviation at `(i, k)`. -/
theorem refSq_apply (i : Fin 512) (k : Fin 4096) :
    refSq x (ix2 i k) = (((xr i k - meanR xr i) * (xr i k - meanR xr i) : ℝ) : EReal) := by
  unfold refSq
  rw [mulf_apply, subf_apply, bcast_rows_apply, refMean_apply xr x hx, hx, ← EReal.coe_sub, ← EReal.coe_mul]

omit hx in
/-- The divisor `4096 - 0` is the real number 4096. -/
theorem refCount_apply (j : S_.Idx) : refCount (F := Ideal) j = ((4096 : ℝ) : EReal) := by
  unfold refCount
  rw [subf_apply, constant_apply, c4096_eq, sitofp_apply]
  show ((4096 : ℝ) : EReal) - (((constantI S_ 32 0#32 j).toInt : ℝ) : EReal) = _
  rw [show constantI S_ 32 0#32 j = 0#32 from rfl, show (0#32 : BitVec 32).toInt = 0 from rfl, ← EReal.coe_sub]
  norm_num

/-- The variance column at row `i` is the real variance of the row: the divisor is positive, so the quotient is kept. -/
theorem refVar_apply (i : Fin 512) : refVar x (ix2 i (0 : Fin 1)) = ((varR xr i : ℝ) : EReal) := by
  unfold refVar
  rw [select_apply, broadcastInDim_scalar_apply, cmpf_apply, refCount_apply, constant_apply, Ideal.ofBits_zero_f32]
  rw [show FloatOps.cmpf (F := Ideal) (φ := .f32) .ogt ((4096 : ℝ) : EReal) 0 = 1#1 from by
    rw [Ideal.cmpf_def]
    show BitVec.ofBool (decide ((0 : EReal) < ((4096 : ℝ) : EReal))) = 1#1
    rw [decide_eq_true (by exact_mod_cast (by norm_num : (0 : ℝ) < 4096))]; rfl]
  rw [select_one, hostDivf_apply, bcast_col_apply, rowSum_apply, broadcastInDim_scalar_apply, refCount_apply]
  simp only [refSq_apply xr x hx]
  rw [sum_coe, div_coe' _ _ (by norm_num)]
  rfl

end Value

/-- The reference's result at `(i, j)` is the real layer norm there. -/
theorem refOut_apply (xr : Fin 512 → Fin 4096 → ℝ) (gr br : Fin 4096 → ℝ)
    (x : (⟨S512x4096, .f32⟩ : BufTy).Contents (Elt Ideal)) (g b : (⟨S4096, .f32⟩ : BufTy).Contents (Elt Ideal))
    (hx : ∀ i j, x (ix2 i j) = ((xr i j : ℝ) : EReal)) (hg : ∀ j, g (ix1 j) = ((gr j : ℝ) : EReal))
    (hb : ∀ j, b (ix1 j) = ((br j : ℝ) : EReal)) (i : Fin 512) (j : Fin 4096) :
    refOut x g b (ix2 i j) = ((lnR xr gr br i j : ℝ) : EReal) := by
  have hv : 0 < varR xr i + epsR := add_pos_of_nonneg_of_pos (varR_nonneg xr i) epsR_pos
  unfold refOut
  rw [addf_apply, hostDivf_apply, mulf_apply, subf_apply, bcast_cols_apply, bcast_cols_apply, bcast_rows_apply,
    bcast_rows_apply, refMean_apply xr x hx, hx, hg, hb]
  show Ideal.div _ (FloatOps.hostUnary (F := Ideal) (φ := .f32) .sqrt
      (addf (refVar x) (broadcastInDim S512x1 ![] bcast_S_S512x1 (constant (F := Ideal) S_ .f32 0x3727C5AC#32)) (ix2 i (0 : Fin 1)))) + _ = _
  rw [Ideal.hostUnary_sqrt_def, addf_apply, refVar_apply xr x hx, broadcastInDim_scalar_apply, constant_apply, eps_eq,
    ← EReal.coe_add, sqrt_coe' _ hv.le, ← EReal.coe_sub, ← EReal.coe_mul,
    div_coe' _ _ (Real.sqrt_pos.mpr hv).ne', ← EReal.coe_add]
  rfl

end Cert.ReferenceIdeal.Hand

end
-- ==== Proof.HandKernelIdeal.Contents.lean ====
/-
  What each of the sixteen devices holds when the exchange is over.

  Device `c` holds columns `256 c … 256 c + 255` of `x`, `γ` and `β`. From its block it forms, for every row, the sum of the
  entries and the sum of their squares over its 256 columns — two vectors of 512 numbers, laid out as a tile of 8 × 128:
  rows 0–3 the sums, rows 4–7 the sums of squares. Its communication buffer has sixteen such tiles: tile 0 is its own, and
  tile `d` is filled by the device `d` places before it on the ring, `c - d`, with THAT device's tile 0. So after the exchange
  tile `d` of device `c` holds the partial sums of device `c - d`, and adding the sixteen tiles gives the sums over all 4096
  columns on every device. The result block is then a pointwise expression of the device's own blocks and those totals.
-/
import proofs.«900827_g7700000000000828_dist_layernorm_colshard_i_m512_n256_v7x_i16_f32_1_alg».proof.Proof.Gen.KernelIdeal.Skeleton
import proofs.«900827_g7700000000000828_dist_layernorm_colshard_i_m512_n256_v7x_i16_f32_1_alg».proof.Proof.Gen.KernelIdeal.Frame
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Device `c`'s block of `x` as its staging buffer holds it: the block of the one grid point, read off the argument array. -/
def xS (c : Dev nD) : (cc0_stg0_0 : Ref sig .tc).ty.Contents (Elt F) :=
  (win0_0.blk t0_0).view.read (Elt F) (m ((c : Thread nD τ).loc main_arg0))
/-- Its block of `γ`. -/
def gS (c : Dev nD) : (cc0_stg1_0 : Ref sig .tc).ty.Contents (Elt F) :=
  (win0_1.blk t0_0).view.read (Elt F) (m ((c : Thread nD τ).loc main_arg1))
/-- Its block of `β`. -/
def bS (c : Dev nD) : (cc0_stg2_0 : Ref sig .tc).ty.Contents (Elt F) :=
  (win0_2.blk t0_0).view.read (Elt F) (m ((c : Thread nD τ).loc main_arg2))

/-- Entry `(a, b)` of device `c`'s own tile: for `a < 4` the row sums (row `128 a + b`), for `a ≥ 4` the sums of squares
    (row `128 (a - 4) + b`). -/
def statAt (c : Dev nD) (a : Fin 8) (b : Fin 128) : F .f32 :=
  if h : a.val < 4 then k0_pay2 (xS m c) (ValueIdx.ix3 (0 : Fin 1) (⟨a.val, h⟩ : Fin 4) b)
  else k0_pay3 (xS m c) (ValueIdx.ix3 (0 : Fin 1) (⟨a.val - 4, by omega⟩ : Fin 4) b)

/-- The communication buffer of device `c` after the exchange: tile `d` holds the tile of device `c - d`. -/
def comm (c : Dev nD) : (cc0_scratch0 : Ref sig .tc).ty.Contents (Elt F) :=
  fun idx => statAt m ((c : Fin 16) - (⟨(idx 0).val, (idx 0).isLt⟩ : Fin 16)) (⟨(idx 1).val, (idx 1).isLt⟩ : Fin 8) (⟨(idx 2).val, (idx 2).isLt⟩ : Fin 128)

/-- Tile `d` of device `c`'s communication buffer as a vector of shape 1 × 8 × 128: what a load of that tile reads. -/
def tile (c : Dev nD) (d : Fin 16) : Vec F S1x8x128 .f32 :=
  fun y => statAt m ((c : Fin 16) - d) (⟨(y 1).val, (y 1).isLt⟩ : Fin 8) (⟨(y 2).val, (y 2).isLt⟩ : Fin 128)

/-- The sixteen tiles added in the order the kernel adds them: tile 0, then tiles 1 … 13 (the total before the last two). -/
def tot13 (c : Dev nD) : FVec F S8x128 .f32 :=
  k0_pay12 (k0_pay11 (k0_pay10 (k0_pay9 (k0_pay8 (k0_pay7 (tile m c 0) (tile m c 1)) (tile m c 2) (tile m c 3)) (tile m c 4) (tile m c 5))
    (tile m c 6) (tile m c 7) (tile m c 8)) (tile m c 9) (tile m c 10)) (tile m c 11) (tile m c 12) (tile m c 13)

/-- The result block of device `c`: `(x γ) · r - γ · (μ r) + β` with `μ` the total of the sums times `2⁻¹²` and `r` the reciprocal
    square root of the total of the squares times `2⁻¹²`, less `μ²`, plus `ε`. -/
def outAt (c : Dev nD) : (cc0_stg3_0 : Ref sig .tc).ty.Contents (Elt F) :=
  k0_pay16 (k0_pay4 (gS m c)) (k0_pay5 (bS m c)) (k0_pay6 (k0_pay1 (xS m c)) (gS m c))
    (k0_pay14 (tot13 m c) (tile m c 14) (tile m c 15)) (k0_pay15 (tot13 m c) (tile m c 14) (tile m c 15))

end Cert.KernelIdeal.Hand

end
-- ==== Proof.KerStats.lean ====
/-
  The totals the sixteen tiles add up to.

  Device `p` forms from its 256 columns of `x`, for every row `i`, the partial sums `∑_k x_{i,256p+k}` and
  `∑_k x²_{i,256p+k}`, laid out as an 8 × 128 tile: entry `(a, b)` is the sum of row `128 a + b` for `a < 4` and the sum of
  squares of row `128 (a - 4) + b` for `a ≥ 4`. After the exchange tile `d` of device `c` is the tile of device `c - d`, and
  the kernel adds the sixteen tiles one after the other. Addition of extended reals is associative and commutative and every
  term is a real number, so the total at `(a, b)` is the sum over `d` of the partial sums of device `c - d`; as `d` runs over
  the sixteen devices so does `c - d`, hence the total is the sum over all sixteen blocks, that is over all 4096 columns, the
  same on every device. Rows 0–3 of the total, read as 512 numbers and scaled by `2⁻¹²`, are the row means; rows 4–7 the
  means of the squares.
-/
import proofs.«900827_g7700000000000828_dist_layernorm_colshard_i_m512_n256_v7x_i16_f32_1_alg».proof.Proof.HandKernelIdeal.Contents
import proofs.«900827_g7700000000000828_dist_layernorm_colshard_i_m512_n256_v7x_i16_f32_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

namespace KerStats

/-! ### The device's block of `x` at an entry -/

/-- The block of the one grid point is the whole array: entry `(i, k)` of device `c`'s block is entry `(i, k)` of its
    argument array. -/
theorem xS_apply (c : Dev nD) (i : Fin 512) (k : Fin 256) :
    xS m c (ix2 i k) = m ((c : Thread nD τ).loc main_arg0) (ix2 i k) := by
  have e : (win0_0.blk t0_0).view.emb (ix2 i k) = ix2 i k := by
    funext a
    apply Fin.ext
    exact win0_0.rect_emb_val_of_index_zero t0_0 a rfl (ix2 i k)
  unfold xS
  refine (View.read_apply _ _).trans ?_
  exact congrArg (m ((c : Thread nD τ).loc main_arg0)) e

/-! ### The row sums and the row sums of squares of a block -/

theorem pay1_eq (v : Vec Ideal S512x256 .f32) : k0_pay1 v = v := by
  unfold k0_pay1
  exact shapeCast_self v _

/-- The index a reduction over the columns inserts: row `r`, column `k`. -/
theorem lift_row (h : S512x256.Reduces [1] S512) (r : Fin 512) (k : Fin 256) : h.lift (ix1 r) k = ix2 r k := by
  funext a
  match a with
  | ⟨0, _⟩ => exact Fin.ext rfl
  | ⟨1, _⟩ => exact Fin.ext rfl

/-- A sum over the columns (from the zero word) at row `r` is the sum of the row's 256 entries. -/
theorem rowsum_apply (v : FVec Ideal S512x256 .f32) (r : Fin 512) :
    multiReduction (F := Ideal) .add [1] S512 v 0x00000000#32 reduces_S512x256_S512 (.inl rfl) rfl (ix1 r)
      = ∑ k : Fin 256, v (ix2 r k) := by
  refine (Ideal.multiReduction_add_single v 0x00000000#32 reduces_S512x256_S512 (.inl rfl) rfl (ix1 r)).trans ?_
  exact Finset.sum_congr rfl (fun k _ => congrArg v (lift_row _ r k))

/-- 512 numbers laid out as 4 × 128, then as 1 × 4 × 128: entry `(0, a, b)` is number `128 a + b`. -/
theorem tile_of_rows (w : FVec Ideal S512 .f32) (a : Fin 4) (b : Fin 128) :
    shapeCast S1x4x128 (shapeCast S4x128 w shapeCasts_S512_S4x128) shapeCasts_S4x128_S1x4x128 (ix3 (0 : Fin 1) a b)
      = w (ix1 (⟨128 * a.val + b.val, by omega⟩ : Fin 512)) := by
  refine (shapeCast_ab_1ab_apply _ _ 0 a b).trans ?_
  refine shapeCast_apply _ _ (ix2 a b) (ix1 (⟨128 * a.val + b.val, by omega⟩ : Fin 512)) ?_
  rw [Shape.rowMajor_val_one, Shape.rowMajor_val_two]
  show 128 * a.val + b.val = a.val * 128 + b.val
  omega

/-- Entry `(0, a, b)` of the tile of row sums: the sum of row `128 a + b`. -/
theorem pay2_apply (v : Vec Ideal S512x256 .f32) (a : Fin 4) (b : Fin 128) :
    k0_pay2 v (ix3 (0 : Fin 1) a b) = ∑ k : Fin 256, v (ix2 (⟨128 * a.val + b.val, by omega⟩ : Fin 512) k) := by
  unfold k0_pay2
  rw [pay1_eq]
  refine (tile_of_rows _ a b).trans ?_
  exact rowsum_apply v _

/-- Entry `(0, a, b)` of the tile of sums of squares: the sum of the squares of row `128 a + b`. -/
theorem pay3_apply (v : Vec Ideal S512x256 .f32) (a : Fin 4) (b : Fin 128) :
    k0_pay3 v (ix3 (0 : Fin 1) a b)
      = ∑ k : Fin 256, v (ix2 (⟨128 * a.val + b.val, by omega⟩ : Fin 512) k) * v (ix2 (⟨128 * a.val + b.val, by omega⟩ : Fin 512) k) := by
  unfold k0_pay3
  rw [pay1_eq]
  refine (tile_of_rows _ a b).trans ?_
  exact rowsum_apply (mulf v v) _

/-! ### Adding the sixteen tiles -/

/-- A 1 × 8 × 128 tile read as 8 × 128. -/
theorem flat_apply (t : Vec Ideal S1x8x128 .f32) (a : Fin 8) (b : Fin 128) :
    shapeCast S8x128 t shapeCasts_S1x8x128_S8x128 (ix2 a b) = t (ix3 (0 : Fin 1) a b) :=
  shapeCast_1ab_ab_apply t _ a b

theorem pay7_apply (t0 t1 : Vec Ideal S1x8x128 .f32) (a : Fin 8) (b : Fin 128) :
    k0_pay7 t0 t1 (ix2 a b) = t0 (ix3 (0 : Fin 1) a b) + t1 (ix3 (0 : Fin 1) a b) := by
  show shapeCast S8x128 t0 shapeCasts_S1x8x128_S8x128 (ix2 a b) + shapeCast S8x128 t1 shapeCasts_S1x8x128_S8x128 (ix2 a b) = _
  rw [flat_apply, flat_apply]

theorem pay8_apply (u : FVec Ideal S8x128 .f32) (t1 t2 : Vec Ideal S1x8x128 .f32) (a : Fin 8) (b : Fin 128) :
    k0_pay8 u t1 t2 (ix2 a b) = u (ix2 a b) + t1 (ix3 (0 : Fin 1) a b) + t2 (ix3 (0 : Fin 1) a b) := by
  show u (ix2 a b) + shapeCast S8x128 t1 shapeCasts_S1x8x128_S8x128 (ix2 a b)
    + shapeCast S8x128 t2 shapeCasts_S1x8x128_S8x128 (ix2 a b) = _
  rw [flat_apply, flat_apply]

theorem pay9_apply (u : FVec Ideal S8x128 .f32) (t1 t2 : Vec Ideal S1x8x128 .f32) (a : Fin 8) (b : Fin 128) :
    k0_pay9 u t1 t2 (ix2 a b) = u (ix2 a b) + t1 (ix3 (0 : Fin 1) a b) + t2 (ix3 (0 : Fin 1) a b) := by
  show u (ix2 a b) + shapeCast S8x128 t1 shapeCasts_S1x8x128_S8x128 (ix2 a b)
    + shapeCast S8x128 t2 shapeCasts_S1x8x128_S8x128 (ix2 a b) = _
  rw [flat_apply, flat_apply]

theorem pay10_apply (u : FVec Ideal S8x128 .f32) (t1 t2 t3 : Vec Ideal S1x8x128 .f32) (a : Fin 8) (b : Fin 128) :
    k0_pay10 u t1 t2 t3 (ix2 a b)
      = u (ix2 a b) + t1 (ix3 (0 : Fin 1) a b) + t2 (ix3 (0 : Fin 1) a b) + t3 (ix3 (0 : Fin 1) a b) := by
  show u (ix2 a b) + shapeCast S8x128 t1 shapeCasts_S1x8x128_S8x128 (ix2 a b)
    + shapeCast S8x128 t2 shapeCasts_S1x8x128_S8x128 (ix2 a b)
    + shapeCast S8x128 t3 shapeCasts_S1x8x128_S8x128 (ix2 a b) = _
  rw [flat_apply, flat_apply, flat_apply]

theorem pay11_apply (u : FVec Ideal S8x128 .f32) (t1 t2 : Vec Ideal S1x8x128 .f32) (a : Fin 8) (b : Fin 128) :
    k0_pay11 u t1 t2 (ix2 a b) = u (ix2 a b) + t1 (ix3 (0 : Fin 1) a b) + t2 (ix3 (0 : Fin 1) a b) := by
  show u (ix2 a b) + shapeCast S8x128 t1 shapeCasts_S1x8x128_S8x128 (ix2 a b)
    + shapeCast S8x128 t2 shapeCasts_S1x8x128_S8x128 (ix2 a b) = _
  rw [flat_apply, flat_apply]

theorem pay12_apply (u : FVec Ideal S8x128 .f32) (t1 t2 t3 : Vec Ideal S1x8x128 .f32) (a : Fin 8) (b : Fin 128) :
    k0_pay12 u t1 t2 t3 (ix2 a b)
      = u (ix2 a b) + t1 (ix3 (0 : Fin 1) a b) + t2 (ix3 (0 : Fin 1) a b) + t3 (ix3 (0 : Fin 1) a b) := by
  show u (ix2 a b) + shapeCast S8x128 t1 shapeCasts_S1x8x128_S8x128 (ix2 a b)
    + shapeCast S8x128 t2 shapeCasts_S1x8x128_S8x128 (ix2 a b)
    + shapeCast S8x128 t3 shapeCasts_S1x8x128_S8x128 (ix2 a b) = _
  rw [flat_apply, flat_apply, flat_apply]

theorem pay13_apply (u : FVec Ideal S8x128 .f32) (t1 t2 : Vec Ideal S1x8x128 .f32) (a : Fin 8) (b : Fin 128) :
    k0_pay13 u t1 t2 (ix2 a b) = u (ix2 a b) + t1 (ix3 (0 : Fin 1) a b) + t2 (ix3 (0 : Fin 1) a b) := by
  show u (ix2 a b) + shapeCast S8x128 t1 shapeCasts_S1x8x128_S8x128 (ix2 a b)
    + shapeCast S8x128 t2 shapeCasts_S1x8x128_S8x128 (ix2 a b) = _
  rw [flat_apply, flat_apply]

/-- Entry `(0, a, b)` of tile `d` of device `c`: the statistic of device `c - d`. -/
theorem tile_apply (c : Dev nD) (d : Fin 16) (a : Fin 8) (b : Fin 128) :
    tile m c d (ix3 (0 : Fin 1) a b) = statAt m ((c : Fin 16) - d) a b := rfl

/-- Sixteen terms added one after the other are their sum. -/
theorem sum_sixteen {M : Type} [AddCommMonoid M] (g : Fin 16 → M) :
    g 0 + g 1 + g 2 + g 3 + g 4 + g 5 + g 6 + g 7 + g 8 + g 9 + g 10 + g 11 + g 12 + g 13 + g 14 + g 15 = ∑ d, g d := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- The sixteen tiles of device `c`, added in the kernel's order, give at `(a, b)` the sum over `d` of the statistic of
    device `c - d`. -/
theorem total_apply (c : Dev nD) (a : Fin 8) (b : Fin 128) :
    k0_pay13 (tot13 m c) (tile m c 14) (tile m c 15) (ix2 a b) = ∑ d : Fin 16, statAt m ((c : Fin 16) - d) a b := by
  rw [pay13_apply]
  unfold tot13
  rw [pay12_apply, pay11_apply, pay10_apply, pay9_apply, pay8_apply, pay7_apply]
  simp only [tile_apply]
  exact sum_sixteen (fun d => statAt m ((c : Fin 16) - d) a b)

/-! ### The scaled totals -/

/-- Number `i` of the first four rows of the totals, times `2⁻¹²`. -/
theorem pay14_apply (u : FVec Ideal S8x128 .f32) (t1 t2 : Vec Ideal S1x8x128 .f32) (i : Fin 512) :
    k0_pay14 u t1 t2 (ix1 i)
      = k0_pay13 u t1 t2 (ix2 (⟨0 + i.val / 128, by omega⟩ : Fin 8) (⟨i.val % 128, Nat.mod_lt _ (by decide)⟩ : Fin 128))
        * Ideal.ofBits .f32 0x39800000#32 := by
  show shapeCast S512 (extractStridedSlice S4x128 ![0, 0] (k0_pay13 u t1 t2) slices_S8x128_o0_0_S4x128) shapeCasts_S4x128_S512 (ix1 i)
      * Ideal.ofBits .f32 0x39800000#32 = _
  congr 1
  refine (shapeCast_apply _ _ (ix1 i) (ix2 (⟨i.val / 128, by omega⟩ : Fin 4) (⟨i.val % 128, Nat.mod_lt _ (by decide)⟩ : Fin 128)) ?_).trans ?_
  · rw [Shape.rowMajor_val_one, Shape.rowMajor_val_two]
    show i.val / 128 * 128 + i.val % 128 = i.val
    omega
  · exact slice2_axis0_eq 0 _ _ _ _

/-- Number `i` of the last four rows of the totals, times `2⁻¹²`. -/
theorem pay15_apply (u : FVec Ideal S8x128 .f32) (t1 t2 : Vec Ideal S1x8x128 .f32) (i : Fin 512) :
    k0_pay15 u t1 t2 (ix1 i)
      = k0_pay13 u t1 t2 (ix2 (⟨4 + i.val / 128, by omega⟩ : Fin 8) (⟨i.val % 128, Nat.mod_lt _ (by decide)⟩ : Fin 128))
        * Ideal.ofBits .f32 0x39800000#32 := by
  show shapeCast S512 (extractStridedSlice S4x128 ![4, 0] (k0_pay13 u t1 t2) slices_S8x128_o4_0_S4x128) shapeCasts_S4x128_S512 (ix1 i)
      * Ideal.ofBits .f32 0x39800000#32 = _
  congr 1
  refine (shapeCast_apply _ _ (ix1 i) (ix2 (⟨i.val / 128, by omega⟩ : Fin 4) (⟨i.val % 128, Nat.mod_lt _ (by decide)⟩ : Fin 128)) ?_).trans ?_
  · rw [Shape.rowMajor_val_one, Shape.rowMajor_val_two]
    show i.val / 128 * 128 + i.val % 128 = i.val
    omega
  · exact slice2_axis0_eq 4 _ _ _ _

/-! ### The statistics as real numbers -/

/-- For `a < 4` the statistic of device `p` at `(a, b)` is the sum of row `128 a + b` over `p`'s 256 columns. -/
theorem statAt_lo (xr : Fin 512 → Fin 4096 → ℝ)
    (hx : ∀ (c : Dev nD) (i : Fin 512) (k : Fin 256),
      m ((c : Thread nD τ).loc main_arg0) (ix2 i k) = ((xr i (Cert.LN.col c k) : ℝ) : EReal))
    (p : Dev nD) (a : Fin 8) (b : Fin 128) (i : Fin 512) (ha : a.val < 4) (hi : i.val = 128 * a.val + b.val) :
    statAt m p a b = ((∑ k : Fin 256, xr i (Cert.LN.col p k) : ℝ) : EReal) := by
  have key : ∀ hlt : 128 * a.val + b.val < 512,
      statAt m p a b = ((∑ k : Fin 256, xr (⟨128 * a.val + b.val, hlt⟩ : Fin 512) (Cert.LN.col p k) : ℝ) : EReal) := by
    intro hlt
    unfold statAt
    rw [dif_pos ha, pay2_apply, ← Cert.LN.sum_coe]
    exact Finset.sum_congr rfl (fun k _ => (xS_apply m p _ k).trans (hx p _ k))
  have hlt : 128 * a.val + b.val < 512 := hi ▸ i.isLt
  rw [show i = (⟨128 * a.val + b.val, hlt⟩ : Fin 512) from Fin.ext hi]
  exact key hlt

/-- For `a ≥ 4` it is the sum of the squares of row `128 (a - 4) + b` over `p`'s 256 columns. -/
theorem statAt_hi (xr : Fin 512 → Fin 4096 → ℝ)
    (hx : ∀ (c : Dev nD) (i : Fin 512) (k : Fin 256),
      m ((c : Thread nD τ).loc main_arg0) (ix2 i k) = ((xr i (Cert.LN.col c k) : ℝ) : EReal))
    (p : Dev nD) (a : Fin 8) (b : Fin 128) (i : Fin 512) (ha : 4 ≤ a.val) (hi : i.val = 128 * (a.val - 4) + b.val) :
    statAt m p a b = ((∑ k : Fin 256, xr i (Cert.LN.col p k) * xr i (Cert.LN.col p k) : ℝ) : EReal) := by
  have key : ∀ hlt : 128 * (a.val - 4) + b.val < 512,
      statAt m p a b = ((∑ k : Fin 256, xr (⟨128 * (a.val - 4) + b.val, hlt⟩ : Fin 512) (Cert.LN.col p k)
        * xr (⟨128 * (a.val - 4) + b.val, hlt⟩ : Fin 512) (Cert.LN.col p k) : ℝ) : EReal) := by
    intro hlt
    unfold statAt
    rw [dif_neg (Nat.not_lt.mpr ha), pay3_apply, ← Cert.LN.sum_coe]
    refine Finset.sum_congr rfl (fun k _ => ?_)
    rw [xS_apply, hx, ← EReal.coe_mul]
  have hlt : 128 * (a.val - 4) + b.val < 512 := hi ▸ i.isLt
  rw [show i = (⟨128 * (a.val - 4) + b.val, hlt⟩ : Fin 512) from Fin.ext hi]
  exact key hlt

end KerStats

open KerStats

/-! ### The two totals -/

/-- The scaled total of the row sums on every device: `2⁻¹²` times the sum of row `i` over all 4096 columns. -/
theorem mean_total (xr : Fin 512 → Fin 4096 → ℝ)
    (hx : ∀ (c : Dev nD) (i : Fin 512) (k : Fin 256),
      m ((c : Thread nD τ).loc main_arg0) (ValueIdx.ix2 i k) = ((xr i (Cert.LN.col c k) : ℝ) : EReal))
    (c : Dev nD) (i : Fin 512) :
    k0_pay14 (F := Ideal) (tot13 m c) (tile m c 14) (tile m c 15) (ValueIdx.ix1 i)
      = (((Cert.LN.S1 xr i * (1 / 4096) : ℝ)) : EReal) := by
  rw [pay14_apply, total_apply, Cert.LN.inv4096_eq]
  have hs : ∀ d : Fin 16, statAt m ((c : Fin 16) - d) (⟨0 + i.val / 128, by omega⟩ : Fin 8) (⟨i.val % 128, Nat.mod_lt _ (by decide)⟩ : Fin 128)
      = ((∑ k : Fin 256, xr i (Cert.LN.col ((c : Fin 16) - d) k) : ℝ) : EReal) :=
    fun d => statAt_lo m xr hx _ _ _ i (by show 0 + i.val / 128 < 4; omega) (by show i.val = 128 * (0 + i.val / 128) + i.val % 128; omega)
  rw [Finset.sum_congr rfl (fun d _ => hs d), Cert.LN.sum_coe, ← EReal.coe_mul]
  congr 2
  exact Equiv.sum_comp (Equiv.subLeft (c : Fin 16)) (fun p => ∑ k : Fin 256, xr i (Cert.LN.col p k))

/-- The scaled total of the sums of squares on every device. -/
theorem ex2_total (xr : Fin 512 → Fin 4096 → ℝ)
    (hx : ∀ (c : Dev nD) (i : Fin 512) (k : Fin 256),
      m ((c : Thread nD τ).loc main_arg0) (ValueIdx.ix2 i k) = ((xr i (Cert.LN.col c k) : ℝ) : EReal))
    (c : Dev nD) (i : Fin 512) :
    k0_pay15 (F := Ideal) (tot13 m c) (tile m c 14) (tile m c 15) (ValueIdx.ix1 i)
      = (((Cert.LN.S2 xr i * (1 / 4096) : ℝ)) : EReal) := by
  rw [pay15_apply, total_apply, Cert.LN.inv4096_eq]
  have hs : ∀ d : Fin 16, statAt m ((c : Fin 16) - d) (⟨4 + i.val / 128, by omega⟩ : Fin 8) (⟨i.val % 128, Nat.mod_lt _ (by decide)⟩ : Fin 128)
      = ((∑ k : Fin 256, xr i (Cert.LN.col ((c : Fin 16) - d) k) * xr i (Cert.LN.col ((c : Fin 16) - d) k) : ℝ) : EReal) :=
    fun d => statAt_hi m xr hx _ _ _ i (by show 4 ≤ 4 + i.val / 128; omega) (by show i.val = 128 * (4 + i.val / 128 - 4) + i.val % 128; omega)
  rw [Finset.sum_congr rfl (fun d _ => hs d), Cert.LN.sum_coe, ← EReal.coe_mul]
  congr 2
  exact Equiv.sum_comp (Equiv.subLeft (c : Fin 16)) (fun p => ∑ k : Fin 256, xr i (Cert.LN.col p k) * xr i (Cert.LN.col p k))

end Cert.KernelIdeal.HandValue

end
-- ==== Proof.KerValue.lean ====
/-
  The result block of a device, entry by entry, GIVEN its two row statistics.

  Device `c` stores, at `(i, k)`, the number `(x_ik γ_k) · r_i − γ_k · (μ_i · r_i) + β_k`, where `x`, `γ`, `β` are its own blocks
  (columns `256 c … 256 c + 255` of the whole arrays), `μ_i` and `e_i` are the two statistics of row `i` it has after the exchange,
  and `r_i = 1 / √(e_i − μ_i² + ε)`, `ε` the real number the single-precision word `0x3727C5AC` denotes. When `μ_i` is the
  mean of the whole row `i` (the sum of its 4096 entries times `2⁻¹²`) and `e_i` the mean of its squares, then
  `e_i − μ_i² = σ²_i` and the stored number is `γ_j (x_ij − μ_i) / √(σ²_i + ε) + β_j` at `j = 256 c + k`: the layer norm.

  The steps. (1) The grid has one point and each window's block there is the whole argument array at block index 0, so a
  device's block at an index is its argument array at the same index. (2) The layout operations on the way — a vector viewed
  as a `1 × n` row or as an `n × 1` column, a row spread along the columns' direction, a column spread along the rows — each
  read ONE entry of their operand, found by comparing row-major positions or axis by axis. (3) The arithmetic is entry by
  entry, and on real arguments the extended reals' operations are the reals'; the argument of the reciprocal square root is
  positive, so it is the inverse of the real square root.
-/
import proofs.«900827_g7700000000000828_dist_layernorm_colshard_i_m512_n256_v7x_i16_f32_1_alg».proof.Proof.HandKernelIdeal.Contents
import proofs.«900827_g7700000000000828_dist_layernorm_colshard_i_m512_n256_v7x_i16_f32_1_alg».proof.Proof.Spec
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

namespace OutBlock

/-! ### The three blocks of a device are its argument arrays

The grid has one point and every window's block there is the whole array at block index 0: entry `(i, k)` of the block sits
in the array at `(0 · 512 + i, 0 · 256 + k)`. -/

theorem xS_emb (i : Fin 512) (k : Fin 256) : (win0_0.blk t0_0).view.emb (ix2 i k) = ix2 i k := by
  funext a; apply Fin.ext
  match a with
  | ⟨0, _⟩ => show 0 * 512 + 1 * i.val = i.val; omega
  | ⟨1, _⟩ => show 0 * 256 + 1 * k.val = k.val; omega

/-- Device `c`'s block of `x` at `(i, k)` is its argument array there. -/
theorem xS_apply (c : Dev nD) (i : Fin 512) (k : Fin 256) :
    xS m c (ix2 i k) = m ((c : Thread nD τ).loc main_arg0) (ix2 i k) := by
  unfold xS
  rw [View.read_apply, xS_emb]
  rfl

theorem gS_emb (k : Fin 256) : (win0_1.blk t0_0).view.emb (ix1 k) = ix1 k := by
  funext a; apply Fin.ext
  match a with
  | ⟨0, _⟩ => show 0 * 256 + 1 * k.val = k.val; omega

/-- Its block of `γ` at `k`. -/
theorem gS_apply (c : Dev nD) (k : Fin 256) :
    gS m c (ix1 k) = m ((c : Thread nD τ).loc main_arg1) (ix1 k) := by
  unfold gS
  rw [View.read_apply, gS_emb]
  rfl

theorem bS_emb (k : Fin 256) : (win0_2.blk t0_0).view.emb (ix1 k) = ix1 k := by
  funext a; apply Fin.ext
  match a with
  | ⟨0, _⟩ => show 0 * 256 + 1 * k.val = k.val; omega

/-- Its block of `β` at `k`. -/
theorem bS_apply (c : Dev nD) (k : Fin 256) :
    bS m c (ix1 k) = m ((c : Thread nD τ).loc main_arg2) (ix1 k) := by
  unfold bS
  rw [View.read_apply, bS_emb]
  rfl

/-! ### A vector as a column, and a column spread along the rows -/

/-- A vector of length `a` cast to an `a × 1` column reads, at `(i, u)`, the vector at `i`: both have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The payloads at an index -/

/-- The reciprocal square root of a vector, entry by entry. -/
theorem rsqrt_apply {s : Shape} {φ : FTy} (a : FVec Ideal s φ) (i : s.Idx) : rsqrt a i = Ideal.rsqrt (a i) := rfl

/-- The cast of the loaded block to its own shape is the block. -/
theorem pay1_eq (v : Vec Ideal S512x256 .f32) : k0_pay1 (F := Ideal) v = v := by
  unfold k0_pay1
  exact shapeCast_self _ _

/-- `γ` as a `1 × 256` row: entry `(0, k)` is `γ_k`. -/
theorem pay4_apply (v : Vec Ideal S256 .f32) (u : Fin 1) (k : Fin 256) : k0_pay4 (F := Ideal) v (ix2 u k) = v (ix1 k) := by
  unfold k0_pay4
  rw [shapeCast_a_1a_apply, shapeCast_self]

/-- `β` as a `1 × 256` row: entry `(0, k)` is `β_k`. -/
theorem pay5_apply (v : Vec Ideal S256 .f32) (u : Fin 1) (k : Fin 256) : k0_pay5 (F := Ideal) v (ix2 u k) = v (ix1 k) := by
  unfold k0_pay5
  rw [shapeCast_a_1a_apply, shapeCast_self]

/-- `x · γ` with `γ` spread along the rows: entry `(i, k)` is `x_ik γ_k`. -/
theorem pay6_apply (x : FVec Ideal S512x256 .f32) (g : Vec Ideal S256 .f32) (i : Fin 512) (k : Fin 256) :
    k0_pay6 (F := Ideal) x g (ix2 i k) = x (ix2 i k) * g (ix1 k) := by
  unfold k0_pay6
  rw [mulf_apply, broadcastTo_1b_ab_apply, pay4_apply]

/-- The stored block at `(i, k)`: with `μ_i`, `e_i` the two row statistics and `r_i = rsqrt (e_i - μ_i μ_i + ε)`, it is
    `(xγ)_ik · r_i - γ_k · (μ_i · r_i) + β_k`; the statistics enter as columns spread along the rows, `γ` and `β` as rows spread
    along the columns. -/
theorem pay16_apply (v529 v532 : FVec Ideal S1x256 .f32) (v534 : FVec Ideal S512x256 .f32) (v707 v709 : FVec Ideal S512 .f32)
    (i : Fin 512) (k : Fin 256) :
    k0_pay16 (F := Ideal) v529 v532 v534 v707 v709 (ix2 i k)
      = v534 (ix2 i k) * Ideal.rsqrt (v709 (ix1 i) - v707 (ix1 i) * v707 (ix1 i) + Ideal.ofBits .f32 0x3727C5AC#32)
        - v529 (ix2 (0 : Fin 1) k) * (v707 (ix1 i) * Ideal.rsqrt (v709 (ix1 i) - v707 (ix1 i) * v707 (ix1 i) + Ideal.ofBits .f32 0x3727C5AC#32))
        + v532 (ix2 (0 : Fin 1) k) := by
  unfold k0_pay16
  rw [addf_apply, subf_apply, mulf_apply, mulf_apply, broadcastTo_1b_ab_apply, broadcastTo_1b_ab_apply,
    broadcastTo_a1_ab_apply, broadcastTo_a1_ab_apply, mulf_apply, shapeCast_a_a1_apply, shapeCast_a_a1_apply,
    rsqrt_apply, addf_apply, subf_apply, mulf_apply, broadcast_apply]
  rfl

end OutBlock

open OutBlock

/-! ### The result block is the layer norm of the rows -/

/-- GIVEN the two row statistics of device `c` — the mean `S1 · 2⁻¹²` and the mean of squares `S2 · 2⁻¹²` of each whole row —
    entry `(i, k)` of its result block is the layer norm of row `i` at column `256 c + k`. -/
theorem outAt_apply_of (xr : Fin 512 → Fin 4096 → ℝ)
    (hx : ∀ (c : Dev nD) (i : Fin 512) (k : Fin 256),
      m ((c : Thread nD τ).loc main_arg0) (ValueIdx.ix2 i k) = ((xr i (Cert.LN.col c k) : ℝ) : EReal))
    (gr br : Fin 4096 → ℝ)
    (hg : ∀ (c : Dev nD) (k : Fin 256), m ((c : Thread nD τ).loc main_arg1) (ValueIdx.ix1 k) = ((gr (Cert.LN.col c k) : ℝ) : EReal))
    (hb : ∀ (c : Dev nD) (k : Fin 256), m ((c : Thread nD τ).loc main_arg2) (ValueIdx.ix1 k) = ((br (Cert.LN.col c k) : ℝ) : EReal))
    (c : Dev nD)
    (hmean : ∀ i : Fin 512, k0_pay14 (F := Ideal) (tot13 m c) (tile m c 14) (tile m c 15) (ValueIdx.ix1 i)
      = (((Cert.LN.S1 xr i * (1 / 4096) : ℝ)) : EReal))
    (hex2 : ∀ i : Fin 512, k0_pay15 (F := Ideal) (tot13 m c) (tile m c 14) (tile m c 15) (ValueIdx.ix1 i)
      = (((Cert.LN.S2 xr i * (1 / 4096) : ℝ)) : EReal))
    (i : Fin 512) (k : Fin 256) :
    outAt m c (ValueIdx.ix2 i k) = (((Cert.LN.lnR xr gr br i (Cert.LN.col c k) : ℝ)) : EReal) := by
  unfold outAt
  rw [pay16_apply, hmean i, hex2 i, pay4_apply, pay5_apply, pay6_apply, pay1_eq, xS_apply, gS_apply, bS_apply,
    hx c i k, hg c k, hb c k, Cert.LN.eps_eq]
  have hr : Ideal.rsqrt ((((Cert.LN.S2 xr i * (1 / 4096) : ℝ)) : EReal)
        - (((Cert.LN.S1 xr i * (1 / 4096) : ℝ)) : EReal) * (((Cert.LN.S1 xr i * (1 / 4096) : ℝ)) : EReal) + ((Cert.LN.epsR : ℝ) : EReal))
      = (((Real.sqrt (Cert.LN.S2 xr i * (1 / 4096) - (Cert.LN.S1 xr i * (1 / 4096)) * (Cert.LN.S1 xr i * (1 / 4096)) + Cert.LN.epsR))⁻¹ : ℝ) : EReal) := by
    rw [← EReal.coe_mul, ← EReal.coe_sub, ← EReal.coe_add]
    exact Cert.LN.rsqrt_coe' _ (Cert.LN.var_arg_pos xr i)
  rw [hr]
  simp only [← EReal.coe_mul, ← EReal.coe_sub, ← EReal.coe_add]
  rw [Cert.LN.ker_real]

end Cert.KernelIdeal.HandValue

end
-- ==== Proof.Bridge.lean ====
/-
  Each device's result block is its block of the reference's result.

  The precondition makes every entry of the three whole arrays a real number, so the whole arrays are the coercions
  of real arrays `xr`, `γr`, `βr`, and device `c`'s blocks hold their entries at the columns `256 c + k`. Then
  entry `(i, k)` of device `c`'s result and entry `(i, 256 c + k)` of the reference's result are one and the same real
  number, the layer norm of `xr`, `γr`, `βr` at `(i, 256 c + k)`; and entry `(i, k)` of block `c` of an array cut along
  its columns is the array's entry `(i, 256 c + k)`.
-/
import proofs.«900827_g7700000000000828_dist_layernorm_colshard_i_m512_n256_v7x_i16_f32_1_alg».proof.Proof.Finite
import proofs.«900827_g7700000000000828_dist_layernorm_colshard_i_m512_n256_v7x_i16_f32_1_alg».proof.Proof.Spec
import proofs.«900827_g7700000000000828_dist_layernorm_colshard_i_m512_n256_v7x_i16_f32_1_alg».proof.Proof.RefRun
import proofs.«900827_g7700000000000828_dist_layernorm_colshard_i_m512_n256_v7x_i16_f32_1_alg».proof.Proof.RefValue
import proofs.«900827_g7700000000000828_dist_layernorm_colshard_i_m512_n256_v7x_i16_f32_1_alg».proof.Proof.HandKernelIdeal.Contents
import proofs.«900827_g7700000000000828_dist_layernorm_colshard_i_m512_n256_v7x_i16_f32_1_alg».proof.Proof.KerStats
import proofs.«900827_g7700000000000828_dist_layernorm_colshard_i_m512_n256_v7x_i16_f32_1_alg».proof.Proof.KerValue

noncomputable section

namespace Cert.LN.Bridge

open Idealize.ShloMosaic Idealize.SL.Sem Idealize.ShloMosaic.ValueIdx

/-- Device `c`'s result block is block `c` of the reference's result.

    The precondition makes the three whole arrays the coercions of real arrays `xr`, `γr`, `βr`, and each device's
    blocks hold their entries at the columns `256 c + k`. At `(i, k)` the device's result is then the real layer norm
    of `xr`, `γr`, `βr` at `(i, 256 c + k)` (its total of sums times `2⁻¹²` is the mean, its total of squares times
    `2⁻¹²` is `E[x²]`); the reference's result at `(i, 256 c + k)` is the same real number; and entry `(i, k)` of block
    `c` of an array is its entry `(i, 256 c + k)`. -/
theorem out_block [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hblk : ∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![4096]⟩ 0 16 c (m' (((0 : Dev Cert.ReferenceIdeal.nD).tc : Thread Cert.ReferenceIdeal.nD Cert.ReferenceIdeal.τ).loc Cert.ReferenceIdeal.main_arg2)))
    (c : Dev Cert.KernelIdeal.nD) :
    (Cert.KernelIdeal.Hand.outAt m c : (⟨2, ![512, 256]⟩ : Shape).Idx → EReal)
      = Layout.block ⟨2, ![512, 256]⟩ ⟨2, ![512, 4096]⟩ 1 16 c
          (Cert.ReferenceIdeal.Hand.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))) := by
  obtain ⟨xr, gr, br, hx', hg', hb', hx, hg, hb⟩ := Cert.LN.Finite.reals_of_pre m m' hpre hblk
  refine Cert.LN.Finite.ext_ix2 _ _ (fun i k => ?_)
  rw [Cert.LN.Finite.block2_apply, Cert.ReferenceIdeal.Hand.refOut_apply xr gr br _ _ _ hx' hg' hb']
  exact Cert.KernelIdeal.HandValue.outAt_apply_of m xr hx gr br hg hb c
    (Cert.KernelIdeal.HandValue.mean_total m xr hx c) (Cert.KernelIdeal.HandValue.ex2_total m xr hx c) i k

end Cert.LN.Bridge

end
-- ==== Proof.HandKernelIdeal.Proto.lean ====
/-
  The exchange protocol of the sixteen devices, as data: cells, duties, payloads, debts and levels.

  Every device `c` first tells each of its fifteen peers `c + d` (`d = 1 … 15`, positions taken modulo 16) that it has
  entered the kernel, by one unit on that peer's barrier semaphore; it waits for the fifteen units of its own. A unit from
  `c - j` carries, besides the news, what `c` needs in order to write into `c - j`'s memory: tile `-j` of `c - j`'s
  communication buffer — the tile `c`'s copy will fill, since `c + (-j) = c - j` — and the fact that `c - j` has not yet begun to
  wait on the matching receive semaphore. Then `c` copies its own tile 0 into tile `d` of `c + d` for every `d`: fifteen copies
  read the one source tile at once, each under a share of its own; the copy's arrival hands `c + d` its tile `d` holding
  `c`'s partial sums, and its departure hands `c` its share of tile 0 back. Every semaphore is credited by exactly one
  contribution per peer, so every wait is for a whole round.

  Waiting is safe: barrier cells sit at level 1 and receive cells at level 2, and a device waits on its barrier cell while
  it owes only receive credits, on a receive cell while it owes nothing.
-/
import proofs.«900827_g7700000000000828_dist_layernorm_colshard_i_m512_n256_v7x_i16_f32_1_alg».proof.Proof.HandKernelIdeal.Contents
import proofs.«900827_g7700000000000828_dist_layernorm_colshard_i_m512_n256_v7x_i16_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by a ring offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs: the communication buffer and its sixteen tiles -/

abbrev xM : Memref sig .tc .vmem S512x256 .f32 := Memref.whole cc0_stg0_0
abbrev gM : Memref sig .tc .vmem S256 .f32 := Memref.whole cc0_stg1_0
abbrev bM : Memref sig .tc .vmem S256 .f32 := Memref.whole cc0_stg2_0
abbrev oM : Memref sig .tc .vmem S512x256 .f32 := Memref.whole cc0_stg3_0
abbrev scrM : Memref sig .tc .vmem S16x8x128 .f32 := Memref.whole cc0_scratch0

theorem inb_tile (d : Fin 16) : ∀ a, (![d.val, 0, 0] : Fin 3 → Nat) a + S1x8x128.size a ≤ S16x8x128.size a := by
  revert d; decide
theorem inb_semIx (d : Fin 16) : ∀ a, (![d.val] : Fin 1 → Nat) a + S1.size a ≤ S16.size a := by
  revert d; decide

/-- Tile `d` of the communication buffer, as the 8 × 128 memref the copies and their waits name. -/
abbrev tileM (d : Fin 16) : Memref sig .tc .vmem S8x128 .f32 :=
  (scrM.slice (Rect.unit (s := S16x8x128) ![d.val, 0, 0] S1x8x128.size (inb_tile d)) (fun _ => rfl)).squeeze S8x128 squeezes_S1x8x128_S8x128

/-! ## The semaphores and their cells -/

/-- The runtime's barrier semaphore of collective id 0 (not scoped to the launch). -/
abbrev barS : Sem sig := (SemArray.scalar (sig.barrier 0 rfl) : Sems sig S_).sem
/-- The send semaphore of offset `d` (DMA semaphores 4 … 19) and the receive semaphore of offset `d` (20 … 35). -/
abbrev sendS (d : Fin 16) : DmaSem sig := ⟨4 + d.val, by show 4 + d.val < 36; omega⟩
abbrev recvS (d : Fin 16) : DmaSem sig := ⟨20 + d.val, by show 20 + d.val < 36; omega⟩

abbrev barCell (c : Dev nD) : GSem nD τ sig := ((c : Thread nD τ), .reg barS)
abbrev sendCell (c : Dev nD) (d : Fin 16) : GSem nD τ sig := ((c : Thread nD τ), .dma (sendS d))
abbrev recvCell (c : Dev nD) (d : Fin 16) : GSem nD τ sig := ((c : Thread nD τ), .dma (recvS d))

/-- The kernel's own (scoped, non-staging) semaphores as the launch theorem indexes them: the sixteen send then the sixteen
    receive semaphores (those of offset 0 are never touched). -/
abbrev osem : Fin 32 → SemLoc sig := fun k => .dma ⟨4 + k.val, by show 4 + k.val < 36; omega⟩

/-- The units one copy of a tile credits. -/
abbrev N : ℕ := (tileM 0 : Memref sig .tc .vmem S8x128 .f32).view.dmaCredit

/-- The offsets of the fifteen peers. -/
abbrev offs : Finset (Fin 16) := Finset.univ.erase 0

/-! ## Contents and payloads -/

/-- Tile `d` of device `c`'s communication buffer held at share `q` and contents `f` (a valuation of the whole buffer, of which
    only the tile's entries matter). -/
def tilePts (c : Dev nD) (d : Fin 16) (q : PosShare TreeShare) (f : Buf (Elt F) ((tileM d : Memref sig .tc .vmem S8x128 .f32).view.loc (c : Thread nD τ))) : sProp 𝕄 :=
  (tileM d : Memref sig .tc .vmem S8x128 .f32).view.loc (c : Thread nD τ) ↦[(tileM d : Memref sig .tc .vmem S8x128 .f32).view.set]{q} f

/-- The share of its tile 0 device `c` lends the copy of offset `d`. -/
abbrev lent (d : Fin 16) : PosShare TreeShare := Transfers.shareTok fullShare 16 d
/-- What it keeps for its own load of tile 0. -/
abbrev kept : PosShare TreeShare := Transfers.shareDrop fullShare 16

/-- What the unit from `c - j` on `c`'s barrier cell hands `c`: tile `-j` of `c - j`'s buffer at some contents, and that `c - j` has
    consumed nothing of its receive cell of offset `-j`. -/
def barPay (c : Dev nD) (j : Fin 16) : sProp 𝕄 :=
  iprop((∃ f, tilePts (F := F) (c - j) (-j) fullShare f) ∗ reached ER (recvCell (c - j) (-j)) 0)
/-- What the arrival of the copy of offset `d` hands `c`: its tile `d` holding the sender's sums. -/
def recvPay (c : Dev nD) (d : Fin 16) : sProp 𝕄 := tilePts c d fullShare (comm m c)
/-- What the departure of its copy of offset `d` hands `c` back: the share of tile 0 it lent. -/
def sendPay (c : Dev nD) (d : Fin 16) : sProp 𝕄 := tilePts c 0 (lent d) (comm m c)

/-! ## The schedule: one round per cell -/

/-- Round 0 only. A barrier cell has the fifteen duties `j ≠ 0` of one unit (duty `j` paid by `c - j`); a send or receive cell
    of an offset `d ≠ 0` the one duty `0` of a tile's credit. -/
def Rd : Rounds.Schedule (GSem nD τ sig) (Fin 16) 𝕄 where
  duties g r :=
    if r = 0 ∧ g.1.2 = .tc then
      (match g.2 with
        | .reg _ => offs
        | .dma q => if (5 ≤ q.val ∧ q.val ≤ 19) ∨ 21 ≤ q.val then {0} else ∅)
    else ∅
  unitless _ := False
  amount g _ _ := match g.2 with
    | .reg _ => 1
    | .dma _ => N
  payload g _ j := match g.2 with
    | .reg _ => barPay g.1.1 j
    | .dma q =>
      if h : 20 ≤ q.val then recvPay m g.1.1 ⟨q.val - 20, by have h36 : q.val < 36 := q.isLt; omega⟩
      else if h' : 4 ≤ q.val then sendPay m g.1.1 ⟨q.val - 4, by omega⟩
      else iprop(emp)
  amount_pos g _ _ _ := by
    cases g.2 with
    | reg _ => exact Nat.one_pos
    | dma _ => exact View.dmaCredit_pos _ (by decide)

/-! ## What each device owes at launch; the levels -/

/-- The offset of the `k`-th summand from the end: `16 - k`. -/
abbrev offOf (k : ℕ) : Fin 16 := ⟨(16 - k) % 16, Nat.mod_lt _ (by decide)⟩

/-- The receive credits device `c` owes, summed so that the copy of offset 1 peels the last summand, offset 2 the one
    before, and so on. -/
def oweR (c : Dev nD) : ℕ → CellTallies nD τ sig Unit
  | 0 => 0
  | k + 1 => oweR c k + tallyAt (recvCell (c + offOf (k + 1)) (offOf (k + 1))) () N
/-- … and, on top, the barrier units it owes, the signal of offset 1 peeling the last summand. -/
def oweB (c : Dev nD) : ℕ → CellTallies nD τ sig Unit
  | 0 => oweR c 15
  | k + 1 => oweB c k + tallyAt (barCell (c + offOf (k + 1))) () 1
/-- Everything device `c` owes at launch. -/
def O₀ (c : Dev nD) : CellTallies nD τ sig Unit := oweB c 15

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 20 ≤ q.val then 2 else 0

/-! ## The ghost state a device's body starts from -/

/-- The cells of the exchange, indexed by device and semaphore: 0 the barrier, `1 + d` the send and `17 + d` the receive
    semaphore of offset `d`. -/
abbrev csem : Fin 33 → SemLoc sig := fun k => if k.val = 0 then .reg barS else .dma ⟨3 + k.val, by show 3 + k.val < 36; omega⟩
abbrev kcell (ck : Dev nD × Fin 33) : GSem nD τ sig := ((ck.1 : Thread nD τ), csem ck.2)

/-- Every cell's invariant under the names `K` the launch allocated, and that round 0 of every cell is reached: persistent,
    so a device may hold the whole table. -/
def records (K : Dev nD × Fin 33 → ℕ) : sProp 𝕄 :=
  iprop((bigSep Finset.univ fun ck : Dev nD × Fin 33 => cellInv ER (Rd m) (K ck) (kcell ck))
    ∗ bigSep Finset.univ fun ck : Dev nD × Fin 33 => reached ER (kcell ck) 0)

/-- The tokens of the duties device `c` pays at offset `d`: peer `c + d`'s barrier duty `d`, that peer's receive duty, its own
    send duty. -/
def payToks (c : Dev nD) (d : Fin 16) : sProp 𝕄 :=
  iprop(dutyTok ER (barCell (c + d)) 0 d ∗ dutyTok ER (recvCell (c + d) d) 0 (0 : Fin 16) ∗ dutyTok ER (sendCell c d) 0 (0 : Fin 16))
/-- Its positions on its own cells (the two cells of offset 0 have no duty: they are opened and closed untouched). -/
def positions (c : Dev nD) : sProp 𝕄 :=
  iprop(atPos ER (barCell c) 0 ∅ 0 ∗ bigSep Finset.univ fun d : Fin 16 => iprop(atPos ER (sendCell c d) 0 ∅ 0 ∗ atPos ER (recvCell c d) 0 ∅ 0))
/-- What stays with device `c` alone. -/
def linear (c : Dev nD) : sProp 𝕄 := iprop(positions c ∗ bigSep offs fun d => payToks c d)

def ghost (K : Dev nD × Fin 33 → ℕ) (c : Dev nD) : sProp 𝕄 := iprop(records m K ∗ linear c)

/-- The credit the launch deals device `c`: its barrier's fifteen units and each receive cell's credit. -/
def credits (c : Dev nD) : sProp 𝕄 :=
  iprop(cred (tallyAt (barCell c) () 15) ∗ bigSep offs fun d => cred (tallyAt (recvCell c d) () N))

/-- What device `c`'s body starts from, besides its buffers. -/
def start (c : Dev nD) : sProp 𝕄 :=
  iprop((∃ K, ghost m K c) ∗ credits c ∗ levAts L lv)

def scrPts (c : Dev nD) (f : Buf (Elt F) ((c : Thread nD τ).loc cc0_scratch0)) : sProp 𝕄 :=
  (((c : Thread nD τ).loc cc0_scratch0) ↦{fullShare} f : sProp 𝕄)

def Φ₀ (c : Dev nD) : sProp 𝕄 := iprop(start m c ∗ ∃ f, scrPts c f)
/-- After the point: the communication buffer whole at the exchanged contents, the kernel's own semaphores at zero. -/
def Φ₁ (c : Dev nD) : sProp 𝕄 := iprop(scrPts c (comm m c) ∗ Pipeline.ownSems0 osem c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => gS m c
    | ⟨2, _⟩ => bS m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Hand

end
-- ==== Proof.HandKernelIdeal.Final.lean ====
/-
  What the arrays hold after the run. The three argument arrays are never written back, so they end as they began. The
  result array is written back once, at the one grid point, and the block written is the whole array: it ends holding what
  the body left in the output staging buffer.
-/
import proofs.«900827_g7700000000000828_dist_layernorm_colshard_i_m512_n256_v7x_i16_f32_1_alg».proof.Proof.HandKernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s array of window `w` after the write-backs of all grid points. -/
def finalA (c : Dev nD) (w : Fin cfg0.W) : Buf (Elt F) ((cfg0.win w).arr.view.loc (c : Thread nD τ)) := (dats m 0 c).arrAt w cfg0.N

/-- Every device's windowed arrays hold their final contents. -/
def QC : PUnit × MemSt nD τ sig (Elt F) → Prop := fun r =>
  ∀ c : Dev nD, ∀ w : Fin cfg0.W, r.2.mem ((cfg0.win w).arr.view.loc (c : Thread nD τ)) = finalA m c w

theorem finalA_in0 (c : Dev nD) : finalA m c (0 : Fin cfg0.W) = m ((c : Thread nD τ).loc main_arg0) :=
  (dats (F := F) m 0 c).arrAt_in (0 : Fin 4) rfl _
theorem finalA_in1 (c : Dev nD) : finalA m c (1 : Fin cfg0.W) = m ((c : Thread nD τ).loc main_arg1) :=
  (dats (F := F) m 0 c).arrAt_in (1 : Fin 4) rfl _
theorem finalA_in2 (c : Dev nD) : finalA m c (2 : Fin cfg0.W) = m ((c : Thread nD τ).loc main_arg2) :=
  (dats (F := F) m 0 c).arrAt_in (2 : Fin 4) rfl _

theorem finalA_out (c : Dev nD) : finalA m c (3 : Fin cfg0.W) = outAt m c := by
  unfold finalA
  have h := (dats (F := F) m 0 c).arrAt_succ (3 : Fin 4) t0_0
  rw [if_pos (flush0_3 t0_0)] at h
  refine h.trans ?_
  have hz' : (fun a => win0_3.index t0_0 a * main_v1.ty.shape.size a) = fun _ => 0 :=
    funext fun a => by fin_cases a <;> decide
  exact Memref.write_access_unit_zero_univ (Elt F) main_v1 hz' (fun a => by rw [congrFun hz' a]; simp) _ _

end Cert.KernelIdeal.Hand

end
-- ==== Proof.HandKernelIdeal.Levels.lean ====
/-
  The levels of the exchange's cells, and why no wait can deadlock.

  Staging semaphores sit at level 0, barrier cells at level 1, receive cells at level 2. A device waits on its barrier cell
  while it owes receive credits only, and on a staging semaphore while it owes barrier units and receive credits: in both
  cases everything owed lies strictly above the cell waited on.
-/
import proofs.«900827_g7700000000000828_dist_layernorm_colshard_i_m512_n256_v7x_i16_f32_1_alg».proof.Proof.HandKernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels: what a device may wait on while it owes -/

theorem L_of_ne (g : GSem nD τ sig) (h : g.1.2 ≠ .tc) : L g = ∅ := if_neg h
theorem L_tc (c : Dev nD) (sm : SemLoc sig) : L ((c : Thread nD τ), sm) = {()} := if_pos rfl

/-- A receive credit is owed to a receive cell only. -/
theorem oweR_pos {c : Dev nD} : ∀ (k : ℕ) {g : GSem nD τ sig} {u : Unit}, 0 < oweR c k g u → ∃ (p : Dev nD) (d : Fin 16), g = recvCell p d
  | 0, g, u, h => absurd h (Nat.lt_irrefl 0)
  | k + 1, g, u, h => by
    rcases Pipeline.add_pos_cases (D₁ := oweR c k) (D₂ := tallyAt (recvCell (c + offOf (k + 1)) (offOf (k + 1))) () N) h with h | h
    · exact oweR_pos k h
    · exact ⟨_, _, (Pipeline.tallyAt_pos h).1⟩

/-- Everything owed at launch is owed to a receive cell or to a barrier cell. -/
theorem oweB_pos {c : Dev nD} : ∀ (k : ℕ) {g : GSem nD τ sig} {u : Unit}, 0 < oweB c k g u →
    (∃ (p : Dev nD) (d : Fin 16), g = recvCell p d) ∨ ∃ p : Dev nD, g = barCell p
  | 0, g, u, h => Or.inl (oweR_pos 15 h)
  | k + 1, g, u, h => by
    rcases Pipeline.add_pos_cases (D₁ := oweB c k) (D₂ := tallyAt (barCell (c + offOf (k + 1))) () 1) h with h | h
    · exact oweB_pos k h
    · exact Or.inr ⟨_, (Pipeline.tallyAt_pos h).1⟩

omit [FloatOps F] in
theorem lv_recv (p : Dev nD) (d : Fin 16) : lv (recvCell p d) () = 2 := if_pos (Nat.le_add_right 20 d.val)
omit [FloatOps F] in
theorem lv_bar (p : Dev nD) : lv (barCell p) () = 1 := rfl

omit [FloatOps F] in
/-- At its barrier wait a device owes receive credits only: receive cells lie above its barrier cell. -/
theorem mayWait_bar (c : Dev nD) : (levAts L lv : sProp 𝕄) ⊢ MayWait (c : Thread nD τ) (.reg barS) () (oweR c 15) :=
  Pipeline.mayWait_of_levAts (by rw [L_tc]; exact Finset.mem_singleton_self _) fun g i hg => by
    obtain ⟨p, d, rfl⟩ := oweR_pos 15 hg
    refine ⟨by rw [L_tc]; exact Finset.mem_singleton_self _, ?_⟩
    rw [lv_recv]; exact (by decide : (1 : ℕ) < 2)

omit [FloatOps F] in
/-- The pipeline's staging semaphores (0 … 3) lie at level 0, below every cell a device ever owes. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), SemLoc.dma q) () = 0 := if_neg (by omega)
    rcases oweB_pos 15 hg with ⟨p, d, rfl⟩ | ⟨p, rfl⟩
    · refine ⟨by rw [L_tc]; exact Finset.mem_singleton_self _, ?_⟩
      rw [h0, lv_recv]; exact (by decide : (0 : ℕ) < 2)
    · refine ⟨by rw [L_tc]; exact Finset.mem_singleton_self _, ?_⟩
      rw [h0, lv_bar]; exact (by decide : (0 : ℕ) < 1)
  · rw [MayWait_zero]; iintro -; iempintro

end Cert.KernelIdeal.Hand

end
-- ==== Proof.HandKernelIdeal.Tables.lean ====
/-
  Closed facts about the exchange's data: the peers each device addresses, the semaphores and tiles as the program spells
  them, the schedule's tables cell by cell, the fifteen-fold products written out, and the debts peeled one offset at a time.

  Positions are taken modulo 16. The `n`-th signal of device `c` (`n = 1 … 15`) addresses `c + n`, and so does its
  `n`-th copy. The semaphore array entry of index `d` is DMA semaphore `4 + d` (send) or `20 + d` (receive); tile `d` of the
  communication buffer is its rows `[d, :, :]`. A barrier cell's round has the fifteen duties `j ≠ 0` of one unit each; a send
  or receive cell of an offset `d ≠ 0` has the one duty `0` of a tile's credit.
-/
import proofs.«900827_g7700000000000828_dist_layernorm_colshard_i_m512_n256_v7x_i16_f32_1_alg».proof.Proof.HandKernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peers: the `n`-th signal and the `n`-th copy of device `c` address `c + n` -/

theorem dev_sig_1 (c : Dev nD) : (⟨k0_dev1 c, k0_dev1_lt c⟩ : Dev nD) = c + (1 : Fin 16) := by revert c; decide +kernel
theorem dev_sig_2 (c : Dev nD) : (⟨k0_dev2 c, k0_dev2_lt c⟩ : Dev nD) = c + (2 : Fin 16) := by revert c; decide +kernel
theorem dev_sig_3 (c : Dev nD) : (⟨k0_dev3 c, k0_dev3_lt c⟩ : Dev nD) = c + (3 : Fin 16) := by revert c; decide +kernel
theorem dev_sig_4 (c : Dev nD) : (⟨k0_dev4 c, k0_dev4_lt c⟩ : Dev nD) = c + (4 : Fin 16) := by revert c; decide +kernel
theorem dev_sig_5 (c : Dev nD) : (⟨k0_dev5 c, k0_dev5_lt c⟩ : Dev nD) = c + (5 : Fin 16) := by revert c; decide +kernel
theorem dev_sig_6 (c : Dev nD) : (⟨k0_dev6 c, k0_dev6_lt c⟩ : Dev nD) = c + (6 : Fin 16) := by revert c; decide +kernel
theorem dev_sig_7 (c : Dev nD) : (⟨k0_dev7 c, k0_dev7_lt c⟩ : Dev nD) = c + (7 : Fin 16) := by revert c; decide +kernel
theorem dev_sig_8 (c : Dev nD) : (⟨k0_dev8 c, k0_dev8_lt c⟩ : Dev nD) = c + (8 : Fin 16) := by revert c; decide +kernel
theorem dev_sig_9 (c : Dev nD) : (⟨k0_dev9 c, k0_dev9_lt c⟩ : Dev nD) = c + (9 : Fin 16) := by revert c; decide +kernel
theorem dev_sig_10 (c : Dev nD) : (⟨k0_dev10 c, k0_dev10_lt c⟩ : Dev nD) = c + (10 : Fin 16) := by revert c; decide +kernel
theorem dev_sig_11 (c : Dev nD) : (⟨k0_dev11 c, k0_dev11_lt c⟩ : Dev nD) = c + (11 : Fin 16) := by revert c; decide +kernel
theorem dev_sig_12 (c : Dev nD) : (⟨k0_dev12 c, k0_dev12_lt c⟩ : Dev nD) = c + (12 : Fin 16) := by revert c; decide +kernel
theorem dev_sig_13 (c : Dev nD) : (⟨k0_dev13 c, k0_dev13_lt c⟩ : Dev nD) = c + (13 : Fin 16) := by revert c; decide +kernel
theorem dev_sig_14 (c : Dev nD) : (⟨k0_dev14 c, k0_dev14_lt c⟩ : Dev nD) = c + (14 : Fin 16) := by revert c; decide +kernel
theorem dev_sig_15 (c : Dev nD) : (⟨k0_dev15 c, k0_dev15_lt c⟩ : Dev nD) = c + (15 : Fin 16) := by revert c; decide +kernel
theorem dev_dma_1 (c : Dev nD) : (⟨k0_dev16 c, k0_dev16_lt c⟩ : Dev nD) = c + (1 : Fin 16) := by revert c; decide +kernel
theorem dev_dma_2 (c : Dev nD) : (⟨k0_dev17 c, k0_dev17_lt c⟩ : Dev nD) = c + (2 : Fin 16) := by revert c; decide +kernel
theorem dev_dma_3 (c : Dev nD) : (⟨k0_dev18 c, k0_dev18_lt c⟩ : Dev nD) = c + (3 : Fin 16) := by revert c; decide +kernel
theorem dev_dma_4 (c : Dev nD) : (⟨k0_dev19 c, k0_dev19_lt c⟩ : Dev nD) = c + (4 : Fin 16) := by revert c; decide +kernel
theorem dev_dma_5 (c : Dev nD) : (⟨k0_dev20 c, k0_dev20_lt c⟩ : Dev nD) = c + (5 : Fin 16) := by revert c; decide +kernel
theorem dev_dma_6 (c : Dev nD) : (⟨k0_dev21 c, k0_dev21_lt c⟩ : Dev nD) = c + (6 : Fin 16) := by revert c; decide +kernel
theorem dev_dma_7 (c : Dev nD) : (⟨k0_dev22 c, k0_dev22_lt c⟩ : Dev nD) = c + (7 : Fin 16) := by revert c; decide +kernel
theorem dev_dma_8 (c : Dev nD) : (⟨k0_dev23 c, k0_dev23_lt c⟩ : Dev nD) = c + (8 : Fin 16) := by revert c; decide +kernel
theorem dev_dma_9 (c : Dev nD) : (⟨k0_dev24 c, k0_dev24_lt c⟩ : Dev nD) = c + (9 : Fin 16) := by revert c; decide +kernel
theorem dev_dma_10 (c : Dev nD) : (⟨k0_dev25 c, k0_dev25_lt c⟩ : Dev nD) = c + (10 : Fin 16) := by revert c; decide +kernel
theorem dev_dma_11 (c : Dev nD) : (⟨k0_dev26 c, k0_dev26_lt c⟩ : Dev nD) = c + (11 : Fin 16) := by revert c; decide +kernel
theorem dev_dma_12 (c : Dev nD) : (⟨k0_dev27 c, k0_dev27_lt c⟩ : Dev nD) = c + (12 : Fin 16) := by revert c; decide +kernel
theorem dev_dma_13 (c : Dev nD) : (⟨k0_dev28 c, k0_dev28_lt c⟩ : Dev nD) = c + (13 : Fin 16) := by revert c; decide +kernel
theorem dev_dma_14 (c : Dev nD) : (⟨k0_dev29 c, k0_dev29_lt c⟩ : Dev nD) = c + (14 : Fin 16) := by revert c; decide +kernel
theorem dev_dma_15 (c : Dev nD) : (⟨k0_dev30 c, k0_dev30_lt c⟩ : Dev nD) = c + (15 : Fin 16) := by revert c; decide +kernel

/-! ## Arithmetic modulo 16 -/

theorem add_sub (c : Dev nD) (d : Fin 16) : (c + d) - d = c := by revert c d; decide
theorem sub_add (c : Dev nD) (j : Fin 16) : c - j + j = c := by revert c j; decide
theorem neg_neg16 (j : Fin 16) : -(-j) = j := by revert j; decide
theorem add_neg_eq_sub (c : Dev nD) (j : Fin 16) : c + (-j) = c - j := by revert c j; decide
theorem sub_neg_eq_add (c : Dev nD) (j : Fin 16) : c - (-j) = c + j := by revert c j; decide
theorem add_ne_self (c : Dev nD) (d : Fin 16) (hd : d ≠ 0) : c + d ≠ c := by revert c d; decide
theorem neg_ne_zero16 (j : Fin 16) (hj : j ≠ 0) : -j ≠ 0 := by revert j; decide
theorem add_left_inj16 (c c' : Dev nD) (d : Fin 16) (h : c + d = c' + d) : c = c' := by revert c c' d; decide

/-! ## The semaphores and the tiles as the program spells them -/

theorem sendS_lit_1 : ((cc0_scratch1.slice (Rect.unit (s := S16) ![1] S1.size inb_S16_S1_1)).squeeze S_ squeezes_S1_S_).sem = sendS 1 := by decide
theorem recvS_lit_1 : ((cc0_scratch2.slice (Rect.unit (s := S16) ![1] S1.size inb_S16_S1_1)).squeeze S_ squeezes_S1_S_).sem = recvS 1 := by decide
theorem sendS_lit_2 : ((cc0_scratch1.slice (Rect.unit (s := S16) ![2] S1.size inb_S16_S1_2)).squeeze S_ squeezes_S1_S_).sem = sendS 2 := by decide
theorem recvS_lit_2 : ((cc0_scratch2.slice (Rect.unit (s := S16) ![2] S1.size inb_S16_S1_2)).squeeze S_ squeezes_S1_S_).sem = recvS 2 := by decide
theorem sendS_lit_3 : ((cc0_scratch1.slice (Rect.unit (s := S16) ![3] S1.size inb_S16_S1_3)).squeeze S_ squeezes_S1_S_).sem = sendS 3 := by decide
theorem recvS_lit_3 : ((cc0_scratch2.slice (Rect.unit (s := S16) ![3] S1.size inb_S16_S1_3)).squeeze S_ squeezes_S1_S_).sem = recvS 3 := by decide
theorem sendS_lit_4 : ((cc0_scratch1.slice (Rect.unit (s := S16) ![4] S1.size inb_S16_S1_4)).squeeze S_ squeezes_S1_S_).sem = sendS 4 := by decide
theorem recvS_lit_4 : ((cc0_scratch2.slice (Rect.unit (s := S16) ![4] S1.size inb_S16_S1_4)).squeeze S_ squeezes_S1_S_).sem = recvS 4 := by decide
theorem sendS_lit_5 : ((cc0_scratch1.slice (Rect.unit (s := S16) ![5] S1.size inb_S16_S1_5)).squeeze S_ squeezes_S1_S_).sem = sendS 5 := by decide
theorem recvS_lit_5 : ((cc0_scratch2.slice (Rect.unit (s := S16) ![5] S1.size inb_S16_S1_5)).squeeze S_ squeezes_S1_S_).sem = recvS 5 := by decide
theorem sendS_lit_6 : ((cc0_scratch1.slice (Rect.unit (s := S16) ![6] S1.size inb_S16_S1_6)).squeeze S_ squeezes_S1_S_).sem = sendS 6 := by decide
theorem recvS_lit_6 : ((cc0_scratch2.slice (Rect.unit (s := S16) ![6] S1.size inb_S16_S1_6)).squeeze S_ squeezes_S1_S_).sem = recvS 6 := by decide
theorem sendS_lit_7 : ((cc0_scratch1.slice (Rect.unit (s := S16) ![7] S1.size inb_S16_S1_7)).squeeze S_ squeezes_S1_S_).sem = sendS 7 := by decide
theorem recvS_lit_7 : ((cc0_scratch2.slice (Rect.unit (s := S16) ![7] S1.size inb_S16_S1_7)).squeeze S_ squeezes_S1_S_).sem = recvS 7 := by decide
theorem sendS_lit_8 : ((cc0_scratch1.slice (Rect.unit (s := S16) ![8] S1.size inb_S16_S1_8)).squeeze S_ squeezes_S1_S_).sem = sendS 8 := by decide
theorem recvS_lit_8 : ((cc0_scratch2.slice (Rect.unit (s := S16) ![8] S1.size inb_S16_S1_8)).squeeze S_ squeezes_S1_S_).sem = recvS 8 := by decide
theorem sendS_lit_9 : ((cc0_scratch1.slice (Rect.unit (s := S16) ![9] S1.size inb_S16_S1_9)).squeeze S_ squeezes_S1_S_).sem = sendS 9 := by decide
theorem recvS_lit_9 : ((cc0_scratch2.slice (Rect.unit (s := S16) ![9] S1.size inb_S16_S1_9)).squeeze S_ squeezes_S1_S_).sem = recvS 9 := by decide
theorem sendS_lit_10 : ((cc0_scratch1.slice (Rect.unit (s := S16) ![10] S1.size inb_S16_S1_10)).squeeze S_ squeezes_S1_S_).sem = sendS 10 := by decide
theorem recvS_lit_10 : ((cc0_scratch2.slice (Rect.unit (s := S16) ![10] S1.size inb_S16_S1_10)).squeeze S_ squeezes_S1_S_).sem = recvS 10 := by decide
theorem sendS_lit_11 : ((cc0_scratch1.slice (Rect.unit (s := S16) ![11] S1.size inb_S16_S1_11)).squeeze S_ squeezes_S1_S_).sem = sendS 11 := by decide
theorem recvS_lit_11 : ((cc0_scratch2.slice (Rect.unit (s := S16) ![11] S1.size inb_S16_S1_11)).squeeze S_ squeezes_S1_S_).sem = recvS 11 := by decide
theorem sendS_lit_12 : ((cc0_scratch1.slice (Rect.unit (s := S16) ![12] S1.size inb_S16_S1_12)).squeeze S_ squeezes_S1_S_).sem = sendS 12 := by decide
theorem recvS_lit_12 : ((cc0_scratch2.slice (Rect.unit (s := S16) ![12] S1.size inb_S16_S1_12)).squeeze S_ squeezes_S1_S_).sem = recvS 12 := by decide
theorem sendS_lit_13 : ((cc0_scratch1.slice (Rect.unit (s := S16) ![13] S1.size inb_S16_S1_13)).squeeze S_ squeezes_S1_S_).sem = sendS 13 := by decide
theorem recvS_lit_13 : ((cc0_scratch2.slice (Rect.unit (s := S16) ![13] S1.size inb_S16_S1_13)).squeeze S_ squeezes_S1_S_).sem = recvS 13 := by decide
theorem sendS_lit_14 : ((cc0_scratch1.slice (Rect.unit (s := S16) ![14] S1.size inb_S16_S1_14)).squeeze S_ squeezes_S1_S_).sem = sendS 14 := by decide
theorem recvS_lit_14 : ((cc0_scratch2.slice (Rect.unit (s := S16) ![14] S1.size inb_S16_S1_14)).squeeze S_ squeezes_S1_S_).sem = recvS 14 := by decide
theorem sendS_lit_15 : ((cc0_scratch1.slice (Rect.unit (s := S16) ![15] S1.size inb_S16_S1_15)).squeeze S_ squeezes_S1_S_).sem = sendS 15 := by decide
theorem recvS_lit_15 : ((cc0_scratch2.slice (Rect.unit (s := S16) ![15] S1.size inb_S16_S1_15)).squeeze S_ squeezes_S1_S_).sem = recvS 15 := by decide
theorem tileM_lit_0 : ((Memref.whole cc0_scratch0 : Memref sig .tc .vmem S16x8x128 .f32).slice (Rect.unit (s := S16x8x128) ![0, 0, 0] S1x8x128.size inb_S16x8x128_S1x8x128_0_0_0) (fun _ => rfl)).squeeze S8x128 squeezes_S1x8x128_S8x128 = tileM 0 := rfl
theorem tileM_lit_1 : ((Memref.whole cc0_scratch0 : Memref sig .tc .vmem S16x8x128 .f32).slice (Rect.unit (s := S16x8x128) ![1, 0, 0] S1x8x128.size inb_S16x8x128_S1x8x128_1_0_0) (fun _ => rfl)).squeeze S8x128 squeezes_S1x8x128_S8x128 = tileM 1 := rfl
theorem tileM_lit_2 : ((Memref.whole cc0_scratch0 : Memref sig .tc .vmem S16x8x128 .f32).slice (Rect.unit (s := S16x8x128) ![2, 0, 0] S1x8x128.size inb_S16x8x128_S1x8x128_2_0_0) (fun _ => rfl)).squeeze S8x128 squeezes_S1x8x128_S8x128 = tileM 2 := rfl
theorem tileM_lit_3 : ((Memref.whole cc0_scratch0 : Memref sig .tc .vmem S16x8x128 .f32).slice (Rect.unit (s := S16x8x128) ![3, 0, 0] S1x8x128.size inb_S16x8x128_S1x8x128_3_0_0) (fun _ => rfl)).squeeze S8x128 squeezes_S1x8x128_S8x128 = tileM 3 := rfl
theorem tileM_lit_4 : ((Memref.whole cc0_scratch0 : Memref sig .tc .vmem S16x8x128 .f32).slice (Rect.unit (s := S16x8x128) ![4, 0, 0] S1x8x128.size inb_S16x8x128_S1x8x128_4_0_0) (fun _ => rfl)).squeeze S8x128 squeezes_S1x8x128_S8x128 = tileM 4 := rfl
theorem tileM_lit_5 : ((Memref.whole cc0_scratch0 : Memref sig .tc .vmem S16x8x128 .f32).slice (Rect.unit (s := S16x8x128) ![5, 0, 0] S1x8x128.size inb_S16x8x128_S1x8x128_5_0_0) (fun _ => rfl)).squeeze S8x128 squeezes_S1x8x128_S8x128 = tileM 5 := rfl
theorem tileM_lit_6 : ((Memref.whole cc0_scratch0 : Memref sig .tc .vmem S16x8x128 .f32).slice (Rect.unit (s := S16x8x128) ![6, 0, 0] S1x8x128.size inb_S16x8x128_S1x8x128_6_0_0) (fun _ => rfl)).squeeze S8x128 squeezes_S1x8x128_S8x128 = tileM 6 := rfl
theorem tileM_lit_7 : ((Memref.whole cc0_scratch0 : Memref sig .tc .vmem S16x8x128 .f32).slice (Rect.unit (s := S16x8x128) ![7, 0, 0] S1x8x128.size inb_S16x8x128_S1x8x128_7_0_0) (fun _ => rfl)).squeeze S8x128 squeezes_S1x8x128_S8x128 = tileM 7 := rfl
theorem tileM_lit_8 : ((Memref.whole cc0_scratch0 : Memref sig .tc .vmem S16x8x128 .f32).slice (Rect.unit (s := S16x8x128) ![8, 0, 0] S1x8x128.size inb_S16x8x128_S1x8x128_8_0_0) (fun _ => rfl)).squeeze S8x128 squeezes_S1x8x128_S8x128 = tileM 8 := rfl
theorem tileM_lit_9 : ((Memref.whole cc0_scratch0 : Memref sig .tc .vmem S16x8x128 .f32).slice (Rect.unit (s := S16x8x128) ![9, 0, 0] S1x8x128.size inb_S16x8x128_S1x8x128_9_0_0) (fun _ => rfl)).squeeze S8x128 squeezes_S1x8x128_S8x128 = tileM 9 := rfl
theorem tileM_lit_10 : ((Memref.whole cc0_scratch0 : Memref sig .tc .vmem S16x8x128 .f32).slice (Rect.unit (s := S16x8x128) ![10, 0, 0] S1x8x128.size inb_S16x8x128_S1x8x128_10_0_0) (fun _ => rfl)).squeeze S8x128 squeezes_S1x8x128_S8x128 = tileM 10 := rfl
theorem tileM_lit_11 : ((Memref.whole cc0_scratch0 : Memref sig .tc .vmem S16x8x128 .f32).slice (Rect.unit (s := S16x8x128) ![11, 0, 0] S1x8x128.size inb_S16x8x128_S1x8x128_11_0_0) (fun _ => rfl)).squeeze S8x128 squeezes_S1x8x128_S8x128 = tileM 11 := rfl
theorem tileM_lit_12 : ((Memref.whole cc0_scratch0 : Memref sig .tc .vmem S16x8x128 .f32).slice (Rect.unit (s := S16x8x128) ![12, 0, 0] S1x8x128.size inb_S16x8x128_S1x8x128_12_0_0) (fun _ => rfl)).squeeze S8x128 squeezes_S1x8x128_S8x128 = tileM 12 := rfl
theorem tileM_lit_13 : ((Memref.whole cc0_scratch0 : Memref sig .tc .vmem S16x8x128 .f32).slice (Rect.unit (s := S16x8x128) ![13, 0, 0] S1x8x128.size inb_S16x8x128_S1x8x128_13_0_0) (fun _ => rfl)).squeeze S8x128 squeezes_S1x8x128_S8x128 = tileM 13 := rfl
theorem tileM_lit_14 : ((Memref.whole cc0_scratch0 : Memref sig .tc .vmem S16x8x128 .f32).slice (Rect.unit (s := S16x8x128) ![14, 0, 0] S1x8x128.size inb_S16x8x128_S1x8x128_14_0_0) (fun _ => rfl)).squeeze S8x128 squeezes_S1x8x128_S8x128 = tileM 14 := rfl
theorem tileM_lit_15 : ((Memref.whole cc0_scratch0 : Memref sig .tc .vmem S16x8x128 .f32).slice (Rect.unit (s := S16x8x128) ![15, 0, 0] S1x8x128.size inb_S16x8x128_S1x8x128_15_0_0) (fun _ => rfl)).squeeze S8x128 squeezes_S1x8x128_S8x128 = tileM 15 := rfl

/-- A tile's copy credits a positive number of units. -/
theorem N_pos : 0 < N := View.dmaCredit_pos _ (by decide)

/-- Every tile's copy credits the same number of units, on whichever DMA semaphore it completes. -/
theorem tile_credit (d : Fin 16) : (tileM d : Memref sig .tc .vmem S8x128 .f32).view.dmaCredit = N := rfl
theorem tile_amount_recv (d d' : Fin 16) : (tileM d : Memref sig .tc .vmem S8x128 .f32).view.amount (.dma (recvS d')) = N := rfl
theorem tile_amount_send (d d' : Fin 16) : (tileM d : Memref sig .tc .vmem S8x128 .f32).view.amount (.dma (sendS d')) = N := rfl

/-! ## Products over the offsets, written out -/

/-- A product over the fifteen peers' offsets is the chain of its fifteen factors, in increasing offset. -/
theorem bigSep_offs (Φ : Fin 16 → sProp 𝕄) :
    bigSep offs Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_eq_bigSepL_of_eq [1, 2, 3, 4, 5, 6, 7, 8, 9, 10, 11, 12, 13, 14, 15] (by decide) (by decide)]
  rfl

/-- A product over all sixteen offsets is the chain of its sixteen factors. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  rfl

theorem card_offs : offs.card = 15 := by decide

/-! ## The schedule's tables -/

instance tilePts_storable (c : Dev nD) (d : Fin 16) (q : PosShare TreeShare)
    (f : Buf (Elt F) ((tileM d : Memref sig .tc .vmem S8x128 .f32).view.loc (c : Thread nD τ))) :
    BI.Storable (upEmb : UEmb _ 𝕄) (tilePts (F := F) c d q f) := by unfold tilePts; infer_instance

instance Rd_payload_storable (g : GSem nD τ sig) (r : ℕ) (j : Fin 16) :
    BI.Storable (upEmb : UEmb _ 𝕄) ((Rd (F := F) m).payload g r j) := by
  obtain ⟨t, sm⟩ := g
  cases sm with
  | reg s =>
    show BI.Storable upEmb (barPay (F := F) t.1 j)
    unfold barPay
    infer_instance
  | dma q =>
    show BI.Storable upEmb (if h : 20 ≤ q.val then recvPay m t.1 ⟨q.val - 20, _⟩
      else if h' : 4 ≤ q.val then sendPay m t.1 ⟨q.val - 4, _⟩ else iprop(emp))
    unfold recvPay sendPay
    split
    · infer_instance
    · split <;> infer_instance

section Sched
variable (c : Dev nD) (d j : Fin 16)

theorem duties_bar : (Rd (F := F) m).duties (barCell c) 0 = offs := by
  dsimp only [Rd]; exact if_pos ⟨rfl, rfl⟩

theorem duties_send (hd : d ≠ 0) : (Rd (F := F) m).duties (sendCell c d) 0 = {0} := by
  have h1 : 1 ≤ d.val := Nat.pos_of_ne_zero fun h => hd (Fin.ext h)
  have h2 := d.isLt
  dsimp only [Rd]
  rw [if_pos ⟨rfl, rfl⟩]
  exact if_pos (Or.inl ⟨by show 5 ≤ 4 + d.val; omega, by show 4 + d.val ≤ 19; omega⟩)

theorem duties_recv (hd : d ≠ 0) : (Rd (F := F) m).duties (recvCell c d) 0 = {0} := by
  have h1 : 1 ≤ d.val := Nat.pos_of_ne_zero fun h => hd (Fin.ext h)
  dsimp only [Rd]
  rw [if_pos ⟨rfl, rfl⟩]
  exact if_pos (Or.inr (by show 21 ≤ 20 + d.val; omega))

theorem duties_idle_send (r : ℕ) : (Rd (F := F) m).duties (sendCell c 0) r = ∅ := by
  dsimp only [Rd]
  split
  · exact if_neg (by decide)
  · rfl

theorem duties_idle_recv (r : ℕ) : (Rd (F := F) m).duties (recvCell c 0) r = ∅ := by
  dsimp only [Rd]
  split
  · exact if_neg (by decide)
  · rfl

theorem duties_later (g : GSem nD τ sig) (r : ℕ) (hr : 1 ≤ r) : (Rd (F := F) m).duties g r = ∅ := by
  dsimp only [Rd]
  exact if_neg fun h => by have := h.1; omega

theorem amount_bar : (Rd (F := F) m).amount (barCell c) 0 j = 1 := rfl
theorem amount_send : (Rd (F := F) m).amount (sendCell c d) 0 j = N := rfl
theorem amount_recv : (Rd (F := F) m).amount (recvCell c d) 0 j = N := rfl

theorem expect_bar : (Rd (F := F) m).expect (barCell c) 0 = 15 := by
  unfold Schedule.expect Schedule.amountOf
  rw [duties_bar, Finset.sum_congr rfl fun j _ => amount_bar m c j, Finset.sum_const, card_offs, smul_eq_mul]

theorem expect_send (hd : d ≠ 0) : (Rd (F := F) m).expect (sendCell c d) 0 = N := by
  unfold Schedule.expect Schedule.amountOf
  rw [duties_send m c d hd, Finset.sum_singleton, amount_send]

theorem expect_recv (hd : d ≠ 0) : (Rd (F := F) m).expect (recvCell c d) 0 = N := by
  unfold Schedule.expect Schedule.amountOf
  rw [duties_recv m c d hd, Finset.sum_singleton, amount_recv]

theorem payload_bar : (Rd (F := F) m).payload (barCell c) 0 j = barPay c j := rfl

theorem payload_send : (Rd (F := F) m).payload (sendCell c d) 0 j = sendPay m c d := by
  have h2 := d.isLt
  show (if h : 20 ≤ 4 + d.val then recvPay m c ⟨4 + d.val - 20, _⟩
    else if h' : 4 ≤ 4 + d.val then sendPay m c ⟨4 + d.val - 4, _⟩ else iprop(emp)) = _
  rw [dif_neg (by omega), dif_pos (by omega)]
  congr 1
  exact Fin.ext (by show 4 + d.val - 4 = d.val; omega)

theorem payload_recv : (Rd (F := F) m).payload (recvCell c d) 0 j = recvPay m c d := by
  show (if h : 20 ≤ 20 + d.val then recvPay m c ⟨20 + d.val - 20, _⟩
    else if h' : 4 ≤ 20 + d.val then sendPay m c ⟨20 + d.val - 4, _⟩ else iprop(emp)) = _
  rw [dif_pos (by omega)]
  congr 1
  exact Fin.ext (by show 20 + d.val - 20 = d.val; omega)

/-- The rest of a barrier cell's round, no duty taken: the fifteen peers' payloads, in increasing offset. -/
theorem rest_bar : bigSep ((Rd (F := F) m).duties (barCell c) 0 \ ∅) (fun j => (Rd (F := F) m).payload (barCell c) 0 j)
    = iprop(barPay (F := F) c 1 ∗ barPay (F := F) c 2 ∗ barPay (F := F) c 3 ∗ barPay (F := F) c 4 ∗ barPay (F := F) c 5 ∗ barPay (F := F) c 6 ∗ barPay (F := F) c 7 ∗ barPay (F := F) c 8 ∗ barPay (F := F) c 9 ∗ barPay (F := F) c 10 ∗ barPay (F := F) c 11 ∗ barPay (F := F) c 12 ∗ barPay (F := F) c 13 ∗ barPay (F := F) c 14 ∗ barPay (F := F) c 15) := by
  rw [Finset.sdiff_empty, duties_bar, bigSep_offs]
  rfl

theorem rest_send (hd : d ≠ 0) : bigSep ((Rd (F := F) m).duties (sendCell c d) 0 \ ∅) (fun j => (Rd (F := F) m).payload (sendCell c d) 0 j)
    = sendPay m c d := by
  rw [Finset.sdiff_empty, duties_send m c d hd, bigSep_singleton, payload_send]

theorem rest_recv (hd : d ≠ 0) : bigSep ((Rd (F := F) m).duties (recvCell c d) 0 \ ∅) (fun j => (Rd (F := F) m).payload (recvCell c d) 0 j)
    = recvPay m c d := by
  rw [Finset.sdiff_empty, duties_recv m c d hd, bigSep_singleton, payload_recv]

end Sched

/-! ## The debts, peeled one offset at a time -/

theorem oweR_zero (c : Dev nD) : oweR c 0 = 0 := rfl
theorem oweR_succ (c : Dev nD) (k : ℕ) : oweR c (k + 1) = oweR c k + tallyAt (recvCell (c + offOf (k + 1)) (offOf (k + 1))) () N := rfl
theorem oweB_zero (c : Dev nD) : oweB c 0 = oweR c 15 := rfl
theorem oweB_succ (c : Dev nD) (k : ℕ) : oweB c (k + 1) = oweB c k + tallyAt (barCell (c + offOf (k + 1))) () 1 := rfl
theorem O₀_eq (c : Dev nD) : O₀ c = oweB c 15 := rfl

theorem offOf_1 : offOf 1 = (15 : Fin 16) := rfl
theorem offOf_2 : offOf 2 = (14 : Fin 16) := rfl
theorem offOf_3 : offOf 3 = (13 : Fin 16) := rfl
theorem offOf_4 : offOf 4 = (12 : Fin 16) := rfl
theorem offOf_5 : offOf 5 = (11 : Fin 16) := rfl
theorem offOf_6 : offOf 6 = (10 : Fin 16) := rfl
theorem offOf_7 : offOf 7 = (9 : Fin 16) := rfl
theorem offOf_8 : offOf 8 = (8 : Fin 16) := rfl
theorem offOf_9 : offOf 9 = (7 : Fin 16) := rfl
theorem offOf_10 : offOf 10 = (6 : Fin 16) := rfl
theorem offOf_11 : offOf 11 = (5 : Fin 16) := rfl
theorem offOf_12 : offOf 12 = (4 : Fin 16) := rfl
theorem offOf_13 : offOf 13 = (3 : Fin 16) := rfl
theorem offOf_14 : offOf 14 = (2 : Fin 16) := rfl
theorem offOf_15 : offOf 15 = (1 : Fin 16) := rfl

theorem owe_sig_1 (c : Dev nD) : oweB c 15 = oweB c 14 + tallyAt (barCell (c + (1 : Fin 16))) () 1 := rfl
theorem owe_sig_2 (c : Dev nD) : oweB c 14 = oweB c 13 + tallyAt (barCell (c + (2 : Fin 16))) () 1 := rfl
theorem owe_sig_3 (c : Dev nD) : oweB c 13 = oweB c 12 + tallyAt (barCell (c + (3 : Fin 16))) () 1 := rfl
theorem owe_sig_4 (c : Dev nD) : oweB c 12 = oweB c 11 + tallyAt (barCell (c + (4 : Fin 16))) () 1 := rfl
theorem owe_sig_5 (c : Dev nD) : oweB c 11 = oweB c 10 + tallyAt (barCell (c + (5 : Fin 16))) () 1 := rfl
theorem owe_sig_6 (c : Dev nD) : oweB c 10 = oweB c 9 + tallyAt (barCell (c + (6 : Fin 16))) () 1 := rfl
theorem owe_sig_7 (c : Dev nD) : oweB c 9 = oweB c 8 + tallyAt (barCell (c + (7 : Fin 16))) () 1 := rfl
theorem owe_sig_8 (c : Dev nD) : oweB c 8 = oweB c 7 + tallyAt (barCell (c + (8 : Fin 16))) () 1 := rfl
theorem owe_sig_9 (c : Dev nD) : oweB c 7 = oweB c 6 + tallyAt (barCell (c + (9 : Fin 16))) () 1 := rfl
theorem owe_sig_10 (c : Dev nD) : oweB c 6 = oweB c 5 + tallyAt (barCell (c + (10 : Fin 16))) () 1 := rfl
theorem owe_sig_11 (c : Dev nD) : oweB c 5 = oweB c 4 + tallyAt (barCell (c + (11 : Fin 16))) () 1 := rfl
theorem owe_sig_12 (c : Dev nD) : oweB c 4 = oweB c 3 + tallyAt (barCell (c + (12 : Fin 16))) () 1 := rfl
theorem owe_sig_13 (c : Dev nD) : oweB c 3 = oweB c 2 + tallyAt (barCell (c + (13 : Fin 16))) () 1 := rfl
theorem owe_sig_14 (c : Dev nD) : oweB c 2 = oweB c 1 + tallyAt (barCell (c + (14 : Fin 16))) () 1 := rfl
theorem owe_sig_15 (c : Dev nD) : oweB c 1 = oweB c 0 + tallyAt (barCell (c + (15 : Fin 16))) () 1 := rfl
theorem owe_dma_1 (c : Dev nD) : oweR c 15 = oweR c 14 + tallyAt (recvCell (c + (1 : Fin 16)) 1) () N := rfl
theorem owe_dma_2 (c : Dev nD) : oweR c 14 = oweR c 13 + tallyAt (recvCell (c + (2 : Fin 16)) 2) () N := rfl
theorem owe_dma_3 (c : Dev nD) : oweR c 13 = oweR c 12 + tallyAt (recvCell (c + (3 : Fin 16)) 3) () N := rfl
theorem owe_dma_4 (c : Dev nD) : oweR c 12 = oweR c 11 + tallyAt (recvCell (c + (4 : Fin 16)) 4) () N := rfl
theorem owe_dma_5 (c : Dev nD) : oweR c 11 = oweR c 10 + tallyAt (recvCell (c + (5 : Fin 16)) 5) () N := rfl
theorem owe_dma_6 (c : Dev nD) : oweR c 10 = oweR c 9 + tallyAt (recvCell (c + (6 : Fin 16)) 6) () N := rfl
theorem owe_dma_7 (c : Dev nD) : oweR c 9 = oweR c 8 + tallyAt (recvCell (c + (7 : Fin 16)) 7) () N := rfl
theorem owe_dma_8 (c : Dev nD) : oweR c 8 = oweR c 7 + tallyAt (recvCell (c + (8 : Fin 16)) 8) () N := rfl
theorem owe_dma_9 (c : Dev nD) : oweR c 7 = oweR c 6 + tallyAt (recvCell (c + (9 : Fin 16)) 9) () N := rfl
theorem owe_dma_10 (c : Dev nD) : oweR c 6 = oweR c 5 + tallyAt (recvCell (c + (10 : Fin 16)) 10) () N := rfl
theorem owe_dma_11 (c : Dev nD) : oweR c 5 = oweR c 4 + tallyAt (recvCell (c + (11 : Fin 16)) 11) () N := rfl
theorem owe_dma_12 (c : Dev nD) : oweR c 4 = oweR c 3 + tallyAt (recvCell (c + (12 : Fin 16)) 12) () N := rfl
theorem owe_dma_13 (c : Dev nD) : oweR c 3 = oweR c 2 + tallyAt (recvCell (c + (13 : Fin 16)) 13) () N := rfl
theorem owe_dma_14 (c : Dev nD) : oweR c 2 = oweR c 1 + tallyAt (recvCell (c + (14 : Fin 16)) 14) () N := rfl
theorem owe_dma_15 (c : Dev nD) : oweR c 1 = oweR c 0 + tallyAt (recvCell (c + (15 : Fin 16)) 15) () N := rfl

end Cert.KernelIdeal.Hand

end
-- ==== Proof.HandKernelIdeal.Credit.lean ====
/-
  The credit the launch deals each device: what all sixteen devices together owe each of its cells.

  Device `p` owes device `c`'s barrier cell one unit exactly when `p ≠ c` (its signal of offset `c - p`), so the sixteen
  devices owe it fifteen units. Device `p` owes `c`'s receive cell of offset `d ≠ 0` a tile's credit exactly when
  `p = c - d` (its copy of offset `d`), so the devices owe it one tile's credit.
-/
import proofs.«900827_g7700000000000828_dist_layernorm_colshard_i_m512_n256_v7x_i16_f32_1_alg».proof.Proof.HandKernelIdeal.Tables
import proofs.«900827_g7700000000000828_dist_layernorm_colshard_i_m512_n256_v7x_i16_f32_1_alg».proof.Proof.HandKernelIdeal.Levels

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Telling the cells apart -/

theorem bar_eq_iff {a b : Dev nD} : barCell a = barCell b ↔ a = b :=
  ⟨fun h => congrArg (fun g : GSem nD τ sig => g.1.1) h, fun h => h ▸ rfl⟩

theorem recv_eq_iff {a b : Dev nD} {d e : Fin 16} : recvCell a d = recvCell b e ↔ a = b ∧ d = e :=
  ⟨fun h => ⟨congrArg (fun g : GSem nD τ sig => g.1.1) h, by
      have hv : 20 + d.val = 20 + e.val :=
        congrArg (fun g : GSem nD τ sig => match g.2 with | .dma q => q.val | .reg _ => 0) h
      exact Fin.ext (by omega)⟩,
    fun ⟨h1, h2⟩ => h1 ▸ h2 ▸ rfl⟩

theorem recv_ne_bar (a b : Dev nD) (d : Fin 16) : recvCell a d ≠ barCell b := fun h => by
  have h2 := congrArg Prod.snd h
  cases h2

/-! ## What one device owes one cell -/

/-- No receive credit is owed to a barrier cell. -/
theorem oweR_bar (p c : Dev nD) : ∀ k, oweR p k (barCell c) () = 0
  | 0 => rfl
  | k + 1 => by
    rw [oweR_succ, Pi.add_apply, Finsupp.add_apply, oweR_bar p c k, tallyAt_ne_cell (recv_ne_bar _ _ _).symm]
    rfl

/-- The barrier units `p` owes `c`'s barrier cell among its first `k` summands: one for each summand whose offset leads from
    `p` to `c`. -/
theorem oweB_bar (p c : Dev nD) : ∀ k, oweB p k (barCell c) () = ∑ i ∈ Finset.range k, if c = p + offOf (i + 1) then 1 else 0
  | 0 => by rw [oweB_zero, oweR_bar, Finset.sum_range_zero]
  | k + 1 => by
    rw [oweB_succ, Pi.add_apply, Finsupp.add_apply, oweB_bar p c k, tallyAt_apply, Finset.sum_range_succ]
    congr 1
    exact if_congr ⟨fun h => bar_eq_iff.mp h.1, fun h => ⟨bar_eq_iff.mpr h, rfl⟩⟩ rfl rfl

/-- The receive credits `p` owes `c`'s receive cell of offset `d` among its first `k` summands. -/
theorem oweR_recv (p c : Dev nD) (d : Fin 16) : ∀ k, oweR p k (recvCell c d) ()
    = N * ∑ i ∈ Finset.range k, if c = p + offOf (i + 1) ∧ d = offOf (i + 1) then 1 else 0
  | 0 => by rw [oweR_zero, Finset.sum_range_zero, Nat.mul_zero]; rfl
  | k + 1 => by
    rw [oweR_succ, Pi.add_apply, Finsupp.add_apply, oweR_recv p c d k, tallyAt_apply, Finset.sum_range_succ, Nat.mul_add]
    congr 1
    by_cases h : c = p + offOf (k + 1) ∧ d = offOf (k + 1)
    · rw [if_pos h, if_pos ⟨recv_eq_iff.mpr h, rfl⟩, Nat.mul_one]
    · rw [if_neg h, if_neg (fun h' => h (recv_eq_iff.mp h'.1)), Nat.mul_zero]

/-- No barrier unit is owed to a receive cell. -/
theorem oweB_recv (p c : Dev nD) (d : Fin 16) : ∀ k, oweB p k (recvCell c d) () = oweR p 15 (recvCell c d) ()
  | 0 => rfl
  | k + 1 => by
    rw [oweB_succ, Pi.add_apply, Finsupp.add_apply, oweB_recv p c d k, tallyAt_ne_cell (recv_ne_bar _ _ _)]
    rfl

/-! ## Counting modulo 16 -/

/-- Exactly the fifteen devices `p ≠ c` reach `c` by a nonzero offset, each by one. -/
theorem count_bar : ∀ c : Fin 16, (∑ p : Fin 16, ∑ i ∈ Finset.range 15, if c = p + offOf (i + 1) then 1 else 0) = 15 := by
  decide +kernel

/-- Exactly one device reaches `c` by the nonzero offset `d`. -/
theorem count_recv : ∀ c d : Fin 16, d ≠ 0 →
    (∑ p : Fin 16, ∑ i ∈ Finset.range 15, if c = p + offOf (i + 1) ∧ d = offOf (i + 1) then 1 else 0) = 1 := by
  decide +kernel

/-! ## The launch credit -/

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same,
    Finset.sum_congr rfl fun p _ => (show O₀ p (barCell c) () = _ from oweB_bar p c 15)]
  exact count_bar c

theorem launch_recv (c : Dev nD) (d : Fin 16) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same,
    Finset.sum_congr rfl fun p _ => (show O₀ p (recvCell c d) () = _ from (oweB_recv p c d 15).trans (oweR_recv p c d 15)),
    ← Finset.mul_sum, count_recv c d hd, Nat.mul_one]

/-- Distinct offsets have distinct receive semaphores. -/
theorem recvSem_inj : Set.InjOn (fun d : Fin 16 => (SemLoc.dma (recvS d) : SemLoc sig)) (offs : Finset (Fin 16)) := fun d _ e _ h => by
  have hv : 20 + d.val = 20 + e.val := congrArg (fun s : SemLoc sig => match s with | .dma q => q.val | .reg _ => 0) h
  exact Fin.ext (by omega)

theorem recvSem_sub : (offs.image fun d : Fin 16 => (SemLoc.dma (recvS d) : SemLoc sig)) ⊆ Finset.univ.erase (SemLoc.reg barS : SemLoc sig) := by
  intro sm h
  obtain ⟨d, -, rfl⟩ := Finset.mem_image.mp h
  exact Finset.mem_erase.mpr ⟨fun h => (by cases h), Finset.mem_univ _⟩

/-- The launch deals device `c` its barrier cell's fifteen units and each receive cell's credit. -/
theorem creds (c : Dev nD) : (Pipeline.launchCred O₀ c : sProp 𝕄) ⊢ credits c := by
  unfold Pipeline.launchCred credits
  rw [bigSep_univ_at _ (SemLoc.reg barS), launch_bar]
  refine sep_mono_right ?_
  have key := bigSep_subset recvSem_sub
    (Φ := fun sm : SemLoc sig => (cred (tallyOn ((c.tc : Thread nD τ), sm) (launchCredit (Pipeline.owing O₀) 0 ((c.tc : Thread nD τ), sm))) : sProp 𝕄))
  rw [bigSep_image_of_injOn recvSem_inj] at key
  refine key.trans (bigSep_mono fun d hd => ?_)
  rw [launch_recv c d (Finset.ne_of_mem_erase hd)]
  exact .refl _

end Cert.KernelIdeal.Hand

end
-- ==== Proof.HandKernelIdeal.Launch.lean ====
/-
  The launch: from the body of one device, proved at a symbolic place, to the run of the whole program on sixteen devices.

  Each device owes, when the program starts, one unit to the barrier semaphore of each of its fifteen peers and one tile's
  credit to the receive semaphore of offset `d` of the peer `d` places after it. Summed over the devices, every barrier
  semaphore is owed fifteen units and every receive semaphore of an offset `d ≠ 0` one tile's credit: that is the credit a
  device starts with. The duty tokens of a device's own cells are dealt to the devices that pay them: the token of duty `d`
  of `c + d`'s barrier cell, and the token of `c + d`'s receive cell of offset `d`, go to `c` — a re-indexing of the pairs
  (device, offset) by the bijection `(c, d) ↦ (c + d, d)`.

  Waiting never deadlocks: staging semaphores sit at level 0, barrier cells at 1, receive cells at 2, and a device waits
  on a cell only while everything it still owes lies strictly above it.
-/
import proofs.«900827_g7700000000000828_dist_layernorm_colshard_i_m512_n256_v7x_i16_f32_1_alg».proof.Proof.HandKernelIdeal.Proto
import proofs.«900827_g7700000000000828_dist_layernorm_colshard_i_m512_n256_v7x_i16_f32_1_alg».proof.Proof.HandKernelIdeal.Levels
import proofs.«900827_g7700000000000828_dist_layernorm_colshard_i_m512_n256_v7x_i16_f32_1_alg».proof.Proof.HandKernelIdeal.Tables
import proofs.«900827_g7700000000000828_dist_layernorm_colshard_i_m512_n256_v7x_i16_f32_1_alg».proof.Proof.HandKernelIdeal.Final
import proofs.«900827_g7700000000000828_dist_layernorm_colshard_i_m512_n256_v7x_i16_f32_1_alg».proof.Proof.HandKernelIdeal.Credit
import proofs.«900827_g7700000000000828_dist_layernorm_colshard_i_m512_n256_v7x_i16_f32_1_alg».proof.Proof.Gen.KernelIdeal.Launch
import proofs.«900827_g7700000000000828_dist_layernorm_colshard_i_m512_n256_v7x_i16_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the exchange and the duty tokens minted at launch -/

theorem csem_injective : Function.Injective (csem : Fin 33 → SemLoc sig) := by
  intro k k' h
  have hk : ∀ k : Fin 33, csem k = if k.val = 0 then SemLoc.reg barS else SemLoc.dma ⟨3 + k.val, by show 3 + k.val < 36; omega⟩ := fun _ => rfl
  rw [hk, hk] at h
  by_cases h0 : k.val = 0 <;> by_cases h0' : k'.val = 0
  · exact Fin.ext (h0.trans h0'.symm)
  · rw [if_pos h0, if_neg h0'] at h; cases h
  · rw [if_neg h0, if_pos h0'] at h; cases h
  · rw [if_neg h0, if_neg h0'] at h
    exact Fin.ext (Nat.add_left_cancel (congrArg Fin.val (SemLoc.dma.inj h)))

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- Every cell of the exchange: thirty-three a device. -/
def xcells : Finset (GSem nD τ sig) := Finset.univ.map ⟨kcell, kcell_injective⟩

theorem kcell_bar (c : Dev nD) : kcell (c, (0 : Fin 33)) = barCell c := rfl
theorem kcell_send (c : Dev nD) (d : Fin 16) : kcell (c, (⟨1 + d.val, by omega⟩ : Fin 33)) = sendCell c d :=
  Prod.ext rfl (by
    show (if 1 + d.val = 0 then SemLoc.reg barS else SemLoc.dma ⟨3 + (1 + d.val), _⟩) = SemLoc.dma (sendS d)
    rw [if_neg (by omega)]; exact congrArg SemLoc.dma (Fin.ext (by show 3 + (1 + d.val) = 4 + d.val; omega)))
theorem kcell_recv (c : Dev nD) (d : Fin 16) : kcell (c, (⟨17 + d.val, by omega⟩ : Fin 33)) = recvCell c d :=
  Prod.ext rfl (by
    show (if 17 + d.val = 0 then SemLoc.reg barS else SemLoc.dma ⟨3 + (17 + d.val), _⟩) = SemLoc.dma (recvS d)
    rw [if_neg (by omega)]; exact congrArg SemLoc.dma (Fin.ext (by show 3 + (17 + d.val) = 20 + d.val; omega)))
theorem kcell_succ (c : Dev nD) (k : Fin 32) : kcell (c, k.succ) = ((c : Thread nD τ), osem k) :=
  Prod.ext rfl (by
    show (if k.val + 1 = 0 then SemLoc.reg barS else SemLoc.dma ⟨3 + (k.val + 1), _⟩) = SemLoc.dma ⟨4 + k.val, _⟩
    rw [if_neg (by omega)]; exact congrArg SemLoc.dma (Fin.ext (by show 3 + (k.val + 1) = 4 + k.val; omega)))

/-- The tokens minted for a device's own cells, by offset: the barrier cell's duty `d`, the send cell's and the receive
    cell's one duty: (which cell, which duty). -/
def slot (x : Fin 16 × Fin 3) : Fin 33 × Fin 16 :=
  match x.2 with
  | 0 => (0, x.1)
  | 1 => (⟨1 + x.1.val, by omega⟩, 0)
  | 2 => (⟨17 + x.1.val, by omega⟩, 0)
theorem slot_injective : Function.Injective slot := by decide

abbrev tokOf (x : Dev nD × Fin 16 × Fin 3) : GSem nD τ sig × ℕ × Fin 16 := (kcell (x.1, (slot x.2).1), 0, (slot x.2).2)
theorem tokOf_injective : Function.Injective tokOf := by
  rintro ⟨c, y⟩ ⟨c', y'⟩ h
  have hk := kcell_injective (congrArg (fun x : GSem nD τ sig × ℕ × Fin 16 => x.1) h)
  have hd : (slot y).2 = (slot y').2 := congrArg (fun x : GSem nD τ sig × ℕ × Fin 16 => x.2.2) h
  have h1 : c = c' := congrArg Prod.fst hk
  have h2 : (slot y).1 = (slot y').1 := congrArg Prod.snd hk
  rw [h1, slot_injective (Prod.ext h2 hd)]
def xtoks : Finset (GSem nD τ sig × ℕ × Fin 16) := Finset.univ.map ⟨tokOf, tokOf_injective⟩

/-- The launch element: the pipeline library's and the exchange's. -/
def u₀ : UU :=
  (initOf (Pipeline.cells cfgs cellOf_inj) (Pipeline.launchToks cfgs cellOf_inj), initOf xcells xtoks)

/-- The duty tokens of device `c`'s own cells. -/
def toks (c : Dev nD) : sProp 𝕄 :=
  bigSep Finset.univ fun d : Fin 16 =>
    iprop(dutyTok ER (barCell c) 0 d ∗ dutyTok ER (sendCell c d) 0 (0 : Fin 16) ∗ dutyTok ER (recvCell c d) 0 (0 : Fin 16))

/-- What the launch element deals device `c` (the launch theorem's `G`). -/
def G (c : Dev nD) : sProp 𝕄 :=
  iprop((bigSep Finset.univ fun k : Fin 33 => roundState ER (Rd m) (kcell (c, k)) 0)
    ∗ (bigSep Finset.univ fun k : Fin 33 => iprop(atPos ER (kcell (c, k)) 0 ∅ 0 ∗ reached ER (kcell (c, k)) 0)) ∗ toks c)

/-- What the global step makes of it (`G'`). -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- A conjunction over `n + 1` indices: the first and the rest. -/
theorem bigSep_fin_succ {n : ℕ} (Φ : Fin (n + 1) → sProp 𝕄) :
    bigSep Finset.univ Φ = iprop(Φ 0 ∗ bigSep Finset.univ fun k : Fin n => Φ k.succ) := by
  rw [bigSep_univ_split (0 : Fin (n + 1)),
    show (Finset.univ : Finset (Fin (n + 1))).erase 0 = Finset.univ.map ⟨Fin.succ, Fin.succ_injective n⟩ from by
      ext x; simp [Fin.exists_succ_eq],
    bigSep_map]
  rfl

omit [FloatOps F] in
/-- A conjunction over thirty-three indices: index 0, then by offset `d` the indices `1 + d` and `17 + d`. -/
theorem bigSep_fin33 (Φ : Fin 33 → sProp 𝕄) :
    bigSep Finset.univ Φ = iprop(Φ 0 ∗ bigSep Finset.univ fun d : Fin 16 => iprop(Φ ⟨1 + d.val, by omega⟩ ∗ Φ ⟨17 + d.val, by omega⟩)) := by
  rw [bigSep_fin_succ, bigSep_univ_equiv (finSumFinEquiv (m := 16) (n := 16)) (fun k : Fin 32 => Φ k.succ), bigSep_univ_sum, bigSep_sep']
  congr 2
  all_goals (funext d; exact congrArg Φ (Fin.ext (by simp [finSumFinEquiv]; omega)))

theorem fund_ring : BI.own (ER (initOf xcells xtoks)) ⊢ (|==> bigSep Finset.univ (G m) : sProp 𝕄) := by
  have hX (Φ : GSem nD τ sig → sProp 𝕄) : bigSep xcells Φ = bigSep Finset.univ fun c : Dev nD => bigSep Finset.univ fun k : Fin 33 => Φ (kcell (c, k)) := by
    unfold xcells; rw [bigSep_map, bigSep_univ_prod]; rfl
  have hT : bigSep xtoks (fun x => (dutyTok ER x.1 x.2.1 x.2.2 : sProp 𝕄)) = bigSep Finset.univ fun c : Dev nD => toks c := by
    unfold xtoks; rw [bigSep_map, bigSep_univ_prod]
    refine bigSep_congr fun c _ => ?_
    unfold toks; rw [bigSep_univ_prod]
    refine bigSep_congr fun d _ => ?_
    rw [bigSep_fin3, ← kcell_send c d, ← kcell_recv c d]; rfl
  iintro HX
  imod (Rounds.fund ER (Rd m) xcells xtoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The thirty-two own semaphores and the barrier semaphore are the device's thirty-three cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin_succ]
  unfold Pipeline.ownSems0
  simp only [kcell_succ]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (Rd m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd m) (kcell (c, k)) 0)
      ⊢ (|={Set.univ}=> bigSep Finset.univ fun k : Fin 33 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: names for every cell's invariant, and the tokens dealt to their payers -/

instance records_persistent (K : Dev nD × Fin 33 → ℕ) : BI.Persistent (records m K) := by unfold records; infer_instance

theorem ghost_intro (K : Dev nD × Fin 33 → ℕ) (c : Dev nD) : iprop(records m K ∗ linear c) ⊢ G' m c := by
  unfold G' ghost
  iintro H; iexists K; iexact H

/-- The pairs (device, offset) re-indexed: the pair `(c, d)` names the peer `c + d` at the same offset. -/
def shift : Dev nD × Fin 16 ≃ Dev nD × Fin 16 where
  toFun x := (x.1 + x.2, x.2)
  invFun x := (x.1 - x.2, x.2)
  left_inv := fun ⟨c, d⟩ => Prod.ext (by show c + d - d = c; revert c d; decide) rfl
  right_inv := fun ⟨c, d⟩ => Prod.ext (by show c - d + d = c; revert c d; decide) rfl

omit [FloatOps F] in
/-- The tokens dealt around: the token of duty `d` of `c + d`'s barrier cell and the token of `c + d`'s receive cell of offset `d`
    go to `c`, which keeps its own send tokens (the tokens of offset 0 are never used). -/
theorem toks_around : (bigSep Finset.univ fun c : Dev nD => (toks c : sProp 𝕄)) ⊢ bigSep Finset.univ fun c : Dev nD => bigSep offs fun d => payToks c d := by
  have h1 : (bigSep Finset.univ fun c : Dev nD => (toks c : sProp 𝕄))
      = bigSep Finset.univ fun x : Dev nD × Fin 16 =>
          iprop(dutyTok ER (barCell x.1) 0 x.2 ∗ dutyTok ER (sendCell x.1 x.2) 0 (0 : Fin 16) ∗ dutyTok ER (recvCell x.1 x.2) 0 (0 : Fin 16)) := by
    rw [bigSep_univ_prod]; rfl
  rw [h1, bigSep_sep', bigSep_sep',
    bigSep_univ_equiv shift (fun x : Dev nD × Fin 16 => (dutyTok ER (barCell x.1) 0 x.2 : sProp 𝕄)),
    bigSep_univ_equiv shift (fun x : Dev nD × Fin 16 => (dutyTok ER (recvCell x.1 x.2) 0 (0 : Fin 16) : sProp 𝕄))]
  refine BIBase.Entails.trans ?_ ((Entails.of_eq (bigSep_univ_prod (fun x : Dev nD × Fin 16 => (payToks x.1 x.2 : sProp 𝕄)))).trans
    (bigSep_mono fun c _ => bigSep_subset (Finset.subset_univ _)))
  unfold payToks
  rw [bigSep_sep', bigSep_sep']
  iintro ⟨HB, HS, HR⟩
  isplitl [HB]; · iexact HB
  isplitl [HR]; · iexact HR
  iexact HS

theorem regroup :
    (bigSep Finset.univ fun c : Dev nD => iprop((bigSep Finset.univ fun k : Fin 33 => iprop(∃ κ : ℕ, cellInv ER (Rd m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (Rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄))
        (fun c : Dev nD => bigSep offs fun d => payToks c d)).symm).trans
      (bigSep_mono fun c _ => show _ ⊢ linear c from Entails.of_eq (by
        unfold linear positions; rw [bigSep_fin33, kcell_bar]; simp only [kcell_send, kcell_recv])))
    isplitl [Hat]; · iexact Hat
    iexact Htk

/-- The global step (`hglob`): the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ scrPts
  iintro ⟨Hr, Hz⟩
  isplitr; · iempintro
  isplitl [Hz]; · iexact Hz
  iexists (comm m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: if every device's
    body meets its obligation, every weakly fair execution of the program — the sixteen kernels meeting on the barrier
    semaphore, then exchanging their partial sums — terminates, and every final state has each windowed array at its
    computed contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

end Cert.KernelIdeal.Hand

end
-- ==== Proof.HandKernelIdeal.Slots.lean ====
/-
  How the communication buffer is held: by its sixteen tiles and, for tile 0, by shares; and what the buffer's final
  contents are tile by tile.

  The buffer is a 16 × 8 × 128 array; tile `d` is the set of entries whose first coordinate is `d`, so the sixteen tiles
  are pairwise disjoint and together are the whole array. Tile 0 is read by fifteen copies at once: its full share is cut
  into one share per ring offset and a remainder kept for the device's own load. Of the final contents, tile `d` of device
  `c` is the tile of partial sums of device `c - d`: after the two stores tile 0 holds the device's own sums whatever
  was there before, a copy from tile 0 of `c` lands in tile `d` of `c + d` exactly what that tile is to hold, and a
  load of tile `d` reads the sums of `c - d`.
-/
import proofs.«900827_g7700000000000828_dist_layernorm_colshard_i_m512_n256_v7x_i16_f32_1_alg».proof.Proof.HandKernelIdeal.Proto
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tiles' element sets -/

/-- Tile `d`'s elements are those of the rectangle `[d, 0, 0] + 1 × 8 × 128`. -/
theorem tile_set (d : Fin 16) :
    (tileM d : Memref sig .tc .vmem S8x128 .f32).view.set
      = (Rect.unit (s := S16x8x128) ![d.val, 0, 0] S1x8x128.size (inb_tile d)).set :=
  (View.set_reshape _ _).trans (View.set_slice_whole _ _)

/-- An entry lies in tile `d` exactly when its first coordinate is `d`. -/
theorem mem_tile {d : Fin 16} {i : S16x8x128.Idx} :
    i ∈ (tileM d : Memref sig .tc .vmem S8x128 .f32).view.set ↔ (i 0).val = d.val := by
  rw [tile_set, Rect.mem_set_unit]
  constructor
  · intro h
    have h0 := h 0
    simp only [Matrix.cons_val_zero] at h0
    have : S1x8x128.size 0 = 1 := rfl
    omega
  · intro h a
    have h1 : (i 1).val < 8 := (i 1).isLt
    have h2 : (i 2).val < 128 := (i 2).isLt
    match a with
    | ⟨0, _⟩ => exact ⟨by show d.val ≤ (i 0).val; omega, by show (i 0).val < d.val + 1; omega⟩
    | ⟨1, _⟩ => exact ⟨Nat.zero_le _, by show (i 1).val < 0 + 8; omega⟩
    | ⟨2, _⟩ => exact ⟨Nat.zero_le _, by show (i 2).val < 0 + 128; omega⟩

theorem tiles_disjoint {d d' : Fin 16} (h : d ≠ d') :
    Disjoint (tileM d : Memref sig .tc .vmem S8x128 .f32).view.set (tileM d' : Memref sig .tc .vmem S8x128 .f32).view.set := by
  refine Finset.disjoint_left.mpr fun i hi hi' => h (Fin.ext ?_)
  have e := (mem_tile (i := i)).mp hi
  have e' := (mem_tile (i := i)).mp hi'
  omega

theorem tiles_cover : (Finset.univ : Finset S16x8x128.Idx)
    = Finset.univ.biUnion fun d : Fin 16 => (tileM d : Memref sig .tc .vmem S8x128 .f32).view.set := by
  ext i
  simp only [Finset.mem_univ, Finset.mem_biUnion, true_and, true_iff]
  exact ⟨⟨(i 0).val, (i 0).isLt⟩, mem_tile.mpr rfl⟩

/-! ## The buffer as sixteen tiles -/

/-- The whole buffer is its sixteen tiles, at any contents. -/
theorem scr_tiles (c : Dev nD) (f : Buf (Elt F) ((c : Thread nD τ).loc cc0_scratch0)) :
    (scrPts c f : sProp 𝕄) ⊣⊢ bigSep Finset.univ (fun d : Fin 16 => tilePts c d fullShare f) := by
  have e : (scrPts c f : sProp 𝕄) = bigSep Finset.univ (fun d : Fin 16 => tilePts c d fullShare f) := by
    unfold scrPts tilePts
    rw [show (Finset.univ : Finset (Idx ((c : Thread nD τ).loc cc0_scratch0))) = Finset.univ.biUnion fun d : Fin 16 => (tileM d : Memref sig .tc .vmem S8x128 .f32).view.set from tiles_cover]
    exact pointsTo_biUnion Finset.univ _ fun d _ d' _ h => tiles_disjoint h
  rw [e]

/-- Back together, at the exchanged contents. -/
theorem scr_rejoin (c : Dev nD) :
    iprop(bigSep Finset.univ (fun d : Fin 16 => tilePts c d fullShare (comm m c))) ⊢ (scrPts c (comm m c) : sProp 𝕄) :=
  (scr_tiles c (comm m c)).2

/-! ## Tile 0 by shares -/

/-- Tile 0 at the full share is the share kept and the sixteen shares lent. -/
theorem tile0_shares (c : Dev nD) (f : Buf (Elt F) ((c : Thread nD τ).loc cc0_scratch0)) :
    (tilePts c 0 fullShare f : sProp 𝕄)
      ⊣⊢ iprop(tilePts c 0 kept f ∗ bigSep Finset.univ (fun d : Fin 16 => tilePts c 0 (lent d) f)) := by
  unfold tilePts
  exact Transfers.pointsTo_toks fullShare 16

/-! ## Contents: tile 0 after the two stores -/

/-- The rectangle of the first store, `[0, 0, 0] + 1 × 4 × 128`, is the upper half of tile 0; -/
theorem mem_r0 {i : S16x8x128.Idx} :
    i ∈ (Rect.unit (s := S16x8x128) ![0, 0, 0] S1x4x128.size inb_S16x8x128_S1x4x128_0_0_0).set ↔ (i 0).val = 0 ∧ (i 1).val < 4 := by
  rw [Rect.mem_set_unit]
  constructor
  · intro h
    have h0 := h 0
    have h1 := h 1
    have e0 : (![0, 0, 0] : Fin 3 → Nat) 0 + S1x4x128.size 0 = 1 := rfl
    have e1 : (![0, 0, 0] : Fin 3 → Nat) 1 + S1x4x128.size 1 = 4 := rfl
    rw [e0] at h0; rw [e1] at h1
    exact ⟨by omega, h1.2⟩
  · rintro ⟨h0, h1⟩ a
    have h2 : (i 2).val < 128 := (i 2).isLt
    match a with
    | ⟨0, _⟩ => exact ⟨Nat.zero_le _, by show (i 0).val < 0 + 1; omega⟩
    | ⟨1, _⟩ => exact ⟨Nat.zero_le _, by show (i 1).val < 0 + 4; omega⟩
    | ⟨2, _⟩ => exact ⟨Nat.zero_le _, by show (i 2).val < 0 + 128; omega⟩

/-- that of the second, `[0, 4, 0] + 1 × 4 × 128`, the lower half. -/
theorem mem_r4 {i : S16x8x128.Idx} :
    i ∈ (Rect.unit (s := S16x8x128) ![0, 4, 0] S1x4x128.size inb_S16x8x128_S1x4x128_0_4_0).set ↔ (i 0).val = 0 ∧ 4 ≤ (i 1).val := by
  rw [Rect.mem_set_unit]
  constructor
  · intro h
    have h0 := h 0
    have h1 := h 1
    have e0 : (![0, 4, 0] : Fin 3 → Nat) 0 + S1x4x128.size 0 = 1 := rfl
    have e1 : (![0, 4, 0] : Fin 3 → Nat) 1 = 4 := rfl
    rw [e0] at h0; rw [e1] at h1
    exact ⟨by omega, h1.1⟩
  · rintro ⟨h0, h1⟩ a
    have h1' : (i 1).val < 8 := (i 1).isLt
    have h2 : (i 2).val < 128 := (i 2).isLt
    match a with
    | ⟨0, _⟩ => exact ⟨Nat.zero_le _, by show (i 0).val < 0 + 1; omega⟩
    | ⟨1, _⟩ => exact ⟨by show 4 ≤ (i 1).val; omega, by show (i 1).val < 4 + 4; omega⟩
    | ⟨2, _⟩ => exact ⟨Nat.zero_le _, by show (i 2).val < 0 + 128; omega⟩

/-- The first store writes inside tile 0; -/
theorem store_sub_r0 :
    ((scrM : Memref sig .tc .vmem S16x8x128 .f32).access (Rect.unit (s := S16x8x128) ![0, 0, 0] S1x4x128.size inb_S16x8x128_S1x4x128_0_0_0)).setOn Finset.univ
      ⊆ (tileM 0 : Memref sig .tc .vmem S8x128 .f32).view.set := by
  intro i hi
  rw [View.setOn_univ, show ((scrM : Memref sig .tc .vmem S16x8x128 .f32).access (Rect.unit (s := S16x8x128) ![0, 0, 0] S1x4x128.size inb_S16x8x128_S1x4x128_0_0_0)).set = _ from View.set_slice_whole _ _] at hi
  exact mem_tile.mpr (mem_r0.mp hi).1

/-- so does the second. -/
theorem store_sub_r4 :
    ((scrM : Memref sig .tc .vmem S16x8x128 .f32).access (Rect.unit (s := S16x8x128) ![0, 4, 0] S1x4x128.size inb_S16x8x128_S1x4x128_0_4_0)).setOn Finset.univ
      ⊆ (tileM 0 : Memref sig .tc .vmem S8x128 .f32).view.set := by
  intro i hi
  rw [View.setOn_univ, show ((scrM : Memref sig .tc .vmem S16x8x128 .f32).access (Rect.unit (s := S16x8x128) ![0, 4, 0] S1x4x128.size inb_S16x8x128_S1x4x128_0_4_0)).set = _ from View.set_slice_whole _ _] at hi
  exact mem_tile.mpr (mem_r4.mp hi).1

/-- The two loads that precede the stores read inside tile 0: the first on its upper half; -/
theorem load_sub_r0 :
    (scrM : Memref sig .tc .vmem S16x8x128 .f32).view.setOn (Rect.unit (s := S16x8x128) ![0, 0, 0] S1x4x128.size inb_S16x8x128_S1x4x128_0_0_0).toLoadRect.set
      ⊆ (tileM 0 : Memref sig .tc .vmem S8x128 .f32).view.set := by
  intro i hi
  unfold View.setOn at hi
  obtain ⟨j, hj, rfl⟩ := Finset.mem_map.mp hi
  exact mem_tile.mpr (mem_r0.mp hj).1

/-- the second on its lower half. -/
theorem load_sub_r4 :
    (scrM : Memref sig .tc .vmem S16x8x128 .f32).view.setOn (Rect.unit (s := S16x8x128) ![0, 4, 0] S1x4x128.size inb_S16x8x128_S1x4x128_0_4_0).toLoadRect.set
      ⊆ (tileM 0 : Memref sig .tc .vmem S8x128 .f32).view.set := by
  intro i hi
  unfold View.setOn at hi
  obtain ⟨j, hj, rfl⟩ := Finset.mem_map.mp hi
  exact mem_tile.mpr (mem_r4.mp hj).1

/-- The final contents at an entry of tile 0 are the device's own tile there: `c - 0 = c`. -/
theorem comm_tile0 (c : Dev nD) (i : S16x8x128.Idx) (h0 : (i 0).val = 0) :
    comm m c i = statAt m c (⟨(i 1).val, (i 1).isLt⟩ : Fin 8) (⟨(i 2).val, (i 2).isLt⟩ : Fin 128) := by
  have e : (⟨(i 0).val, (i 0).isLt⟩ : Fin 16) = 0 := Fin.ext h0
  show statAt m ((c : Fin 16) - (⟨(i 0).val, (i 0).isLt⟩ : Fin 16)) _ _ = _
  rw [e, sub_zero]

/-- Entry by entry: after the row sums are stored on the upper half and the sums of squares on the lower half, an entry of
    tile 0 holds the device's own tile, whatever the buffer held before. -/
theorem stored_apply (c : Dev nD) (f : Buf (Elt F) ((c : Thread nD τ).loc cc0_scratch0)) (i : S16x8x128.Idx) (h0 : (i 0).val = 0) :
    ((scrM : Memref sig .tc .vmem S16x8x128 .f32).access (Rect.unit (s := S16x8x128) ![0, 4, 0] S1x4x128.size inb_S16x8x128_S1x4x128_0_4_0)).write (Elt F)
        (((scrM : Memref sig .tc .vmem S16x8x128 .f32).access (Rect.unit (s := S16x8x128) ![0, 0, 0] S1x4x128.size inb_S16x8x128_S1x4x128_0_0_0)).write (Elt F) f
          (k0_pay2 (xS m c)) Finset.univ)
        (k0_pay3 (xS m c)) Finset.univ i
      = comm m c i := by
  rw [comm_tile0 m c i h0]
  by_cases h1 : (i 1).val < 4
  · -- the upper half: untouched by the second store, written by the first
    have hn : i ∉ ((scrM : Memref sig .tc .vmem S16x8x128 .f32).access (Rect.unit (s := S16x8x128) ![0, 4, 0] S1x4x128.size inb_S16x8x128_S1x4x128_0_4_0)).setOn Finset.univ := by
      intro hi
      rw [View.setOn_univ, show ((scrM : Memref sig .tc .vmem S16x8x128 .f32).access (Rect.unit (s := S16x8x128) ![0, 4, 0] S1x4x128.size inb_S16x8x128_S1x4x128_0_4_0)).set = _ from View.set_slice_whole _ _] at hi
      have := (mem_r4.mp hi).2
      omega
    rw [View.write_of_not_mem _ _ _ hn]
    obtain ⟨x, hx⟩ : ∃ x : S1x4x128.Idx, x = ValueIdx.ix3 (0 : Fin 1) (⟨(i 1).val, h1⟩ : Fin 4) (⟨(i 2).val, (i 2).isLt⟩ : Fin 128) := ⟨_, rfl⟩
    have he : ((scrM : Memref sig .tc .vmem S16x8x128 .f32).access (Rect.unit (s := S16x8x128) ![0, 0, 0] S1x4x128.size inb_S16x8x128_S1x4x128_0_0_0)).emb x = i := by
      subst hx
      funext a
      apply Fin.ext
      match a with
      | ⟨0, _⟩ => show 0 + 1 * 0 = (i 0).val; omega
      | ⟨1, _⟩ => show 0 + 1 * (i 1).val = (i 1).val; omega
      | ⟨2, _⟩ => show 0 + 1 * (i 2).val = (i 2).val; omega
    conv_lhs => rw [← he]
    rw [View.write_emb_of_mem _ _ (Finset.mem_univ x), cast_eq, hx]
    unfold statAt
    rw [dif_pos h1]
  · -- the lower half: written by the second store
    have h1' : (i 1).val < 8 := (i 1).isLt
    obtain ⟨x, hx⟩ : ∃ x : S1x4x128.Idx, x = ValueIdx.ix3 (0 : Fin 1) (⟨(i 1).val - 4, by omega⟩ : Fin 4) (⟨(i 2).val, (i 2).isLt⟩ : Fin 128) := ⟨_, rfl⟩
    have he : ((scrM : Memref sig .tc .vmem S16x8x128 .f32).access (Rect.unit (s := S16x8x128) ![0, 4, 0] S1x4x128.size inb_S16x8x128_S1x4x128_0_4_0)).emb x = i := by
      subst hx
      funext a
      apply Fin.ext
      match a with
      | ⟨0, _⟩ => show 0 + 1 * 0 = (i 0).val; omega
      | ⟨1, _⟩ => show 4 + 1 * ((i 1).val - 4) = (i 1).val; omega
      | ⟨2, _⟩ => show 0 + 1 * (i 2).val = (i 2).val; omega
    conv_lhs => rw [← he]
    rw [View.write_emb_of_mem _ _ (Finset.mem_univ x), cast_eq, hx]
    unfold statAt
    rw [dif_neg h1]

/-- After the two stores tile 0 holds the device's own sums, whatever the buffer held. -/
theorem tile0_stored (c : Dev nD) (f : Buf (Elt F) ((c : Thread nD τ).loc cc0_scratch0)) (q : PosShare TreeShare) :
    (tilePts c 0 q
      (((scrM : Memref sig .tc .vmem S16x8x128 .f32).access (Rect.unit (s := S16x8x128) ![0, 4, 0] S1x4x128.size inb_S16x8x128_S1x4x128_0_4_0)).write (Elt F)
        (((scrM : Memref sig .tc .vmem S16x8x128 .f32).access (Rect.unit (s := S16x8x128) ![0, 0, 0] S1x4x128.size inb_S16x8x128_S1x4x128_0_0_0)).write (Elt F) f
          (k0_pay2 (xS m c)) Finset.univ)
        (k0_pay3 (xS m c)) Finset.univ) : sProp 𝕄)
      = tilePts c 0 q (comm m c) := by
  unfold tilePts
  exact pointsTo_congr fun i hi => stored_apply m c f i (mem_tile.mp hi)

/-! ## Contents: landings and loads -/

/-- The final contents at an entry whose coordinates are `(d, a, b)`: entry `(a, b)` of the tile of device `c - d`. -/
theorem comm_at (c : Dev nD) (d : Fin 16) (i : S16x8x128.Idx) (a : Fin 8) (b : Fin 128)
    (h0 : (i 0).val = d.val) (h1 : (i 1).val = a.val) (h2 : (i 2).val = b.val) :
    comm m c i = statAt m ((c : Fin 16) - d) a b := by
  have e0 : (⟨(i 0).val, (i 0).isLt⟩ : Fin 16) = d := Fin.ext h0
  have e1 : (⟨(i 1).val, (i 1).isLt⟩ : Fin 8) = a := Fin.ext h1
  have e2 : (⟨(i 2).val, (i 2).isLt⟩ : Fin 128) = b := Fin.ext h2
  show statAt m ((c : Fin 16) - (⟨(i 0).val, (i 0).isLt⟩ : Fin 16)) (⟨(i 1).val, (i 1).isLt⟩ : Fin 8) (⟨(i 2).val, (i 2).isLt⟩ : Fin 128) = _
  rw [e0, e1, e2]

/-- Tile `d` of device `c + d` is to hold what tile 0 of device `c` holds, place by place: both are the tile of device
    `c = (c + d) - d`. -/
theorem comm_shift (c : Dev nD) (d : Fin 16) (z : S1x8x128.Idx) :
    comm m (c + d) ((Rect.unit (s := S16x8x128) ![d.val, 0, 0] S1x8x128.size (inb_tile d)).emb z)
      = comm m c ((Rect.unit (s := S16x8x128) ![(0 : Fin 16).val, 0, 0] S1x8x128.size (inb_tile 0)).emb z) := by
  have hz : (z 0).val < 1 := (z 0).isLt
  rw [comm_at m (c + d) d _ (⟨(z 1).val, (z 1).isLt⟩ : Fin 8) (⟨(z 2).val, (z 2).isLt⟩ : Fin 128)
      (by show d.val + 1 * (z 0).val = d.val; omega) (by show 0 + 1 * (z 1).val = (z 1).val; omega) (by show 0 + 1 * (z 2).val = (z 2).val; omega),
    comm_at m c 0 _ (⟨(z 1).val, (z 1).isLt⟩ : Fin 8) (⟨(z 2).val, (z 2).isLt⟩ : Fin 128)
      (by show 0 + 1 * (z 0).val = 0; omega) (by show 0 + 1 * (z 1).val = (z 1).val; omega) (by show 0 + 1 * (z 2).val = (z 2).val; omega)]
  show statAt m ((c + d : Fin 16) - d) _ _ = statAt m ((c : Fin 16) - 0) _ _
  rw [add_sub_cancel_right, sub_zero]

/-- A landing: tile 0 of device `c`, holding its sums, copied over tile `d` of device `c + d` leaves there what that tile is
    to hold in the end, whatever it held before. -/
theorem landed_eq (c : Dev nD) (d : Fin 16)
    (fd : Buf (Elt F) ((tileM d : Memref sig .tc .vmem S8x128 .f32).view.loc ((c + d : Dev nD) : Thread nD τ)))
    (fs : Buf (Elt F) ((tileM 0 : Memref sig .tc .vmem S8x128 .f32).view.loc (c : Thread nD τ)))
    (hfs : ∀ i ∈ (tileM 0 : Memref sig .tc .vmem S8x128 .f32).view.set, fs i = comm m c i) :
    (tilePts (c + d) d fullShare
        ((tileM d : Memref sig .tc .vmem S8x128 .f32).view.write (Elt F) fd ((tileM 0 : Memref sig .tc .vmem S8x128 .f32).view.read (Elt F) fs) Finset.univ) : sProp 𝕄)
      = recvPay m (c + d) d := by
  unfold recvPay tilePts
  refine pointsTo_congr fun i hi => ?_
  obtain ⟨y, rfl⟩ := View.exists_emb_of_mem_set _ hi
  rw [View.write_emb_of_mem _ _ (Finset.mem_univ y), View.read_apply, cast_cast, cast_eq, hfs _ (View.emb_mem_set _ y)]
  exact (comm_shift m c d _).symm

/-- A load of tile `d` touches only tile `d`. -/
theorem load_sub (d : Fin 16) (h : ∀ a, (![d.val, 0, 0] : Fin 3 → Nat) a + S1x8x128.size a ≤ S16x8x128.size a) :
    (scrM : Memref sig .tc .vmem S16x8x128 .f32).view.setOn (Rect.unit (s := S16x8x128) ![d.val, 0, 0] S1x8x128.size h).toLoadRect.set
      ⊆ (tileM d : Memref sig .tc .vmem S8x128 .f32).view.set := by
  intro i hi
  unfold View.setOn at hi
  obtain ⟨j, hj, rfl⟩ := Finset.mem_map.mp hi
  rw [tile_set]
  exact hj

/-- What a load of tile `d` reads off the final contents: the tile of device `c - d`. -/
theorem load_tile (c : Dev nD) (d : Fin 16) (h : ∀ a, (![d.val, 0, 0] : Fin 3 → Nat) a + S1x8x128.size a ≤ S16x8x128.size a) :
    (scrM : Memref sig .tc .vmem S16x8x128 .f32).view.readAt (Elt F) (Rect.unit (s := S16x8x128) ![d.val, 0, 0] S1x8x128.size h).toLoadRect (comm m c)
      = tile m c d := by
  refine funext fun (y : S1x8x128.Idx) => ?_
  have hy : (y 0).val < 1 := (y 0).isLt
  rw [View.readAt_apply, View.read_apply, cast_eq]
  exact comm_at m c d _ (⟨(y 1).val, (y 1).isLt⟩ : Fin 8) (⟨(y 2).val, (y 2).isLt⟩ : Fin 128)
    (by show d.val + 1 * (y 0).val = d.val; omega) (by show 0 + 1 * (y 1).val = (y 1).val; omega) (by show 0 + 1 * (y 2).val = (y 2).val; omega)

/-- The same through any contents that agree with the final ones on tile `d`: a load reads only the elements under its
    rectangle. -/
theorem load_tile_of_agree (c : Dev nD) (d : Fin 16) (h : ∀ a, (![d.val, 0, 0] : Fin 3 → Nat) a + S1x8x128.size a ≤ S16x8x128.size a)
    (g : Buf (Elt F) ((c : Thread nD τ).loc cc0_scratch0))
    (hg : ∀ i ∈ (tileM d : Memref sig .tc .vmem S8x128 .f32).view.set, g i = comm m c i) :
    (scrM : Memref sig .tc .vmem S16x8x128 .f32).view.readAt (Elt F) (Rect.unit (s := S16x8x128) ![d.val, 0, 0] S1x8x128.size h).toLoadRect g
      = tile m c d := by
  have e : (scrM : Memref sig .tc .vmem S16x8x128 .f32).view.readAt (Elt F) (Rect.unit (s := S16x8x128) ![d.val, 0, 0] S1x8x128.size h).toLoadRect g
      = (scrM : Memref sig .tc .vmem S16x8x128 .f32).view.readAt (Elt F) (Rect.unit (s := S16x8x128) ![d.val, 0, 0] S1x8x128.size h).toLoadRect (comm m c) :=
    View.readAt_congr fun i hi => hg i (load_sub d h hi)
  exact e.trans (load_tile m c d h)

end Cert.KernelIdeal.Hand

end
-- ==== Proof.HandKernelIdeal.Steps2.lean ====
/-
  The exchange's waits, and how it ends.

  Every send and receive semaphore of an offset `d ≠ 0` is credited exactly once, by one copy of a tile. The device that
  owns it waits for that one credit: the wait takes the whole round, so what the copy's completion was to hand over is the
  waiter's — for an arrival, tile `d` holding the sender's partial sums; for a departure, the share of tile 0 that was
  lent to the copy. No later round has a duty, so after the wait the owner closes the cell and keeps its counter, at zero.
  The two semaphores of offset 0 are never credited at all: their owner closes them untouched. With all thirty-two
  counters at zero the kernel's own semaphores are as the launch found them.
-/
import proofs.«900827_g7700000000000828_dist_layernorm_colshard_i_m512_n256_v7x_i16_f32_1_alg».proof.Proof.HandKernelIdeal.Proto
import proofs.«900827_g7700000000000828_dist_layernorm_colshard_i_m512_n256_v7x_i16_f32_1_alg».proof.Proof.HandKernelIdeal.Tables

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Waiting for a copy to arrive -/

/-- The wait on the receive semaphore of offset `d ≠ 0`: the one copy that lands on it has arrived, so tile `d` holds the
    sender's sums; no later round has a duty, so the cell is closed and its counter stays at zero. -/
theorem recv_step (κ : ℕ) (c : Dev nD) (d : Fin 16) (hd : d ≠ 0) {α : Type} {Q : α → sProp 𝕄}
    {k : PUnit → Prog (TpuEff nD τ sig (Elt F) Λ₀ .tc) α} (W : Waits sig Unit)
    (src dst : Memref sig .tc .vmem S8x128 .f32) (hs : src.view.WordExact) (hdw : dst.view.WordExact)
    (hN : dst.view.dmaCredit = N) :
    iprop(cellInv ER (Rd m) κ (recvCell c d) ∗ cred (tallyAt (recvCell c d) () N) ∗ owes (c : Thread nD τ) 0 W
        ∗ atPos ER (recvCell c d) 0 ∅ 0
        ∗ ((recvPay m c d ∗ semVal (recvCell c d) 0 ∗ owes (c : Thread nD τ) 0 (insert (SemLoc.dma (recvS d), ()) W))
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (recvS d) src dst hs hdw) k) Q := by
  have hwait := Rounds.wp_wait_rest_token 𝒱₀ ER (Rd m) (c : Thread nD τ) none (κ := κ) (Q := Q) (k := k)
      (wpE_waitDma2_eq (defs := defs₀ (F := F)) (src := src) (dst := dst) (hsrc := hs) (hdst := hdw) (sem := recvS d)
        𝒱₀ (c : Thread nD τ) none Set.univ) (Set.mem_univ _) () (O := 0) (W := W) (R := 0) (m := 0) (T := ∅)
      (by rw [Nat.zero_add, hN, expect_recv m c d hd])
  rw [rest_recv m c d hd, MayWait_zero, hN] at hwait
  have hclose := Rounds.cell_close ER (Rd m) (κ := κ) (g := recvCell c d) (Es := Set.univ) (Set.mem_univ _) (fun h => h) (R := 0 + 1)
      (fun r hr => duties_later m (recvCell c d) r hr)
  iintro ⟨#HI, Hc, Ho, Hat, Hk⟩
  iapply hwait $$ [Hc Ho Hat]
  · isplitr; · iexact HI
    isplitl [Hc]; · iexact Hc
    isplitl [Ho]; · iexact Ho
    isplitr; · iempintro
    iexact Hat
  iintro ⟨Ho, Hat, Hr, Hpay⟩
  imod hclose $$ [Hat] with Hv
  · isplitr; · iexact HI
    iexact Hat
  iapply Hk
  isplitl [Hpay]; · iexact Hpay
  isplitl [Hv]; · iexact Hv
  iexact Ho

/-! ## Waiting for a copy to leave -/

/-- The wait on the send semaphore of offset `d ≠ 0`: the one copy that completes on it has left, so the share of tile 0 it
    was lent comes back; the cell is closed and its counter stays at zero. -/
theorem sendwait_step (κ : ℕ) (c : Dev nD) (d : Fin 16) (hd : d ≠ 0) {α : Type} {Q : α → sProp 𝕄}
    {k : PUnit → Prog (TpuEff nD τ sig (Elt F) Λ₀ .tc) α} (W : Waits sig Unit)
    (src dst : Memref sig .tc .vmem S8x128 .f32) (hs : src.view.WordExact) (hdw : dst.view.WordExact)
    (hN : dst.view.dmaCredit = N) :
    iprop(cellInv ER (Rd m) κ (sendCell c d) ∗ cred (tallyAt (sendCell c d) () N) ∗ owes (c : Thread nD τ) 0 W
        ∗ atPos ER (sendCell c d) 0 ∅ 0
        ∗ ((sendPay m c d ∗ semVal (sendCell c d) 0 ∗ owes (c : Thread nD τ) 0 (insert (SemLoc.dma (sendS d), ()) W))
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (sendS d) src dst hs hdw) k) Q := by
  have hwait := Rounds.wp_wait_rest_token 𝒱₀ ER (Rd m) (c : Thread nD τ) none (κ := κ) (Q := Q) (k := k)
      (wpE_waitDma2_eq (defs := defs₀ (F := F)) (src := src) (dst := dst) (hsrc := hs) (hdst := hdw) (sem := sendS d)
        𝒱₀ (c : Thread nD τ) none Set.univ) (Set.mem_univ _) () (O := 0) (W := W) (R := 0) (m := 0) (T := ∅)
      (by rw [Nat.zero_add, hN, expect_send m c d hd])
  rw [rest_send m c d hd, MayWait_zero, hN] at hwait
  have hclose := Rounds.cell_close ER (Rd m) (κ := κ) (g := sendCell c d) (Es := Set.univ) (Set.mem_univ _) (fun h => h) (R := 0 + 1)
      (fun r hr => duties_later m (sendCell c d) r hr)
  iintro ⟨#HI, Hc, Ho, Hat, Hk⟩
  iapply hwait $$ [Hc Ho Hat]
  · isplitr; · iexact HI
    isplitl [Hc]; · iexact Hc
    isplitl [Ho]; · iexact Ho
    isplitr; · iempintro
    iexact Hat
  iintro ⟨Ho, Hat, Hr, Hpay⟩
  imod hclose $$ [Hat] with Hv
  · isplitr; · iexact HI
    iexact Hat
  iapply Hk
  isplitl [Hpay]; · iexact Hpay
  isplitl [Hv]; · iexact Hv
  iexact Ho

/-! ## The two cells of offset 0, and the kernel's own semaphores at the end -/

/-- Nothing ever lands on the send and receive semaphores of offset 0: their owner closes them untouched, and their counters
    stay at zero. -/
theorem idle_close (κs κr : ℕ) (c : Dev nD) :
    iprop(cellInv ER (Rd m) κs (sendCell c 0) ∗ atPos ER (sendCell c 0) 0 ∅ 0
        ∗ cellInv ER (Rd m) κr (recvCell c 0) ∗ atPos ER (recvCell c 0) 0 ∅ 0)
      ⊢ (iprop(|={Set.univ}=> (semVal (sendCell c 0) 0 ∗ semVal (recvCell c 0) 0)) : sProp 𝕄) := by
  have hsnd := Rounds.cell_close ER (Rd m) (κ := κs) (g := sendCell c 0) (Es := Set.univ) (Set.mem_univ _) (fun h => h) (R := 0)
      (fun r _ => duties_idle_send m c r)
  have hrcv := Rounds.cell_close ER (Rd m) (κ := κr) (g := recvCell c 0) (Es := Set.univ) (Set.mem_univ _) (fun h => h) (R := 0)
      (fun r _ => duties_idle_recv m c r)
  iintro ⟨HIs, Hats, HIr, Hatr⟩
  imod hsnd $$ [HIs Hats] with Hvs
  · isplitl [HIs]; · iexact HIs
    iexact Hats
  imod hrcv $$ [HIr Hatr] with Hvr
  · isplitl [HIr]; · iexact HIr
    iexact Hatr
  imodintro
  isplitl [Hvs]; · iexact Hvs
  iexact Hvr

/-- The thirty-two semaphores of the kernel, listed: sixteen send, sixteen receive. -/
theorem ownSems0_list (c : Dev nD) :
    (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0) := by
  rw [Pipeline.ownSems0_eq_of_list c osem [0, 1, 2, 3, 4, 5, 6, 7, 8, 9, 10, 11, 12, 13, 14, 15, 16, 17, 18, 19, 20, 21, 22, 23, 24, 25, 26, 27,
    28, 29, 30, 31] (by decide) (by decide)]
  rfl

/-- Every send and receive semaphore at zero is the kernel's own semaphores at zero. -/
theorem ownSems_of_closed (c : Dev nD) :
    iprop(bigSep Finset.univ (fun d : Fin 16 => iprop(semVal (sendCell c d) 0 ∗ semVal (recvCell c d) 0)))
      ⊢ (Pipeline.ownSems0 (Ix := Unit) (Name := ℕ) (U := UU) (Lvl := ℕ) (Val := Elt F) (τ := τ) osem c : sProp 𝕄) := by
  rw [ownSems0_list, bigSep_fin16]
  iintro ⟨⟨S0, R0⟩, ⟨S1, R1⟩, ⟨S2, R2⟩, ⟨S3, R3⟩, ⟨S4, R4⟩, ⟨S5, R5⟩, ⟨S6, R6⟩, ⟨S7, R7⟩, ⟨S8, R8⟩, ⟨S9, R9⟩, ⟨S10, R10⟩, ⟨S11, R11⟩, ⟨S12, R12⟩, ⟨S13, R13⟩, ⟨S14, R14⟩, ⟨S15, R15⟩⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

end Cert.KernelIdeal.Hand

end
-- ==== Proof.HandKernelIdeal.Steps1.lean ====
/-
  One rule per repeated effect of a device's body, at a symbolic ring offset: the signal to a peer's barrier semaphore, the
  wait for the fifteen peers, the copy of the device's own tile into a peer's, and the loads and stores inside a tile of the
  communication buffer; with the schedule's tables at the cells one device touches and the records every device holds.
-/
import proofs.«900827_g7700000000000828_dist_layernorm_colshard_i_m512_n256_v7x_i16_f32_1_alg».proof.Proof.HandKernelIdeal.Proto
import proofs.«900827_g7700000000000828_dist_layernorm_colshard_i_m512_n256_v7x_i16_f32_1_alg».proof.Proof.HandKernelIdeal.Tables
import proofs.«900827_g7700000000000828_dist_layernorm_colshard_i_m512_n256_v7x_i16_f32_1_alg».proof.Proof.HandKernelIdeal.Slots
import proofs.«900827_g7700000000000828_dist_layernorm_colshard_i_m512_n256_v7x_i16_f32_1_alg».proof.Proof.HandKernelIdeal.Levels
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at the cells one device touches -/

namespace Step

section Tab
variable (c : Dev nD)

omit [FloatOps F] in
theorem val_pos_of_ne {d : Fin 16} (hd : d ≠ 0) : 1 ≤ d.val :=
  Nat.one_le_iff_ne_zero.mpr (fun h => hd (Fin.ext h))

theorem duties_bar : (Rd (F := F) m).duties (barCell c) 0 = offs := by
  dsimp only [Rd]; exact if_pos ⟨rfl, rfl⟩
theorem duties_send (d : Fin 16) (hd : d ≠ 0) : (Rd (F := F) m).duties (sendCell c d) 0 = {0} := by
  have h1 := val_pos_of_ne hd
  have h2 := d.isLt
  dsimp only [Rd]; rw [if_pos ⟨rfl, rfl⟩]
  exact if_pos (Or.inl ⟨by show 5 ≤ 4 + d.val; omega, by show 4 + d.val ≤ 19; omega⟩)
theorem duties_recv (d : Fin 16) (hd : d ≠ 0) : (Rd (F := F) m).duties (recvCell c d) 0 = {0} := by
  have h1 := val_pos_of_ne hd
  dsimp only [Rd]; rw [if_pos ⟨rfl, rfl⟩]
  exact if_pos (Or.inr (by show 21 ≤ 20 + d.val; omega))
theorem duties_later (g : GSem nD τ sig) : ∀ r, 1 ≤ r → (Rd (F := F) m).duties g r = ∅ :=
  fun r hr => by dsimp only [Rd]; rw [if_neg fun h => by omega]
theorem duties_send0 : ∀ r, 0 ≤ r → (Rd (F := F) m).duties (sendCell c 0) r = ∅ := fun r _ => by
  dsimp only [Rd]; split
  · exact if_neg (by decide)
  · rfl
theorem duties_recv0 : ∀ r, 0 ≤ r → (Rd (F := F) m).duties (recvCell c 0) r = ∅ := fun r _ => by
  dsimp only [Rd]; split
  · exact if_neg (by decide)
  · rfl

theorem amount_bar (j : Fin 16) : (Rd (F := F) m).amount (barCell c) 0 j = 1 := rfl
theorem amount_send (d j : Fin 16) : (Rd (F := F) m).amount (sendCell c d) 0 j = N := rfl
theorem amount_recv (d j : Fin 16) : (Rd (F := F) m).amount (recvCell c d) 0 j = N := rfl

theorem payload_bar (j : Fin 16) : (Rd (F := F) m).payload (barCell c) 0 j = barPay c j := rfl
theorem payload_send (d j : Fin 16) : (Rd (F := F) m).payload (sendCell c d) 0 j = sendPay m c d := by
  have h2 := d.isLt
  dsimp only [Rd]
  rw [dif_neg (by show ¬ 20 ≤ 4 + d.val; omega), dif_pos (by show 4 ≤ 4 + d.val; omega)]
  exact congrArg (sendPay m c) (Fin.ext (by show 4 + d.val - 4 = d.val; omega))
theorem payload_recv (d j : Fin 16) : (Rd (F := F) m).payload (recvCell c d) 0 j = recvPay m c d := by
  dsimp only [Rd]
  rw [dif_pos (by show 20 ≤ 20 + d.val; omega)]
  exact congrArg (recvPay m c) (Fin.ext (by show 20 + d.val - 20 = d.val; omega))

theorem expect_bar : (Rd (F := F) m).expect (barCell c) 0 = 15 := by
  unfold Schedule.expect Schedule.amountOf
  rw [duties_bar, Finset.sum_congr rfl fun d _ => amount_bar m c d, Finset.sum_const, smul_eq_mul]; rfl
theorem expect_send (d : Fin 16) (hd : d ≠ 0) : (Rd (F := F) m).expect (sendCell c d) 0 = N := by
  unfold Schedule.expect Schedule.amountOf; rw [duties_send m c d hd, Finset.sum_singleton, amount_send]
theorem expect_recv (d : Fin 16) (hd : d ≠ 0) : (Rd (F := F) m).expect (recvCell c d) 0 = N := by
  unfold Schedule.expect Schedule.amountOf; rw [duties_recv m c d hd, Finset.sum_singleton, amount_recv]

theorem rest_send (d : Fin 16) (hd : d ≠ 0) :
    bigSep ((Rd (F := F) m).duties (sendCell c d) 0 \ ∅) (fun j => (Rd (F := F) m).payload (sendCell c d) 0 j) = sendPay m c d := by
  rw [Finset.sdiff_empty, duties_send m c d hd, bigSep_singleton, payload_send]
theorem rest_recv (d : Fin 16) (hd : d ≠ 0) :
    bigSep ((Rd (F := F) m).duties (recvCell c d) 0 \ ∅) (fun j => (Rd (F := F) m).payload (recvCell c d) 0 j) = recvPay m c d := by
  rw [Finset.sdiff_empty, duties_recv m c d hd, bigSep_singleton, payload_recv]

end Tab

/-! ## One rule per repeated effect, at a symbolic ring offset -/

section Rules
variable (c : Dev nD)

omit [FloatOps F] in
theorem add_sub_self (n : Fin 16) : (c + n : Dev nD) - n = c := by revert c n; decide

/-- The signal of offset `n`: it pays duty `n` of the barrier cell of the device `n` places on, handing over this device's own
    tile `-n` (at whatever it holds) and that it has not begun to wait on its receive cell of offset `-n`. -/
theorem sig_step (n : Fin 16) (hn : n ≠ 0) (t : Fin 16) (ht : t = -n) (dv : Dev nD) (hdv : dv = c + n) (κ : ℕ)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (c + n)) () 1) (W : Waits sig Unit) :
    iprop(cellInv ER (Rd m) κ (barCell (c + n))
        ∗ owes (c : Thread nD τ) O₀ W
        ∗ dutyTok ER (barCell (c + n)) 0 n
        ∗ ((∃ f, tilePts (F := F) c t fullShare f) ∗ reached ER (recvCell c t) 0)
        ∗ reached ER (barCell (c + n)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal (dv : Thread nD τ) barS (1#32).toNat) k) Q) := by
  subst hdv; subst ht
  have hmem : n ∈ (Rd (F := F) m).duties (barCell (c + n)) 0 := by
    rw [duties_bar]; exact Finset.mem_erase.mpr ⟨hn, Finset.mem_univ _⟩
  have hpay : (Rd (F := F) m).payload (barCell (c + n)) 0 n
      = iprop((∃ f, tilePts (F := F) c (-n) fullShare f) ∗ reached ER (recvCell c (-n)) 0) := by
    rw [payload_bar]; unfold barPay; rw [add_sub_self]
  rw [← hpay]
  exact Rounds.wp_signal 𝒱₀ ER (Rd m) (c : Thread nD τ) none (dst := ((c + n : Dev nD) : Thread nD τ)) (κ := κ)
      (d := n) hmem ((amount_bar m (c + n) n).trans (by decide)) () O hO

end Rules
end Step

namespace Step
section Rules2
variable (c : Dev nD)

omit [FloatOps F] in
theorem sub_neg_self (d : Fin 16) : (c : Dev nD) - (-d) = c + d := by revert c d; decide
omit [FloatOps F] in
theorem neg_neg_self (d : Fin 16) : - (-d) = d := by revert d; decide

/-- What the barrier unit of the peer `d` places on hands this device: that peer's tile `d`, at whatever it holds, and that
    the peer has not begun to wait on its receive cell of offset `d`. -/
def peerPay (d : Fin 16) : sProp 𝕄 :=
  iprop((∃ f, tilePts (F := F) (c + d) d fullShare f) ∗ reached ER (recvCell (c + d) d) 0)

omit [FloatOps F] in
theorem barPay_eq (j d : Fin 16) (h : j = -d) : barPay (F := F) c j = peerPay c d := by
  subst h; unfold barPay peerPay; rw [sub_neg_self, neg_neg_self]

omit [FloatOps F] in
theorem offs_list : (offs : Finset (Fin 16)) = [1, 2, 3, 4, 5, 6, 7, 8, 9, 10, 11, 12, 13, 14, 15].toFinset := by decide

omit [FloatOps F] in
/-- A separating conjunction over the fifteen peers, written out in the order of the offsets. -/
theorem bigSep_offs (Φ : Fin 16 → sProp 𝕄) :
    bigSep offs Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_eq_bigSepL_of_eq _ offs_list (by decide)]
  simp only [bigSepL_cons_cons, bigSepL_singleton]
  rfl
omit [FloatOps F] in
/-- … and over all sixteen offsets. -/
theorem bigSep_all (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  simp only [bigSepL_cons_cons, bigSepL_singleton]
  rfl

/-- The fifteen payloads of the barrier cell's round, each read as the peer's tile: peer `d` paid duty `-d`. -/
theorem rest_bar :
    bigSep ((Rd (F := F) m).duties (barCell c) 0 \ ∅) (fun j => (Rd (F := F) m).payload (barCell c) 0 j)
      = iprop(peerPay (F := F) c 15 ∗ peerPay (F := F) c 14 ∗ peerPay (F := F) c 13 ∗ peerPay (F := F) c 12 ∗ peerPay (F := F) c 11 ∗ peerPay (F := F) c 10 ∗ peerPay (F := F) c 9 ∗ peerPay (F := F) c 8 ∗ peerPay (F := F) c 7 ∗ peerPay (F := F) c 6 ∗ peerPay (F := F) c 5 ∗ peerPay (F := F) c 4 ∗ peerPay (F := F) c 3 ∗ peerPay (F := F) c 2 ∗ peerPay (F := F) c 1) := by
  rw [Finset.sdiff_empty, duties_bar, bigSep_offs]
  simp only [payload_bar]
  rw [barPay_eq c 1 15 (by decide), barPay_eq c 2 14 (by decide), barPay_eq c 3 13 (by decide), barPay_eq c 4 12 (by decide), barPay_eq c 5 11 (by decide), barPay_eq c 6 10 (by decide), barPay_eq c 7 9 (by decide), barPay_eq c 8 8 (by decide), barPay_eq c 9 7 (by decide), barPay_eq c 10 6 (by decide), barPay_eq c 11 5 (by decide), barPay_eq c 12 4 (by decide), barPay_eq c 13 3 (by decide), barPay_eq c 14 2 (by decide), barPay_eq c 15 1 (by decide)]

/-- The wait for the fifteen units of the barrier cell, owing receive credits only. -/
theorem barwait_step (κ : ℕ)
    {α : Type} {Q : α → sProp 𝕄} {k : PUnit → Prog (TpuEff nD τ sig (Elt F) Λ₀ .tc) α}
    (W : Waits sig Unit)
    (hmw : (levAts L lv : sProp 𝕄) ⊢ MayWait (c : Thread nD τ) (.reg barS) () (oweR c 15)) :
    iprop(cellInv ER (Rd m) κ (barCell c) ∗ cred (tallyAt (barCell c) () 15) ∗ owes (c : Thread nD τ) (oweR c 15) W
        ∗ levAts L lv ∗ atPos ER (barCell c) 0 ∅ 0)
      ⊢ iprop(((owes (c : Thread nD τ) (oweR c 15) (insert (SemLoc.reg barS, ()) W)
              ∗ atPos ER (barCell c) (0 + 1) ∅ 0
              ∗ peerPay (F := F) c 15 ∗ peerPay (F := F) c 14 ∗ peerPay (F := F) c 13 ∗ peerPay (F := F) c 12 ∗ peerPay (F := F) c 11 ∗ peerPay (F := F) c 10 ∗ peerPay (F := F) c 9 ∗ peerPay (F := F) c 8 ∗ peerPay (F := F) c 7 ∗ peerPay (F := F) c 6 ∗ peerPay (F := F) c 5 ∗ peerPay (F := F) c 4 ∗ peerPay (F := F) c 3 ∗ peerPay (F := F) c 2 ∗ peerPay (F := F) c 1)
            -∗ wp frame (wpE (defs₀ (F := F)) 𝒱₀ c none) Set.univ (k ⟨⟩) Q)
          -∗ wp frame (wpE (defs₀ (F := F)) 𝒱₀ c none) Set.univ (.op (.semWait barS (15#32).toNat) k) Q) := by
  iintro ⟨#HI, Hc, HO, #Hlev, Hat⟩ Hk
  iapply (Rounds.wp_wait_rest_token 𝒱₀ ER (Rd m) (c : Thread nD τ) none (κ := κ)
      (wpE_semWait_eq 𝒱₀ (c : Thread nD τ) none Set.univ) (Set.mem_univ _) () (O := oweR c 15) (W := W) (R := 0) (m := 0) (T := ∅)
      (by rw [expect_bar]; decide)) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The copy of offset `d`: this device's tile 0, read under the share lent to this copy, into tile `d` of the peer `d` places
    on; it pays the peer's receive duty and this device's own send duty. -/
theorem copy_step (d : Fin 16) (hd : d ≠ 0) (dv : Dev nD) (hdv : dv = c + d) (κ₁ κ₂ : ℕ)
    (src : Memref sig .tc .vmem S8x128 .f32) (hs : src = tileM 0)
    (dst : Memref sig (Dev.tc dv : Thread nD τ).2.kind .vmem S8x128 .f32) (hdt : dst = tileM d)
    (sS sR : DmaSem sig) (hsS : sS = sendS d) (hsR : sR = recvS d)
    {hsc : dst.view.ref.isScScratch = false} {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α}
    {O₀ : CellTallies nD τ sig Unit} (O : CellTallies nD τ sig Unit) (hO : O₀ = O + tallyAt (recvCell (c + d) d) () N) (W : Waits sig Unit)
    (fd : Buf (Elt F) ((tileM d : Memref sig .tc .vmem S8x128 .f32).view.loc ((c + d : Dev nD) : Thread nD τ)))
    (hland : ((tileM d : Memref sig .tc .vmem S8x128 .f32).view.loc ((c + d : Dev nD) : Thread nD τ)
        ↦[(tileM d : Memref sig .tc .vmem S8x128 .f32).view.set]{fullShare}
          ((tileM d : Memref sig .tc .vmem S8x128 .f32).view.write (Elt F) fd ((tileM 0 : Memref sig .tc .vmem S8x128 .f32).view.read (Elt F) (comm m c)) Finset.univ) : sProp 𝕄)
      ⊢ tilePts (c + d) d fullShare (comm m (c + d))) :
    iprop(cellInv ER (Rd m) κ₁ (sendCell c d) ∗ cellInv ER (Rd m) κ₂ (recvCell (c + d) d)
        ∗ tilePts c 0 (lent d) (comm m c) ∗ tilePts (c + d) d fullShare fd
        ∗ owes (c : Thread nD τ) O₀ W
        ∗ dutyTok ER (sendCell c d) 0 (0 : Fin 16) ∗ reached ER (sendCell c d) 0
        ∗ dutyTok ER (recvCell (c + d) d) 0 (0 : Fin 16) ∗ reached ER (recvCell (c + d) d) 0)
      ⊢ iprop(((cred (tallyAt (sendCell c d) () N) ∗ owes (c : Thread nD τ) O W) -∗ wp frame (wpE (defs₀ (F := F)) 𝒱₀ c none) Set.univ (k ⟨⟩) Q)
          -∗ wp frame (wpE (defs₀ (F := F)) 𝒱₀ c none) Set.univ
              (.op (.enqueueDma src (.remote (Dev.tc dv : Thread nD τ) dst (.dma sS) hsc) (.dma sR) hsrc hdst hsem) k) Q) := by
  subst hdv; subst hs; subst hdt; subst hsS; subst hsR
  unfold tilePts
  exact Rounds.wp_send_pointsTo 𝒱₀ ER (Rd m) (c : Thread nD τ) none (c' := ((c + d : Dev nD) : Thread nD τ))
    (src := (tileM 0 : Memref sig .tc .vmem S8x128 .f32)) (dst := (tileM d : Memref sig .tc .vmem S8x128 .f32))
    (q := lent d) (fs := comm m c) (fd := fd) (κ₁ := κ₁) (κ₂ := κ₂)
    (r₁ := 0) (r₂ := 0) (d₁ := (0 : Fin 16)) (d₂ := (0 : Fin 16))
    (by rw [duties_send m c d hd]; exact Finset.mem_singleton_self _) (by rw [duties_recv m (c + d) d hd]; exact Finset.mem_singleton_self _)
    () () N rfl (amount_send m c d 0) (amount_recv m (c + d) d 0) O hO (W := W)
    (by rw [payload_send]; exact BI.Entails.refl _)
    (by rw [payload_recv]; exact hland)

end Rules2
end Step

namespace Step
section Mem
variable (c : Dev nD)

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem read_g (f : (cc0_stg1_0 : Ref sig .tc).ty.Contents (Elt F)) :
    (gM : Memref sig .tc .vmem S256 .f32).view.readAt (Elt F) (Rect.unit (s := S256) ![0] S256.size inb_S256_S256_0).toLoadRect f = f :=
  Memref.readAt_unit_zero (Elt F) cc0_stg1_0 hz1 _ f
omit [FloatOps F] in
theorem read_b (f : (cc0_stg2_0 : Ref sig .tc).ty.Contents (Elt F)) :
    (bM : Memref sig .tc .vmem S256 .f32).view.readAt (Elt F) (Rect.unit (s := S256) ![0] S256.size inb_S256_S256_0).toLoadRect f = f :=
  Memref.readAt_unit_zero (Elt F) cc0_stg2_0 hz1 _ f
omit [FloatOps F] in
theorem write_out (f w : (cc0_stg3_0 : Ref sig .tc).ty.Contents (Elt F)) :
    ((oM : Memref sig .tc .vmem S512x256 .f32).access (Rect.unit (s := S512x256) ![0, 0] S512x256.size inb_S512x256_S512x256_0_0) : View sig .tc _ _ _).write (Elt F) f w Finset.univ = w :=
  Memref.write_access_unit_zero_univ (Elt F) cc0_stg3_0 hz2 _ f w

/-- A load under a rectangle inside tile `d`, the tile held under any share. -/
theorem tile_load (d : Fin 16) (q : PosShare TreeShare) (f : Buf (Elt F) ((c : Thread nD τ).loc cc0_scratch0))
    {r : LoadRect S16x8x128} {hl : (scrM : Memref sig .tc .vmem S16x8x128 .f32).view.LoadsAt r}
    (hS : (scrM : Memref sig .tc .vmem S16x8x128 .f32).view.setOn r.set ⊆ (tileM d : Memref sig .tc .vmem S8x128 .f32).view.set)
    {α : Type} {Q : α → sProp 𝕄} {k : (r.shape.Idx → Elt F .f32) → Prog (TpuEff nD τ sig (Elt F) Λ₀ .tc) α} :
    (tilePts c d q f : sProp 𝕄)
      ⊢ iprop((tilePts c d q f -∗ wp frame (wpE (defs₀ (F := F)) 𝒱₀ c none) Set.univ (k ((scrM : Memref sig .tc .vmem S16x8x128 .f32).view.readAt (Elt F) r f)) Q)
        -∗ wp frame (wpE (defs₀ (F := F)) 𝒱₀ c none) Set.univ (.op (.load (scrM : Memref sig .tc .vmem S16x8x128 .f32) r hl) k) Q) := by
  unfold tilePts
  exact wp_load 𝒱₀ (c : Thread nD τ) none Set.univ hS

/-- A store under a rectangle inside tile 0, the tile held whole. -/
theorem tile0_store (f : Buf (Elt F) ((c : Thread nD τ).loc cc0_scratch0))
    {r : Rect S16x8x128} {w : r.shape.Idx → Elt F .f32}
    {hx : ((scrM : Memref sig .tc .vmem S16x8x128 .f32).access r).Stores Finset.univ} {hm : (Finset.univ : Finset r.shape.Idx) = Finset.univ ∨ ∀ a, r.stride a = 1}
    (hS : ((scrM : Memref sig .tc .vmem S16x8x128 .f32).access r).setOn Finset.univ ⊆ (tileM 0 : Memref sig .tc .vmem S8x128 .f32).view.set)
    {α : Type} {Q : α → sProp 𝕄} {k : PUnit → Prog (TpuEff nD τ sig (Elt F) Λ₀ .tc) α} :
    (tilePts c 0 fullShare f : sProp 𝕄)
      ⊢ iprop((tilePts c 0 fullShare (((scrM : Memref sig .tc .vmem S16x8x128 .f32).access r).write (Elt F) f w Finset.univ)
            -∗ wp frame (wpE (defs₀ (F := F)) 𝒱₀ c none) Set.univ (k ⟨⟩) Q)
        -∗ wp frame (wpE (defs₀ (F := F)) 𝒱₀ c none) Set.univ (.op (.store (scrM : Memref sig .tc .vmem S16x8x128 .f32) r w Finset.univ hx hm) k) Q) := by
  have key := wp_store (defs := defs₀ (F := F)) (Γ := PendingWaitsCtx.empty) 𝒱₀ (c : Thread nD τ) none Set.univ
    (m := (scrM : Memref sig .tc .vmem S16x8x128 .f32)) (r := r) (w := w) (Mk := Finset.univ)
    (hx := hx) (hm := hm) (k := k) (Q := Q) (S := (tileM 0 : Memref sig .tc .vmem S8x128 .f32).view.set) (f := f) hS
  unfold tilePts
  exact key

omit [FloatOps F] in
theorem load_sub_r0 :
    (scrM : Memref sig .tc .vmem S16x8x128 .f32).view.setOn (Rect.unit (s := S16x8x128) ![0, 0, 0] S1x4x128.size inb_S16x8x128_S1x4x128_0_0_0).toLoadRect.set
      ⊆ (tileM 0 : Memref sig .tc .vmem S8x128 .f32).view.set := by
  intro i hi
  unfold View.setOn at hi
  obtain ⟨j, hj, rfl⟩ := Finset.mem_map.mp hi
  exact store_sub_r0 (by rw [View.setOn_univ, show ((scrM : Memref sig .tc .vmem S16x8x128 .f32).access (Rect.unit (s := S16x8x128) ![0, 0, 0] S1x4x128.size inb_S16x8x128_S1x4x128_0_0_0)).set = _ from View.set_slice_whole _ _]; exact hj)
omit [FloatOps F] in
theorem load_sub_r4 :
    (scrM : Memref sig .tc .vmem S16x8x128 .f32).view.setOn (Rect.unit (s := S16x8x128) ![0, 4, 0] S1x4x128.size inb_S16x8x128_S1x4x128_0_4_0).toLoadRect.set
      ⊆ (tileM 0 : Memref sig .tc .vmem S8x128 .f32).view.set := by
  intro i hi
  unfold View.setOn at hi
  obtain ⟨j, hj, rfl⟩ := Finset.mem_map.mp hi
  exact store_sub_r4 (by rw [View.setOn_univ, show ((scrM : Memref sig .tc .vmem S16x8x128 .f32).access (Rect.unit (s := S16x8x128) ![0, 4, 0] S1x4x128.size inb_S16x8x128_S1x4x128_0_4_0)).set = _ from View.set_slice_whole _ _]; exact hj)

omit [FloatOps F] in
theorem load_sub_0 :
    (scrM : Memref sig .tc .vmem S16x8x128 .f32).view.setOn (Rect.unit (s := S16x8x128) ![0, 0, 0] S1x8x128.size inb_S16x8x128_S1x8x128_0_0_0).toLoadRect.set
      ⊆ (tileM 0 : Memref sig .tc .vmem S8x128 .f32).view.set := load_sub 0 _
theorem load_tile_0 :
    (scrM : Memref sig .tc .vmem S16x8x128 .f32).view.readAt (Elt F) (Rect.unit (s := S16x8x128) ![0, 0, 0] S1x8x128.size inb_S16x8x128_S1x8x128_0_0_0).toLoadRect (comm m c)
      = tile m c 0 := load_tile m c 0 _
omit [FloatOps F] in
theorem load_sub_1 :
    (scrM : Memref sig .tc .vmem S16x8x128 .f32).view.setOn (Rect.unit (s := S16x8x128) ![1, 0, 0] S1x8x128.size inb_S16x8x128_S1x8x128_1_0_0).toLoadRect.set
      ⊆ (tileM 1 : Memref sig .tc .vmem S8x128 .f32).view.set := load_sub 1 _
theorem load_tile_1 :
    (scrM : Memref sig .tc .vmem S16x8x128 .f32).view.readAt (Elt F) (Rect.unit (s := S16x8x128) ![1, 0, 0] S1x8x128.size inb_S16x8x128_S1x8x128_1_0_0).toLoadRect (comm m c)
      = tile m c 1 := load_tile m c 1 _
omit [FloatOps F] in
theorem load_sub_2 :
    (scrM : Memref sig .tc .vmem S16x8x128 .f32).view.setOn (Rect.unit (s := S16x8x128) ![2, 0, 0] S1x8x128.size inb_S16x8x128_S1x8x128_2_0_0).toLoadRect.set
      ⊆ (tileM 2 : Memref sig .tc .vmem S8x128 .f32).view.set := load_sub 2 _
theorem load_tile_2 :
    (scrM : Memref sig .tc .vmem S16x8x128 .f32).view.readAt (Elt F) (Rect.unit (s := S16x8x128) ![2, 0, 0] S1x8x128.size inb_S16x8x128_S1x8x128_2_0_0).toLoadRect (comm m c)
      = tile m c 2 := load_tile m c 2 _
omit [FloatOps F] in
theorem load_sub_3 :
    (scrM : Memref sig .tc .vmem S16x8x128 .f32).view.setOn (Rect.unit (s := S16x8x128) ![3, 0, 0] S1x8x128.size inb_S16x8x128_S1x8x128_3_0_0).toLoadRect.set
      ⊆ (tileM 3 : Memref sig .tc .vmem S8x128 .f32).view.set := load_sub 3 _
theorem load_tile_3 :
    (scrM : Memref sig .tc .vmem S16x8x128 .f32).view.readAt (Elt F) (Rect.unit (s := S16x8x128) ![3, 0, 0] S1x8x128.size inb_S16x8x128_S1x8x128_3_0_0).toLoadRect (comm m c)
      = tile m c 3 := load_tile m c 3 _
omit [FloatOps F] in
theorem load_sub_4 :
    (scrM : Memref sig .tc .vmem S16x8x128 .f32).view.setOn (Rect.unit (s := S16x8x128) ![4, 0, 0] S1x8x128.size inb_S16x8x128_S1x8x128_4_0_0).toLoadRect.set
      ⊆ (tileM 4 : Memref sig .tc .vmem S8x128 .f32).view.set := load_sub 4 _
theorem load_tile_4 :
    (scrM : Memref sig .tc .vmem S16x8x128 .f32).view.readAt (Elt F) (Rect.unit (s := S16x8x128) ![4, 0, 0] S1x8x128.size inb_S16x8x128_S1x8x128_4_0_0).toLoadRect (comm m c)
      = tile m c 4 := load_tile m c 4 _
omit [FloatOps F] in
theorem load_sub_5 :
    (scrM : Memref sig .tc .vmem S16x8x128 .f32).view.setOn (Rect.unit (s := S16x8x128) ![5, 0, 0] S1x8x128.size inb_S16x8x128_S1x8x128_5_0_0).toLoadRect.set
      ⊆ (tileM 5 : Memref sig .tc .vmem S8x128 .f32).view.set := load_sub 5 _
theorem load_tile_5 :
    (scrM : Memref sig .tc .vmem S16x8x128 .f32).view.readAt (Elt F) (Rect.unit (s := S16x8x128) ![5, 0, 0] S1x8x128.size inb_S16x8x128_S1x8x128_5_0_0).toLoadRect (comm m c)
      = tile m c 5 := load_tile m c 5 _
omit [FloatOps F] in
theorem load_sub_6 :
    (scrM : Memref sig .tc .vmem S16x8x128 .f32).view.setOn (Rect.unit (s := S16x8x128) ![6, 0, 0] S1x8x128.size inb_S16x8x128_S1x8x128_6_0_0).toLoadRect.set
      ⊆ (tileM 6 : Memref sig .tc .vmem S8x128 .f32).view.set := load_sub 6 _
theorem load_tile_6 :
    (scrM : Memref sig .tc .vmem S16x8x128 .f32).view.readAt (Elt F) (Rect.unit (s := S16x8x128) ![6, 0, 0] S1x8x128.size inb_S16x8x128_S1x8x128_6_0_0).toLoadRect (comm m c)
      = tile m c 6 := load_tile m c 6 _
omit [FloatOps F] in
theorem load_sub_7 :
    (scrM : Memref sig .tc .vmem S16x8x128 .f32).view.setOn (Rect.unit (s := S16x8x128) ![7, 0, 0] S1x8x128.size inb_S16x8x128_S1x8x128_7_0_0).toLoadRect.set
      ⊆ (tileM 7 : Memref sig .tc .vmem S8x128 .f32).view.set := load_sub 7 _
theorem load_tile_7 :
    (scrM : Memref sig .tc .vmem S16x8x128 .f32).view.readAt (Elt F) (Rect.unit (s := S16x8x128) ![7, 0, 0] S1x8x128.size inb_S16x8x128_S1x8x128_7_0_0).toLoadRect (comm m c)
      = tile m c 7 := load_tile m c 7 _
omit [FloatOps F] in
theorem load_sub_8 :
    (scrM : Memref sig .tc .vmem S16x8x128 .f32).view.setOn (Rect.unit (s := S16x8x128) ![8, 0, 0] S1x8x128.size inb_S16x8x128_S1x8x128_8_0_0).toLoadRect.set
      ⊆ (tileM 8 : Memref sig .tc .vmem S8x128 .f32).view.set := load_sub 8 _
theorem load_tile_8 :
    (scrM : Memref sig .tc .vmem S16x8x128 .f32).view.readAt (Elt F) (Rect.unit (s := S16x8x128) ![8, 0, 0] S1x8x128.size inb_S16x8x128_S1x8x128_8_0_0).toLoadRect (comm m c)
      = tile m c 8 := load_tile m c 8 _
omit [FloatOps F] in
theorem load_sub_9 :
    (scrM : Memref sig .tc .vmem S16x8x128 .f32).view.setOn (Rect.unit (s := S16x8x128) ![9, 0, 0] S1x8x128.size inb_S16x8x128_S1x8x128_9_0_0).toLoadRect.set
      ⊆ (tileM 9 : Memref sig .tc .vmem S8x128 .f32).view.set := load_sub 9 _
theorem load_tile_9 :
    (scrM : Memref sig .tc .vmem S16x8x128 .f32).view.readAt (Elt F) (Rect.unit (s := S16x8x128) ![9, 0, 0] S1x8x128.size inb_S16x8x128_S1x8x128_9_0_0).toLoadRect (comm m c)
      = tile m c 9 := load_tile m c 9 _
omit [FloatOps F] in
theorem load_sub_10 :
    (scrM : Memref sig .tc .vmem S16x8x128 .f32).view.setOn (Rect.unit (s := S16x8x128) ![10, 0, 0] S1x8x128.size inb_S16x8x128_S1x8x128_10_0_0).toLoadRect.set
      ⊆ (tileM 10 : Memref sig .tc .vmem S8x128 .f32).view.set := load_sub 10 _
theorem load_tile_10 :
    (scrM : Memref sig .tc .vmem S16x8x128 .f32).view.readAt (Elt F) (Rect.unit (s := S16x8x128) ![10, 0, 0] S1x8x128.size inb_S16x8x128_S1x8x128_10_0_0).toLoadRect (comm m c)
      = tile m c 10 := load_tile m c 10 _
omit [FloatOps F] in
theorem load_sub_11 :
    (scrM : Memref sig .tc .vmem S16x8x128 .f32).view.setOn (Rect.unit (s := S16x8x128) ![11, 0, 0] S1x8x128.size inb_S16x8x128_S1x8x128_11_0_0).toLoadRect.set
      ⊆ (tileM 11 : Memref sig .tc .vmem S8x128 .f32).view.set := load_sub 11 _
theorem load_tile_11 :
    (scrM : Memref sig .tc .vmem S16x8x128 .f32).view.readAt (Elt F) (Rect.unit (s := S16x8x128) ![11, 0, 0] S1x8x128.size inb_S16x8x128_S1x8x128_11_0_0).toLoadRect (comm m c)
      = tile m c 11 := load_tile m c 11 _
omit [FloatOps F] in
theorem load_sub_12 :
    (scrM : Memref sig .tc .vmem S16x8x128 .f32).view.setOn (Rect.unit (s := S16x8x128) ![12, 0, 0] S1x8x128.size inb_S16x8x128_S1x8x128_12_0_0).toLoadRect.set
      ⊆ (tileM 12 : Memref sig .tc .vmem S8x128 .f32).view.set := load_sub 12 _
theorem load_tile_12 :
    (scrM : Memref sig .tc .vmem S16x8x128 .f32).view.readAt (Elt F) (Rect.unit (s := S16x8x128) ![12, 0, 0] S1x8x128.size inb_S16x8x128_S1x8x128_12_0_0).toLoadRect (comm m c)
      = tile m c 12 := load_tile m c 12 _
omit [FloatOps F] in
theorem load_sub_13 :
    (scrM : Memref sig .tc .vmem S16x8x128 .f32).view.setOn (Rect.unit (s := S16x8x128) ![13, 0, 0] S1x8x128.size inb_S16x8x128_S1x8x128_13_0_0).toLoadRect.set
      ⊆ (tileM 13 : Memref sig .tc .vmem S8x128 .f32).view.set := load_sub 13 _
theorem load_tile_13 :
    (scrM : Memref sig .tc .vmem S16x8x128 .f32).view.readAt (Elt F) (Rect.unit (s := S16x8x128) ![13, 0, 0] S1x8x128.size inb_S16x8x128_S1x8x128_13_0_0).toLoadRect (comm m c)
      = tile m c 13 := load_tile m c 13 _
omit [FloatOps F] in
theorem load_sub_14 :
    (scrM : Memref sig .tc .vmem S16x8x128 .f32).view.setOn (Rect.unit (s := S16x8x128) ![14, 0, 0] S1x8x128.size inb_S16x8x128_S1x8x128_14_0_0).toLoadRect.set
      ⊆ (tileM 14 : Memref sig .tc .vmem S8x128 .f32).view.set := load_sub 14 _
theorem load_tile_14 :
    (scrM : Memref sig .tc .vmem S16x8x128 .f32).view.readAt (Elt F) (Rect.unit (s := S16x8x128) ![14, 0, 0] S1x8x128.size inb_S16x8x128_S1x8x128_14_0_0).toLoadRect (comm m c)
      = tile m c 14 := load_tile m c 14 _
omit [FloatOps F] in
theorem load_sub_15 :
    (scrM : Memref sig .tc .vmem S16x8x128 .f32).view.setOn (Rect.unit (s := S16x8x128) ![15, 0, 0] S1x8x128.size inb_S16x8x128_S1x8x128_15_0_0).toLoadRect.set
      ⊆ (tileM 15 : Memref sig .tc .vmem S8x128 .f32).view.set := load_sub 15 _
theorem load_tile_15 :
    (scrM : Memref sig .tc .vmem S16x8x128 .f32).view.readAt (Elt F) (Rect.unit (s := S16x8x128) ![15, 0, 0] S1x8x128.size inb_S16x8x128_S1x8x128_15_0_0).toLoadRect (comm m c)
      = tile m c 15 := load_tile m c 15 _

end Mem
end Step

namespace Step
section Recs
variable (K : Dev nD × Fin 33 → ℕ)

instance records_persistent : BI.Persistent (records (F := F) m K) := by unfold records; infer_instance

abbrev kS (d : Fin 16) : Fin 33 := ⟨1 + d.val, by have := d.isLt; omega⟩
abbrev kR (d : Fin 16) : Fin 33 := ⟨17 + d.val, by have := d.isLt; omega⟩

omit [FloatOps F] in
theorem kcell_bar (c' : Dev nD) : kcell (c', (0 : Fin 33)) = barCell c' := rfl
omit [FloatOps F] in
theorem kcell_send (c' : Dev nD) (d : Fin 16) : kcell (c', kS d) = sendCell c' d := by
  show ((c' : Thread nD τ), csem (kS d)) = ((c' : Thread nD τ), SemLoc.dma (sendS d))
  congr 1
  unfold csem
  rw [if_neg (by show ¬ (1 + d.val = 0); omega)]
  congr 1
  exact Fin.ext (by show 3 + (1 + d.val) = 4 + d.val; omega)
omit [FloatOps F] in
theorem kcell_recv (c' : Dev nD) (d : Fin 16) : kcell (c', kR d) = recvCell c' d := by
  show ((c' : Thread nD τ), csem (kR d)) = ((c' : Thread nD τ), SemLoc.dma (recvS d))
  congr 1
  unfold csem
  rw [if_neg (by show ¬ (17 + d.val = 0); omega)]
  congr 1
  exact Fin.ext (by show 3 + (17 + d.val) = 20 + d.val; omega)

theorem rec_inv (ck : Dev nD × Fin 33) : records (F := F) m K ⊢ cellInv ER (Rd m) (K ck) (kcell ck) := by
  unfold records
  have h : (bigSep Finset.univ fun ck : Dev nD × Fin 33 => cellInv ER (Rd (F := F) m) (K ck) (kcell ck)) ⊢ cellInv ER (Rd (F := F) m) (K ck) (kcell ck) :=
    bigSep_elim (Φ := fun ck : Dev nD × Fin 33 => cellInv ER (Rd (F := F) m) (K ck) (kcell ck)) (Finset.mem_univ ck)
  iintro ⟨H, -⟩
  iapply h; iexact H
theorem rec_reached (ck : Dev nD × Fin 33) : records (F := F) m K ⊢ reached ER (kcell ck) 0 := by
  unfold records
  have h : (bigSep Finset.univ fun ck : Dev nD × Fin 33 => (reached ER (kcell ck) 0 : sProp 𝕄)) ⊢ (reached ER (kcell ck) 0 : sProp 𝕄) :=
    bigSep_elim (Φ := fun ck : Dev nD × Fin 33 => (reached ER (kcell ck) 0 : sProp 𝕄)) (Finset.mem_univ ck)
  iintro ⟨-, H⟩
  iapply h; iexact H

theorem inv_bar (c' : Dev nD) : records (F := F) m K ⊢ cellInv ER (Rd m) (K (c', 0)) (barCell c') := rec_inv m K (c', 0)
theorem inv_send (c' : Dev nD) (d : Fin 16) : records (F := F) m K ⊢ cellInv ER (Rd m) (K (c', kS d)) (sendCell c' d) := by
  have h := rec_inv m K (c', kS d); rw [kcell_send] at h; exact h
theorem inv_recv (c' : Dev nD) (d : Fin 16) : records (F := F) m K ⊢ cellInv ER (Rd m) (K (c', kR d)) (recvCell c' d) := by
  have h := rec_inv m K (c', kR d); rw [kcell_recv] at h; exact h
theorem rch_bar (c' : Dev nD) : records (F := F) m K ⊢ reached ER (barCell c') 0 := rec_reached m K (c', 0)
theorem rch_send (c' : Dev nD) (d : Fin 16) : records (F := F) m K ⊢ reached ER (sendCell c' d) 0 := by
  have h := rec_reached m K (c', kS d); rw [kcell_send] at h; exact h
theorem rch_recv (c' : Dev nD) (d : Fin 16) : records (F := F) m K ⊢ reached ER (recvCell c' d) 0 := by
  have h := rec_reached m K (c', kR d); rw [kcell_recv] at h; exact h

end Recs
end Step

end Cert.KernelIdeal.Hand
end
-- ==== Proof.HandKernelIdeal.Body.lean ====
/-
  The body of one device, stepped from the exchange's invariant.

  In program order a device signals its fifteen peers (handing each the tile of its communication buffer that peer will
  fill), forms its row sums and sums of squares and stores them into tile 0, waits for the fifteen peers' units (receiving
  from each the tile it is to fill), copies tile 0 into that tile of every peer under fifteen read shares, loads γ, β and
  its own tile, waits for each arrival and loads the arrived tile, stores the result block, and waits for the fifteen
  departures, which bring the read shares back. The thirty-two semaphores end at zero and closed, the communication buffer
  whole at the exchanged contents, and the result block is the closed expression of the device's blocks and the sixteen tiles.
-/
import proofs.«900827_g7700000000000828_dist_layernorm_colshard_i_m512_n256_v7x_i16_f32_1_alg».proof.Proof.HandKernelIdeal.Proto
import proofs.«900827_g7700000000000828_dist_layernorm_colshard_i_m512_n256_v7x_i16_f32_1_alg».proof.Proof.HandKernelIdeal.Tables
import proofs.«900827_g7700000000000828_dist_layernorm_colshard_i_m512_n256_v7x_i16_f32_1_alg».proof.Proof.HandKernelIdeal.Slots
import proofs.«900827_g7700000000000828_dist_layernorm_colshard_i_m512_n256_v7x_i16_f32_1_alg».proof.Proof.HandKernelIdeal.Levels
import proofs.«900827_g7700000000000828_dist_layernorm_colshard_i_m512_n256_v7x_i16_f32_1_alg».proof.Proof.HandKernelIdeal.Steps2
import proofs.«900827_g7700000000000828_dist_layernorm_colshard_i_m512_n256_v7x_i16_f32_1_alg».proof.Proof.HandKernelIdeal.Steps1
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body

variable (K : Dev nD × Fin 33 → ℕ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ credits c ∗ levAts L lv ∗ ∃ f, scrPts c f)
    ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ
    ∗ stg c cc0_stg0_0 (xS m c) ∗ stg c cc0_stg1_0 (gS m c) ∗ stg c cc0_stg2_0 (bS m c) ∗ stg c cc0_stg3_0 (outAt m c))

set_option maxHeartbeats 1600000 in
set_option maxRecDepth 65536 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost linear positions credits
  iintro ⟨⟨⟨⟨#Hrec, ⟨HatB, Hpos⟩, Htoks⟩, ⟨HcB, HcR⟩, #Hlev, ⟨%f0, Hscr⟩⟩,
    Ho, ⟨%d0, %g0, %hg0, Hx⟩, ⟨%d1, %g1, %hg1, Hg⟩, ⟨%d2, %g2, %hg2, Hb⟩, ⟨%d3, %g3, %hg3, Hout⟩⟩, Hk⟩
  have hx : g0 = xS m c := by rw [hg0]; unfold Dat.before; rw [if_pos (fetch0_0 t0_0)]; rfl
  have hg : g1 = gS m c := by rw [hg1]; unfold Dat.before; rw [if_pos (fetch0_1 t0_0)]; rfl
  have hb : g2 = bS m c := by rw [hg2]; unfold Dat.before; rw [if_pos (fetch0_2 t0_0)]; rfl
  subst hx; subst hg; subst hb
  unfold Dat.owesAt Pipeline.owesWithin
  icases Ho with ⟨%W, %hW, HO⟩
  rw [show (dats m 0 c).owed t0_0.castSucc = oweB c 15 from rfl]
  -- the fifteen-fold resources, written out
  ihave Hpos' := (Entails.of_eq (bigSep_fin16 _)) $$ Hpos
  icases Hpos' with ⟨⟨HaS0, HaR0⟩, ⟨HaS1, HaR1⟩, ⟨HaS2, HaR2⟩, ⟨HaS3, HaR3⟩, ⟨HaS4, HaR4⟩, ⟨HaS5, HaR5⟩, ⟨HaS6, HaR6⟩, ⟨HaS7, HaR7⟩, ⟨HaS8, HaR8⟩, ⟨HaS9, HaR9⟩, ⟨HaS10, HaR10⟩, ⟨HaS11, HaR11⟩, ⟨HaS12, HaR12⟩, ⟨HaS13, HaR13⟩, ⟨HaS14, HaR14⟩, ⟨HaS15, HaR15⟩⟩
  ihave Htoks' := (Entails.of_eq (bigSep_offs _)) $$ Htoks
  unfold payToks
  icases Htoks' with ⟨⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩, ⟨HtB7, HtR7, HtS7⟩, ⟨HtB8, HtR8, HtS8⟩, ⟨HtB9, HtR9, HtS9⟩, ⟨HtB10, HtR10, HtS10⟩, ⟨HtB11, HtR11, HtS11⟩, ⟨HtB12, HtR12, HtS12⟩, ⟨HtB13, HtR13, HtS13⟩, ⟨HtB14, HtR14, HtS14⟩, ⟨HtB15, HtR15, HtS15⟩⟩
  ihave HcR' := (Entails.of_eq (bigSep_offs _)) $$ HcR
  icases HcR' with ⟨HcR1, HcR2, HcR3, HcR4, HcR5, HcR6, HcR7, HcR8, HcR9, HcR10, HcR11, HcR12, HcR13, HcR14, HcR15⟩
  ihave Htl := (scr_tiles c f0).1 $$ Hscr
  ihave Htl' := (Entails.of_eq (bigSep_fin16 _)) $$ Htl
  icases Htl' with ⟨Ht0, Ht1, Ht2, Ht3, Ht4, Ht5, Ht6, Ht7, Ht8, Ht9, Ht10, Ht11, Ht12, Ht13, Ht14, Ht15⟩
  -- the signal of offset 1
  ihave #HIb1 := (Step.inv_bar m K (c + (1 : Fin 16))) $$ Hrec
  ihave #Hrb1 := (Step.rch_bar m K (c + (1 : Fin 16))) $$ Hrec
  ihave #HrR15 := (Step.rch_recv m K c 15) $$ Hrec
  iapply (Step.sig_step m c 1 (by decide) 15 (by decide) _ (dev_sig_1 c) _ (oweB c 14) (owe_sig_1 c) W) $$ [HO HtB1 Ht15]
  · isplitr; · iexact HIb1
    isplitl [HO]; · iexact HO
    isplitl [HtB1]; · iexact HtB1
    isplitl [Ht15]
    · isplitl [Ht15]; · iexists _; iexact Ht15
      iexact HrR15
    iexact Hrb1
  iintro HO
  -- the signal of offset 2
  ihave #HIb2 := (Step.inv_bar m K (c + (2 : Fin 16))) $$ Hrec
  ihave #Hrb2 := (Step.rch_bar m K (c + (2 : Fin 16))) $$ Hrec
  ihave #HrR14 := (Step.rch_recv m K c 14) $$ Hrec
  iapply (Step.sig_step m c 2 (by decide) 14 (by decide) _ (dev_sig_2 c) _ (oweB c 13) (owe_sig_2 c) W) $$ [HO HtB2 Ht14]
  · isplitr; · iexact HIb2
    isplitl [HO]; · iexact HO
    isplitl [HtB2]; · iexact HtB2
    isplitl [Ht14]
    · isplitl [Ht14]; · iexists _; iexact Ht14
      iexact HrR14
    iexact Hrb2
  iintro HO
  simp only [k0_part2_eq_skeleton]; unfold k0_part2_skel
  simp only [semSignalWord, semWaitWord, Prog.lift, Prog.bind_op, Prog.bind_ret, Prog.pure_eq_ret]
  -- the signal of offset 3
  ihave #HIb3 := (Step.inv_bar m K (c + (3 : Fin 16))) $$ Hrec
  ihave #Hrb3 := (Step.rch_bar m K (c + (3 : Fin 16))) $$ Hrec
  ihave #HrR13 := (Step.rch_recv m K c 13) $$ Hrec
  iapply (Step.sig_step m c 3 (by decide) 13 (by decide) _ (dev_sig_3 c) _ (oweB c 12) (owe_sig_3 c) W) $$ [HO HtB3 Ht13]
  · isplitr; · iexact HIb3
    isplitl [HO]; · iexact HO
    isplitl [HtB3]; · iexact HtB3
    isplitl [Ht13]
    · isplitl [Ht13]; · iexists _; iexact Ht13
      iexact HrR13
    iexact Hrb3
  iintro HO
  -- the signal of offset 4
  ihave #HIb4 := (Step.inv_bar m K (c + (4 : Fin 16))) $$ Hrec
  ihave #Hrb4 := (Step.rch_bar m K (c + (4 : Fin 16))) $$ Hrec
  ihave #HrR12 := (Step.rch_recv m K c 12) $$ Hrec
  iapply (Step.sig_step m c 4 (by decide) 12 (by decide) _ (dev_sig_4 c) _ (oweB c 11) (owe_sig_4 c) W) $$ [HO HtB4 Ht12]
  · isplitr; · iexact HIb4
    isplitl [HO]; · iexact HO
    isplitl [HtB4]; · iexact HtB4
    isplitl [Ht12]
    · isplitl [Ht12]; · iexists _; iexact Ht12
      iexact HrR12
    iexact Hrb4
  iintro HO
  simp only [k0_part3_eq_skeleton]; unfold k0_part3_skel
  simp only [semSignalWord, semWaitWord, Prog.lift, Prog.bind_op, Prog.bind_ret, Prog.pure_eq_ret]
  -- the signal of offset 5
  ihave #HIb5 := (Step.inv_bar m K (c + (5 : Fin 16))) $$ Hrec
  ihave #Hrb5 := (Step.rch_bar m K (c + (5 : Fin 16))) $$ Hrec
  ihave #HrR11 := (Step.rch_recv m K c 11) $$ Hrec
  iapply (Step.sig_step m c 5 (by decide) 11 (by decide) _ (dev_sig_5 c) _ (oweB c 10) (owe_sig_5 c) W) $$ [HO HtB5 Ht11]
  · isplitr; · iexact HIb5
    isplitl [HO]; · iexact HO
    isplitl [HtB5]; · iexact HtB5
    isplitl [Ht11]
    · isplitl [Ht11]; · iexists _; iexact Ht11
      iexact HrR11
    iexact Hrb5
  iintro HO
  -- the signal of offset 6
  ihave #HIb6 := (Step.inv_bar m K (c + (6 : Fin 16))) $$ Hrec
  ihave #Hrb6 := (Step.rch_bar m K (c + (6 : Fin 16))) $$ Hrec
  ihave #HrR10 := (Step.rch_recv m K c 10) $$ Hrec
  iapply (Step.sig_step m c 6 (by decide) 10 (by decide) _ (dev_sig_6 c) _ (oweB c 9) (owe_sig_6 c) W) $$ [HO HtB6 Ht10]
  · isplitr; · iexact HIb6
    isplitl [HO]; · iexact HO
    isplitl [HtB6]; · iexact HtB6
    isplitl [Ht10]
    · isplitl [Ht10]; · iexists _; iexact Ht10
      iexact HrR10
    iexact Hrb6
  iintro HO
  -- the signal of offset 7
  ihave #HIb7 := (Step.inv_bar m K (c + (7 : Fin 16))) $$ Hrec
  ihave #Hrb7 := (Step.rch_bar m K (c + (7 : Fin 16))) $$ Hrec
  ihave #HrR9 := (Step.rch_recv m K c 9) $$ Hrec
  iapply (Step.sig_step m c 7 (by decide) 9 (by decide) _ (dev_sig_7 c) _ (oweB c 8) (owe_sig_7 c) W) $$ [HO HtB7 Ht9]
  · isplitr; · iexact HIb7
    isplitl [HO]; · iexact HO
    isplitl [HtB7]; · iexact HtB7
    isplitl [Ht9]
    · isplitl [Ht9]; · iexists _; iexact Ht9
      iexact HrR9
    iexact Hrb7
  iintro HO
  simp only [k0_part4_eq_skeleton]; unfold k0_part4_skel
  simp only [semSignalWord, semWaitWord, Prog.lift, Prog.bind_op, Prog.bind_ret, Prog.pure_eq_ret]
  -- the signal of offset 8
  ihave #HIb8 := (Step.inv_bar m K (c + (8 : Fin 16))) $$ Hrec
  ihave #Hrb8 := (Step.rch_bar m K (c + (8 : Fin 16))) $$ Hrec
  ihave #HrR8 := (Step.rch_recv m K c 8) $$ Hrec
  iapply (Step.sig_step m c 8 (by decide) 8 (by decide) _ (dev_sig_8 c) _ (oweB c 7) (owe_sig_8 c) W) $$ [HO HtB8 Ht8]
  · isplitr; · iexact HIb8
    isplitl [HO]; · iexact HO
    isplitl [HtB8]; · iexact HtB8
    isplitl [Ht8]
    · isplitl [Ht8]; · iexists _; iexact Ht8
      iexact HrR8
    iexact Hrb8
  iintro HO
  -- the signal of offset 9
  ihave #HIb9 := (Step.inv_bar m K (c + (9 : Fin 16))) $$ Hrec
  ihave #Hrb9 := (Step.rch_bar m K (c + (9 : Fin 16))) $$ Hrec
  ihave #HrR7 := (Step.rch_recv m K c 7) $$ Hrec
  iapply (Step.sig_step m c 9 (by decide) 7 (by decide) _ (dev_sig_9 c) _ (oweB c 6) (owe_sig_9 c) W) $$ [HO HtB9 Ht7]
  · isplitr; · iexact HIb9
    isplitl [HO]; · iexact HO
    isplitl [HtB9]; · iexact HtB9
    isplitl [Ht7]
    · isplitl [Ht7]; · iexists _; iexact Ht7
      iexact HrR7
    iexact Hrb9
  iintro HO
  simp only [k0_part5_eq_skeleton]; unfold k0_part5_skel
  simp only [semSignalWord, semWaitWord, Prog.lift, Prog.bind_op, Prog.bind_ret, Prog.pure_eq_ret]
  -- the signal of offset 10
  ihave #HIb10 := (Step.inv_bar m K (c + (10 : Fin 16))) $$ Hrec
  ihave #Hrb10 := (Step.rch_bar m K (c + (10 : Fin 16))) $$ Hrec
  ihave #HrR6 := (Step.rch_recv m K c 6) $$ Hrec
  iapply (Step.sig_step m c 10 (by decide) 6 (by decide) _ (dev_sig_10 c) _ (oweB c 5) (owe_sig_10 c) W) $$ [HO HtB10 Ht6]
  · isplitr; · iexact HIb10
    isplitl [HO]; · iexact HO
    isplitl [HtB10]; · iexact HtB10
    isplitl [Ht6]
    · isplitl [Ht6]; · iexists _; iexact Ht6
      iexact HrR6
    iexact Hrb10
  iintro HO
  -- the signal of offset 11
  ihave #HIb11 := (Step.inv_bar m K (c + (11 : Fin 16))) $$ Hrec
  ihave #Hrb11 := (Step.rch_bar m K (c + (11 : Fin 16))) $$ Hrec
  ihave #HrR5 := (Step.rch_recv m K c 5) $$ Hrec
  iapply (Step.sig_step m c 11 (by decide) 5 (by decide) _ (dev_sig_11 c) _ (oweB c 4) (owe_sig_11 c) W) $$ [HO HtB11 Ht5]
  · isplitr; · iexact HIb11
    isplitl [HO]; · iexact HO
    isplitl [HtB11]; · iexact HtB11
    isplitl [Ht5]
    · isplitl [Ht5]; · iexists _; iexact Ht5
      iexact HrR5
    iexact Hrb11
  iintro HO
  -- the signal of offset 12
  ihave #HIb12 := (Step.inv_bar m K (c + (12 : Fin 16))) $$ Hrec
  ihave #Hrb12 := (Step.rch_bar m K (c + (12 : Fin 16))) $$ Hrec
  ihave #HrR4 := (Step.rch_recv m K c 4) $$ Hrec
  iapply (Step.sig_step m c 12 (by decide) 4 (by decide) _ (dev_sig_12 c) _ (oweB c 3) (owe_sig_12 c) W) $$ [HO HtB12 Ht4]
  · isplitr; · iexact HIb12
    isplitl [HO]; · iexact HO
    isplitl [HtB12]; · iexact HtB12
    isplitl [Ht4]
    · isplitl [Ht4]; · iexists _; iexact Ht4
      iexact HrR4
    iexact Hrb12
  iintro HO
  simp only [k0_part6_eq_skeleton]; unfold k0_part6_skel
  simp only [semSignalWord, semWaitWord, Prog.lift, Prog.bind_op, Prog.bind_ret, Prog.pure_eq_ret]
  -- the signal of offset 13
  ihave #HIb13 := (Step.inv_bar m K (c + (13 : Fin 16))) $$ Hrec
  ihave #Hrb13 := (Step.rch_bar m K (c + (13 : Fin 16))) $$ Hrec
  ihave #HrR3 := (Step.rch_recv m K c 3) $$ Hrec
  iapply (Step.sig_step m c 13 (by decide) 3 (by decide) _ (dev_sig_13 c) _ (oweB c 2) (owe_sig_13 c) W) $$ [HO HtB13 Ht3]
  · isplitr; · iexact HIb13
    isplitl [HO]; · iexact HO
    isplitl [HtB13]; · iexact HtB13
    isplitl [Ht3]
    · isplitl [Ht3]; · iexists _; iexact Ht3
      iexact HrR3
    iexact Hrb13
  iintro HO
  -- the signal of offset 14
  ihave #HIb14 := (Step.inv_bar m K (c + (14 : Fin 16))) $$ Hrec
  ihave #Hrb14 := (Step.rch_bar m K (c + (14 : Fin 16))) $$ Hrec
  ihave #HrR2 := (Step.rch_recv m K c 2) $$ Hrec
  iapply (Step.sig_step m c 14 (by decide) 2 (by decide) _ (dev_sig_14 c) _ (oweB c 1) (owe_sig_14 c) W) $$ [HO HtB14 Ht2]
  · isplitr; · iexact HIb14
    isplitl [HO]; · iexact HO
    isplitl [HtB14]; · iexact HtB14
    isplitl [Ht2]
    · isplitl [Ht2]; · iexists _; iexact Ht2
      iexact HrR2
    iexact Hrb14
  iintro HO
  simp only [k0_part7_eq_skeleton]; unfold k0_part7_skel
  simp only [semSignalWord, semWaitWord, Prog.lift, Prog.bind_op, Prog.bind_ret, Prog.pure_eq_ret]
  -- the signal of offset 15
  ihave #HIb15 := (Step.inv_bar m K (c + (15 : Fin 16))) $$ Hrec
  ihave #Hrb15 := (Step.rch_bar m K (c + (15 : Fin 16))) $$ Hrec
  ihave #HrR1 := (Step.rch_recv m K c 1) $$ Hrec
  iapply (Step.sig_step m c 15 (by decide) 1 (by decide) _ (dev_sig_15 c) _ (oweB c 0) (owe_sig_15 c) W) $$ [HO HtB15 Ht1]
  · isplitr; · iexact HIb15
    isplitl [HO]; · iexact HO
    isplitl [HtB15]; · iexact HtB15
    isplitl [Ht1]
    · isplitl [Ht1]; · iexists _; iexact Ht1
      iexact HrR1
    iexact Hrb15
  iintro HO
  -- the loads and the two stores: tile 0 now holds this device's sums
  iapply (wp_load 𝒱₀ (c : Thread nD τ) none Set.univ (m := xM) (Finset.subset_univ _)) $$ Hx; iintro Hx
  rw [Step.read_x]
  iapply (Step.tile_load c 0 fullShare _ load_sub_r0) $$ Ht0; iintro Ht0
  iapply (Step.tile0_store c _ store_sub_r0) $$ Ht0; iintro Ht0
  iapply (Step.tile_load c 0 fullShare _ load_sub_r4) $$ Ht0; iintro Ht0
  iapply (Step.tile0_store c _ store_sub_r4) $$ Ht0; iintro Ht0
  ihave Hc0 := (Entails.of_eq (tile0_stored m c f0 fullShare)) $$ Ht0
  ihave Hsh := (tile0_shares c (comm m c)).1 $$ Hc0
  icases Hsh with ⟨Hkept, Hl⟩
  ihave Hl' := (Entails.of_eq (bigSep_fin16 _)) $$ Hl
  icases Hl' with ⟨Hl0, Hl1, Hl2, Hl3, Hl4, Hl5, Hl6, Hl7, Hl8, Hl9, Hl10, Hl11, Hl12, Hl13, Hl14, Hl15⟩
  -- the wait for the fifteen peers
  ihave #HIbar := (Step.inv_bar m K c) $$ Hrec
  iapply (Step.barwait_step m c _ _ (mayWait_bar c)) $$ [HcB HO HatB]
  · isplitr; · iexact HIbar
    isplitl [HcB]; · iexact HcB
    isplitl [HO]; · iexact HO
    isplitr; · iexact Hlev
    iexact HatB
  iintro ⟨HO, HatB, Hp15, Hp14, Hp13, Hp12, Hp11, Hp10, Hp9, Hp8, Hp7, Hp6, Hp5, Hp4, Hp3, Hp2, Hp1⟩
  unfold Step.peerPay
  icases Hp1 with ⟨⟨%fn1, Hpt1⟩, #HrP1⟩
  icases Hp2 with ⟨⟨%fn2, Hpt2⟩, #HrP2⟩
  icases Hp3 with ⟨⟨%fn3, Hpt3⟩, #HrP3⟩
  icases Hp4 with ⟨⟨%fn4, Hpt4⟩, #HrP4⟩
  icases Hp5 with ⟨⟨%fn5, Hpt5⟩, #HrP5⟩
  icases Hp6 with ⟨⟨%fn6, Hpt6⟩, #HrP6⟩
  icases Hp7 with ⟨⟨%fn7, Hpt7⟩, #HrP7⟩
  icases Hp8 with ⟨⟨%fn8, Hpt8⟩, #HrP8⟩
  icases Hp9 with ⟨⟨%fn9, Hpt9⟩, #HrP9⟩
  icases Hp10 with ⟨⟨%fn10, Hpt10⟩, #HrP10⟩
  icases Hp11 with ⟨⟨%fn11, Hpt11⟩, #HrP11⟩
  icases Hp12 with ⟨⟨%fn12, Hpt12⟩, #HrP12⟩
  icases Hp13 with ⟨⟨%fn13, Hpt13⟩, #HrP13⟩
  icases Hp14 with ⟨⟨%fn14, Hpt14⟩, #HrP14⟩
  icases Hp15 with ⟨⟨%fn15, Hpt15⟩, #HrP15⟩
  simp only [k0_part8_eq_skeleton]; unfold k0_part8_skel
  simp only [semSignalWord, semWaitWord, Prog.lift, Prog.bind_op, Prog.bind_ret, Prog.pure_eq_ret]
  -- the copy of offset 1
  ihave #HIs1 := (Step.inv_send m K c 1) $$ Hrec
  ihave #HIr1 := (Step.inv_recv m K (c + (1 : Fin 16)) 1) $$ Hrec
  ihave #Hrs1 := (Step.rch_send m K c 1) $$ Hrec
  iapply (Step.copy_step m c 1 (by decide) _ (dev_dma_1 c) _ _ _ tileM_lit_0 _ tileM_lit_1 _ _ sendS_lit_1 recvS_lit_1 (oweR c 14) (owe_dma_1 c) _ fn1
      (Entails.of_eq (landed_eq m c 1 fn1 (comm m c) (fun _ _ => rfl)))) $$ [Hl1 Hpt1 HO HtS1 HtR1]
  · isplitr; · iexact HIs1
    isplitr; · iexact HIr1
    isplitl [Hl1]; · iexact Hl1
    isplitl [Hpt1]; · iexact Hpt1
    isplitl [HO]; · iexact HO
    isplitl [HtS1]; · iexact HtS1
    isplitr; · iexact Hrs1
    isplitl [HtR1]; · iexact HtR1
    iexact HrP1
  iintro ⟨HcS1, HO⟩
  -- the copy of offset 2
  ihave #HIs2 := (Step.inv_send m K c 2) $$ Hrec
  ihave #HIr2 := (Step.inv_recv m K (c + (2 : Fin 16)) 2) $$ Hrec
  ihave #Hrs2 := (Step.rch_send m K c 2) $$ Hrec
  iapply (Step.copy_step m c 2 (by decide) _ (dev_dma_2 c) _ _ _ tileM_lit_0 _ tileM_lit_2 _ _ sendS_lit_2 recvS_lit_2 (oweR c 13) (owe_dma_2 c) _ fn2
      (Entails.of_eq (landed_eq m c 2 fn2 (comm m c) (fun _ _ => rfl)))) $$ [Hl2 Hpt2 HO HtS2 HtR2]
  · isplitr; · iexact HIs2
    isplitr; · iexact HIr2
    isplitl [Hl2]; · iexact Hl2
    isplitl [Hpt2]; · iexact Hpt2
    isplitl [HO]; · iexact HO
    isplitl [HtS2]; · iexact HtS2
    isplitr; · iexact Hrs2
    isplitl [HtR2]; · iexact HtR2
    iexact HrP2
  iintro ⟨HcS2, HO⟩
  simp only [k0_part9_eq_skeleton]; unfold k0_part9_skel
  simp only [semSignalWord, semWaitWord, Prog.lift, Prog.bind_op, Prog.bind_ret, Prog.pure_eq_ret]
  -- the copy of offset 3
  ihave #HIs3 := (Step.inv_send m K c 3) $$ Hrec
  ihave #HIr3 := (Step.inv_recv m K (c + (3 : Fin 16)) 3) $$ Hrec
  ihave #Hrs3 := (Step.rch_send m K c 3) $$ Hrec
  iapply (Step.copy_step m c 3 (by decide) _ (dev_dma_3 c) _ _ _ tileM_lit_0 _ tileM_lit_3 _ _ sendS_lit_3 recvS_lit_3 (oweR c 12) (owe_dma_3 c) _ fn3
      (Entails.of_eq (landed_eq m c 3 fn3 (comm m c) (fun _ _ => rfl)))) $$ [Hl3 Hpt3 HO HtS3 HtR3]
  · isplitr; · iexact HIs3
    isplitr; · iexact HIr3
    isplitl [Hl3]; · iexact Hl3
    isplitl [Hpt3]; · iexact Hpt3
    isplitl [HO]; · iexact HO
    isplitl [HtS3]; · iexact HtS3
    isplitr; · iexact Hrs3
    isplitl [HtR3]; · iexact HtR3
    iexact HrP3
  iintro ⟨HcS3, HO⟩
  simp only [k0_part10_eq_skeleton]; unfold k0_part10_skel
  simp only [semSignalWord, semWaitWord, Prog.lift, Prog.bind_op, Prog.bind_ret, Prog.pure_eq_ret]
  -- the copy of offset 4
  ihave #HIs4 := (Step.inv_send m K c 4) $$ Hrec
  ihave #HIr4 := (Step.inv_recv m K (c + (4 : Fin 16)) 4) $$ Hrec
  ihave #Hrs4 := (Step.rch_send m K c 4) $$ Hrec
  iapply (Step.copy_step m c 4 (by decide) _ (dev_dma_4 c) _ _ _ tileM_lit_0 _ tileM_lit_4 _ _ sendS_lit_4 recvS_lit_4 (oweR c 11) (owe_dma_4 c) _ fn4
      (Entails.of_eq (landed_eq m c 4 fn4 (comm m c) (fun _ _ => rfl)))) $$ [Hl4 Hpt4 HO HtS4 HtR4]
  · isplitr; · iexact HIs4
    isplitr; · iexact HIr4
    isplitl [Hl4]; · iexact Hl4
    isplitl [Hpt4]; · iexact Hpt4
    isplitl [HO]; · iexact HO
    isplitl [HtS4]; · iexact HtS4
    isplitr; · iexact Hrs4
    isplitl [HtR4]; · iexact HtR4
    iexact HrP4
  iintro ⟨HcS4, HO⟩
  -- the copy of offset 5
  ihave #HIs5 := (Step.inv_send m K c 5) $$ Hrec
  ihave #HIr5 := (Step.inv_recv m K (c + (5 : Fin 16)) 5) $$ Hrec
  ihave #Hrs5 := (Step.rch_send m K c 5) $$ Hrec
  iapply (Step.copy_step m c 5 (by decide) _ (dev_dma_5 c) _ _ _ tileM_lit_0 _ tileM_lit_5 _ _ sendS_lit_5 recvS_lit_5 (oweR c 10) (owe_dma_5 c) _ fn5
      (Entails.of_eq (landed_eq m c 5 fn5 (comm m c) (fun _ _ => rfl)))) $$ [Hl5 Hpt5 HO HtS5 HtR5]
  · isplitr; · iexact HIs5
    isplitr; · iexact HIr5
    isplitl [Hl5]; · iexact Hl5
    isplitl [Hpt5]; · iexact Hpt5
    isplitl [HO]; · iexact HO
    isplitl [HtS5]; · iexact HtS5
    isplitr; · iexact Hrs5
    isplitl [HtR5]; · iexact HtR5
    iexact HrP5
  iintro ⟨HcS5, HO⟩
  simp only [k0_part11_eq_skeleton]; unfold k0_part11_skel
  simp only [semSignalWord, semWaitWord, Prog.lift, Prog.bind_op, Prog.bind_ret, Prog.pure_eq_ret]
  -- the copy of offset 6
  ihave #HIs6 := (Step.inv_send m K c 6) $$ Hrec
  ihave #HIr6 := (Step.inv_recv m K (c + (6 : Fin 16)) 6) $$ Hrec
  ihave #Hrs6 := (Step.rch_send m K c 6) $$ Hrec
  iapply (Step.copy_step m c 6 (by decide) _ (dev_dma_6 c) _ _ _ tileM_lit_0 _ tileM_lit_6 _ _ sendS_lit_6 recvS_lit_6 (oweR c 9) (owe_dma_6 c) _ fn6
      (Entails.of_eq (landed_eq m c 6 fn6 (comm m c) (fun _ _ => rfl)))) $$ [Hl6 Hpt6 HO HtS6 HtR6]
  · isplitr; · iexact HIs6
    isplitr; · iexact HIr6
    isplitl [Hl6]; · iexact Hl6
    isplitl [Hpt6]; · iexact Hpt6
    isplitl [HO]; · iexact HO
    isplitl [HtS6]; · iexact HtS6
    isplitr; · iexact Hrs6
    isplitl [HtR6]; · iexact HtR6
    iexact HrP6
  iintro ⟨HcS6, HO⟩
  simp only [k0_part12_eq_skeleton]; unfold k0_part12_skel
  simp only [semSignalWord, semWaitWord, Prog.lift, Prog.bind_op, Prog.bind_ret, Prog.pure_eq_ret]
  -- the copy of offset 7
  ihave #HIs7 := (Step.inv_send m K c 7) $$ Hrec
  ihave #HIr7 := (Step.inv_recv m K (c + (7 : Fin 16)) 7) $$ Hrec
  ihave #Hrs7 := (Step.rch_send m K c 7) $$ Hrec
  iapply (Step.copy_step m c 7 (by decide) _ (dev_dma_7 c) _ _ _ tileM_lit_0 _ tileM_lit_7 _ _ sendS_lit_7 recvS_lit_7 (oweR c 8) (owe_dma_7 c) _ fn7
      (Entails.of_eq (landed_eq m c 7 fn7 (comm m c) (fun _ _ => rfl)))) $$ [Hl7 Hpt7 HO HtS7 HtR7]
  · isplitr; · iexact HIs7
    isplitr; · iexact HIr7
    isplitl [Hl7]; · iexact Hl7
    isplitl [Hpt7]; · iexact Hpt7
    isplitl [HO]; · iexact HO
    isplitl [HtS7]; · iexact HtS7
    isplitr; · iexact Hrs7
    isplitl [HtR7]; · iexact HtR7
    iexact HrP7
  iintro ⟨HcS7, HO⟩
  -- the copy of offset 8
  ihave #HIs8 := (Step.inv_send m K c 8) $$ Hrec
  ihave #HIr8 := (Step.inv_recv m K (c + (8 : Fin 16)) 8) $$ Hrec
  ihave #Hrs8 := (Step.rch_send m K c 8) $$ Hrec
  iapply (Step.copy_step m c 8 (by decide) _ (dev_dma_8 c) _ _ _ tileM_lit_0 _ tileM_lit_8 _ _ sendS_lit_8 recvS_lit_8 (oweR c 7) (owe_dma_8 c) _ fn8
      (Entails.of_eq (landed_eq m c 8 fn8 (comm m c) (fun _ _ => rfl)))) $$ [Hl8 Hpt8 HO HtS8 HtR8]
  · isplitr; · iexact HIs8
    isplitr; · iexact HIr8
    isplitl [Hl8]; · iexact Hl8
    isplitl [Hpt8]; · iexact Hpt8
    isplitl [HO]; · iexact HO
    isplitl [HtS8]; · iexact HtS8
    isplitr; · iexact Hrs8
    isplitl [HtR8]; · iexact HtR8
    iexact HrP8
  iintro ⟨HcS8, HO⟩
  simp only [k0_part13_eq_skeleton]; unfold k0_part13_skel
  simp only [semSignalWord, semWaitWord, Prog.lift, Prog.bind_op, Prog.bind_ret, Prog.pure_eq_ret]
  -- the copy of offset 9
  ihave #HIs9 := (Step.inv_send m K c 9) $$ Hrec
  ihave #HIr9 := (Step.inv_recv m K (c + (9 : Fin 16)) 9) $$ Hrec
  ihave #Hrs9 := (Step.rch_send m K c 9) $$ Hrec
  iapply (Step.copy_step m c 9 (by decide) _ (dev_dma_9 c) _ _ _ tileM_lit_0 _ tileM_lit_9 _ _ sendS_lit_9 recvS_lit_9 (oweR c 6) (owe_dma_9 c) _ fn9
      (Entails.of_eq (landed_eq m c 9 fn9 (comm m c) (fun _ _ => rfl)))) $$ [Hl9 Hpt9 HO HtS9 HtR9]
  · isplitr; · iexact HIs9
    isplitr; · iexact HIr9
    isplitl [Hl9]; · iexact Hl9
    isplitl [Hpt9]; · iexact Hpt9
    isplitl [HO]; · iexact HO
    isplitl [HtS9]; · iexact HtS9
    isplitr; · iexact Hrs9
    isplitl [HtR9]; · iexact HtR9
    iexact HrP9
  iintro ⟨HcS9, HO⟩
  simp only [k0_part14_eq_skeleton]; unfold k0_part14_skel
  simp only [semSignalWord, semWaitWord, Prog.lift, Prog.bind_op, Prog.bind_ret, Prog.pure_eq_ret]
  -- the copy of offset 10
  ihave #HIs10 := (Step.inv_send m K c 10) $$ Hrec
  ihave #HIr10 := (Step.inv_recv m K (c + (10 : Fin 16)) 10) $$ Hrec
  ihave #Hrs10 := (Step.rch_send m K c 10) $$ Hrec
  iapply (Step.copy_step m c 10 (by decide) _ (dev_dma_10 c) _ _ _ tileM_lit_0 _ tileM_lit_10 _ _ sendS_lit_10 recvS_lit_10 (oweR c 5) (owe_dma_10 c) _ fn10
      (Entails.of_eq (landed_eq m c 10 fn10 (comm m c) (fun _ _ => rfl)))) $$ [Hl10 Hpt10 HO HtS10 HtR10]
  · isplitr; · iexact HIs10
    isplitr; · iexact HIr10
    isplitl [Hl10]; · iexact Hl10
    isplitl [Hpt10]; · iexact Hpt10
    isplitl [HO]; · iexact HO
    isplitl [HtS10]; · iexact HtS10
    isplitr; · iexact Hrs10
    isplitl [HtR10]; · iexact HtR10
    iexact HrP10
  iintro ⟨HcS10, HO⟩
  -- the copy of offset 11
  ihave #HIs11 := (Step.inv_send m K c 11) $$ Hrec
  ihave #HIr11 := (Step.inv_recv m K (c + (11 : Fin 16)) 11) $$ Hrec
  ihave #Hrs11 := (Step.rch_send m K c 11) $$ Hrec
  iapply (Step.copy_step m c 11 (by decide) _ (dev_dma_11 c) _ _ _ tileM_lit_0 _ tileM_lit_11 _ _ sendS_lit_11 recvS_lit_11 (oweR c 4) (owe_dma_11 c) _ fn11
      (Entails.of_eq (landed_eq m c 11 fn11 (comm m c) (fun _ _ => rfl)))) $$ [Hl11 Hpt11 HO HtS11 HtR11]
  · isplitr; · iexact HIs11
    isplitr; · iexact HIr11
    isplitl [Hl11]; · iexact Hl11
    isplitl [Hpt11]; · iexact Hpt11
    isplitl [HO]; · iexact HO
    isplitl [HtS11]; · iexact HtS11
    isplitr; · iexact Hrs11
    isplitl [HtR11]; · iexact HtR11
    iexact HrP11
  iintro ⟨HcS11, HO⟩
  simp only [k0_part15_eq_skeleton]; unfold k0_part15_skel
  simp only [semSignalWord, semWaitWord, Prog.lift, Prog.bind_op, Prog.bind_ret, Prog.pure_eq_ret]
  -- the copy of offset 12
  ihave #HIs12 := (Step.inv_send m K c 12) $$ Hrec
  ihave #HIr12 := (Step.inv_recv m K (c + (12 : Fin 16)) 12) $$ Hrec
  ihave #Hrs12 := (Step.rch_send m K c 12) $$ Hrec
  iapply (Step.copy_step m c 12 (by decide) _ (dev_dma_12 c) _ _ _ tileM_lit_0 _ tileM_lit_12 _ _ sendS_lit_12 recvS_lit_12 (oweR c 3) (owe_dma_12 c) _ fn12
      (Entails.of_eq (landed_eq m c 12 fn12 (comm m c) (fun _ _ => rfl)))) $$ [Hl12 Hpt12 HO HtS12 HtR12]
  · isplitr; · iexact HIs12
    isplitr; · iexact HIr12
    isplitl [Hl12]; · iexact Hl12
    isplitl [Hpt12]; · iexact Hpt12
    isplitl [HO]; · iexact HO
    isplitl [HtS12]; · iexact HtS12
    isplitr; · iexact Hrs12
    isplitl [HtR12]; · iexact HtR12
    iexact HrP12
  iintro ⟨HcS12, HO⟩
  simp only [k0_part16_eq_skeleton]; unfold k0_part16_skel
  simp only [semSignalWord, semWaitWord, Prog.lift, Prog.bind_op, Prog.bind_ret, Prog.pure_eq_ret]
  -- the copy of offset 13
  ihave #HIs13 := (Step.inv_send m K c 13) $$ Hrec
  ihave #HIr13 := (Step.inv_recv m K (c + (13 : Fin 16)) 13) $$ Hrec
  ihave #Hrs13 := (Step.rch_send m K c 13) $$ Hrec
  iapply (Step.copy_step m c 13 (by decide) _ (dev_dma_13 c) _ _ _ tileM_lit_0 _ tileM_lit_13 _ _ sendS_lit_13 recvS_lit_13 (oweR c 2) (owe_dma_13 c) _ fn13
      (Entails.of_eq (landed_eq m c 13 fn13 (comm m c) (fun _ _ => rfl)))) $$ [Hl13 Hpt13 HO HtS13 HtR13]
  · isplitr; · iexact HIs13
    isplitr; · iexact HIr13
    isplitl [Hl13]; · iexact Hl13
    isplitl [Hpt13]; · iexact Hpt13
    isplitl [HO]; · iexact HO
    isplitl [HtS13]; · iexact HtS13
    isplitr; · iexact Hrs13
    isplitl [HtR13]; · iexact HtR13
    iexact HrP13
  iintro ⟨HcS13, HO⟩
  -- the copy of offset 14
  ihave #HIs14 := (Step.inv_send m K c 14) $$ Hrec
  ihave #HIr14 := (Step.inv_recv m K (c + (14 : Fin 16)) 14) $$ Hrec
  ihave #Hrs14 := (Step.rch_send m K c 14) $$ Hrec
  iapply (Step.copy_step m c 14 (by decide) _ (dev_dma_14 c) _ _ _ tileM_lit_0 _ tileM_lit_14 _ _ sendS_lit_14 recvS_lit_14 (oweR c 1) (owe_dma_14 c) _ fn14
      (Entails.of_eq (landed_eq m c 14 fn14 (comm m c) (fun _ _ => rfl)))) $$ [Hl14 Hpt14 HO HtS14 HtR14]
  · isplitr; · iexact HIs14
    isplitr; · iexact HIr14
    isplitl [Hl14]; · iexact Hl14
    isplitl [Hpt14]; · iexact Hpt14
    isplitl [HO]; · iexact HO
    isplitl [HtS14]; · iexact HtS14
    isplitr; · iexact Hrs14
    isplitl [HtR14]; · iexact HtR14
    iexact HrP14
  iintro ⟨HcS14, HO⟩
  simp only [k0_part17_eq_skeleton]; unfold k0_part17_skel
  simp only [semSignalWord, semWaitWord, Prog.lift, Prog.bind_op, Prog.bind_ret, Prog.pure_eq_ret]
  -- the copy of offset 15
  ihave #HIs15 := (Step.inv_send m K c 15) $$ Hrec
  ihave #HIr15 := (Step.inv_recv m K (c + (15 : Fin 16)) 15) $$ Hrec
  ihave #Hrs15 := (Step.rch_send m K c 15) $$ Hrec
  iapply (Step.copy_step m c 15 (by decide) _ (dev_dma_15 c) _ _ _ tileM_lit_0 _ tileM_lit_15 _ _ sendS_lit_15 recvS_lit_15 (oweR c 0) (owe_dma_15 c) _ fn15
      (Entails.of_eq (landed_eq m c 15 fn15 (comm m c) (fun _ _ => rfl)))) $$ [Hl15 Hpt15 HO HtS15 HtR15]
  · isplitr; · iexact HIs15
    isplitr; · iexact HIr15
    isplitl [Hl15]; · iexact Hl15
    isplitl [Hpt15]; · iexact Hpt15
    isplitl [HO]; · iexact HO
    isplitl [HtS15]; · iexact HtS15
    isplitr; · iexact Hrs15
    isplitl [HtR15]; · iexact HtR15
    iexact HrP15
  iintro ⟨HcS15, HO⟩
  -- the loads of γ, β and of this device's own tile
  iapply (wp_load 𝒱₀ (c : Thread nD τ) none Set.univ (m := gM) (Finset.subset_univ _)) $$ Hg; iintro Hg
  rw [Step.read_g]
  iapply (wp_load 𝒱₀ (c : Thread nD τ) none Set.univ (m := bM) (Finset.subset_univ _)) $$ Hb; iintro Hb
  rw [Step.read_b]
  iapply (Step.tile_load c 0 kept _ Step.load_sub_0) $$ Hkept; iintro Hkept
  rw [Step.load_tile_0 m c]
  -- the arrival of the copy of offset 1
  ihave #HIv1 := (Step.inv_recv m K c 1) $$ Hrec
  iapply (recv_step m _ c 1 (by decide) _ (tileM 0) (tileM 1) _ _ (tile_credit 1))
  isplitr; · iexact HIv1
  isplitl [HcR1]; · iexact HcR1
  isplitl [HO]; · iexact HO
  isplitl [HaR1]; · iexact HaR1
  iintro ⟨Hv1, HzR1, HO⟩
  unfold recvPay
  iapply (Step.tile_load c 1 fullShare _ Step.load_sub_1) $$ Hv1; iintro Hv1
  rw [Step.load_tile_1 m c]
  simp only [k0_part18_eq_skeleton]; unfold k0_part18_skel
  simp only [semSignalWord, semWaitWord, Prog.lift, Prog.bind_op, Prog.bind_ret, Prog.pure_eq_ret]
  -- the arrival of the copy of offset 2
  ihave #HIv2 := (Step.inv_recv m K c 2) $$ Hrec
  iapply (recv_step m _ c 2 (by decide) _ (tileM 0) (tileM 2) _ _ (tile_credit 2))
  isplitr; · iexact HIv2
  isplitl [HcR2]; · iexact HcR2
  isplitl [HO]; · iexact HO
  isplitl [HaR2]; · iexact HaR2
  iintro ⟨Hv2, HzR2, HO⟩
  unfold recvPay
  iapply (Step.tile_load c 2 fullShare _ Step.load_sub_2) $$ Hv2; iintro Hv2
  rw [Step.load_tile_2 m c]
  -- the arrival of the copy of offset 3
  ihave #HIv3 := (Step.inv_recv m K c 3) $$ Hrec
  iapply (recv_step m _ c 3 (by decide) _ (tileM 0) (tileM 3) _ _ (tile_credit 3))
  isplitr; · iexact HIv3
  isplitl [HcR3]; · iexact HcR3
  isplitl [HO]; · iexact HO
  isplitl [HaR3]; · iexact HaR3
  iintro ⟨Hv3, HzR3, HO⟩
  unfold recvPay
  iapply (Step.tile_load c 3 fullShare _ Step.load_sub_3) $$ Hv3; iintro Hv3
  rw [Step.load_tile_3 m c]
  simp only [k0_part19_eq_skeleton]; unfold k0_part19_skel
  simp only [semSignalWord, semWaitWord, Prog.lift, Prog.bind_op, Prog.bind_ret, Prog.pure_eq_ret]
  -- the arrival of the copy of offset 4
  ihave #HIv4 := (Step.inv_recv m K c 4) $$ Hrec
  iapply (recv_step m _ c 4 (by decide) _ (tileM 0) (tileM 4) _ _ (tile_credit 4))
  isplitr; · iexact HIv4
  isplitl [HcR4]; · iexact HcR4
  isplitl [HO]; · iexact HO
  isplitl [HaR4]; · iexact HaR4
  iintro ⟨Hv4, HzR4, HO⟩
  unfold recvPay
  iapply (Step.tile_load c 4 fullShare _ Step.load_sub_4) $$ Hv4; iintro Hv4
  rw [Step.load_tile_4 m c]
  -- the arrival of the copy of offset 5
  ihave #HIv5 := (Step.inv_recv m K c 5) $$ Hrec
  iapply (recv_step m _ c 5 (by decide) _ (tileM 0) (tileM 5) _ _ (tile_credit 5))
  isplitr; · iexact HIv5
  isplitl [HcR5]; · iexact HcR5
  isplitl [HO]; · iexact HO
  isplitl [HaR5]; · iexact HaR5
  iintro ⟨Hv5, HzR5, HO⟩
  unfold recvPay
  iapply (Step.tile_load c 5 fullShare _ Step.load_sub_5) $$ Hv5; iintro Hv5
  rw [Step.load_tile_5 m c]
  -- the arrival of the copy of offset 6
  ihave #HIv6 := (Step.inv_recv m K c 6) $$ Hrec
  iapply (recv_step m _ c 6 (by decide) _ (tileM 0) (tileM 6) _ _ (tile_credit 6))
  isplitr; · iexact HIv6
  isplitl [HcR6]; · iexact HcR6
  isplitl [HO]; · iexact HO
  isplitl [HaR6]; · iexact HaR6
  iintro ⟨Hv6, HzR6, HO⟩
  unfold recvPay
  simp only [k0_part20_eq_skeleton]; unfold k0_part20_skel
  simp only [semSignalWord, semWaitWord, Prog.lift, Prog.bind_op, Prog.bind_ret, Prog.pure_eq_ret]
  iapply (Step.tile_load c 6 fullShare _ Step.load_sub_6) $$ Hv6; iintro Hv6
  rw [Step.load_tile_6 m c]
  -- the arrival of the copy of offset 7
  ihave #HIv7 := (Step.inv_recv m K c 7) $$ Hrec
  iapply (recv_step m _ c 7 (by decide) _ (tileM 0) (tileM 7) _ _ (tile_credit 7))
  isplitr; · iexact HIv7
  isplitl [HcR7]; · iexact HcR7
  isplitl [HO]; · iexact HO
  isplitl [HaR7]; · iexact HaR7
  iintro ⟨Hv7, HzR7, HO⟩
  unfold recvPay
  iapply (Step.tile_load c 7 fullShare _ Step.load_sub_7) $$ Hv7; iintro Hv7
  rw [Step.load_tile_7 m c]
  -- the arrival of the copy of offset 8
  ihave #HIv8 := (Step.inv_recv m K c 8) $$ Hrec
  iapply (recv_step m _ c 8 (by decide) _ (tileM 0) (tileM 8) _ _ (tile_credit 8))
  isplitr; · iexact HIv8
  isplitl [HcR8]; · iexact HcR8
  isplitl [HO]; · iexact HO
  isplitl [HaR8]; · iexact HaR8
  iintro ⟨Hv8, HzR8, HO⟩
  unfold recvPay
  iapply (Step.tile_load c 8 fullShare _ Step.load_sub_8) $$ Hv8; iintro Hv8
  rw [Step.load_tile_8 m c]
  simp only [k0_part21_eq_skeleton]; unfold k0_part21_skel
  simp only [semSignalWord, semWaitWord, Prog.lift, Prog.bind_op, Prog.bind_ret, Prog.pure_eq_ret]
  -- the arrival of the copy of offset 9
  ihave #HIv9 := (Step.inv_recv m K c 9) $$ Hrec
  iapply (recv_step m _ c 9 (by decide) _ (tileM 0) (tileM 9) _ _ (tile_credit 9))
  isplitr; · iexact HIv9
  isplitl [HcR9]; · iexact HcR9
  isplitl [HO]; · iexact HO
  isplitl [HaR9]; · iexact HaR9
  iintro ⟨Hv9, HzR9, HO⟩
  unfold recvPay
  iapply (Step.tile_load c 9 fullShare _ Step.load_sub_9) $$ Hv9; iintro Hv9
  rw [Step.load_tile_9 m c]
  -- the arrival of the copy of offset 10
  ihave #HIv10 := (Step.inv_recv m K c 10) $$ Hrec
  iapply (recv_step m _ c 10 (by decide) _ (tileM 0) (tileM 10) _ _ (tile_credit 10))
  isplitr; · iexact HIv10
  isplitl [HcR10]; · iexact HcR10
  isplitl [HO]; · iexact HO
  isplitl [HaR10]; · iexact HaR10
  iintro ⟨Hv10, HzR10, HO⟩
  unfold recvPay
  iapply (Step.tile_load c 10 fullShare _ Step.load_sub_10) $$ Hv10; iintro Hv10
  rw [Step.load_tile_10 m c]
  simp only [k0_part22_eq_skeleton]; unfold k0_part22_skel
  simp only [semSignalWord, semWaitWord, Prog.lift, Prog.bind_op, Prog.bind_ret, Prog.pure_eq_ret]
  -- the arrival of the copy of offset 11
  ihave #HIv11 := (Step.inv_recv m K c 11) $$ Hrec
  iapply (recv_step m _ c 11 (by decide) _ (tileM 0) (tileM 11) _ _ (tile_credit 11))
  isplitr; · iexact HIv11
  isplitl [HcR11]; · iexact HcR11
  isplitl [HO]; · iexact HO
  isplitl [HaR11]; · iexact HaR11
  iintro ⟨Hv11, HzR11, HO⟩
  unfold recvPay
  iapply (Step.tile_load c 11 fullShare _ Step.load_sub_11) $$ Hv11; iintro Hv11
  rw [Step.load_tile_11 m c]
  -- the arrival of the copy of offset 12
  ihave #HIv12 := (Step.inv_recv m K c 12) $$ Hrec
  iapply (recv_step m _ c 12 (by decide) _ (tileM 0) (tileM 12) _ _ (tile_credit 12))
  isplitr; · iexact HIv12
  isplitl [HcR12]; · iexact HcR12
  isplitl [HO]; · iexact HO
  isplitl [HaR12]; · iexact HaR12
  iintro ⟨Hv12, HzR12, HO⟩
  unfold recvPay
  iapply (Step.tile_load c 12 fullShare _ Step.load_sub_12) $$ Hv12; iintro Hv12
  rw [Step.load_tile_12 m c]
  -- the arrival of the copy of offset 13
  ihave #HIv13 := (Step.inv_recv m K c 13) $$ Hrec
  iapply (recv_step m _ c 13 (by decide) _ (tileM 0) (tileM 13) _ _ (tile_credit 13))
  isplitr; · iexact HIv13
  isplitl [HcR13]; · iexact HcR13
  isplitl [HO]; · iexact HO
  isplitl [HaR13]; · iexact HaR13
  iintro ⟨Hv13, HzR13, HO⟩
  unfold recvPay
  iapply (Step.tile_load c 13 fullShare _ Step.load_sub_13) $$ Hv13; iintro Hv13
  rw [Step.load_tile_13 m c]
  simp only [k0_part23_eq_skeleton]; unfold k0_part23_skel
  simp only [semSignalWord, semWaitWord, Prog.lift, Prog.bind_op, Prog.bind_ret, Prog.pure_eq_ret]
  -- the arrival of the copy of offset 14
  ihave #HIv14 := (Step.inv_recv m K c 14) $$ Hrec
  iapply (recv_step m _ c 14 (by decide) _ (tileM 0) (tileM 14) _ _ (tile_credit 14))
  isplitr; · iexact HIv14
  isplitl [HcR14]; · iexact HcR14
  isplitl [HO]; · iexact HO
  isplitl [HaR14]; · iexact HaR14
  iintro ⟨Hv14, HzR14, HO⟩
  unfold recvPay
  iapply (Step.tile_load c 14 fullShare _ Step.load_sub_14) $$ Hv14; iintro Hv14
  rw [Step.load_tile_14 m c]
  -- the arrival of the copy of offset 15
  ihave #HIv15 := (Step.inv_recv m K c 15) $$ Hrec
  iapply (recv_step m _ c 15 (by decide) _ (tileM 0) (tileM 15) _ _ (tile_credit 15))
  isplitr; · iexact HIv15
  isplitl [HcR15]; · iexact HcR15
  isplitl [HO]; · iexact HO
  isplitl [HaR15]; · iexact HaR15
  iintro ⟨Hv15, HzR15, HO⟩
  unfold recvPay
  iapply (Step.tile_load c 15 fullShare _ Step.load_sub_15) $$ Hv15; iintro Hv15
  rw [Step.load_tile_15 m c]
  simp only [k0_part24_eq_skeleton]; unfold k0_part24_skel
  simp only [semSignalWord, semWaitWord, Prog.lift, Prog.bind_op, Prog.bind_ret, Prog.pure_eq_ret]
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S512x256) ![0, 0] S512x256.size inb_S512x256_S512x256_0_0) (Mk := Finset.univ) (Finset.subset_univ _)) $$ Hout; iintro Hout
  rw [Step.write_out]
  -- the departure of the copy of offset 1
  iapply (sendwait_step m _ c 1 (by decide) _ (tileM 1) (tileM 0) _ _ (tile_credit 0))
  isplitr; · iexact HIs1
  isplitl [HcS1]; · iexact HcS1
  isplitl [HO]; · iexact HO
  isplitl [HaS1]; · iexact HaS1
  iintro ⟨Hb1, HzS1, HO⟩
  -- the departure of the copy of offset 2
  iapply (sendwait_step m _ c 2 (by decide) _ (tileM 2) (tileM 0) _ _ (tile_credit 0))
  isplitr; · iexact HIs2
  isplitl [HcS2]; · iexact HcS2
  isplitl [HO]; · iexact HO
  isplitl [HaS2]; · iexact HaS2
  iintro ⟨Hb2, HzS2, HO⟩
  simp only [k0_part25_eq_skeleton]; unfold k0_part25_skel
  simp only [semSignalWord, semWaitWord, Prog.lift, Prog.bind_op, Prog.bind_ret, Prog.pure_eq_ret]
  -- the departure of the copy of offset 3
  iapply (sendwait_step m _ c 3 (by decide) _ (tileM 3) (tileM 0) _ _ (tile_credit 0))
  isplitr; · iexact HIs3
  isplitl [HcS3]; · iexact HcS3
  isplitl [HO]; · iexact HO
  isplitl [HaS3]; · iexact HaS3
  iintro ⟨Hb3, HzS3, HO⟩
  -- the departure of the copy of offset 4
  iapply (sendwait_step m _ c 4 (by decide) _ (tileM 4) (tileM 0) _ _ (tile_credit 0))
  isplitr; · iexact HIs4
  isplitl [HcS4]; · iexact HcS4
  isplitl [HO]; · iexact HO
  isplitl [HaS4]; · iexact HaS4
  iintro ⟨Hb4, HzS4, HO⟩
  -- the departure of the copy of offset 5
  iapply (sendwait_step m _ c 5 (by decide) _ (tileM 5) (tileM 0) _ _ (tile_credit 0))
  isplitr; · iexact HIs5
  isplitl [HcS5]; · iexact HcS5
  isplitl [HO]; · iexact HO
  isplitl [HaS5]; · iexact HaS5
  iintro ⟨Hb5, HzS5, HO⟩
  -- the departure of the copy of offset 6
  iapply (sendwait_step m _ c 6 (by decide) _ (tileM 6) (tileM 0) _ _ (tile_credit 0))
  isplitr; · iexact HIs6
  isplitl [HcS6]; · iexact HcS6
  isplitl [HO]; · iexact HO
  isplitl [HaS6]; · iexact HaS6
  iintro ⟨Hb6, HzS6, HO⟩
  simp only [k0_part26_eq_skeleton]; unfold k0_part26_skel
  simp only [semSignalWord, semWaitWord, Prog.lift, Prog.bind_op, Prog.bind_ret, Prog.pure_eq_ret]
  -- the departure of the copy of offset 7
  iapply (sendwait_step m _ c 7 (by decide) _ (tileM 7) (tileM 0) _ _ (tile_credit 0))
  isplitr; · iexact HIs7
  isplitl [HcS7]; · iexact HcS7
  isplitl [HO]; · iexact HO
  isplitl [HaS7]; · iexact HaS7
  iintro ⟨Hb7, HzS7, HO⟩
  -- the departure of the copy of offset 8
  iapply (sendwait_step m _ c 8 (by decide) _ (tileM 8) (tileM 0) _ _ (tile_credit 0))
  isplitr; · iexact HIs8
  isplitl [HcS8]; · iexact HcS8
  isplitl [HO]; · iexact HO
  isplitl [HaS8]; · iexact HaS8
  iintro ⟨Hb8, HzS8, HO⟩
  -- the departure of the copy of offset 9
  iapply (sendwait_step m _ c 9 (by decide) _ (tileM 9) (tileM 0) _ _ (tile_credit 0))
  isplitr; · iexact HIs9
  isplitl [HcS9]; · iexact HcS9
  isplitl [HO]; · iexact HO
  isplitl [HaS9]; · iexact HaS9
  iintro ⟨Hb9, HzS9, HO⟩
  simp only [k0_part27_eq_skeleton]; unfold k0_part27_skel
  simp only [semSignalWord, semWaitWord, Prog.lift, Prog.bind_op, Prog.bind_ret, Prog.pure_eq_ret]
  -- the departure of the copy of offset 10
  iapply (sendwait_step m _ c 10 (by decide) _ (tileM 10) (tileM 0) _ _ (tile_credit 0))
  isplitr; · iexact HIs10
  isplitl [HcS10]; · iexact HcS10
  isplitl [HO]; · iexact HO
  isplitl [HaS10]; · iexact HaS10
  iintro ⟨Hb10, HzS10, HO⟩
  -- the departure of the copy of offset 11
  iapply (sendwait_step m _ c 11 (by decide) _ (tileM 11) (tileM 0) _ _ (tile_credit 0))
  isplitr; · iexact HIs11
  isplitl [HcS11]; · iexact HcS11
  isplitl [HO]; · iexact HO
  isplitl [HaS11]; · iexact HaS11
  iintro ⟨Hb11, HzS11, HO⟩
  -- the departure of the copy of offset 12
  iapply (sendwait_step m _ c 12 (by decide) _ (tileM 12) (tileM 0) _ _ (tile_credit 0))
  isplitr; · iexact HIs12
  isplitl [HcS12]; · iexact HcS12
  isplitl [HO]; · iexact HO
  isplitl [HaS12]; · iexact HaS12
  iintro ⟨Hb12, HzS12, HO⟩
  -- the departure of the copy of offset 13
  iapply (sendwait_step m _ c 13 (by decide) _ (tileM 13) (tileM 0) _ _ (tile_credit 0))
  isplitr; · iexact HIs13
  isplitl [HcS13]; · iexact HcS13
  isplitl [HO]; · iexact HO
  isplitl [HaS13]; · iexact HaS13
  iintro ⟨Hb13, HzS13, HO⟩
  -- the departure of the copy of offset 14
  iapply (sendwait_step m _ c 14 (by decide) _ (tileM 14) (tileM 0) _ _ (tile_credit 0))
  isplitr; · iexact HIs14
  isplitl [HcS14]; · iexact HcS14
  isplitl [HO]; · iexact HO
  isplitl [HaS14]; · iexact HaS14
  iintro ⟨Hb14, HzS14, HO⟩
  -- the departure of the copy of offset 15
  iapply (sendwait_step m _ c 15 (by decide) _ (tileM 15) (tileM 0) _ _ (tile_credit 0))
  isplitr; · iexact HIs15
  isplitl [HcS15]; · iexact HcS15
  isplitl [HO]; · iexact HO
  isplitl [HaS15]; · iexact HaS15
  iintro ⟨Hb15, HzS15, HO⟩
  -- the two idle cells close; everything goes back together
  ihave #HIs0 := (Step.inv_send m K c 0) $$ Hrec
  ihave #HIv0 := (Step.inv_recv m K c 0) $$ Hrec
  imod (idle_close m _ _ c) $$ [HaS0 HaR0] with ⟨HzS0, HzR0⟩
  · isplitr; · iexact HIs0
    isplitl [HaS0]; · iexact HaS0
    isplitr; · iexact HIv0
    iexact HaR0
  rw [wp_ret]; imodintro
  iapply Hk
  unfold bodyPost Φ₁ Dat.owesAt Pipeline.owesWithin sendPay
  rw [show (dats m 0 c).owed t0_0.succ = 0 from rfl]
  isplitl [Hkept Hl0 Hb1 Hb2 Hb3 Hb4 Hb5 Hb6 Hb7 Hb8 Hb9 Hb10 Hb11 Hb12 Hb13 Hb14 Hb15 Hv1 Hv2 Hv3 Hv4 Hv5 Hv6 Hv7 Hv8 Hv9 Hv10 Hv11 Hv12 Hv13 Hv14 Hv15 HzS0 HzR0 HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15]
  · isplitl [Hkept Hl0 Hb1 Hb2 Hb3 Hb4 Hb5 Hb6 Hb7 Hb8 Hb9 Hb10 Hb11 Hb12 Hb13 Hb14 Hb15 Hv1 Hv2 Hv3 Hv4 Hv5 Hv6 Hv7 Hv8 Hv9 Hv10 Hv11 Hv12 Hv13 Hv14 Hv15]
    · iapply (scr_rejoin m c)
      iapply (Entails.of_eq (bigSep_fin16 (fun d : Fin 16 => tilePts (F := F) c d fullShare (comm m c))).symm)
      isplitl [Hkept Hl0 Hb1 Hb2 Hb3 Hb4 Hb5 Hb6 Hb7 Hb8 Hb9 Hb10 Hb11 Hb12 Hb13 Hb14 Hb15]
      · iapply (tile0_shares c (comm m c)).2
        isplitl [Hkept]; · iexact Hkept
        iapply (Entails.of_eq (bigSep_fin16 (fun d : Fin 16 => tilePts (F := F) c 0 (lent d) (comm m c))).symm)
        isplitl [Hl0]; · iexact Hl0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        isplitl [Hb10]; · iexact Hb10
        isplitl [Hb11]; · iexact Hb11
        isplitl [Hb12]; · iexact Hb12
        isplitl [Hb13]; · iexact Hb13
        isplitl [Hb14]; · iexact Hb14
        iexact Hb15
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      isplitl [Hv10]; · iexact Hv10
      isplitl [Hv11]; · iexact Hv11
      isplitl [Hv12]; · iexact Hv12
      isplitl [Hv13]; · iexact Hv13
      isplitl [Hv14]; · iexact Hv14
      iexact Hv15
    · iapply (ownSems_of_closed c)
      iapply (Entails.of_eq (bigSep_fin16 (fun d : Fin 16 => iprop(semVal (sendCell c d) 0 ∗ semVal (recvCell c d) 0))).symm)
      isplitl [HzS0 HzR0]
      · isplitl [HzS0]; · iexact HzS0
        iexact HzR0
      isplitl [HzS1 HzR1]
      · isplitl [HzS1]; · iexact HzS1
        iexact HzR1
      isplitl [HzS2 HzR2]
      · isplitl [HzS2]; · iexact HzS2
        iexact HzR2
      isplitl [HzS3 HzR3]
      · isplitl [HzS3]; · iexact HzS3
        iexact HzR3
      isplitl [HzS4 HzR4]
      · isplitl [HzS4]; · iexact HzS4
        iexact HzR4
      isplitl [HzS5 HzR5]
      · isplitl [HzS5]; · iexact HzS5
        iexact HzR5
      isplitl [HzS6 HzR6]
      · isplitl [HzS6]; · iexact HzS6
        iexact HzR6
      isplitl [HzS7 HzR7]
      · isplitl [HzS7]; · iexact HzS7
        iexact HzR7
      isplitl [HzS8 HzR8]
      · isplitl [HzS8]; · iexact HzS8
        iexact HzR8
      isplitl [HzS9 HzR9]
      · isplitl [HzS9]; · iexact HzS9
        iexact HzR9
      isplitl [HzS10 HzR10]
      · isplitl [HzS10]; · iexact HzS10
        iexact HzR10
      isplitl [HzS11 HzR11]
      · isplitl [HzS11]; · iexact HzS11
        iexact HzR11
      isplitl [HzS12 HzR12]
      · isplitl [HzS12]; · iexact HzS12
        iexact HzR12
      isplitl [HzS13 HzR13]
      · isplitl [HzS13]; · iexact HzS13
        iexact HzR13
      isplitl [HzS14 HzR14]
      · isplitl [HzS14]; · iexact HzS14
        iexact HzR14
      isplitl [HzS15]; · iexact HzS15
      iexact HzR15
  isplitl [HO]
  · iexists _
    isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Hout

omit [FloatOps F] in
theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

set_option maxRecDepth 65536 in
def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 65536 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  unfold bodyPre' Φ₀ start
  iintro ⟨⟨⟨⟨%K, Hgh⟩, Hcr, Hlev⟩, Hscr⟩, Ho, Hx, Hg, Hb, Hout⟩
  iapply (sound_body m K c fun _ => bodyPost m c)
  unfold bodyPre
  isplitr []
  · isplitl [Hgh Hcr Hlev Hscr]
    · isplitl [Hgh]; · iexact Hgh
      isplitl [Hcr]; · iexact Hcr
      isplitl [Hlev]; · iexact Hlev
      iexact Hscr
    isplitl [Ho]; · iexact Ho
    isplitl [Hx]; · iexact Hx
    isplitl [Hg]; · iexact Hg
    isplitl [Hb]; · iexact Hb
    iexact Hout
  · iintro H; iexact H

end Body

/-- info: 'Cert.KernelIdeal.Hand.body_obligation' depends on axioms: [propext, Classical.choice, Quot.sound] -/
#guard_msgs in #print axioms body_obligation

end Cert.KernelIdeal.Hand

end
-- ==== Proof.HandKernel.Contents.lean ====
/-
  What each of the sixteen devices holds when the exchange is over.

  Device `c` holds columns `256 c … 256 c + 255` of `x`, `γ` and `β`. From its block it forms, for every row, the sum of the
  entries and the sum of their squares over its 256 columns — two vectors of 512 numbers, laid out as a tile of 8 × 128:
  rows 0–3 the sums, rows 4–7 the sums of squares. Its communication buffer has sixteen such tiles: tile 0 is its own, and
  tile `d` is filled by the device `d` places before it on the ring, `c - d`, with THAT device's tile 0. So after the exchange
  tile `d` of device `c` holds the partial sums of device `c - d`, and adding the sixteen tiles gives the sums over all 4096
  columns on every device. The result block is then a pointwise expression of the device's own blocks and those totals.
-/
import proofs.«900827_g7700000000000828_dist_layernorm_colshard_i_m512_n256_v7x_i16_f32_1_alg».proof.Proof.Gen.Kernel.Skeleton
import proofs.«900827_g7700000000000828_dist_layernorm_colshard_i_m512_n256_v7x_i16_f32_1_alg».proof.Proof.Gen.Kernel.Frame
import Idealize.ShloMosaic.Lib.ValueIdx

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Device `c`'s block of `x` as its staging buffer holds it: the block of the one grid point, read off the argument array. -/
def xS (c : Dev nD) : (cc0_stg0_0 : Ref sig .tc).ty.Contents (Elt F) :=
  (win0_0.blk t0_0).view.read (Elt F) (m ((c : Thread nD τ).loc main_arg0))
/-- Its block of `γ`. -/
def gS (c : Dev nD) : (cc0_stg1_0 : Ref sig .tc).ty.Contents (Elt F) :=
  (win0_1.blk t0_0).view.read (Elt F) (m ((c : Thread nD τ).loc main_arg1))
/-- Its block of `β`. -/
def bS (c : Dev nD) : (cc0_stg2_0 : Ref sig .tc).ty.Contents (Elt F) :=
  (win0_2.blk t0_0).view.read (Elt F) (m ((c : Thread nD τ).loc main_arg2))

/-- Entry `(a, b)` of device `c`'s own tile: for `a < 4` the row sums (row `128 a + b`), for `a ≥ 4` the sums of squares
    (row `128 (a - 4) + b`). -/
def statAt (c : Dev nD) (a : Fin 8) (b : Fin 128) : F .f32 :=
  if h : a.val < 4 then k0_pay2 (xS m c) (ValueIdx.ix3 (0 : Fin 1) (⟨a.val, h⟩ : Fin 4) b)
  else k0_pay3 (xS m c) (ValueIdx.ix3 (0 : Fin 1) (⟨a.val - 4, by omega⟩ : Fin 4) b)

/-- The communication buffer of device `c` after the exchange: tile `d` holds the tile of device `c - d`. -/
def comm (c : Dev nD) : (cc0_scratch0 : Ref sig .tc).ty.Contents (Elt F) :=
  fun idx => statAt m ((c : Fin 16) - (⟨(idx 0).val, (idx 0).isLt⟩ : Fin 16)) (⟨(idx 1).val, (idx 1).isLt⟩ : Fin 8) (⟨(idx 2).val, (idx 2).isLt⟩ : Fin 128)

/-- Tile `d` of device `c`'s communication buffer as a vector of shape 1 × 8 × 128: what a load of that tile reads. -/
def tile (c : Dev nD) (d : Fin 16) : Vec F S1x8x128 .f32 :=
  fun y => statAt m ((c : Fin 16) - d) (⟨(y 1).val, (y 1).isLt⟩ : Fin 8) (⟨(y 2).val, (y 2).isLt⟩ : Fin 128)

/-- The sixteen tiles added in the order the kernel adds them: tile 0, then tiles 1 … 13 (the total before the last two). -/
def tot13 (c : Dev nD) : FVec F S8x128 .f32 :=
  k0_pay12 (k0_pay11 (k0_pay10 (k0_pay9 (k0_pay8 (k0_pay7 (tile m c 0) (tile m c 1)) (tile m c 2) (tile m c 3)) (tile m c 4) (tile m c 5))
    (tile m c 6) (tile m c 7) (tile m c 8)) (tile m c 9) (tile m c 10)) (tile m c 11) (tile m c 12) (tile m c 13)

/-- The result block of device `c`: `(x γ) · r - γ · (μ r) + β` with `μ` the total of the sums times `2⁻¹²` and `r` the reciprocal
    square root of the total of the squares times `2⁻¹²`, less `μ²`, plus `ε`. -/
def outAt (c : Dev nD) : (cc0_stg3_0 : Ref sig .tc).ty.Contents (Elt F) :=
  k0_pay16 (k0_pay4 (gS m c)) (k0_pay5 (bS m c)) (k0_pay6 (k0_pay1 (xS m c)) (gS m c))
    (k0_pay14 (tot13 m c) (tile m c 14) (tile m c 15)) (k0_pay15 (tot13 m c) (tile m c 14) (tile m c 15))

end Cert.Kernel.Hand

end
-- ==== Proof.HandKernel.Proto.lean ====
/-
  The exchange protocol of the sixteen devices, as data: cells, duties, payloads, debts and levels.

  Every device `c` first tells each of its fifteen peers `c + d` (`d = 1 … 15`, positions taken modulo 16) that it has
  entered the kernel, by one unit on that peer's barrier semaphore; it waits for the fifteen units of its own. A unit from
  `c - j` carries, besides the news, what `c` needs in order to write into `c - j`'s memory: tile `-j` of `c - j`'s
  communication buffer — the tile `c`'s copy will fill, since `c + (-j) = c - j` — and the fact that `c - j` has not yet begun to
  wait on the matching receive semaphore. Then `c` copies its own tile 0 into tile `d` of `c + d` for every `d`: fifteen copies
  read the one source tile at once, each under a share of its own; the copy's arrival hands `c + d` its tile `d` holding
  `c`'s partial sums, and its departure hands `c` its share of tile 0 back. Every semaphore is credited by exactly one
  contribution per peer, so every wait is for a whole round.

  Waiting is safe: barrier cells sit at level 1 and receive cells at level 2, and a device waits on its barrier cell while
  it owes only receive credits, on a receive cell while it owes nothing.
-/
import proofs.«900827_g7700000000000828_dist_layernorm_colshard_i_m512_n256_v7x_i16_f32_1_alg».proof.Proof.HandKernel.Contents
import proofs.«900827_g7700000000000828_dist_layernorm_colshard_i_m512_n256_v7x_i16_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by a ring offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs: the communication buffer and its sixteen tiles -/

abbrev xM : Memref sig .tc .vmem S512x256 .f32 := Memref.whole cc0_stg0_0
abbrev gM : Memref sig .tc .vmem S256 .f32 := Memref.whole cc0_stg1_0
abbrev bM : Memref sig .tc .vmem S256 .f32 := Memref.whole cc0_stg2_0
abbrev oM : Memref sig .tc .vmem S512x256 .f32 := Memref.whole cc0_stg3_0
abbrev scrM : Memref sig .tc .vmem S16x8x128 .f32 := Memref.whole cc0_scratch0

theorem inb_tile (d : Fin 16) : ∀ a, (![d.val, 0, 0] : Fin 3 → Nat) a + S1x8x128.size a ≤ S16x8x128.size a := by
  revert d; decide
theorem inb_semIx (d : Fin 16) : ∀ a, (![d.val] : Fin 1 → Nat) a + S1.size a ≤ S16.size a := by
  revert d; decide

/-- Tile `d` of the communication buffer, as the 8 × 128 memref the copies and their waits name. -/
abbrev tileM (d : Fin 16) : Memref sig .tc .vmem S8x128 .f32 :=
  (scrM.slice (Rect.unit (s := S16x8x128) ![d.val, 0, 0] S1x8x128.size (inb_tile d)) (fun _ => rfl)).squeeze S8x128 squeezes_S1x8x128_S8x128

/-! ## The semaphores and their cells -/

/-- The runtime's barrier semaphore of collective id 0 (not scoped to the launch). -/
abbrev barS : Sem sig := (SemArray.scalar (sig.barrier 0 rfl) : Sems sig S_).sem
/-- The send semaphore of offset `d` (DMA semaphores 4 … 19) and the receive semaphore of offset `d` (20 … 35). -/
abbrev sendS (d : Fin 16) : DmaSem sig := ⟨4 + d.val, by show 4 + d.val < 36; omega⟩
abbrev recvS (d : Fin 16) : DmaSem sig := ⟨20 + d.val, by show 20 + d.val < 36; omega⟩

abbrev barCell (c : Dev nD) : GSem nD τ sig := ((c : Thread nD τ), .reg barS)
abbrev sendCell (c : Dev nD) (d : Fin 16) : GSem nD τ sig := ((c : Thread nD τ), .dma (sendS d))
abbrev recvCell (c : Dev nD) (d : Fin 16) : GSem nD τ sig := ((c : Thread nD τ), .dma (recvS d))

/-- The kernel's own (scoped, non-staging) semaphores as the launch theorem indexes them: the sixteen send then the sixteen
    receive semaphores (those of offset 0 are never touched). -/
abbrev osem : Fin 32 → SemLoc sig := fun k => .dma ⟨4 + k.val, by show 4 + k.val < 36; omega⟩

/-- The units one copy of a tile credits. -/
abbrev N : ℕ := (tileM 0 : Memref sig .tc .vmem S8x128 .f32).view.dmaCredit

/-- The offsets of the fifteen peers. -/
abbrev offs : Finset (Fin 16) := Finset.univ.erase 0

/-! ## Contents and payloads -/

/-- Tile `d` of device `c`'s communication buffer held at share `q` and contents `f` (a valuation of the whole buffer, of which
    only the tile's entries matter). -/
def tilePts (c : Dev nD) (d : Fin 16) (q : PosShare TreeShare) (f : Buf (Elt F) ((tileM d : Memref sig .tc .vmem S8x128 .f32).view.loc (c : Thread nD τ))) : sProp 𝕄 :=
  (tileM d : Memref sig .tc .vmem S8x128 .f32).view.loc (c : Thread nD τ) ↦[(tileM d : Memref sig .tc .vmem S8x128 .f32).view.set]{q} f

/-- The share of its tile 0 device `c` lends the copy of offset `d`. -/
abbrev lent (d : Fin 16) : PosShare TreeShare := Transfers.shareTok fullShare 16 d
/-- What it keeps for its own load of tile 0. -/
abbrev kept : PosShare TreeShare := Transfers.shareDrop fullShare 16

/-- What the unit from `c - j` on `c`'s barrier cell hands `c`: tile `-j` of `c - j`'s buffer at some contents, and that `c - j` has
    consumed nothing of its receive cell of offset `-j`. -/
def barPay (c : Dev nD) (j : Fin 16) : sProp 𝕄 :=
  iprop((∃ f, tilePts (F := F) (c - j) (-j) fullShare f) ∗ reached ER (recvCell (c - j) (-j)) 0)
/-- What the arrival of the copy of offset `d` hands `c`: its tile `d` holding the sender's sums. -/
def recvPay (c : Dev nD) (d : Fin 16) : sProp 𝕄 := tilePts c d fullShare (comm m c)
/-- What the departure of its copy of offset `d` hands `c` back: the share of tile 0 it lent. -/
def sendPay (c : Dev nD) (d : Fin 16) : sProp 𝕄 := tilePts c 0 (lent d) (comm m c)

/-! ## The schedule: one round per cell -/

/-- Round 0 only. A barrier cell has the fifteen duties `j ≠ 0` of one unit (duty `j` paid by `c - j`); a send or receive cell
    of an offset `d ≠ 0` the one duty `0` of a tile's credit. -/
def Rd : Rounds.Schedule (GSem nD τ sig) (Fin 16) 𝕄 where
  duties g r :=
    if r = 0 ∧ g.1.2 = .tc then
      (match g.2 with
        | .reg _ => offs
        | .dma q => if (5 ≤ q.val ∧ q.val ≤ 19) ∨ 21 ≤ q.val then {0} else ∅)
    else ∅
  unitless _ := False
  amount g _ _ := match g.2 with
    | .reg _ => 1
    | .dma _ => N
  payload g _ j := match g.2 with
    | .reg _ => barPay g.1.1 j
    | .dma q =>
      if h : 20 ≤ q.val then recvPay m g.1.1 ⟨q.val - 20, by have h36 : q.val < 36 := q.isLt; omega⟩
      else if h' : 4 ≤ q.val then sendPay m g.1.1 ⟨q.val - 4, by omega⟩
      else iprop(emp)
  amount_pos g _ _ _ := by
    cases g.2 with
    | reg _ => exact Nat.one_pos
    | dma _ => exact View.dmaCredit_pos _ (by decide)

/-! ## What each device owes at launch; the levels -/

/-- The offset of the `k`-th summand from the end: `16 - k`. -/
abbrev offOf (k : ℕ) : Fin 16 := ⟨(16 - k) % 16, Nat.mod_lt _ (by decide)⟩

/-- The receive credits device `c` owes, summed so that the copy of offset 1 peels the last summand, offset 2 the one
    before, and so on. -/
def oweR (c : Dev nD) : ℕ → CellTallies nD τ sig Unit
  | 0 => 0
  | k + 1 => oweR c k + tallyAt (recvCell (c + offOf (k + 1)) (offOf (k + 1))) () N
/-- … and, on top, the barrier units it owes, the signal of offset 1 peeling the last summand. -/
def oweB (c : Dev nD) : ℕ → CellTallies nD τ sig Unit
  | 0 => oweR c 15
  | k + 1 => oweB c k + tallyAt (barCell (c + offOf (k + 1))) () 1
/-- Everything device `c` owes at launch. -/
def O₀ (c : Dev nD) : CellTallies nD τ sig Unit := oweB c 15

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 20 ≤ q.val then 2 else 0

/-! ## The ghost state a device's body starts from -/

/-- The cells of the exchange, indexed by device and semaphore: 0 the barrier, `1 + d` the send and `17 + d` the receive
    semaphore of offset `d`. -/
abbrev csem : Fin 33 → SemLoc sig := fun k => if k.val = 0 then .reg barS else .dma ⟨3 + k.val, by show 3 + k.val < 36; omega⟩
abbrev kcell (ck : Dev nD × Fin 33) : GSem nD τ sig := ((ck.1 : Thread nD τ), csem ck.2)

/-- Every cell's invariant under the names `K` the launch allocated, and that round 0 of every cell is reached: persistent,
    so a device may hold the whole table. -/
def records (K : Dev nD × Fin 33 → ℕ) : sProp 𝕄 :=
  iprop((bigSep Finset.univ fun ck : Dev nD × Fin 33 => cellInv ER (Rd m) (K ck) (kcell ck))
    ∗ bigSep Finset.univ fun ck : Dev nD × Fin 33 => reached ER (kcell ck) 0)

/-- The tokens of the duties device `c` pays at offset `d`: peer `c + d`'s barrier duty `d`, that peer's receive duty, its own
    send duty. -/
def payToks (c : Dev nD) (d : Fin 16) : sProp 𝕄 :=
  iprop(dutyTok ER (barCell (c + d)) 0 d ∗ dutyTok ER (recvCell (c + d) d) 0 (0 : Fin 16) ∗ dutyTok ER (sendCell c d) 0 (0 : Fin 16))
/-- Its positions on its own cells (the two cells of offset 0 have no duty: they are opened and closed untouched). -/
def positions (c : Dev nD) : sProp 𝕄 :=
  iprop(atPos ER (barCell c) 0 ∅ 0 ∗ bigSep Finset.univ fun d : Fin 16 => iprop(atPos ER (sendCell c d) 0 ∅ 0 ∗ atPos ER (recvCell c d) 0 ∅ 0))
/-- What stays with device `c` alone. -/
def linear (c : Dev nD) : sProp 𝕄 := iprop(positions c ∗ bigSep offs fun d => payToks c d)

def ghost (K : Dev nD × Fin 33 → ℕ) (c : Dev nD) : sProp 𝕄 := iprop(records m K ∗ linear c)

/-- The credit the launch deals device `c`: its barrier's fifteen units and each receive cell's credit. -/
def credits (c : Dev nD) : sProp 𝕄 :=
  iprop(cred (tallyAt (barCell c) () 15) ∗ bigSep offs fun d => cred (tallyAt (recvCell c d) () N))

/-- What device `c`'s body starts from, besides its buffers. -/
def start (c : Dev nD) : sProp 𝕄 :=
  iprop((∃ K, ghost m K c) ∗ credits c ∗ levAts L lv)

def scrPts (c : Dev nD) (f : Buf (Elt F) ((c : Thread nD τ).loc cc0_scratch0)) : sProp 𝕄 :=
  (((c : Thread nD τ).loc cc0_scratch0) ↦{fullShare} f : sProp 𝕄)

def Φ₀ (c : Dev nD) : sProp 𝕄 := iprop(start m c ∗ ∃ f, scrPts c f)
/-- After the point: the communication buffer whole at the exchanged contents, the kernel's own semaphores at zero. -/
def Φ₁ (c : Dev nD) : sProp 𝕄 := iprop(scrPts c (comm m c) ∗ Pipeline.ownSems0 osem c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => gS m c
    | ⟨2, _⟩ => bS m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Hand

end
-- ==== Proof.HandKernel.Levels.lean ====
/-
  The levels of the exchange's cells, and why no wait can deadlock.

  Staging semaphores sit at level 0, barrier cells at level 1, receive cells at level 2. A device waits on its barrier cell
  while it owes receive credits only, and on a staging semaphore while it owes barrier units and receive credits: in both
  cases everything owed lies strictly above the cell waited on.
-/
import proofs.«900827_g7700000000000828_dist_layernorm_colshard_i_m512_n256_v7x_i16_f32_1_alg».proof.Proof.HandKernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels: what a device may wait on while it owes -/

theorem L_of_ne (g : GSem nD τ sig) (h : g.1.2 ≠ .tc) : L g = ∅ := if_neg h
theorem L_tc (c : Dev nD) (sm : SemLoc sig) : L ((c : Thread nD τ), sm) = {()} := if_pos rfl

/-- A receive credit is owed to a receive cell only. -/
theorem oweR_pos {c : Dev nD} : ∀ (k : ℕ) {g : GSem nD τ sig} {u : Unit}, 0 < oweR c k g u → ∃ (p : Dev nD) (d : Fin 16), g = recvCell p d
  | 0, g, u, h => absurd h (Nat.lt_irrefl 0)
  | k + 1, g, u, h => by
    rcases Pipeline.add_pos_cases (D₁ := oweR c k) (D₂ := tallyAt (recvCell (c + offOf (k + 1)) (offOf (k + 1))) () N) h with h | h
    · exact oweR_pos k h
    · exact ⟨_, _, (Pipeline.tallyAt_pos h).1⟩

/-- Everything owed at launch is owed to a receive cell or to a barrier cell. -/
theorem oweB_pos {c : Dev nD} : ∀ (k : ℕ) {g : GSem nD τ sig} {u : Unit}, 0 < oweB c k g u →
    (∃ (p : Dev nD) (d : Fin 16), g = recvCell p d) ∨ ∃ p : Dev nD, g = barCell p
  | 0, g, u, h => Or.inl (oweR_pos 15 h)
  | k + 1, g, u, h => by
    rcases Pipeline.add_pos_cases (D₁ := oweB c k) (D₂ := tallyAt (barCell (c + offOf (k + 1))) () 1) h with h | h
    · exact oweB_pos k h
    · exact Or.inr ⟨_, (Pipeline.tallyAt_pos h).1⟩

omit [FloatOps F] in
theorem lv_recv (p : Dev nD) (d : Fin 16) : lv (recvCell p d) () = 2 := if_pos (Nat.le_add_right 20 d.val)
omit [FloatOps F] in
theorem lv_bar (p : Dev nD) : lv (barCell p) () = 1 := rfl

omit [FloatOps F] in
/-- At its barrier wait a device owes receive credits only: receive cells lie above its barrier cell. -/
theorem mayWait_bar (c : Dev nD) : (levAts L lv : sProp 𝕄) ⊢ MayWait (c : Thread nD τ) (.reg barS) () (oweR c 15) :=
  Pipeline.mayWait_of_levAts (by rw [L_tc]; exact Finset.mem_singleton_self _) fun g i hg => by
    obtain ⟨p, d, rfl⟩ := oweR_pos 15 hg
    refine ⟨by rw [L_tc]; exact Finset.mem_singleton_self _, ?_⟩
    rw [lv_recv]; exact (by decide : (1 : ℕ) < 2)

omit [FloatOps F] in
/-- The pipeline's staging semaphores (0 … 3) lie at level 0, below every cell a device ever owes. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), SemLoc.dma q) () = 0 := if_neg (by omega)
    rcases oweB_pos 15 hg with ⟨p, d, rfl⟩ | ⟨p, rfl⟩
    · refine ⟨by rw [L_tc]; exact Finset.mem_singleton_self _, ?_⟩
      rw [h0, lv_recv]; exact (by decide : (0 : ℕ) < 2)
    · refine ⟨by rw [L_tc]; exact Finset.mem_singleton_self _, ?_⟩
      rw [h0, lv_bar]; exact (by decide : (0 : ℕ) < 1)
  · rw [MayWait_zero]; iintro -; iempintro

end Cert.Kernel.Hand

end
-- ==== Proof.HandKernel.Tables.lean ====
/-
  Closed facts about the exchange's data: the peers each device addresses, the semaphores and tiles as the program spells
  them, the schedule's tables cell by cell, the fifteen-fold products written out, and the debts peeled one offset at a time.

  Positions are taken modulo 16. The `n`-th signal of device `c` (`n = 1 … 15`) addresses `c + n`, and so does its
  `n`-th copy. The semaphore array entry of index `d` is DMA semaphore `4 + d` (send) or `20 + d` (receive); tile `d` of the
  communication buffer is its rows `[d, :, :]`. A barrier cell's round has the fifteen duties `j ≠ 0` of one unit each; a send
  or receive cell of an offset `d ≠ 0` has the one duty `0` of a tile's credit.
-/
import proofs.«900827_g7700000000000828_dist_layernorm_colshard_i_m512_n256_v7x_i16_f32_1_alg».proof.Proof.HandKernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peers: the `n`-th signal and the `n`-th copy of device `c` address `c + n` -/

theorem dev_sig_1 (c : Dev nD) : (⟨k0_dev1 c, k0_dev1_lt c⟩ : Dev nD) = c + (1 : Fin 16) := by revert c; decide +kernel
theorem dev_sig_2 (c : Dev nD) : (⟨k0_dev2 c, k0_dev2_lt c⟩ : Dev nD) = c + (2 : Fin 16) := by revert c; decide +kernel
theorem dev_sig_3 (c : Dev nD) : (⟨k0_dev3 c, k0_dev3_lt c⟩ : Dev nD) = c + (3 : Fin 16) := by revert c; decide +kernel
theorem dev_sig_4 (c : Dev nD) : (⟨k0_dev4 c, k0_dev4_lt c⟩ : Dev nD) = c + (4 : Fin 16) := by revert c; decide +kernel
theorem dev_sig_5 (c : Dev nD) : (⟨k0_dev5 c, k0_dev5_lt c⟩ : Dev nD) = c + (5 : Fin 16) := by revert c; decide +kernel
theorem dev_sig_6 (c : Dev nD) : (⟨k0_dev6 c, k0_dev6_lt c⟩ : Dev nD) = c + (6 : Fin 16) := by revert c; decide +kernel
theorem dev_sig_7 (c : Dev nD) : (⟨k0_dev7 c, k0_dev7_lt c⟩ : Dev nD) = c + (7 : Fin 16) := by revert c; decide +kernel
theorem dev_sig_8 (c : Dev nD) : (⟨k0_dev8 c, k0_dev8_lt c⟩ : Dev nD) = c + (8 : Fin 16) := by revert c; decide +kernel
theorem dev_sig_9 (c : Dev nD) : (⟨k0_dev9 c, k0_dev9_lt c⟩ : Dev nD) = c + (9 : Fin 16) := by revert c; decide +kernel
theorem dev_sig_10 (c : Dev nD) : (⟨k0_dev10 c, k0_dev10_lt c⟩ : Dev nD) = c + (10 : Fin 16) := by revert c; decide +kernel
theorem dev_sig_11 (c : Dev nD) : (⟨k0_dev11 c, k0_dev11_lt c⟩ : Dev nD) = c + (11 : Fin 16) := by revert c; decide +kernel
theorem dev_sig_12 (c : Dev nD) : (⟨k0_dev12 c, k0_dev12_lt c⟩ : Dev nD) = c + (12 : Fin 16) := by revert c; decide +kernel
theorem dev_sig_13 (c : Dev nD) : (⟨k0_dev13 c, k0_dev13_lt c⟩ : Dev nD) = c + (13 : Fin 16) := by revert c; decide +kernel
theorem dev_sig_14 (c : Dev nD) : (⟨k0_dev14 c, k0_dev14_lt c⟩ : Dev nD) = c + (14 : Fin 16) := by revert c; decide +kernel
theorem dev_sig_15 (c : Dev nD) : (⟨k0_dev15 c, k0_dev15_lt c⟩ : Dev nD) = c + (15 : Fin 16) := by revert c; decide +kernel
theorem dev_dma_1 (c : Dev nD) : (⟨k0_dev16 c, k0_dev16_lt c⟩ : Dev nD) = c + (1 : Fin 16) := by revert c; decide +kernel
theorem dev_dma_2 (c : Dev nD) : (⟨k0_dev17 c, k0_dev17_lt c⟩ : Dev nD) = c + (2 : Fin 16) := by revert c; decide +kernel
theorem dev_dma_3 (c : Dev nD) : (⟨k0_dev18 c, k0_dev18_lt c⟩ : Dev nD) = c + (3 : Fin 16) := by revert c; decide +kernel
theorem dev_dma_4 (c : Dev nD) : (⟨k0_dev19 c, k0_dev19_lt c⟩ : Dev nD) = c + (4 : Fin 16) := by revert c; decide +kernel
theorem dev_dma_5 (c : Dev nD) : (⟨k0_dev20 c, k0_dev20_lt c⟩ : Dev nD) = c + (5 : Fin 16) := by revert c; decide +kernel
theorem dev_dma_6 (c : Dev nD) : (⟨k0_dev21 c, k0_dev21_lt c⟩ : Dev nD) = c + (6 : Fin 16) := by revert c; decide +kernel
theorem dev_dma_7 (c : Dev nD) : (⟨k0_dev22 c, k0_dev22_lt c⟩ : Dev nD) = c + (7 : Fin 16) := by revert c; decide +kernel
theorem dev_dma_8 (c : Dev nD) : (⟨k0_dev23 c, k0_dev23_lt c⟩ : Dev nD) = c + (8 : Fin 16) := by revert c; decide +kernel
theorem dev_dma_9 (c : Dev nD) : (⟨k0_dev24 c, k0_dev24_lt c⟩ : Dev nD) = c + (9 : Fin 16) := by revert c; decide +kernel
theorem dev_dma_10 (c : Dev nD) : (⟨k0_dev25 c, k0_dev25_lt c⟩ : Dev nD) = c + (10 : Fin 16) := by revert c; decide +kernel
theorem dev_dma_11 (c : Dev nD) : (⟨k0_dev26 c, k0_dev26_lt c⟩ : Dev nD) = c + (11 : Fin 16) := by revert c; decide +kernel
theorem dev_dma_12 (c : Dev nD) : (⟨k0_dev27 c, k0_dev27_lt c⟩ : Dev nD) = c + (12 : Fin 16) := by revert c; decide +kernel
theorem dev_dma_13 (c : Dev nD) : (⟨k0_dev28 c, k0_dev28_lt c⟩ : Dev nD) = c + (13 : Fin 16) := by revert c; decide +kernel
theorem dev_dma_14 (c : Dev nD) : (⟨k0_dev29 c, k0_dev29_lt c⟩ : Dev nD) = c + (14 : Fin 16) := by revert c; decide +kernel
theorem dev_dma_15 (c : Dev nD) : (⟨k0_dev30 c, k0_dev30_lt c⟩ : Dev nD) = c + (15 : Fin 16) := by revert c; decide +kernel

/-! ## Arithmetic modulo 16 -/

theorem add_sub (c : Dev nD) (d : Fin 16) : (c + d) - d = c := by revert c d; decide
theorem sub_add (c : Dev nD) (j : Fin 16) : c - j + j = c := by revert c j; decide
theorem neg_neg16 (j : Fin 16) : -(-j) = j := by revert j; decide
theorem add_neg_eq_sub (c : Dev nD) (j : Fin 16) : c + (-j) = c - j := by revert c j; decide
theorem sub_neg_eq_add (c : Dev nD) (j : Fin 16) : c - (-j) = c + j := by revert c j; decide
theorem add_ne_self (c : Dev nD) (d : Fin 16) (hd : d ≠ 0) : c + d ≠ c := by revert c d; decide
theorem neg_ne_zero16 (j : Fin 16) (hj : j ≠ 0) : -j ≠ 0 := by revert j; decide
theorem add_left_inj16 (c c' : Dev nD) (d : Fin 16) (h : c + d = c' + d) : c = c' := by revert c c' d; decide

/-! ## The semaphores and the tiles as the program spells them -/

theorem sendS_lit_1 : ((cc0_scratch1.slice (Rect.unit (s := S16) ![1] S1.size inb_S16_S1_1)).squeeze S_ squeezes_S1_S_).sem = sendS 1 := by decide
theorem recvS_lit_1 : ((cc0_scratch2.slice (Rect.unit (s := S16) ![1] S1.size inb_S16_S1_1)).squeeze S_ squeezes_S1_S_).sem = recvS 1 := by decide
theorem sendS_lit_2 : ((cc0_scratch1.slice (Rect.unit (s := S16) ![2] S1.size inb_S16_S1_2)).squeeze S_ squeezes_S1_S_).sem = sendS 2 := by decide
theorem recvS_lit_2 : ((cc0_scratch2.slice (Rect.unit (s := S16) ![2] S1.size inb_S16_S1_2)).squeeze S_ squeezes_S1_S_).sem = recvS 2 := by decide
theorem sendS_lit_3 : ((cc0_scratch1.slice (Rect.unit (s := S16) ![3] S1.size inb_S16_S1_3)).squeeze S_ squeezes_S1_S_).sem = sendS 3 := by decide
theorem recvS_lit_3 : ((cc0_scratch2.slice (Rect.unit (s := S16) ![3] S1.size inb_S16_S1_3)).squeeze S_ squeezes_S1_S_).sem = recvS 3 := by decide
theorem sendS_lit_4 : ((cc0_scratch1.slice (Rect.unit (s := S16) ![4] S1.size inb_S16_S1_4)).squeeze S_ squeezes_S1_S_).sem = sendS 4 := by decide
theorem recvS_lit_4 : ((cc0_scratch2.slice (Rect.unit (s := S16) ![4] S1.size inb_S16_S1_4)).squeeze S_ squeezes_S1_S_).sem = recvS 4 := by decide
theorem sendS_lit_5 : ((cc0_scratch1.slice (Rect.unit (s := S16) ![5] S1.size inb_S16_S1_5)).squeeze S_ squeezes_S1_S_).sem = sendS 5 := by decide
theorem recvS_lit_5 : ((cc0_scratch2.slice (Rect.unit (s := S16) ![5] S1.size inb_S16_S1_5)).squeeze S_ squeezes_S1_S_).sem = recvS 5 := by decide
theorem sendS_lit_6 : ((cc0_scratch1.slice (Rect.unit (s := S16) ![6] S1.size inb_S16_S1_6)).squeeze S_ squeezes_S1_S_).sem = sendS 6 := by decide
theorem recvS_lit_6 : ((cc0_scratch2.slice (Rect.unit (s := S16) ![6] S1.size inb_S16_S1_6)).squeeze S_ squeezes_S1_S_).sem = recvS 6 := by decide
theorem sendS_lit_7 : ((cc0_scratch1.slice (Rect.unit (s := S16) ![7] S1.size inb_S16_S1_7)).squeeze S_ squeezes_S1_S_).sem = sendS 7 := by decide
theorem recvS_lit_7 : ((cc0_scratch2.slice (Rect.unit (s := S16) ![7] S1.size inb_S16_S1_7)).squeeze S_ squeezes_S1_S_).sem = recvS 7 := by decide
theorem sendS_lit_8 : ((cc0_scratch1.slice (Rect.unit (s := S16) ![8] S1.size inb_S16_S1_8)).squeeze S_ squeezes_S1_S_).sem = sendS 8 := by decide
theorem recvS_lit_8 : ((cc0_scratch2.slice (Rect.unit (s := S16) ![8] S1.size inb_S16_S1_8)).squeeze S_ squeezes_S1_S_).sem = recvS 8 := by decide
theorem sendS_lit_9 : ((cc0_scratch1.slice (Rect.unit (s := S16) ![9] S1.size inb_S16_S1_9)).squeeze S_ squeezes_S1_S_).sem = sendS 9 := by decide
theorem recvS_lit_9 : ((cc0_scratch2.slice (Rect.unit (s := S16) ![9] S1.size inb_S16_S1_9)).squeeze S_ squeezes_S1_S_).sem = recvS 9 := by decide
theorem sendS_lit_10 : ((cc0_scratch1.slice (Rect.unit (s := S16) ![10] S1.size inb_S16_S1_10)).squeeze S_ squeezes_S1_S_).sem = sendS 10 := by decide
theorem recvS_lit_10 : ((cc0_scratch2.slice (Rect.unit (s := S16) ![10] S1.size inb_S16_S1_10)).squeeze S_ squeezes_S1_S_).sem = recvS 10 := by decide
theorem sendS_lit_11 : ((cc0_scratch1.slice (Rect.unit (s := S16) ![11] S1.size inb_S16_S1_11)).squeeze S_ squeezes_S1_S_).sem = sendS 11 := by decide
theorem recvS_lit_11 : ((cc0_scratch2.slice (Rect.unit (s := S16) ![11] S1.size inb_S16_S1_11)).squeeze S_ squeezes_S1_S_).sem = recvS 11 := by decide
theorem sendS_lit_12 : ((cc0_scratch1.slice (Rect.unit (s := S16) ![12] S1.size inb_S16_S1_12)).squeeze S_ squeezes_S1_S_).sem = sendS 12 := by decide
theorem recvS_lit_12 : ((cc0_scratch2.slice (Rect.unit (s := S16) ![12] S1.size inb_S16_S1_12)).squeeze S_ squeezes_S1_S_).sem = recvS 12 := by decide
theorem sendS_lit_13 : ((cc0_scratch1.slice (Rect.unit (s := S16) ![13] S1.size inb_S16_S1_13)).squeeze S_ squeezes_S1_S_).sem = sendS 13 := by decide
theorem recvS_lit_13 : ((cc0_scratch2.slice (Rect.unit (s := S16) ![13] S1.size inb_S16_S1_13)).squeeze S_ squeezes_S1_S_).sem = recvS 13 := by decide
theorem sendS_lit_14 : ((cc0_scratch1.slice (Rect.unit (s := S16) ![14] S1.size inb_S16_S1_14)).squeeze S_ squeezes_S1_S_).sem = sendS 14 := by decide
theorem recvS_lit_14 : ((cc0_scratch2.slice (Rect.unit (s := S16) ![14] S1.size inb_S16_S1_14)).squeeze S_ squeezes_S1_S_).sem = recvS 14 := by decide
theorem sendS_lit_15 : ((cc0_scratch1.slice (Rect.unit (s := S16) ![15] S1.size inb_S16_S1_15)).squeeze S_ squeezes_S1_S_).sem = sendS 15 := by decide
theorem recvS_lit_15 : ((cc0_scratch2.slice (Rect.unit (s := S16) ![15] S1.size inb_S16_S1_15)).squeeze S_ squeezes_S1_S_).sem = recvS 15 := by decide
theorem tileM_lit_0 : ((Memref.whole cc0_scratch0 : Memref sig .tc .vmem S16x8x128 .f32).slice (Rect.unit (s := S16x8x128) ![0, 0, 0] S1x8x128.size inb_S16x8x128_S1x8x128_0_0_0) (fun _ => rfl)).squeeze S8x128 squeezes_S1x8x128_S8x128 = tileM 0 := rfl
theorem tileM_lit_1 : ((Memref.whole cc0_scratch0 : Memref sig .tc .vmem S16x8x128 .f32).slice (Rect.unit (s := S16x8x128) ![1, 0, 0] S1x8x128.size inb_S16x8x128_S1x8x128_1_0_0) (fun _ => rfl)).squeeze S8x128 squeezes_S1x8x128_S8x128 = tileM 1 := rfl
theorem tileM_lit_2 : ((Memref.whole cc0_scratch0 : Memref sig .tc .vmem S16x8x128 .f32).slice (Rect.unit (s := S16x8x128) ![2, 0, 0] S1x8x128.size inb_S16x8x128_S1x8x128_2_0_0) (fun _ => rfl)).squeeze S8x128 squeezes_S1x8x128_S8x128 = tileM 2 := rfl
theorem tileM_lit_3 : ((Memref.whole cc0_scratch0 : Memref sig .tc .vmem S16x8x128 .f32).slice (Rect.unit (s := S16x8x128) ![3, 0, 0] S1x8x128.size inb_S16x8x128_S1x8x128_3_0_0) (fun _ => rfl)).squeeze S8x128 squeezes_S1x8x128_S8x128 = tileM 3 := rfl
theorem tileM_lit_4 : ((Memref.whole cc0_scratch0 : Memref sig .tc .vmem S16x8x128 .f32).slice (Rect.unit (s := S16x8x128) ![4, 0, 0] S1x8x128.size inb_S16x8x128_S1x8x128_4_0_0) (fun _ => rfl)).squeeze S8x128 squeezes_S1x8x128_S8x128 = tileM 4 := rfl
theorem tileM_lit_5 : ((Memref.whole cc0_scratch0 : Memref sig .tc .vmem S16x8x128 .f32).slice (Rect.unit (s := S16x8x128) ![5, 0, 0] S1x8x128.size inb_S16x8x128_S1x8x128_5_0_0) (fun _ => rfl)).squeeze S8x128 squeezes_S1x8x128_S8x128 = tileM 5 := rfl
theorem tileM_lit_6 : ((Memref.whole cc0_scratch0 : Memref sig .tc .vmem S16x8x128 .f32).slice (Rect.unit (s := S16x8x128) ![6, 0, 0] S1x8x128.size inb_S16x8x128_S1x8x128_6_0_0) (fun _ => rfl)).squeeze S8x128 squeezes_S1x8x128_S8x128 = tileM 6 := rfl
theorem tileM_lit_7 : ((Memref.whole cc0_scratch0 : Memref sig .tc .vmem S16x8x128 .f32).slice (Rect.unit (s := S16x8x128) ![7, 0, 0] S1x8x128.size inb_S16x8x128_S1x8x128_7_0_0) (fun _ => rfl)).squeeze S8x128 squeezes_S1x8x128_S8x128 = tileM 7 := rfl
theorem tileM_lit_8 : ((Memref.whole cc0_scratch0 : Memref sig .tc .vmem S16x8x128 .f32).slice (Rect.unit (s := S16x8x128) ![8, 0, 0] S1x8x128.size inb_S16x8x128_S1x8x128_8_0_0) (fun _ => rfl)).squeeze S8x128 squeezes_S1x8x128_S8x128 = tileM 8 := rfl
theorem tileM_lit_9 : ((Memref.whole cc0_scratch0 : Memref sig .tc .vmem S16x8x128 .f32).slice (Rect.unit (s := S16x8x128) ![9, 0, 0] S1x8x128.size inb_S16x8x128_S1x8x128_9_0_0) (fun _ => rfl)).squeeze S8x128 squeezes_S1x8x128_S8x128 = tileM 9 := rfl
theorem tileM_lit_10 : ((Memref.whole cc0_scratch0 : Memref sig .tc .vmem S16x8x128 .f32).slice (Rect.unit (s := S16x8x128) ![10, 0, 0] S1x8x128.size inb_S16x8x128_S1x8x128_10_0_0) (fun _ => rfl)).squeeze S8x128 squeezes_S1x8x128_S8x128 = tileM 10 := rfl
theorem tileM_lit_11 : ((Memref.whole cc0_scratch0 : Memref sig .tc .vmem S16x8x128 .f32).slice (Rect.unit (s := S16x8x128) ![11, 0, 0] S1x8x128.size inb_S16x8x128_S1x8x128_11_0_0) (fun _ => rfl)).squeeze S8x128 squeezes_S1x8x128_S8x128 = tileM 11 := rfl
theorem tileM_lit_12 : ((Memref.whole cc0_scratch0 : Memref sig .tc .vmem S16x8x128 .f32).slice (Rect.unit (s := S16x8x128) ![12, 0, 0] S1x8x128.size inb_S16x8x128_S1x8x128_12_0_0) (fun _ => rfl)).squeeze S8x128 squeezes_S1x8x128_S8x128 = tileM 12 := rfl
theorem tileM_lit_13 : ((Memref.whole cc0_scratch0 : Memref sig .tc .vmem S16x8x128 .f32).slice (Rect.unit (s := S16x8x128) ![13, 0, 0] S1x8x128.size inb_S16x8x128_S1x8x128_13_0_0) (fun _ => rfl)).squeeze S8x128 squeezes_S1x8x128_S8x128 = tileM 13 := rfl
theorem tileM_lit_14 : ((Memref.whole cc0_scratch0 : Memref sig .tc .vmem S16x8x128 .f32).slice (Rect.unit (s := S16x8x128) ![14, 0, 0] S1x8x128.size inb_S16x8x128_S1x8x128_14_0_0) (fun _ => rfl)).squeeze S8x128 squeezes_S1x8x128_S8x128 = tileM 14 := rfl
theorem tileM_lit_15 : ((Memref.whole cc0_scratch0 : Memref sig .tc .vmem S16x8x128 .f32).slice (Rect.unit (s := S16x8x128) ![15, 0, 0] S1x8x128.size inb_S16x8x128_S1x8x128_15_0_0) (fun _ => rfl)).squeeze S8x128 squeezes_S1x8x128_S8x128 = tileM 15 := rfl

/-- A tile's copy credits a positive number of units. -/
theorem N_pos : 0 < N := View.dmaCredit_pos _ (by decide)

/-- Every tile's copy credits the same number of units, on whichever DMA semaphore it completes. -/
theorem tile_credit (d : Fin 16) : (tileM d : Memref sig .tc .vmem S8x128 .f32).view.dmaCredit = N := rfl
theorem tile_amount_recv (d d' : Fin 16) : (tileM d : Memref sig .tc .vmem S8x128 .f32).view.amount (.dma (recvS d')) = N := rfl
theorem tile_amount_send (d d' : Fin 16) : (tileM d : Memref sig .tc .vmem S8x128 .f32).view.amount (.dma (sendS d')) = N := rfl

/-! ## Products over the offsets, written out -/

/-- A product over the fifteen peers' offsets is the chain of its fifteen factors, in increasing offset. -/
theorem bigSep_offs (Φ : Fin 16 → sProp 𝕄) :
    bigSep offs Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_eq_bigSepL_of_eq [1, 2, 3, 4, 5, 6, 7, 8, 9, 10, 11, 12, 13, 14, 15] (by decide) (by decide)]
  rfl

/-- A product over all sixteen offsets is the chain of its sixteen factors. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  rfl

theorem card_offs : offs.card = 15 := by decide

/-! ## The schedule's tables -/

instance tilePts_storable (c : Dev nD) (d : Fin 16) (q : PosShare TreeShare)
    (f : Buf (Elt F) ((tileM d : Memref sig .tc .vmem S8x128 .f32).view.loc (c : Thread nD τ))) :
    BI.Storable (upEmb : UEmb _ 𝕄) (tilePts (F := F) c d q f) := by unfold tilePts; infer_instance

instance Rd_payload_storable (g : GSem nD τ sig) (r : ℕ) (j : Fin 16) :
    BI.Storable (upEmb : UEmb _ 𝕄) ((Rd (F := F) m).payload g r j) := by
  obtain ⟨t, sm⟩ := g
  cases sm with
  | reg s =>
    show BI.Storable upEmb (barPay (F := F) t.1 j)
    unfold barPay
    infer_instance
  | dma q =>
    show BI.Storable upEmb (if h : 20 ≤ q.val then recvPay m t.1 ⟨q.val - 20, _⟩
      else if h' : 4 ≤ q.val then sendPay m t.1 ⟨q.val - 4, _⟩ else iprop(emp))
    unfold recvPay sendPay
    split
    · infer_instance
    · split <;> infer_instance

section Sched
variable (c : Dev nD) (d j : Fin 16)

theorem duties_bar : (Rd (F := F) m).duties (barCell c) 0 = offs := by
  dsimp only [Rd]; exact if_pos ⟨rfl, rfl⟩

theorem duties_send (hd : d ≠ 0) : (Rd (F := F) m).duties (sendCell c d) 0 = {0} := by
  have h1 : 1 ≤ d.val := Nat.pos_of_ne_zero fun h => hd (Fin.ext h)
  have h2 := d.isLt
  dsimp only [Rd]
  rw [if_pos ⟨rfl, rfl⟩]
  exact if_pos (Or.inl ⟨by show 5 ≤ 4 + d.val; omega, by show 4 + d.val ≤ 19; omega⟩)

theorem duties_recv (hd : d ≠ 0) : (Rd (F := F) m).duties (recvCell c d) 0 = {0} := by
  have h1 : 1 ≤ d.val := Nat.pos_of_ne_zero fun h => hd (Fin.ext h)
  dsimp only [Rd]
  rw [if_pos ⟨rfl, rfl⟩]
  exact if_pos (Or.inr (by show 21 ≤ 20 + d.val; omega))

theorem duties_idle_send (r : ℕ) : (Rd (F := F) m).duties (sendCell c 0) r = ∅ := by
  dsimp only [Rd]
  split
  · exact if_neg (by decide)
  · rfl

theorem duties_idle_recv (r : ℕ) : (Rd (F := F) m).duties (recvCell c 0) r = ∅ := by
  dsimp only [Rd]
  split
  · exact if_neg (by decide)
  · rfl

theorem duties_later (g : GSem nD τ sig) (r : ℕ) (hr : 1 ≤ r) : (Rd (F := F) m).duties g r = ∅ := by
  dsimp only [Rd]
  exact if_neg fun h => by have := h.1; omega

theorem amount_bar : (Rd (F := F) m).amount (barCell c) 0 j = 1 := rfl
theorem amount_send : (Rd (F := F) m).amount (sendCell c d) 0 j = N := rfl
theorem amount_recv : (Rd (F := F) m).amount (recvCell c d) 0 j = N := rfl

theorem expect_bar : (Rd (F := F) m).expect (barCell c) 0 = 15 := by
  unfold Schedule.expect Schedule.amountOf
  rw [duties_bar, Finset.sum_congr rfl fun j _ => amount_bar m c j, Finset.sum_const, card_offs, smul_eq_mul]

theorem expect_send (hd : d ≠ 0) : (Rd (F := F) m).expect (sendCell c d) 0 = N := by
  unfold Schedule.expect Schedule.amountOf
  rw [duties_send m c d hd, Finset.sum_singleton, amount_send]

theorem expect_recv (hd : d ≠ 0) : (Rd (F := F) m).expect (recvCell c d) 0 = N := by
  unfold Schedule.expect Schedule.amountOf
  rw [duties_recv m c d hd, Finset.sum_singleton, amount_recv]

theorem payload_bar : (Rd (F := F) m).payload (barCell c) 0 j = barPay c j := rfl

theorem payload_send : (Rd (F := F) m).payload (sendCell c d) 0 j = sendPay m c d := by
  have h2 := d.isLt
  show (if h : 20 ≤ 4 + d.val then recvPay m c ⟨4 + d.val - 20, _⟩
    else if h' : 4 ≤ 4 + d.val then sendPay m c ⟨4 + d.val - 4, _⟩ else iprop(emp)) = _
  rw [dif_neg (by omega), dif_pos (by omega)]
  congr 1
  exact Fin.ext (by show 4 + d.val - 4 = d.val; omega)

theorem payload_recv : (Rd (F := F) m).payload (recvCell c d) 0 j = recvPay m c d := by
  show (if h : 20 ≤ 20 + d.val then recvPay m c ⟨20 + d.val - 20, _⟩
    else if h' : 4 ≤ 20 + d.val then sendPay m c ⟨20 + d.val - 4, _⟩ else iprop(emp)) = _
  rw [dif_pos (by omega)]
  congr 1
  exact Fin.ext (by show 20 + d.val - 20 = d.val; omega)

/-- The rest of a barrier cell's round, no duty taken: the fifteen peers' payloads, in increasing offset. -/
theorem rest_bar : bigSep ((Rd (F := F) m).duties (barCell c) 0 \ ∅) (fun j => (Rd (F := F) m).payload (barCell c) 0 j)
    = iprop(barPay (F := F) c 1 ∗ barPay (F := F) c 2 ∗ barPay (F := F) c 3 ∗ barPay (F := F) c 4 ∗ barPay (F := F) c 5 ∗ barPay (F := F) c 6 ∗ barPay (F := F) c 7 ∗ barPay (F := F) c 8 ∗ barPay (F := F) c 9 ∗ barPay (F := F) c 10 ∗ barPay (F := F) c 11 ∗ barPay (F := F) c 12 ∗ barPay (F := F) c 13 ∗ barPay (F := F) c 14 ∗ barPay (F := F) c 15) := by
  rw [Finset.sdiff_empty, duties_bar, bigSep_offs]
  rfl

theorem rest_send (hd : d ≠ 0) : bigSep ((Rd (F := F) m).duties (sendCell c d) 0 \ ∅) (fun j => (Rd (F := F) m).payload (sendCell c d) 0 j)
    = sendPay m c d := by
  rw [Finset.sdiff_empty, duties_send m c d hd, bigSep_singleton, payload_send]

theorem rest_recv (hd : d ≠ 0) : bigSep ((Rd (F := F) m).duties (recvCell c d) 0 \ ∅) (fun j => (Rd (F := F) m).payload (recvCell c d) 0 j)
    = recvPay m c d := by
  rw [Finset.sdiff_empty, duties_recv m c d hd, bigSep_singleton, payload_recv]

end Sched

/-! ## The debts, peeled one offset at a time -/

theorem oweR_zero (c : Dev nD) : oweR c 0 = 0 := rfl
theorem oweR_succ (c : Dev nD) (k : ℕ) : oweR c (k + 1) = oweR c k + tallyAt (recvCell (c + offOf (k + 1)) (offOf (k + 1))) () N := rfl
theorem oweB_zero (c : Dev nD) : oweB c 0 = oweR c 15 := rfl
theorem oweB_succ (c : Dev nD) (k : ℕ) : oweB c (k + 1) = oweB c k + tallyAt (barCell (c + offOf (k + 1))) () 1 := rfl
theorem O₀_eq (c : Dev nD) : O₀ c = oweB c 15 := rfl

theorem offOf_1 : offOf 1 = (15 : Fin 16) := rfl
theorem offOf_2 : offOf 2 = (14 : Fin 16) := rfl
theorem offOf_3 : offOf 3 = (13 : Fin 16) := rfl
theorem offOf_4 : offOf 4 = (12 : Fin 16) := rfl
theorem offOf_5 : offOf 5 = (11 : Fin 16) := rfl
theorem offOf_6 : offOf 6 = (10 : Fin 16) := rfl
theorem offOf_7 : offOf 7 = (9 : Fin 16) := rfl
theorem offOf_8 : offOf 8 = (8 : Fin 16) := rfl
theorem offOf_9 : offOf 9 = (7 : Fin 16) := rfl
theorem offOf_10 : offOf 10 = (6 : Fin 16) := rfl
theorem offOf_11 : offOf 11 = (5 : Fin 16) := rfl
theorem offOf_12 : offOf 12 = (4 : Fin 16) := rfl
theorem offOf_13 : offOf 13 = (3 : Fin 16) := rfl
theorem offOf_14 : offOf 14 = (2 : Fin 16) := rfl
theorem offOf_15 : offOf 15 = (1 : Fin 16) := rfl

theorem owe_sig_1 (c : Dev nD) : oweB c 15 = oweB c 14 + tallyAt (barCell (c + (1 : Fin 16))) () 1 := rfl
theorem owe_sig_2 (c : Dev nD) : oweB c 14 = oweB c 13 + tallyAt (barCell (c + (2 : Fin 16))) () 1 := rfl
theorem owe_sig_3 (c : Dev nD) : oweB c 13 = oweB c 12 + tallyAt (barCell (c + (3 : Fin 16))) () 1 := rfl
theorem owe_sig_4 (c : Dev nD) : oweB c 12 = oweB c 11 + tallyAt (barCell (c + (4 : Fin 16))) () 1 := rfl
theorem owe_sig_5 (c : Dev nD) : oweB c 11 = oweB c 10 + tallyAt (barCell (c + (5 : Fin 16))) () 1 := rfl
theorem owe_sig_6 (c : Dev nD) : oweB c 10 = oweB c 9 + tallyAt (barCell (c + (6 : Fin 16))) () 1 := rfl
theorem owe_sig_7 (c : Dev nD) : oweB c 9 = oweB c 8 + tallyAt (barCell (c + (7 : Fin 16))) () 1 := rfl
theorem owe_sig_8 (c : Dev nD) : oweB c 8 = oweB c 7 + tallyAt (barCell (c + (8 : Fin 16))) () 1 := rfl
theorem owe_sig_9 (c : Dev nD) : oweB c 7 = oweB c 6 + tallyAt (barCell (c + (9 : Fin 16))) () 1 := rfl
theorem owe_sig_10 (c : Dev nD) : oweB c 6 = oweB c 5 + tallyAt (barCell (c + (10 : Fin 16))) () 1 := rfl
theorem owe_sig_11 (c : Dev nD) : oweB c 5 = oweB c 4 + tallyAt (barCell (c + (11 : Fin 16))) () 1 := rfl
theorem owe_sig_12 (c : Dev nD) : oweB c 4 = oweB c 3 + tallyAt (barCell (c + (12 : Fin 16))) () 1 := rfl
theorem owe_sig_13 (c : Dev nD) : oweB c 3 = oweB c 2 + tallyAt (barCell (c + (13 : Fin 16))) () 1 := rfl
theorem owe_sig_14 (c : Dev nD) : oweB c 2 = oweB c 1 + tallyAt (barCell (c + (14 : Fin 16))) () 1 := rfl
theorem owe_sig_15 (c : Dev nD) : oweB c 1 = oweB c 0 + tallyAt (barCell (c + (15 : Fin 16))) () 1 := rfl
theorem owe_dma_1 (c : Dev nD) : oweR c 15 = oweR c 14 + tallyAt (recvCell (c + (1 : Fin 16)) 1) () N := rfl
theorem owe_dma_2 (c : Dev nD) : oweR c 14 = oweR c 13 + tallyAt (recvCell (c + (2 : Fin 16)) 2) () N := rfl
theorem owe_dma_3 (c : Dev nD) : oweR c 13 = oweR c 12 + tallyAt (recvCell (c + (3 : Fin 16)) 3) () N := rfl
theorem owe_dma_4 (c : Dev nD) : oweR c 12 = oweR c 11 + tallyAt (recvCell (c + (4 : Fin 16)) 4) () N := rfl
theorem owe_dma_5 (c : Dev nD) : oweR c 11 = oweR c 10 + tallyAt (recvCell (c + (5 : Fin 16)) 5) () N := rfl
theorem owe_dma_6 (c : Dev nD) : oweR c 10 = oweR c 9 + tallyAt (recvCell (c + (6 : Fin 16)) 6) () N := rfl
theorem owe_dma_7 (c : Dev nD) : oweR c 9 = oweR c 8 + tallyAt (recvCell (c + (7 : Fin 16)) 7) () N := rfl
theorem owe_dma_8 (c : Dev nD) : oweR c 8 = oweR c 7 + tallyAt (recvCell (c + (8 : Fin 16)) 8) () N := rfl
theorem owe_dma_9 (c : Dev nD) : oweR c 7 = oweR c 6 + tallyAt (recvCell (c + (9 : Fin 16)) 9) () N := rfl
theorem owe_dma_10 (c : Dev nD) : oweR c 6 = oweR c 5 + tallyAt (recvCell (c + (10 : Fin 16)) 10) () N := rfl
theorem owe_dma_11 (c : Dev nD) : oweR c 5 = oweR c 4 + tallyAt (recvCell (c + (11 : Fin 16)) 11) () N := rfl
theorem owe_dma_12 (c : Dev nD) : oweR c 4 = oweR c 3 + tallyAt (recvCell (c + (12 : Fin 16)) 12) () N := rfl
theorem owe_dma_13 (c : Dev nD) : oweR c 3 = oweR c 2 + tallyAt (recvCell (c + (13 : Fin 16)) 13) () N := rfl
theorem owe_dma_14 (c : Dev nD) : oweR c 2 = oweR c 1 + tallyAt (recvCell (c + (14 : Fin 16)) 14) () N := rfl
theorem owe_dma_15 (c : Dev nD) : oweR c 1 = oweR c 0 + tallyAt (recvCell (c + (15 : Fin 16)) 15) () N := rfl

end Cert.Kernel.Hand

end
-- ==== Proof.HandKernel.Final.lean ====
/-
  What the arrays hold after the run. The three argument arrays are never written back, so they end as they began. The
  result array is written back once, at the one grid point, and the block written is the whole array: it ends holding what
  the body left in the output staging buffer.
-/
import proofs.«900827_g7700000000000828_dist_layernorm_colshard_i_m512_n256_v7x_i16_f32_1_alg».proof.Proof.HandKernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s array of window `w` after the write-backs of all grid points. -/
def finalA (c : Dev nD) (w : Fin cfg0.W) : Buf (Elt F) ((cfg0.win w).arr.view.loc (c : Thread nD τ)) := (dats m 0 c).arrAt w cfg0.N

/-- Every device's windowed arrays hold their final contents. -/
def QC : PUnit × MemSt nD τ sig (Elt F) → Prop := fun r =>
  ∀ c : Dev nD, ∀ w : Fin cfg0.W, r.2.mem ((cfg0.win w).arr.view.loc (c : Thread nD τ)) = finalA m c w

theorem finalA_in0 (c : Dev nD) : finalA m c (0 : Fin cfg0.W) = m ((c : Thread nD τ).loc main_arg0) :=
  (dats (F := F) m 0 c).arrAt_in (0 : Fin 4) rfl _
theorem finalA_in1 (c : Dev nD) : finalA m c (1 : Fin cfg0.W) = m ((c : Thread nD τ).loc main_arg1) :=
  (dats (F := F) m 0 c).arrAt_in (1 : Fin 4) rfl _
theorem finalA_in2 (c : Dev nD) : finalA m c (2 : Fin cfg0.W) = m ((c : Thread nD τ).loc main_arg2) :=
  (dats (F := F) m 0 c).arrAt_in (2 : Fin 4) rfl _

theorem finalA_out (c : Dev nD) : finalA m c (3 : Fin cfg0.W) = outAt m c := by
  unfold finalA
  have h := (dats (F := F) m 0 c).arrAt_succ (3 : Fin 4) t0_0
  rw [if_pos (flush0_3 t0_0)] at h
  refine h.trans ?_
  have hz' : (fun a => win0_3.index t0_0 a * main_v1.ty.shape.size a) = fun _ => 0 :=
    funext fun a => by fin_cases a <;> decide
  exact Memref.write_access_unit_zero_univ (Elt F) main_v1 hz' (fun a => by rw [congrFun hz' a]; simp) _ _

end Cert.Kernel.Hand

end
-- ==== Proof.HandKernel.Credit.lean ====
/-
  The credit the launch deals each device: what all sixteen devices together owe each of its cells.

  Device `p` owes device `c`'s barrier cell one unit exactly when `p ≠ c` (its signal of offset `c - p`), so the sixteen
  devices owe it fifteen units. Device `p` owes `c`'s receive cell of offset `d ≠ 0` a tile's credit exactly when
  `p = c - d` (its copy of offset `d`), so the devices owe it one tile's credit.
-/
import proofs.«900827_g7700000000000828_dist_layernorm_colshard_i_m512_n256_v7x_i16_f32_1_alg».proof.Proof.HandKernel.Tables
import proofs.«900827_g7700000000000828_dist_layernorm_colshard_i_m512_n256_v7x_i16_f32_1_alg».proof.Proof.HandKernel.Levels

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Telling the cells apart -/

theorem bar_eq_iff {a b : Dev nD} : barCell a = barCell b ↔ a = b :=
  ⟨fun h => congrArg (fun g : GSem nD τ sig => g.1.1) h, fun h => h ▸ rfl⟩

theorem recv_eq_iff {a b : Dev nD} {d e : Fin 16} : recvCell a d = recvCell b e ↔ a = b ∧ d = e :=
  ⟨fun h => ⟨congrArg (fun g : GSem nD τ sig => g.1.1) h, by
      have hv : 20 + d.val = 20 + e.val :=
        congrArg (fun g : GSem nD τ sig => match g.2 with | .dma q => q.val | .reg _ => 0) h
      exact Fin.ext (by omega)⟩,
    fun ⟨h1, h2⟩ => h1 ▸ h2 ▸ rfl⟩

theorem recv_ne_bar (a b : Dev nD) (d : Fin 16) : recvCell a d ≠ barCell b := fun h => by
  have h2 := congrArg Prod.snd h
  cases h2

/-! ## What one device owes one cell -/

/-- No receive credit is owed to a barrier cell. -/
theorem oweR_bar (p c : Dev nD) : ∀ k, oweR p k (barCell c) () = 0
  | 0 => rfl
  | k + 1 => by
    rw [oweR_succ, Pi.add_apply, Finsupp.add_apply, oweR_bar p c k, tallyAt_ne_cell (recv_ne_bar _ _ _).symm]
    rfl

/-- The barrier units `p` owes `c`'s barrier cell among its first `k` summands: one for each summand whose offset leads from
    `p` to `c`. -/
theorem oweB_bar (p c : Dev nD) : ∀ k, oweB p k (barCell c) () = ∑ i ∈ Finset.range k, if c = p + offOf (i + 1) then 1 else 0
  | 0 => by rw [oweB_zero, oweR_bar, Finset.sum_range_zero]
  | k + 1 => by
    rw [oweB_succ, Pi.add_apply, Finsupp.add_apply, oweB_bar p c k, tallyAt_apply, Finset.sum_range_succ]
    congr 1
    exact if_congr ⟨fun h => bar_eq_iff.mp h.1, fun h => ⟨bar_eq_iff.mpr h, rfl⟩⟩ rfl rfl

/-- The receive credits `p` owes `c`'s receive cell of offset `d` among its first `k` summands. -/
theorem oweR_recv (p c : Dev nD) (d : Fin 16) : ∀ k, oweR p k (recvCell c d) ()
    = N * ∑ i ∈ Finset.range k, if c = p + offOf (i + 1) ∧ d = offOf (i + 1) then 1 else 0
  | 0 => by rw [oweR_zero, Finset.sum_range_zero, Nat.mul_zero]; rfl
  | k + 1 => by
    rw [oweR_succ, Pi.add_apply, Finsupp.add_apply, oweR_recv p c d k, tallyAt_apply, Finset.sum_range_succ, Nat.mul_add]
    congr 1
    by_cases h : c = p + offOf (k + 1) ∧ d = offOf (k + 1)
    · rw [if_pos h, if_pos ⟨recv_eq_iff.mpr h, rfl⟩, Nat.mul_one]
    · rw [if_neg h, if_neg (fun h' => h (recv_eq_iff.mp h'.1)), Nat.mul_zero]

/-- No barrier unit is owed to a receive cell. -/
theorem oweB_recv (p c : Dev nD) (d : Fin 16) : ∀ k, oweB p k (recvCell c d) () = oweR p 15 (recvCell c d) ()
  | 0 => rfl
  | k + 1 => by
    rw [oweB_succ, Pi.add_apply, Finsupp.add_apply, oweB_recv p c d k, tallyAt_ne_cell (recv_ne_bar _ _ _)]
    rfl

/-! ## Counting modulo 16 -/

/-- Exactly the fifteen devices `p ≠ c` reach `c` by a nonzero offset, each by one. -/
theorem count_bar : ∀ c : Fin 16, (∑ p : Fin 16, ∑ i ∈ Finset.range 15, if c = p + offOf (i + 1) then 1 else 0) = 15 := by
  decide +kernel

/-- Exactly one device reaches `c` by the nonzero offset `d`. -/
theorem count_recv : ∀ c d : Fin 16, d ≠ 0 →
    (∑ p : Fin 16, ∑ i ∈ Finset.range 15, if c = p + offOf (i + 1) ∧ d = offOf (i + 1) then 1 else 0) = 1 := by
  decide +kernel

/-! ## The launch credit -/

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same,
    Finset.sum_congr rfl fun p _ => (show O₀ p (barCell c) () = _ from oweB_bar p c 15)]
  exact count_bar c

theorem launch_recv (c : Dev nD) (d : Fin 16) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same,
    Finset.sum_congr rfl fun p _ => (show O₀ p (recvCell c d) () = _ from (oweB_recv p c d 15).trans (oweR_recv p c d 15)),
    ← Finset.mul_sum, count_recv c d hd, Nat.mul_one]

/-- Distinct offsets have distinct receive semaphores. -/
theorem recvSem_inj : Set.InjOn (fun d : Fin 16 => (SemLoc.dma (recvS d) : SemLoc sig)) (offs : Finset (Fin 16)) := fun d _ e _ h => by
  have hv : 20 + d.val = 20 + e.val := congrArg (fun s : SemLoc sig => match s with | .dma q => q.val | .reg _ => 0) h
  exact Fin.ext (by omega)

theorem recvSem_sub : (offs.image fun d : Fin 16 => (SemLoc.dma (recvS d) : SemLoc sig)) ⊆ Finset.univ.erase (SemLoc.reg barS : SemLoc sig) := by
  intro sm h
  obtain ⟨d, -, rfl⟩ := Finset.mem_image.mp h
  exact Finset.mem_erase.mpr ⟨fun h => (by cases h), Finset.mem_univ _⟩

/-- The launch deals device `c` its barrier cell's fifteen units and each receive cell's credit. -/
theorem creds (c : Dev nD) : (Pipeline.launchCred O₀ c : sProp 𝕄) ⊢ credits c := by
  unfold Pipeline.launchCred credits
  rw [bigSep_univ_at _ (SemLoc.reg barS), launch_bar]
  refine sep_mono_right ?_
  have key := bigSep_subset recvSem_sub
    (Φ := fun sm : SemLoc sig => (cred (tallyOn ((c.tc : Thread nD τ), sm) (launchCredit (Pipeline.owing O₀) 0 ((c.tc : Thread nD τ), sm))) : sProp 𝕄))
  rw [bigSep_image_of_injOn recvSem_inj] at key
  refine key.trans (bigSep_mono fun d hd => ?_)
  rw [launch_recv c d (Finset.ne_of_mem_erase hd)]
  exact .refl _

end Cert.Kernel.Hand

end
-- ==== Proof.HandKernel.Launch.lean ====
/-
  The launch: from the body of one device, proved at a symbolic place, to the run of the whole program on sixteen devices.

  Each device owes, when the program starts, one unit to the barrier semaphore of each of its fifteen peers and one tile's
  credit to the receive semaphore of offset `d` of the peer `d` places after it. Summed over the devices, every barrier
  semaphore is owed fifteen units and every receive semaphore of an offset `d ≠ 0` one tile's credit: that is the credit a
  device starts with. The duty tokens of a device's own cells are dealt to the devices that pay them: the token of duty `d`
  of `c + d`'s barrier cell, and the token of `c + d`'s receive cell of offset `d`, go to `c` — a re-indexing of the pairs
  (device, offset) by the bijection `(c, d) ↦ (c + d, d)`.

  Waiting never deadlocks: staging semaphores sit at level 0, barrier cells at 1, receive cells at 2, and a device waits
  on a cell only while everything it still owes lies strictly above it.
-/
import proofs.«900827_g7700000000000828_dist_layernorm_colshard_i_m512_n256_v7x_i16_f32_1_alg».proof.Proof.HandKernel.Proto
import proofs.«900827_g7700000000000828_dist_layernorm_colshard_i_m512_n256_v7x_i16_f32_1_alg».proof.Proof.HandKernel.Levels
import proofs.«900827_g7700000000000828_dist_layernorm_colshard_i_m512_n256_v7x_i16_f32_1_alg».proof.Proof.HandKernel.Tables
import proofs.«900827_g7700000000000828_dist_layernorm_colshard_i_m512_n256_v7x_i16_f32_1_alg».proof.Proof.HandKernel.Final
import proofs.«900827_g7700000000000828_dist_layernorm_colshard_i_m512_n256_v7x_i16_f32_1_alg».proof.Proof.HandKernel.Credit
import proofs.«900827_g7700000000000828_dist_layernorm_colshard_i_m512_n256_v7x_i16_f32_1_alg».proof.Proof.Gen.Kernel.Launch
import proofs.«900827_g7700000000000828_dist_layernorm_colshard_i_m512_n256_v7x_i16_f32_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the exchange and the duty tokens minted at launch -/

theorem csem_injective : Function.Injective (csem : Fin 33 → SemLoc sig) := by
  intro k k' h
  have hk : ∀ k : Fin 33, csem k = if k.val = 0 then SemLoc.reg barS else SemLoc.dma ⟨3 + k.val, by show 3 + k.val < 36; omega⟩ := fun _ => rfl
  rw [hk, hk] at h
  by_cases h0 : k.val = 0 <;> by_cases h0' : k'.val = 0
  · exact Fin.ext (h0.trans h0'.symm)
  · rw [if_pos h0, if_neg h0'] at h; cases h
  · rw [if_neg h0, if_pos h0'] at h; cases h
  · rw [if_neg h0, if_neg h0'] at h
    exact Fin.ext (Nat.add_left_cancel (congrArg Fin.val (SemLoc.dma.inj h)))

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- Every cell of the exchange: thirty-three a device. -/
def xcells : Finset (GSem nD τ sig) := Finset.univ.map ⟨kcell, kcell_injective⟩

theorem kcell_bar (c : Dev nD) : kcell (c, (0 : Fin 33)) = barCell c := rfl
theorem kcell_send (c : Dev nD) (d : Fin 16) : kcell (c, (⟨1 + d.val, by omega⟩ : Fin 33)) = sendCell c d :=
  Prod.ext rfl (by
    show (if 1 + d.val = 0 then SemLoc.reg barS else SemLoc.dma ⟨3 + (1 + d.val), _⟩) = SemLoc.dma (sendS d)
    rw [if_neg (by omega)]; exact congrArg SemLoc.dma (Fin.ext (by show 3 + (1 + d.val) = 4 + d.val; omega)))
theorem kcell_recv (c : Dev nD) (d : Fin 16) : kcell (c, (⟨17 + d.val, by omega⟩ : Fin 33)) = recvCell c d :=
  Prod.ext rfl (by
    show (if 17 + d.val = 0 then SemLoc.reg barS else SemLoc.dma ⟨3 + (17 + d.val), _⟩) = SemLoc.dma (recvS d)
    rw [if_neg (by omega)]; exact congrArg SemLoc.dma (Fin.ext (by show 3 + (17 + d.val) = 20 + d.val; omega)))
theorem kcell_succ (c : Dev nD) (k : Fin 32) : kcell (c, k.succ) = ((c : Thread nD τ), osem k) :=
  Prod.ext rfl (by
    show (if k.val + 1 = 0 then SemLoc.reg barS else SemLoc.dma ⟨3 + (k.val + 1), _⟩) = SemLoc.dma ⟨4 + k.val, _⟩
    rw [if_neg (by omega)]; exact congrArg SemLoc.dma (Fin.ext (by show 3 + (k.val + 1) = 4 + k.val; omega)))

/-- The tokens minted for a device's own cells, by offset: the barrier cell's duty `d`, the send cell's and the receive
    cell's one duty: (which cell, which duty). -/
def slot (x : Fin 16 × Fin 3) : Fin 33 × Fin 16 :=
  match x.2 with
  | 0 => (0, x.1)
  | 1 => (⟨1 + x.1.val, by omega⟩, 0)
  | 2 => (⟨17 + x.1.val, by omega⟩, 0)
theorem slot_injective : Function.Injective slot := by decide

abbrev tokOf (x : Dev nD × Fin 16 × Fin 3) : GSem nD τ sig × ℕ × Fin 16 := (kcell (x.1, (slot x.2).1), 0, (slot x.2).2)
theorem tokOf_injective : Function.Injective tokOf := by
  rintro ⟨c, y⟩ ⟨c', y'⟩ h
  have hk := kcell_injective (congrArg (fun x : GSem nD τ sig × ℕ × Fin 16 => x.1) h)
  have hd : (slot y).2 = (slot y').2 := congrArg (fun x : GSem nD τ sig × ℕ × Fin 16 => x.2.2) h
  have h1 : c = c' := congrArg Prod.fst hk
  have h2 : (slot y).1 = (slot y').1 := congrArg Prod.snd hk
  rw [h1, slot_injective (Prod.ext h2 hd)]
def xtoks : Finset (GSem nD τ sig × ℕ × Fin 16) := Finset.univ.map ⟨tokOf, tokOf_injective⟩

/-- The launch element: the pipeline library's and the exchange's. -/
def u₀ : UU :=
  (initOf (Pipeline.cells cfgs cellOf_inj) (Pipeline.launchToks cfgs cellOf_inj), initOf xcells xtoks)

/-- The duty tokens of device `c`'s own cells. -/
def toks (c : Dev nD) : sProp 𝕄 :=
  bigSep Finset.univ fun d : Fin 16 =>
    iprop(dutyTok ER (barCell c) 0 d ∗ dutyTok ER (sendCell c d) 0 (0 : Fin 16) ∗ dutyTok ER (recvCell c d) 0 (0 : Fin 16))

/-- What the launch element deals device `c` (the launch theorem's `G`). -/
def G (c : Dev nD) : sProp 𝕄 :=
  iprop((bigSep Finset.univ fun k : Fin 33 => roundState ER (Rd m) (kcell (c, k)) 0)
    ∗ (bigSep Finset.univ fun k : Fin 33 => iprop(atPos ER (kcell (c, k)) 0 ∅ 0 ∗ reached ER (kcell (c, k)) 0)) ∗ toks c)

/-- What the global step makes of it (`G'`). -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- A conjunction over `n + 1` indices: the first and the rest. -/
theorem bigSep_fin_succ {n : ℕ} (Φ : Fin (n + 1) → sProp 𝕄) :
    bigSep Finset.univ Φ = iprop(Φ 0 ∗ bigSep Finset.univ fun k : Fin n => Φ k.succ) := by
  rw [bigSep_univ_split (0 : Fin (n + 1)),
    show (Finset.univ : Finset (Fin (n + 1))).erase 0 = Finset.univ.map ⟨Fin.succ, Fin.succ_injective n⟩ from by
      ext x; simp [Fin.exists_succ_eq],
    bigSep_map]
  rfl

omit [FloatOps F] in
/-- A conjunction over thirty-three indices: index 0, then by offset `d` the indices `1 + d` and `17 + d`. -/
theorem bigSep_fin33 (Φ : Fin 33 → sProp 𝕄) :
    bigSep Finset.univ Φ = iprop(Φ 0 ∗ bigSep Finset.univ fun d : Fin 16 => iprop(Φ ⟨1 + d.val, by omega⟩ ∗ Φ ⟨17 + d.val, by omega⟩)) := by
  rw [bigSep_fin_succ, bigSep_univ_equiv (finSumFinEquiv (m := 16) (n := 16)) (fun k : Fin 32 => Φ k.succ), bigSep_univ_sum, bigSep_sep']
  congr 2
  all_goals (funext d; exact congrArg Φ (Fin.ext (by simp [finSumFinEquiv]; omega)))

theorem fund_ring : BI.own (ER (initOf xcells xtoks)) ⊢ (|==> bigSep Finset.univ (G m) : sProp 𝕄) := by
  have hX (Φ : GSem nD τ sig → sProp 𝕄) : bigSep xcells Φ = bigSep Finset.univ fun c : Dev nD => bigSep Finset.univ fun k : Fin 33 => Φ (kcell (c, k)) := by
    unfold xcells; rw [bigSep_map, bigSep_univ_prod]; rfl
  have hT : bigSep xtoks (fun x => (dutyTok ER x.1 x.2.1 x.2.2 : sProp 𝕄)) = bigSep Finset.univ fun c : Dev nD => toks c := by
    unfold xtoks; rw [bigSep_map, bigSep_univ_prod]
    refine bigSep_congr fun c _ => ?_
    unfold toks; rw [bigSep_univ_prod]
    refine bigSep_congr fun d _ => ?_
    rw [bigSep_fin3, ← kcell_send c d, ← kcell_recv c d]; rfl
  iintro HX
  imod (Rounds.fund ER (Rd m) xcells xtoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The thirty-two own semaphores and the barrier semaphore are the device's thirty-three cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin_succ]
  unfold Pipeline.ownSems0
  simp only [kcell_succ]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (Rd m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd m) (kcell (c, k)) 0)
      ⊢ (|={Set.univ}=> bigSep Finset.univ fun k : Fin 33 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: names for every cell's invariant, and the tokens dealt to their payers -/

instance records_persistent (K : Dev nD × Fin 33 → ℕ) : BI.Persistent (records m K) := by unfold records; infer_instance

theorem ghost_intro (K : Dev nD × Fin 33 → ℕ) (c : Dev nD) : iprop(records m K ∗ linear c) ⊢ G' m c := by
  unfold G' ghost
  iintro H; iexists K; iexact H

/-- The pairs (device, offset) re-indexed: the pair `(c, d)` names the peer `c + d` at the same offset. -/
def shift : Dev nD × Fin 16 ≃ Dev nD × Fin 16 where
  toFun x := (x.1 + x.2, x.2)
  invFun x := (x.1 - x.2, x.2)
  left_inv := fun ⟨c, d⟩ => Prod.ext (by show c + d - d = c; revert c d; decide) rfl
  right_inv := fun ⟨c, d⟩ => Prod.ext (by show c - d + d = c; revert c d; decide) rfl

omit [FloatOps F] in
/-- The tokens dealt around: the token of duty `d` of `c + d`'s barrier cell and the token of `c + d`'s receive cell of offset `d`
    go to `c`, which keeps its own send tokens (the tokens of offset 0 are never used). -/
theorem toks_around : (bigSep Finset.univ fun c : Dev nD => (toks c : sProp 𝕄)) ⊢ bigSep Finset.univ fun c : Dev nD => bigSep offs fun d => payToks c d := by
  have h1 : (bigSep Finset.univ fun c : Dev nD => (toks c : sProp 𝕄))
      = bigSep Finset.univ fun x : Dev nD × Fin 16 =>
          iprop(dutyTok ER (barCell x.1) 0 x.2 ∗ dutyTok ER (sendCell x.1 x.2) 0 (0 : Fin 16) ∗ dutyTok ER (recvCell x.1 x.2) 0 (0 : Fin 16)) := by
    rw [bigSep_univ_prod]; rfl
  rw [h1, bigSep_sep', bigSep_sep',
    bigSep_univ_equiv shift (fun x : Dev nD × Fin 16 => (dutyTok ER (barCell x.1) 0 x.2 : sProp 𝕄)),
    bigSep_univ_equiv shift (fun x : Dev nD × Fin 16 => (dutyTok ER (recvCell x.1 x.2) 0 (0 : Fin 16) : sProp 𝕄))]
  refine BIBase.Entails.trans ?_ ((Entails.of_eq (bigSep_univ_prod (fun x : Dev nD × Fin 16 => (payToks x.1 x.2 : sProp 𝕄)))).trans
    (bigSep_mono fun c _ => bigSep_subset (Finset.subset_univ _)))
  unfold payToks
  rw [bigSep_sep', bigSep_sep']
  iintro ⟨HB, HS, HR⟩
  isplitl [HB]; · iexact HB
  isplitl [HR]; · iexact HR
  iexact HS

theorem regroup :
    (bigSep Finset.univ fun c : Dev nD => iprop((bigSep Finset.univ fun k : Fin 33 => iprop(∃ κ : ℕ, cellInv ER (Rd m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (Rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄))
        (fun c : Dev nD => bigSep offs fun d => payToks c d)).symm).trans
      (bigSep_mono fun c _ => show _ ⊢ linear c from Entails.of_eq (by
        unfold linear positions; rw [bigSep_fin33, kcell_bar]; simp only [kcell_send, kcell_recv])))
    isplitl [Hat]; · iexact Hat
    iexact Htk

/-- The global step (`hglob`): the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ scrPts
  iintro ⟨Hr, Hz⟩
  isplitr; · iempintro
  isplitl [Hz]; · iexact Hz
  iexists (comm m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: if every device's
    body meets its obligation, every weakly fair execution of the program — the sixteen kernels meeting on the barrier
    semaphore, then exchanging their partial sums — terminates, and every final state has each windowed array at its
    computed contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

end Cert.Kernel.Hand

end
-- ==== Proof.HandKernel.Slots.lean ====
/-
  How the communication buffer is held: by its sixteen tiles and, for tile 0, by shares; and what the buffer's final
  contents are tile by tile.

  The buffer is a 16 × 8 × 128 array; tile `d` is the set of entries whose first coordinate is `d`, so the sixteen tiles
  are pairwise disjoint and together are the whole array. Tile 0 is read by fifteen copies at once: its full share is cut
  into one share per ring offset and a remainder kept for the device's own load. Of the final contents, tile `d` of device
  `c` is the tile of partial sums of device `c - d`: after the two stores tile 0 holds the device's own sums whatever
  was there before, a copy from tile 0 of `c` lands in tile `d` of `c + d` exactly what that tile is to hold, and a
  load of tile `d` reads the sums of `c - d`.
-/
import proofs.«900827_g7700000000000828_dist_layernorm_colshard_i_m512_n256_v7x_i16_f32_1_alg».proof.Proof.HandKernel.Proto
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tiles' element sets -/

/-- Tile `d`'s elements are those of the rectangle `[d, 0, 0] + 1 × 8 × 128`. -/
theorem tile_set (d : Fin 16) :
    (tileM d : Memref sig .tc .vmem S8x128 .f32).view.set
      = (Rect.unit (s := S16x8x128) ![d.val, 0, 0] S1x8x128.size (inb_tile d)).set :=
  (View.set_reshape _ _).trans (View.set_slice_whole _ _)

/-- An entry lies in tile `d` exactly when its first coordinate is `d`. -/
theorem mem_tile {d : Fin 16} {i : S16x8x128.Idx} :
    i ∈ (tileM d : Memref sig .tc .vmem S8x128 .f32).view.set ↔ (i 0).val = d.val := by
  rw [tile_set, Rect.mem_set_unit]
  constructor
  · intro h
    have h0 := h 0
    simp only [Matrix.cons_val_zero] at h0
    have : S1x8x128.size 0 = 1 := rfl
    omega
  · intro h a
    have h1 : (i 1).val < 8 := (i 1).isLt
    have h2 : (i 2).val < 128 := (i 2).isLt
    match a with
    | ⟨0, _⟩ => exact ⟨by show d.val ≤ (i 0).val; omega, by show (i 0).val < d.val + 1; omega⟩
    | ⟨1, _⟩ => exact ⟨Nat.zero_le _, by show (i 1).val < 0 + 8; omega⟩
    | ⟨2, _⟩ => exact ⟨Nat.zero_le _, by show (i 2).val < 0 + 128; omega⟩

theorem tiles_disjoint {d d' : Fin 16} (h : d ≠ d') :
    Disjoint (tileM d : Memref sig .tc .vmem S8x128 .f32).view.set (tileM d' : Memref sig .tc .vmem S8x128 .f32).view.set := by
  refine Finset.disjoint_left.mpr fun i hi hi' => h (Fin.ext ?_)
  have e := (mem_tile (i := i)).mp hi
  have e' := (mem_tile (i := i)).mp hi'
  omega

theorem tiles_cover : (Finset.univ : Finset S16x8x128.Idx)
    = Finset.univ.biUnion fun d : Fin 16 => (tileM d : Memref sig .tc .vmem S8x128 .f32).view.set := by
  ext i
  simp only [Finset.mem_univ, Finset.mem_biUnion, true_and, true_iff]
  exact ⟨⟨(i 0).val, (i 0).isLt⟩, mem_tile.mpr rfl⟩

/-! ## The buffer as sixteen tiles -/

/-- The whole buffer is its sixteen tiles, at any contents. -/
theorem scr_tiles (c : Dev nD) (f : Buf (Elt F) ((c : Thread nD τ).loc cc0_scratch0)) :
    (scrPts c f : sProp 𝕄) ⊣⊢ bigSep Finset.univ (fun d : Fin 16 => tilePts c d fullShare f) := by
  have e : (scrPts c f : sProp 𝕄) = bigSep Finset.univ (fun d : Fin 16 => tilePts c d fullShare f) := by
    unfold scrPts tilePts
    rw [show (Finset.univ : Finset (Idx ((c : Thread nD τ).loc cc0_scratch0))) = Finset.univ.biUnion fun d : Fin 16 => (tileM d : Memref sig .tc .vmem S8x128 .f32).view.set from tiles_cover]
    exact pointsTo_biUnion Finset.univ _ fun d _ d' _ h => tiles_disjoint h
  rw [e]

/-- Back together, at the exchanged contents. -/
theorem scr_rejoin (c : Dev nD) :
    iprop(bigSep Finset.univ (fun d : Fin 16 => tilePts c d fullShare (comm m c))) ⊢ (scrPts c (comm m c) : sProp 𝕄) :=
  (scr_tiles c (comm m c)).2

/-! ## Tile 0 by shares -/

/-- Tile 0 at the full share is the share kept and the sixteen shares lent. -/
theorem tile0_shares (c : Dev nD) (f : Buf (Elt F) ((c : Thread nD τ).loc cc0_scratch0)) :
    (tilePts c 0 fullShare f : sProp 𝕄)
      ⊣⊢ iprop(tilePts c 0 kept f ∗ bigSep Finset.univ (fun d : Fin 16 => tilePts c 0 (lent d) f)) := by
  unfold tilePts
  exact Transfers.pointsTo_toks fullShare 16

/-! ## Contents: tile 0 after the two stores -/

/-- The rectangle of the first store, `[0, 0, 0] + 1 × 4 × 128`, is the upper half of tile 0; -/
theorem mem_r0 {i : S16x8x128.Idx} :
    i ∈ (Rect.unit (s := S16x8x128) ![0, 0, 0] S1x4x128.size inb_S16x8x128_S1x4x128_0_0_0).set ↔ (i 0).val = 0 ∧ (i 1).val < 4 := by
  rw [Rect.mem_set_unit]
  constructor
  · intro h
    have h0 := h 0
    have h1 := h 1
    have e0 : (![0, 0, 0] : Fin 3 → Nat) 0 + S1x4x128.size 0 = 1 := rfl
    have e1 : (![0, 0, 0] : Fin 3 → Nat) 1 + S1x4x128.size 1 = 4 := rfl
    rw [e0] at h0; rw [e1] at h1
    exact ⟨by omega, h1.2⟩
  · rintro ⟨h0, h1⟩ a
    have h2 : (i 2).val < 128 := (i 2).isLt
    match a with
    | ⟨0, _⟩ => exact ⟨Nat.zero_le _, by show (i 0).val < 0 + 1; omega⟩
    | ⟨1, _⟩ => exact ⟨Nat.zero_le _, by show (i 1).val < 0 + 4; omega⟩
    | ⟨2, _⟩ => exact ⟨Nat.zero_le _, by show (i 2).val < 0 + 128; omega⟩

/-- that of the second, `[0, 4, 0] + 1 × 4 × 128`, the lower half. -/
theorem mem_r4 {i : S16x8x128.Idx} :
    i ∈ (Rect.unit (s := S16x8x128) ![0, 4, 0] S1x4x128.size inb_S16x8x128_S1x4x128_0_4_0).set ↔ (i 0).val = 0 ∧ 4 ≤ (i 1).val := by
  rw [Rect.mem_set_unit]
  constructor
  · intro h
    have h0 := h 0
    have h1 := h 1
    have e0 : (![0, 4, 0] : Fin 3 → Nat) 0 + S1x4x128.size 0 = 1 := rfl
    have e1 : (![0, 4, 0] : Fin 3 → Nat) 1 = 4 := rfl
    rw [e0] at h0; rw [e1] at h1
    exact ⟨by omega, h1.1⟩
  · rintro ⟨h0, h1⟩ a
    have h1' : (i 1).val < 8 := (i 1).isLt
    have h2 : (i 2).val < 128 := (i 2).isLt
    match a with
    | ⟨0, _⟩ => exact ⟨Nat.zero_le _, by show (i 0).val < 0 + 1; omega⟩
    | ⟨1, _⟩ => exact ⟨by show 4 ≤ (i 1).val; omega, by show (i 1).val < 4 + 4; omega⟩
    | ⟨2, _⟩ => exact ⟨Nat.zero_le _, by show (i 2).val < 0 + 128; omega⟩

/-- The first store writes inside tile 0; -/
theorem store_sub_r0 :
    ((scrM : Memref sig .tc .vmem S16x8x128 .f32).access (Rect.unit (s := S16x8x128) ![0, 0, 0] S1x4x128.size inb_S16x8x128_S1x4x128_0_0_0)).setOn Finset.univ
      ⊆ (tileM 0 : Memref sig .tc .vmem S8x128 .f32).view.set := by
  intro i hi
  rw [View.setOn_univ, show ((scrM : Memref sig .tc .vmem S16x8x128 .f32).access (Rect.unit (s := S16x8x128) ![0, 0, 0] S1x4x128.size inb_S16x8x128_S1x4x128_0_0_0)).set = _ from View.set_slice_whole _ _] at hi
  exact mem_tile.mpr (mem_r0.mp hi).1

/-- so does the second. -/
theorem store_sub_r4 :
    ((scrM : Memref sig .tc .vmem S16x8x128 .f32).access (Rect.unit (s := S16x8x128) ![0, 4, 0] S1x4x128.size inb_S16x8x128_S1x4x128_0_4_0)).setOn Finset.univ
      ⊆ (tileM 0 : Memref sig .tc .vmem S8x128 .f32).view.set := by
  intro i hi
  rw [View.setOn_univ, show ((scrM : Memref sig .tc .vmem S16x8x128 .f32).access (Rect.unit (s := S16x8x128) ![0, 4, 0] S1x4x128.size inb_S16x8x128_S1x4x128_0_4_0)).set = _ from View.set_slice_whole _ _] at hi
  exact mem_tile.mpr (mem_r4.mp hi).1

/-- The two loads that precede the stores read inside tile 0: the first on its upper half; -/
theorem load_sub_r0 :
    (scrM : Memref sig .tc .vmem S16x8x128 .f32).view.setOn (Rect.unit (s := S16x8x128) ![0, 0, 0] S1x4x128.size inb_S16x8x128_S1x4x128_0_0_0).toLoadRect.set
      ⊆ (tileM 0 : Memref sig .tc .vmem S8x128 .f32).view.set := by
  intro i hi
  unfold View.setOn at hi
  obtain ⟨j, hj, rfl⟩ := Finset.mem_map.mp hi
  exact mem_tile.mpr (mem_r0.mp hj).1

/-- the second on its lower half. -/
theorem load_sub_r4 :
    (scrM : Memref sig .tc .vmem S16x8x128 .f32).view.setOn (Rect.unit (s := S16x8x128) ![0, 4, 0] S1x4x128.size inb_S16x8x128_S1x4x128_0_4_0).toLoadRect.set
      ⊆ (tileM 0 : Memref sig .tc .vmem S8x128 .f32).view.set := by
  intro i hi
  unfold View.setOn at hi
  obtain ⟨j, hj, rfl⟩ := Finset.mem_map.mp hi
  exact mem_tile.mpr (mem_r4.mp hj).1

/-- The final contents at an entry of tile 0 are the device's own tile there: `c - 0 = c`. -/
theorem comm_tile0 (c : Dev nD) (i : S16x8x128.Idx) (h0 : (i 0).val = 0) :
    comm m c i = statAt m c (⟨(i 1).val, (i 1).isLt⟩ : Fin 8) (⟨(i 2).val, (i 2).isLt⟩ : Fin 128) := by
  have e : (⟨(i 0).val, (i 0).isLt⟩ : Fin 16) = 0 := Fin.ext h0
  show statAt m ((c : Fin 16) - (⟨(i 0).val, (i 0).isLt⟩ : Fin 16)) _ _ = _
  rw [e, sub_zero]

/-- Entry by entry: after the row sums are stored on the upper half and the sums of squares on the lower half, an entry of
    tile 0 holds the device's own tile, whatever the buffer held before. -/
theorem stored_apply (c : Dev nD) (f : Buf (Elt F) ((c : Thread nD τ).loc cc0_scratch0)) (i : S16x8x128.Idx) (h0 : (i 0).val = 0) :
    ((scrM : Memref sig .tc .vmem S16x8x128 .f32).access (Rect.unit (s := S16x8x128) ![0, 4, 0] S1x4x128.size inb_S16x8x128_S1x4x128_0_4_0)).write (Elt F)
        (((scrM : Memref sig .tc .vmem S16x8x128 .f32).access (Rect.unit (s := S16x8x128) ![0, 0, 0] S1x4x128.size inb_S16x8x128_S1x4x128_0_0_0)).write (Elt F) f
          (k0_pay2 (xS m c)) Finset.univ)
        (k0_pay3 (xS m c)) Finset.univ i
      = comm m c i := by
  rw [comm_tile0 m c i h0]
  by_cases h1 : (i 1).val < 4
  · -- the upper half: untouched by the second store, written by the first
    have hn : i ∉ ((scrM : Memref sig .tc .vmem S16x8x128 .f32).access (Rect.unit (s := S16x8x128) ![0, 4, 0] S1x4x128.size inb_S16x8x128_S1x4x128_0_4_0)).setOn Finset.univ := by
      intro hi
      rw [View.setOn_univ, show ((scrM : Memref sig .tc .vmem S16x8x128 .f32).access (Rect.unit (s := S16x8x128) ![0, 4, 0] S1x4x128.size inb_S16x8x128_S1x4x128_0_4_0)).set = _ from View.set_slice_whole _ _] at hi
      have := (mem_r4.mp hi).2
      omega
    rw [View.write_of_not_mem _ _ _ hn]
    obtain ⟨x, hx⟩ : ∃ x : S1x4x128.Idx, x = ValueIdx.ix3 (0 : Fin 1) (⟨(i 1).val, h1⟩ : Fin 4) (⟨(i 2).val, (i 2).isLt⟩ : Fin 128) := ⟨_, rfl⟩
    have he : ((scrM : Memref sig .tc .vmem S16x8x128 .f32).access (Rect.unit (s := S16x8x128) ![0, 0, 0] S1x4x128.size inb_S16x8x128_S1x4x128_0_0_0)).emb x = i := by
      subst hx
      funext a
      apply Fin.ext
      match a with
      | ⟨0, _⟩ => show 0 + 1 * 0 = (i 0).val; omega
      | ⟨1, _⟩ => show 0 + 1 * (i 1).val = (i 1).val; omega
      | ⟨2, _⟩ => show 0 + 1 * (i 2).val = (i 2).val; omega
    conv_lhs => rw [← he]
    rw [View.write_emb_of_mem _ _ (Finset.mem_univ x), cast_eq, hx]
    unfold statAt
    rw [dif_pos h1]
  · -- the lower half: written by the second store
    have h1' : (i 1).val < 8 := (i 1).isLt
    obtain ⟨x, hx⟩ : ∃ x : S1x4x128.Idx, x = ValueIdx.ix3 (0 : Fin 1) (⟨(i 1).val - 4, by omega⟩ : Fin 4) (⟨(i 2).val, (i 2).isLt⟩ : Fin 128) := ⟨_, rfl⟩
    have he : ((scrM : Memref sig .tc .vmem S16x8x128 .f32).access (Rect.unit (s := S16x8x128) ![0, 4, 0] S1x4x128.size inb_S16x8x128_S1x4x128_0_4_0)).emb x = i := by
      subst hx
      funext a
      apply Fin.ext
      match a with
      | ⟨0, _⟩ => show 0 + 1 * 0 = (i 0).val; omega
      | ⟨1, _⟩ => show 4 + 1 * ((i 1).val - 4) = (i 1).val; omega
      | ⟨2, _⟩ => show 0 + 1 * (i 2).val = (i 2).val; omega
    conv_lhs => rw [← he]
    rw [View.write_emb_of_mem _ _ (Finset.mem_univ x), cast_eq, hx]
    unfold statAt
    rw [dif_neg h1]

/-- After the two stores tile 0 holds the device's own sums, whatever the buffer held. -/
theorem tile0_stored (c : Dev nD) (f : Buf (Elt F) ((c : Thread nD τ).loc cc0_scratch0)) (q : PosShare TreeShare) :
    (tilePts c 0 q
      (((scrM : Memref sig .tc .vmem S16x8x128 .f32).access (Rect.unit (s := S16x8x128) ![0, 4, 0] S1x4x128.size inb_S16x8x128_S1x4x128_0_4_0)).write (Elt F)
        (((scrM : Memref sig .tc .vmem S16x8x128 .f32).access (Rect.unit (s := S16x8x128) ![0, 0, 0] S1x4x128.size inb_S16x8x128_S1x4x128_0_0_0)).write (Elt F) f
          (k0_pay2 (xS m c)) Finset.univ)
        (k0_pay3 (xS m c)) Finset.univ) : sProp 𝕄)
      = tilePts c 0 q (comm m c) := by
  unfold tilePts
  exact pointsTo_congr fun i hi => stored_apply m c f i (mem_tile.mp hi)

/-! ## Contents: landings and loads -/

/-- The final contents at an entry whose coordinates are `(d, a, b)`: entry `(a, b)` of the tile of device `c - d`. -/
theorem comm_at (c : Dev nD) (d : Fin 16) (i : S16x8x128.Idx) (a : Fin 8) (b : Fin 128)
    (h0 : (i 0).val = d.val) (h1 : (i 1).val = a.val) (h2 : (i 2).val = b.val) :
    comm m c i = statAt m ((c : Fin 16) - d) a b := by
  have e0 : (⟨(i 0).val, (i 0).isLt⟩ : Fin 16) = d := Fin.ext h0
  have e1 : (⟨(i 1).val, (i 1).isLt⟩ : Fin 8) = a := Fin.ext h1
  have e2 : (⟨(i 2).val, (i 2).isLt⟩ : Fin 128) = b := Fin.ext h2
  show statAt m ((c : Fin 16) - (⟨(i 0).val, (i 0).isLt⟩ : Fin 16)) (⟨(i 1).val, (i 1).isLt⟩ : Fin 8) (⟨(i 2).val, (i 2).isLt⟩ : Fin 128) = _
  rw [e0, e1, e2]

/-- Tile `d` of device `c + d` is to hold what tile 0 of device `c` holds, place by place: both are the tile of device
    `c = (c + d) - d`. -/
theorem comm_shift (c : Dev nD) (d : Fin 16) (z : S1x8x128.Idx) :
    comm m (c + d) ((Rect.unit (s := S16x8x128) ![d.val, 0, 0] S1x8x128.size (inb_tile d)).emb z)
      = comm m c ((Rect.unit (s := S16x8x128) ![(0 : Fin 16).val, 0, 0] S1x8x128.size (inb_tile 0)).emb z) := by
  have hz : (z 0).val < 1 := (z 0).isLt
  rw [comm_at m (c + d) d _ (⟨(z 1).val, (z 1).isLt⟩ : Fin 8) (⟨(z 2).val, (z 2).isLt⟩ : Fin 128)
      (by show d.val + 1 * (z 0).val = d.val; omega) (by show 0 + 1 * (z 1).val = (z 1).val; omega) (by show 0 + 1 * (z 2).val = (z 2).val; omega),
    comm_at m c 0 _ (⟨(z 1).val, (z 1).isLt⟩ : Fin 8) (⟨(z 2).val, (z 2).isLt⟩ : Fin 128)
      (by show 0 + 1 * (z 0).val = 0; omega) (by show 0 + 1 * (z 1).val = (z 1).val; omega) (by show 0 + 1 * (z 2).val = (z 2).val; omega)]
  show statAt m ((c + d : Fin 16) - d) _ _ = statAt m ((c : Fin 16) - 0) _ _
  rw [add_sub_cancel_right, sub_zero]

/-- A landing: tile 0 of device `c`, holding its sums, copied over tile `d` of device `c + d` leaves there what that tile is
    to hold in the end, whatever it held before. -/
theorem landed_eq (c : Dev nD) (d : Fin 16)
    (fd : Buf (Elt F) ((tileM d : Memref sig .tc .vmem S8x128 .f32).view.loc ((c + d : Dev nD) : Thread nD τ)))
    (fs : Buf (Elt F) ((tileM 0 : Memref sig .tc .vmem S8x128 .f32).view.loc (c : Thread nD τ)))
    (hfs : ∀ i ∈ (tileM 0 : Memref sig .tc .vmem S8x128 .f32).view.set, fs i = comm m c i) :
    (tilePts (c + d) d fullShare
        ((tileM d : Memref sig .tc .vmem S8x128 .f32).view.write (Elt F) fd ((tileM 0 : Memref sig .tc .vmem S8x128 .f32).view.read (Elt F) fs) Finset.univ) : sProp 𝕄)
      = recvPay m (c + d) d := by
  unfold recvPay tilePts
  refine pointsTo_congr fun i hi => ?_
  obtain ⟨y, rfl⟩ := View.exists_emb_of_mem_set _ hi
  rw [View.write_emb_of_mem _ _ (Finset.mem_univ y), View.read_apply, cast_cast, cast_eq, hfs _ (View.emb_mem_set _ y)]
  exact (comm_shift m c d _).symm

/-- A load of tile `d` touches only tile `d`. -/
theorem load_sub (d : Fin 16) (h : ∀ a, (![d.val, 0, 0] : Fin 3 → Nat) a + S1x8x128.size a ≤ S16x8x128.size a) :
    (scrM : Memref sig .tc .vmem S16x8x128 .f32).view.setOn (Rect.unit (s := S16x8x128) ![d.val, 0, 0] S1x8x128.size h).toLoadRect.set
      ⊆ (tileM d : Memref sig .tc .vmem S8x128 .f32).view.set := by
  intro i hi
  unfold View.setOn at hi
  obtain ⟨j, hj, rfl⟩ := Finset.mem_map.mp hi
  rw [tile_set]
  exact hj

/-- What a load of tile `d` reads off the final contents: the tile of device `c - d`. -/
theorem load_tile (c : Dev nD) (d : Fin 16) (h : ∀ a, (![d.val, 0, 0] : Fin 3 → Nat) a + S1x8x128.size a ≤ S16x8x128.size a) :
    (scrM : Memref sig .tc .vmem S16x8x128 .f32).view.readAt (Elt F) (Rect.unit (s := S16x8x128) ![d.val, 0, 0] S1x8x128.size h).toLoadRect (comm m c)
      = tile m c d := by
  refine funext fun (y : S1x8x128.Idx) => ?_
  have hy : (y 0).val < 1 := (y 0).isLt
  rw [View.readAt_apply, View.read_apply, cast_eq]
  exact comm_at m c d _ (⟨(y 1).val, (y 1).isLt⟩ : Fin 8) (⟨(y 2).val, (y 2).isLt⟩ : Fin 128)
    (by show d.val + 1 * (y 0).val = d.val; omega) (by show 0 + 1 * (y 1).val = (y 1).val; omega) (by show 0 + 1 * (y 2).val = (y 2).val; omega)

/-- The same through any contents that agree with the final ones on tile `d`: a load reads only the elements under its
    rectangle. -/
theorem load_tile_of_agree (c : Dev nD) (d : Fin 16) (h : ∀ a, (![d.val, 0, 0] : Fin 3 → Nat) a + S1x8x128.size a ≤ S16x8x128.size a)
    (g : Buf (Elt F) ((c : Thread nD τ).loc cc0_scratch0))
    (hg : ∀ i ∈ (tileM d : Memref sig .tc .vmem S8x128 .f32).view.set, g i = comm m c i) :
    (scrM : Memref sig .tc .vmem S16x8x128 .f32).view.readAt (Elt F) (Rect.unit (s := S16x8x128) ![d.val, 0, 0] S1x8x128.size h).toLoadRect g
      = tile m c d := by
  have e : (scrM : Memref sig .tc .vmem S16x8x128 .f32).view.readAt (Elt F) (Rect.unit (s := S16x8x128) ![d.val, 0, 0] S1x8x128.size h).toLoadRect g
      = (scrM : Memref sig .tc .vmem S16x8x128 .f32).view.readAt (Elt F) (Rect.unit (s := S16x8x128) ![d.val, 0, 0] S1x8x128.size h).toLoadRect (comm m c) :=
    View.readAt_congr fun i hi => hg i (load_sub d h hi)
  exact e.trans (load_tile m c d h)

end Cert.Kernel.Hand

end
-- ==== Proof.HandKernel.Steps2.lean ====
/-
  The exchange's waits, and how it ends.

  Every send and receive semaphore of an offset `d ≠ 0` is credited exactly once, by one copy of a tile. The device that
  owns it waits for that one credit: the wait takes the whole round, so what the copy's completion was to hand over is the
  waiter's — for an arrival, tile `d` holding the sender's partial sums; for a departure, the share of tile 0 that was
  lent to the copy. No later round has a duty, so after the wait the owner closes the cell and keeps its counter, at zero.
  The two semaphores of offset 0 are never credited at all: their owner closes them untouched. With all thirty-two
  counters at zero the kernel's own semaphores are as the launch found them.
-/
import proofs.«900827_g7700000000000828_dist_layernorm_colshard_i_m512_n256_v7x_i16_f32_1_alg».proof.Proof.HandKernel.Proto
import proofs.«900827_g7700000000000828_dist_layernorm_colshard_i_m512_n256_v7x_i16_f32_1_alg».proof.Proof.HandKernel.Tables

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Waiting for a copy to arrive -/

/-- The wait on the receive semaphore of offset `d ≠ 0`: the one copy that lands on it has arrived, so tile `d` holds the
    sender's sums; no later round has a duty, so the cell is closed and its counter stays at zero. -/
theorem recv_step (κ : ℕ) (c : Dev nD) (d : Fin 16) (hd : d ≠ 0) {α : Type} {Q : α → sProp 𝕄}
    {k : PUnit → Prog (TpuEff nD τ sig (Elt F) Λ₀ .tc) α} (W : Waits sig Unit)
    (src dst : Memref sig .tc .vmem S8x128 .f32) (hs : src.view.WordExact) (hdw : dst.view.WordExact)
    (hN : dst.view.dmaCredit = N) :
    iprop(cellInv ER (Rd m) κ (recvCell c d) ∗ cred (tallyAt (recvCell c d) () N) ∗ owes (c : Thread nD τ) 0 W
        ∗ atPos ER (recvCell c d) 0 ∅ 0
        ∗ ((recvPay m c d ∗ semVal (recvCell c d) 0 ∗ owes (c : Thread nD τ) 0 (insert (SemLoc.dma (recvS d), ()) W))
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (recvS d) src dst hs hdw) k) Q := by
  have hwait := Rounds.wp_wait_rest_token 𝒱₀ ER (Rd m) (c : Thread nD τ) none (κ := κ) (Q := Q) (k := k)
      (wpE_waitDma2_eq (defs := defs₀ (F := F)) (src := src) (dst := dst) (hsrc := hs) (hdst := hdw) (sem := recvS d)
        𝒱₀ (c : Thread nD τ) none Set.univ) (Set.mem_univ _) () (O := 0) (W := W) (R := 0) (m := 0) (T := ∅)
      (by rw [Nat.zero_add, hN, expect_recv m c d hd])
  rw [rest_recv m c d hd, MayWait_zero, hN] at hwait
  have hclose := Rounds.cell_close ER (Rd m) (κ := κ) (g := recvCell c d) (Es := Set.univ) (Set.mem_univ _) (fun h => h) (R := 0 + 1)
      (fun r hr => duties_later m (recvCell c d) r hr)
  iintro ⟨#HI, Hc, Ho, Hat, Hk⟩
  iapply hwait $$ [Hc Ho Hat]
  · isplitr; · iexact HI
    isplitl [Hc]; · iexact Hc
    isplitl [Ho]; · iexact Ho
    isplitr; · iempintro
    iexact Hat
  iintro ⟨Ho, Hat, Hr, Hpay⟩
  imod hclose $$ [Hat] with Hv
  · isplitr; · iexact HI
    iexact Hat
  iapply Hk
  isplitl [Hpay]; · iexact Hpay
  isplitl [Hv]; · iexact Hv
  iexact Ho

/-! ## Waiting for a copy to leave -/

/-- The wait on the send semaphore of offset `d ≠ 0`: the one copy that completes on it has left, so the share of tile 0 it
    was lent comes back; the cell is closed and its counter stays at zero. -/
theorem sendwait_step (κ : ℕ) (c : Dev nD) (d : Fin 16) (hd : d ≠ 0) {α : Type} {Q : α → sProp 𝕄}
    {k : PUnit → Prog (TpuEff nD τ sig (Elt F) Λ₀ .tc) α} (W : Waits sig Unit)
    (src dst : Memref sig .tc .vmem S8x128 .f32) (hs : src.view.WordExact) (hdw : dst.view.WordExact)
    (hN : dst.view.dmaCredit = N) :
    iprop(cellInv ER (Rd m) κ (sendCell c d) ∗ cred (tallyAt (sendCell c d) () N) ∗ owes (c : Thread nD τ) 0 W
        ∗ atPos ER (sendCell c d) 0 ∅ 0
        ∗ ((sendPay m c d ∗ semVal (sendCell c d) 0 ∗ owes (c : Thread nD τ) 0 (insert (SemLoc.dma (sendS d), ()) W))
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (sendS d) src dst hs hdw) k) Q := by
  have hwait := Rounds.wp_wait_rest_token 𝒱₀ ER (Rd m) (c : Thread nD τ) none (κ := κ) (Q := Q) (k := k)
      (wpE_waitDma2_eq (defs := defs₀ (F := F)) (src := src) (dst := dst) (hsrc := hs) (hdst := hdw) (sem := sendS d)
        𝒱₀ (c : Thread nD τ) none Set.univ) (Set.mem_univ _) () (O := 0) (W := W) (R := 0) (m := 0) (T := ∅)
      (by rw [Nat.zero_add, hN, expect_send m c d hd])
  rw [rest_send m c d hd, MayWait_zero, hN] at hwait
  have hclose := Rounds.cell_close ER (Rd m) (κ := κ) (g := sendCell c d) (Es := Set.univ) (Set.mem_univ _) (fun h => h) (R := 0 + 1)
      (fun r hr => duties_later m (sendCell c d) r hr)
  iintro ⟨#HI, Hc, Ho, Hat, Hk⟩
  iapply hwait $$ [Hc Ho Hat]
  · isplitr; · iexact HI
    isplitl [Hc]; · iexact Hc
    isplitl [Ho]; · iexact Ho
    isplitr; · iempintro
    iexact Hat
  iintro ⟨Ho, Hat, Hr, Hpay⟩
  imod hclose $$ [Hat] with Hv
  · isplitr; · iexact HI
    iexact Hat
  iapply Hk
  isplitl [Hpay]; · iexact Hpay
  isplitl [Hv]; · iexact Hv
  iexact Ho

/-! ## The two cells of offset 0, and the kernel's own semaphores at the end -/

/-- Nothing ever lands on the send and receive semaphores of offset 0: their owner closes them untouched, and their counters
    stay at zero. -/
theorem idle_close (κs κr : ℕ) (c : Dev nD) :
    iprop(cellInv ER (Rd m) κs (sendCell c 0) ∗ atPos ER (sendCell c 0) 0 ∅ 0
        ∗ cellInv ER (Rd m) κr (recvCell c 0) ∗ atPos ER (recvCell c 0) 0 ∅ 0)
      ⊢ (iprop(|={Set.univ}=> (semVal (sendCell c 0) 0 ∗ semVal (recvCell c 0) 0)) : sProp 𝕄) := by
  have hsnd := Rounds.cell_close ER (Rd m) (κ := κs) (g := sendCell c 0) (Es := Set.univ) (Set.mem_univ _) (fun h => h) (R := 0)
      (fun r _ => duties_idle_send m c r)
  have hrcv := Rounds.cell_close ER (Rd m) (κ := κr) (g := recvCell c 0) (Es := Set.univ) (Set.mem_univ _) (fun h => h) (R := 0)
      (fun r _ => duties_idle_recv m c r)
  iintro ⟨HIs, Hats, HIr, Hatr⟩
  imod hsnd $$ [HIs Hats] with Hvs
  · isplitl [HIs]; · iexact HIs
    iexact Hats
  imod hrcv $$ [HIr Hatr] with Hvr
  · isplitl [HIr]; · iexact HIr
    iexact Hatr
  imodintro
  isplitl [Hvs]; · iexact Hvs
  iexact Hvr

/-- The thirty-two semaphores of the kernel, listed: sixteen send, sixteen receive. -/
theorem ownSems0_list (c : Dev nD) :
    (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0) := by
  rw [Pipeline.ownSems0_eq_of_list c osem [0, 1, 2, 3, 4, 5, 6, 7, 8, 9, 10, 11, 12, 13, 14, 15, 16, 17, 18, 19, 20, 21, 22, 23, 24, 25, 26, 27,
    28, 29, 30, 31] (by decide) (by decide)]
  rfl

/-- Every send and receive semaphore at zero is the kernel's own semaphores at zero. -/
theorem ownSems_of_closed (c : Dev nD) :
    iprop(bigSep Finset.univ (fun d : Fin 16 => iprop(semVal (sendCell c d) 0 ∗ semVal (recvCell c d) 0)))
      ⊢ (Pipeline.ownSems0 (Ix := Unit) (Name := ℕ) (U := UU) (Lvl := ℕ) (Val := Elt F) (τ := τ) osem c : sProp 𝕄) := by
  rw [ownSems0_list, bigSep_fin16]
  iintro ⟨⟨S0, R0⟩, ⟨S1, R1⟩, ⟨S2, R2⟩, ⟨S3, R3⟩, ⟨S4, R4⟩, ⟨S5, R5⟩, ⟨S6, R6⟩, ⟨S7, R7⟩, ⟨S8, R8⟩, ⟨S9, R9⟩, ⟨S10, R10⟩, ⟨S11, R11⟩, ⟨S12, R12⟩, ⟨S13, R13⟩, ⟨S14, R14⟩, ⟨S15, R15⟩⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

end Cert.Kernel.Hand

end
-- ==== Proof.HandKernel.Steps1.lean ====
/-
  One rule per repeated effect of a device's body, at a symbolic ring offset: the signal to a peer's barrier semaphore, the
  wait for the fifteen peers, the copy of the device's own tile into a peer's, and the loads and stores inside a tile of the
  communication buffer; with the schedule's tables at the cells one device touches and the records every device holds.
-/
import proofs.«900827_g7700000000000828_dist_layernorm_colshard_i_m512_n256_v7x_i16_f32_1_alg».proof.Proof.HandKernel.Proto
import proofs.«900827_g7700000000000828_dist_layernorm_colshard_i_m512_n256_v7x_i16_f32_1_alg».proof.Proof.HandKernel.Tables
import proofs.«900827_g7700000000000828_dist_layernorm_colshard_i_m512_n256_v7x_i16_f32_1_alg».proof.Proof.HandKernel.Slots
import proofs.«900827_g7700000000000828_dist_layernorm_colshard_i_m512_n256_v7x_i16_f32_1_alg».proof.Proof.HandKernel.Levels
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at the cells one device touches -/

namespace Step

section Tab
variable (c : Dev nD)

omit [FloatOps F] in
theorem val_pos_of_ne {d : Fin 16} (hd : d ≠ 0) : 1 ≤ d.val :=
  Nat.one_le_iff_ne_zero.mpr (fun h => hd (Fin.ext h))

theorem duties_bar : (Rd (F := F) m).duties (barCell c) 0 = offs := by
  dsimp only [Rd]; exact if_pos ⟨rfl, rfl⟩
theorem duties_send (d : Fin 16) (hd : d ≠ 0) : (Rd (F := F) m).duties (sendCell c d) 0 = {0} := by
  have h1 := val_pos_of_ne hd
  have h2 := d.isLt
  dsimp only [Rd]; rw [if_pos ⟨rfl, rfl⟩]
  exact if_pos (Or.inl ⟨by show 5 ≤ 4 + d.val; omega, by show 4 + d.val ≤ 19; omega⟩)
theorem duties_recv (d : Fin 16) (hd : d ≠ 0) : (Rd (F := F) m).duties (recvCell c d) 0 = {0} := by
  have h1 := val_pos_of_ne hd
  dsimp only [Rd]; rw [if_pos ⟨rfl, rfl⟩]
  exact if_pos (Or.inr (by show 21 ≤ 20 + d.val; omega))
theorem duties_later (g : GSem nD τ sig) : ∀ r, 1 ≤ r → (Rd (F := F) m).duties g r = ∅ :=
  fun r hr => by dsimp only [Rd]; rw [if_neg fun h => by omega]
theorem duties_send0 : ∀ r, 0 ≤ r → (Rd (F := F) m).duties (sendCell c 0) r = ∅ := fun r _ => by
  dsimp only [Rd]; split
  · exact if_neg (by decide)
  · rfl
theorem duties_recv0 : ∀ r, 0 ≤ r → (Rd (F := F) m).duties (recvCell c 0) r = ∅ := fun r _ => by
  dsimp only [Rd]; split
  · exact if_neg (by decide)
  · rfl

theorem amount_bar (j : Fin 16) : (Rd (F := F) m).amount (barCell c) 0 j = 1 := rfl
theorem amount_send (d j : Fin 16) : (Rd (F := F) m).amount (sendCell c d) 0 j = N := rfl
theorem amount_recv (d j : Fin 16) : (Rd (F := F) m).amount (recvCell c d) 0 j = N := rfl

theorem payload_bar (j : Fin 16) : (Rd (F := F) m).payload (barCell c) 0 j = barPay c j := rfl
theorem payload_send (d j : Fin 16) : (Rd (F := F) m).payload (sendCell c d) 0 j = sendPay m c d := by
  have h2 := d.isLt
  dsimp only [Rd]
  rw [dif_neg (by show ¬ 20 ≤ 4 + d.val; omega), dif_pos (by show 4 ≤ 4 + d.val; omega)]
  exact congrArg (sendPay m c) (Fin.ext (by show 4 + d.val - 4 = d.val; omega))
theorem payload_recv (d j : Fin 16) : (Rd (F := F) m).payload (recvCell c d) 0 j = recvPay m c d := by
  dsimp only [Rd]
  rw [dif_pos (by show 20 ≤ 20 + d.val; omega)]
  exact congrArg (recvPay m c) (Fin.ext (by show 20 + d.val - 20 = d.val; omega))

theorem expect_bar : (Rd (F := F) m).expect (barCell c) 0 = 15 := by
  unfold Schedule.expect Schedule.amountOf
  rw [duties_bar, Finset.sum_congr rfl fun d _ => amount_bar m c d, Finset.sum_const, smul_eq_mul]; rfl
theorem expect_send (d : Fin 16) (hd : d ≠ 0) : (Rd (F := F) m).expect (sendCell c d) 0 = N := by
  unfold Schedule.expect Schedule.amountOf; rw [duties_send m c d hd, Finset.sum_singleton, amount_send]
theorem expect_recv (d : Fin 16) (hd : d ≠ 0) : (Rd (F := F) m).expect (recvCell c d) 0 = N := by
  unfold Schedule.expect Schedule.amountOf; rw [duties_recv m c d hd, Finset.sum_singleton, amount_recv]

theorem rest_send (d : Fin 16) (hd : d ≠ 0) :
    bigSep ((Rd (F := F) m).duties (sendCell c d) 0 \ ∅) (fun j => (Rd (F := F) m).payload (sendCell c d) 0 j) = sendPay m c d := by
  rw [Finset.sdiff_empty, duties_send m c d hd, bigSep_singleton, payload_send]
theorem rest_recv (d : Fin 16) (hd : d ≠ 0) :
    bigSep ((Rd (F := F) m).duties (recvCell c d) 0 \ ∅) (fun j => (Rd (F := F) m).payload (recvCell c d) 0 j) = recvPay m c d := by
  rw [Finset.sdiff_empty, duties_recv m c d hd, bigSep_singleton, payload_recv]

end Tab

/-! ## One rule per repeated effect, at a symbolic ring offset -/

section Rules
variable (c : Dev nD)

omit [FloatOps F] in
theorem add_sub_self (n : Fin 16) : (c + n : Dev nD) - n = c := by revert c n; decide

/-- The signal of offset `n`: it pays duty `n` of the barrier cell of the device `n` places on, handing over this device's own
    tile `-n` (at whatever it holds) and that it has not begun to wait on its receive cell of offset `-n`. -/
theorem sig_step (n : Fin 16) (hn : n ≠ 0) (t : Fin 16) (ht : t = -n) (dv : Dev nD) (hdv : dv = c + n) (κ : ℕ)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (c + n)) () 1) (W : Waits sig Unit) :
    iprop(cellInv ER (Rd m) κ (barCell (c + n))
        ∗ owes (c : Thread nD τ) O₀ W
        ∗ dutyTok ER (barCell (c + n)) 0 n
        ∗ ((∃ f, tilePts (F := F) c t fullShare f) ∗ reached ER (recvCell c t) 0)
        ∗ reached ER (barCell (c + n)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal (dv : Thread nD τ) barS (1#32).toNat) k) Q) := by
  subst hdv; subst ht
  have hmem : n ∈ (Rd (F := F) m).duties (barCell (c + n)) 0 := by
    rw [duties_bar]; exact Finset.mem_erase.mpr ⟨hn, Finset.mem_univ _⟩
  have hpay : (Rd (F := F) m).payload (barCell (c + n)) 0 n
      = iprop((∃ f, tilePts (F := F) c (-n) fullShare f) ∗ reached ER (recvCell c (-n)) 0) := by
    rw [payload_bar]; unfold barPay; rw [add_sub_self]
  rw [← hpay]
  exact Rounds.wp_signal 𝒱₀ ER (Rd m) (c : Thread nD τ) none (dst := ((c + n : Dev nD) : Thread nD τ)) (κ := κ)
      (d := n) hmem ((amount_bar m (c + n) n).trans (by decide)) () O hO

end Rules
end Step

namespace Step
section Rules2
variable (c : Dev nD)

omit [FloatOps F] in
theorem sub_neg_self (d : Fin 16) : (c : Dev nD) - (-d) = c + d := by revert c d; decide
omit [FloatOps F] in
theorem neg_neg_self (d : Fin 16) : - (-d) = d := by revert d; decide

/-- What the barrier unit of the peer `d` places on hands this device: that peer's tile `d`, at whatever it holds, and that
    the peer has not begun to wait on its receive cell of offset `d`. -/
def peerPay (d : Fin 16) : sProp 𝕄 :=
  iprop((∃ f, tilePts (F := F) (c + d) d fullShare f) ∗ reached ER (recvCell (c + d) d) 0)

omit [FloatOps F] in
theorem barPay_eq (j d : Fin 16) (h : j = -d) : barPay (F := F) c j = peerPay c d := by
  subst h; unfold barPay peerPay; rw [sub_neg_self, neg_neg_self]

omit [FloatOps F] in
theorem offs_list : (offs : Finset (Fin 16)) = [1, 2, 3, 4, 5, 6, 7, 8, 9, 10, 11, 12, 13, 14, 15].toFinset := by decide

omit [FloatOps F] in
/-- A separating conjunction over the fifteen peers, written out in the order of the offsets. -/
theorem bigSep_offs (Φ : Fin 16 → sProp 𝕄) :
    bigSep offs Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_eq_bigSepL_of_eq _ offs_list (by decide)]
  simp only [bigSepL_cons_cons, bigSepL_singleton]
  rfl
omit [FloatOps F] in
/-- … and over all sixteen offsets. -/
theorem bigSep_all (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  simp only [bigSepL_cons_cons, bigSepL_singleton]
  rfl

/-- The fifteen payloads of the barrier cell's round, each read as the peer's tile: peer `d` paid duty `-d`. -/
theorem rest_bar :
    bigSep ((Rd (F := F) m).duties (barCell c) 0 \ ∅) (fun j => (Rd (F := F) m).payload (barCell c) 0 j)
      = iprop(peerPay (F := F) c 15 ∗ peerPay (F := F) c 14 ∗ peerPay (F := F) c 13 ∗ peerPay (F := F) c 12 ∗ peerPay (F := F) c 11 ∗ peerPay (F := F) c 10 ∗ peerPay (F := F) c 9 ∗ peerPay (F := F) c 8 ∗ peerPay (F := F) c 7 ∗ peerPay (F := F) c 6 ∗ peerPay (F := F) c 5 ∗ peerPay (F := F) c 4 ∗ peerPay (F := F) c 3 ∗ peerPay (F := F) c 2 ∗ peerPay (F := F) c 1) := by
  rw [Finset.sdiff_empty, duties_bar, bigSep_offs]
  simp only [payload_bar]
  rw [barPay_eq c 1 15 (by decide), barPay_eq c 2 14 (by decide), barPay_eq c 3 13 (by decide), barPay_eq c 4 12 (by decide), barPay_eq c 5 11 (by decide), barPay_eq c 6 10 (by decide), barPay_eq c 7 9 (by decide), barPay_eq c 8 8 (by decide), barPay_eq c 9 7 (by decide), barPay_eq c 10 6 (by decide), barPay_eq c 11 5 (by decide), barPay_eq c 12 4 (by decide), barPay_eq c 13 3 (by decide), barPay_eq c 14 2 (by decide), barPay_eq c 15 1 (by decide)]

/-- The wait for the fifteen units of the barrier cell, owing receive credits only. -/
theorem barwait_step (κ : ℕ)
    {α : Type} {Q : α → sProp 𝕄} {k : PUnit → Prog (TpuEff nD τ sig (Elt F) Λ₀ .tc) α}
    (W : Waits sig Unit)
    (hmw : (levAts L lv : sProp 𝕄) ⊢ MayWait (c : Thread nD τ) (.reg barS) () (oweR c 15)) :
    iprop(cellInv ER (Rd m) κ (barCell c) ∗ cred (tallyAt (barCell c) () 15) ∗ owes (c : Thread nD τ) (oweR c 15) W
        ∗ levAts L lv ∗ atPos ER (barCell c) 0 ∅ 0)
      ⊢ iprop(((owes (c : Thread nD τ) (oweR c 15) (insert (SemLoc.reg barS, ()) W)
              ∗ atPos ER (barCell c) (0 + 1) ∅ 0
              ∗ peerPay (F := F) c 15 ∗ peerPay (F := F) c 14 ∗ peerPay (F := F) c 13 ∗ peerPay (F := F) c 12 ∗ peerPay (F := F) c 11 ∗ peerPay (F := F) c 10 ∗ peerPay (F := F) c 9 ∗ peerPay (F := F) c 8 ∗ peerPay (F := F) c 7 ∗ peerPay (F := F) c 6 ∗ peerPay (F := F) c 5 ∗ peerPay (F := F) c 4 ∗ peerPay (F := F) c 3 ∗ peerPay (F := F) c 2 ∗ peerPay (F := F) c 1)
            -∗ wp frame (wpE (defs₀ (F := F)) 𝒱₀ c none) Set.univ (k ⟨⟩) Q)
          -∗ wp frame (wpE (defs₀ (F := F)) 𝒱₀ c none) Set.univ (.op (.semWait barS (15#32).toNat) k) Q) := by
  iintro ⟨#HI, Hc, HO, #Hlev, Hat⟩ Hk
  iapply (Rounds.wp_wait_rest_token 𝒱₀ ER (Rd m) (c : Thread nD τ) none (κ := κ)
      (wpE_semWait_eq 𝒱₀ (c : Thread nD τ) none Set.univ) (Set.mem_univ _) () (O := oweR c 15) (W := W) (R := 0) (m := 0) (T := ∅)
      (by rw [expect_bar]; decide)) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The copy of offset `d`: this device's tile 0, read under the share lent to this copy, into tile `d` of the peer `d` places
    on; it pays the peer's receive duty and this device's own send duty. -/
theorem copy_step (d : Fin 16) (hd : d ≠ 0) (dv : Dev nD) (hdv : dv = c + d) (κ₁ κ₂ : ℕ)
    (src : Memref sig .tc .vmem S8x128 .f32) (hs : src = tileM 0)
    (dst : Memref sig (Dev.tc dv : Thread nD τ).2.kind .vmem S8x128 .f32) (hdt : dst = tileM d)
    (sS sR : DmaSem sig) (hsS : sS = sendS d) (hsR : sR = recvS d)
    {hsc : dst.view.ref.isScScratch = false} {hsrc : src.view.WordExact} {hdst : dst.view.WordExact}
    {hsem : DmaTarget.Typed .vmem (.dma sR) (.remote (Dev.tc dv : Thread nD τ) dst (.dma sS) hsc)}
    {α : Type} {Q : α → sProp 𝕄} {k : PUnit → Prog (TpuEff nD τ sig (Elt F) Λ₀ .tc) α}
    {O₀ : CellTallies nD τ sig Unit} (O : CellTallies nD τ sig Unit) (hO : O₀ = O + tallyAt (recvCell (c + d) d) () N) (W : Waits sig Unit)
    (fd : Buf (Elt F) ((tileM d : Memref sig .tc .vmem S8x128 .f32).view.loc ((c + d : Dev nD) : Thread nD τ)))
    (hland : ((tileM d : Memref sig .tc .vmem S8x128 .f32).view.loc ((c + d : Dev nD) : Thread nD τ)
        ↦[(tileM d : Memref sig .tc .vmem S8x128 .f32).view.set]{fullShare}
          ((tileM d : Memref sig .tc .vmem S8x128 .f32).view.write (Elt F) fd ((tileM 0 : Memref sig .tc .vmem S8x128 .f32).view.read (Elt F) (comm m c)) Finset.univ) : sProp 𝕄)
      ⊢ tilePts (c + d) d fullShare (comm m (c + d))) :
    iprop(cellInv ER (Rd m) κ₁ (sendCell c d) ∗ cellInv ER (Rd m) κ₂ (recvCell (c + d) d)
        ∗ tilePts c 0 (lent d) (comm m c) ∗ tilePts (c + d) d fullShare fd
        ∗ owes (c : Thread nD τ) O₀ W
        ∗ dutyTok ER (sendCell c d) 0 (0 : Fin 16) ∗ reached ER (sendCell c d) 0
        ∗ dutyTok ER (recvCell (c + d) d) 0 (0 : Fin 16) ∗ reached ER (recvCell (c + d) d) 0)
      ⊢ iprop(((cred (tallyAt (sendCell c d) () N) ∗ owes (c : Thread nD τ) O W) -∗ wp frame (wpE (defs₀ (F := F)) 𝒱₀ c none) Set.univ (k ⟨⟩) Q)
          -∗ wp frame (wpE (defs₀ (F := F)) 𝒱₀ c none) Set.univ
              (.op (.enqueueDma src (.remote (Dev.tc dv : Thread nD τ) dst (.dma sS) hsc) (.dma sR) hsrc hdst hsem) k) Q) := by
  subst hdv; subst hs; subst hdt; subst hsS; subst hsR
  unfold tilePts
  exact Rounds.wp_send_pointsTo 𝒱₀ ER (Rd m) (c : Thread nD τ) none (c' := ((c + d : Dev nD) : Thread nD τ))
    (src := (tileM 0 : Memref sig .tc .vmem S8x128 .f32)) (dst := (tileM d : Memref sig .tc .vmem S8x128 .f32))
    (q := lent d) (fs := comm m c) (fd := fd) (κ₁ := κ₁) (κ₂ := κ₂)
    (r₁ := 0) (r₂ := 0) (d₁ := (0 : Fin 16)) (d₂ := (0 : Fin 16))
    (by rw [duties_send m c d hd]; exact Finset.mem_singleton_self _) (by rw [duties_recv m (c + d) d hd]; exact Finset.mem_singleton_self _)
    () () N rfl (amount_send m c d 0) (amount_recv m (c + d) d 0) O hO (W := W)
    (by rw [payload_send]; exact BI.Entails.refl _)
    (by rw [payload_recv]; exact hland)

end Rules2
end Step

namespace Step
section Mem
variable (c : Dev nD)

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem read_g (f : (cc0_stg1_0 : Ref sig .tc).ty.Contents (Elt F)) :
    (gM : Memref sig .tc .vmem S256 .f32).view.readAt (Elt F) (Rect.unit (s := S256) ![0] S256.size inb_S256_S256_0).toLoadRect f = f :=
  Memref.readAt_unit_zero (Elt F) cc0_stg1_0 hz1 _ f
omit [FloatOps F] in
theorem read_b (f : (cc0_stg2_0 : Ref sig .tc).ty.Contents (Elt F)) :
    (bM : Memref sig .tc .vmem S256 .f32).view.readAt (Elt F) (Rect.unit (s := S256) ![0] S256.size inb_S256_S256_0).toLoadRect f = f :=
  Memref.readAt_unit_zero (Elt F) cc0_stg2_0 hz1 _ f
omit [FloatOps F] in
theorem write_out (f w : (cc0_stg3_0 : Ref sig .tc).ty.Contents (Elt F)) :
    ((oM : Memref sig .tc .vmem S512x256 .f32).access (Rect.unit (s := S512x256) ![0, 0] S512x256.size inb_S512x256_S512x256_0_0) : View sig .tc _ _ _).write (Elt F) f w Finset.univ = w :=
  Memref.write_access_unit_zero_univ (Elt F) cc0_stg3_0 hz2 _ f w

/-- A load under a rectangle inside tile `d`, the tile held under any share. -/
theorem tile_load (d : Fin 16) (q : PosShare TreeShare) (f : Buf (Elt F) ((c : Thread nD τ).loc cc0_scratch0))
    {r : LoadRect S16x8x128} {hl : (scrM : Memref sig .tc .vmem S16x8x128 .f32).view.LoadsAt r}
    (hS : (scrM : Memref sig .tc .vmem S16x8x128 .f32).view.setOn r.set ⊆ (tileM d : Memref sig .tc .vmem S8x128 .f32).view.set)
    {α : Type} {Q : α → sProp 𝕄} {k : (r.shape.Idx → Elt F .f32) → Prog (TpuEff nD τ sig (Elt F) Λ₀ .tc) α} :
    (tilePts c d q f : sProp 𝕄)
      ⊢ iprop((tilePts c d q f -∗ wp frame (wpE (defs₀ (F := F)) 𝒱₀ c none) Set.univ (k ((scrM : Memref sig .tc .vmem S16x8x128 .f32).view.readAt (Elt F) r f)) Q)
        -∗ wp frame (wpE (defs₀ (F := F)) 𝒱₀ c none) Set.univ (.op (.load (scrM : Memref sig .tc .vmem S16x8x128 .f32) r hl) k) Q) := by
  unfold tilePts
  exact wp_load 𝒱₀ (c : Thread nD τ) none Set.univ hS

/-- A store under a rectangle inside tile 0, the tile held whole. -/
theorem tile0_store (f : Buf (Elt F) ((c : Thread nD τ).loc cc0_scratch0))
    {r : Rect S16x8x128} {w : r.shape.Idx → Elt F .f32}
    {hx : ((scrM : Memref sig .tc .vmem S16x8x128 .f32).access r).Stores Finset.univ} {hm : (Finset.univ : Finset r.shape.Idx) = Finset.univ ∨ ∀ a, r.stride a = 1}
    (hS : ((scrM : Memref sig .tc .vmem S16x8x128 .f32).access r).setOn Finset.univ ⊆ (tileM 0 : Memref sig .tc .vmem S8x128 .f32).view.set)
    {α : Type} {Q : α → sProp 𝕄} {k : PUnit → Prog (TpuEff nD τ sig (Elt F) Λ₀ .tc) α} :
    (tilePts c 0 fullShare f : sProp 𝕄)
      ⊢ iprop((tilePts c 0 fullShare (((scrM : Memref sig .tc .vmem S16x8x128 .f32).access r).write (Elt F) f w Finset.univ)
            -∗ wp frame (wpE (defs₀ (F := F)) 𝒱₀ c none) Set.univ (k ⟨⟩) Q)
        -∗ wp frame (wpE (defs₀ (F := F)) 𝒱₀ c none) Set.univ (.op (.store (scrM : Memref sig .tc .vmem S16x8x128 .f32) r w Finset.univ hx hm) k) Q) := by
  have key := wp_store (defs := defs₀ (F := F)) (Γ := PendingWaitsCtx.empty) 𝒱₀ (c : Thread nD τ) none Set.univ
    (m := (scrM : Memref sig .tc .vmem S16x8x128 .f32)) (r := r) (w := w) (Mk := Finset.univ)
    (hx := hx) (hm := hm) (k := k) (Q := Q) (S := (tileM 0 : Memref sig .tc .vmem S8x128 .f32).view.set) (f := f) hS
  unfold tilePts
  exact key

omit [FloatOps F] in
theorem load_sub_r0 :
    (scrM : Memref sig .tc .vmem S16x8x128 .f32).view.setOn (Rect.unit (s := S16x8x128) ![0, 0, 0] S1x4x128.size inb_S16x8x128_S1x4x128_0_0_0).toLoadRect.set
      ⊆ (tileM 0 : Memref sig .tc .vmem S8x128 .f32).view.set := by
  intro i hi
  unfold View.setOn at hi
  obtain ⟨j, hj, rfl⟩ := Finset.mem_map.mp hi
  exact store_sub_r0 (by rw [View.setOn_univ, show ((scrM : Memref sig .tc .vmem S16x8x128 .f32).access (Rect.unit (s := S16x8x128) ![0, 0, 0] S1x4x128.size inb_S16x8x128_S1x4x128_0_0_0)).set = _ from View.set_slice_whole _ _]; exact hj)
omit [FloatOps F] in
theorem load_sub_r4 :
    (scrM : Memref sig .tc .vmem S16x8x128 .f32).view.setOn (Rect.unit (s := S16x8x128) ![0, 4, 0] S1x4x128.size inb_S16x8x128_S1x4x128_0_4_0).toLoadRect.set
      ⊆ (tileM 0 : Memref sig .tc .vmem S8x128 .f32).view.set := by
  intro i hi
  unfold View.setOn at hi
  obtain ⟨j, hj, rfl⟩ := Finset.mem_map.mp hi
  exact store_sub_r4 (by rw [View.setOn_univ, show ((scrM : Memref sig .tc .vmem S16x8x128 .f32).access (Rect.unit (s := S16x8x128) ![0, 4, 0] S1x4x128.size inb_S16x8x128_S1x4x128_0_4_0)).set = _ from View.set_slice_whole _ _]; exact hj)

omit [FloatOps F] in
theorem load_sub_0 :
    (scrM : Memref sig .tc .vmem S16x8x128 .f32).view.setOn (Rect.unit (s := S16x8x128) ![0, 0, 0] S1x8x128.size inb_S16x8x128_S1x8x128_0_0_0).toLoadRect.set
      ⊆ (tileM 0 : Memref sig .tc .vmem S8x128 .f32).view.set := load_sub 0 _
theorem load_tile_0 :
    (scrM : Memref sig .tc .vmem S16x8x128 .f32).view.readAt (Elt F) (Rect.unit (s := S16x8x128) ![0, 0, 0] S1x8x128.size inb_S16x8x128_S1x8x128_0_0_0).toLoadRect (comm m c)
      = tile m c 0 := load_tile m c 0 _
omit [FloatOps F] in
theorem load_sub_1 :
    (scrM : Memref sig .tc .vmem S16x8x128 .f32).view.setOn (Rect.unit (s := S16x8x128) ![1, 0, 0] S1x8x128.size inb_S16x8x128_S1x8x128_1_0_0).toLoadRect.set
      ⊆ (tileM 1 : Memref sig .tc .vmem S8x128 .f32).view.set := load_sub 1 _
theorem load_tile_1 :
    (scrM : Memref sig .tc .vmem S16x8x128 .f32).view.readAt (Elt F) (Rect.unit (s := S16x8x128) ![1, 0, 0] S1x8x128.size inb_S16x8x128_S1x8x128_1_0_0).toLoadRect (comm m c)
      = tile m c 1 := load_tile m c 1 _
omit [FloatOps F] in
theorem load_sub_2 :
    (scrM : Memref sig .tc .vmem S16x8x128 .f32).view.setOn (Rect.unit (s := S16x8x128) ![2, 0, 0] S1x8x128.size inb_S16x8x128_S1x8x128_2_0_0).toLoadRect.set
      ⊆ (tileM 2 : Memref sig .tc .vmem S8x128 .f32).view.set := load_sub 2 _
theorem load_tile_2 :
    (scrM : Memref sig .tc .vmem S16x8x128 .f32).view.readAt (Elt F) (Rect.unit (s := S16x8x128) ![2, 0, 0] S1x8x128.size inb_S16x8x128_S1x8x128_2_0_0).toLoadRect (comm m c)
      = tile m c 2 := load_tile m c 2 _
omit [FloatOps F] in
theorem load_sub_3 :
    (scrM : Memref sig .tc .vmem S16x8x128 .f32).view.setOn (Rect.unit (s := S16x8x128) ![3, 0, 0] S1x8x128.size inb_S16x8x128_S1x8x128_3_0_0).toLoadRect.set
      ⊆ (tileM 3 : Memref sig .tc .vmem S8x128 .f32).view.set := load_sub 3 _
theorem load_tile_3 :
    (scrM : Memref sig .tc .vmem S16x8x128 .f32).view.readAt (Elt F) (Rect.unit (s := S16x8x128) ![3, 0, 0] S1x8x128.size inb_S16x8x128_S1x8x128_3_0_0).toLoadRect (comm m c)
      = tile m c 3 := load_tile m c 3 _
omit [FloatOps F] in
theorem load_sub_4 :
    (scrM : Memref sig .tc .vmem S16x8x128 .f32).view.setOn (Rect.unit (s := S16x8x128) ![4, 0, 0] S1x8x128.size inb_S16x8x128_S1x8x128_4_0_0).toLoadRect.set
      ⊆ (tileM 4 : Memref sig .tc .vmem S8x128 .f32).view.set := load_sub 4 _
theorem load_tile_4 :
    (scrM : Memref sig .tc .vmem S16x8x128 .f32).view.readAt (Elt F) (Rect.unit (s := S16x8x128) ![4, 0, 0] S1x8x128.size inb_S16x8x128_S1x8x128_4_0_0).toLoadRect (comm m c)
      = tile m c 4 := load_tile m c 4 _
omit [FloatOps F] in
theorem load_sub_5 :
    (scrM : Memref sig .tc .vmem S16x8x128 .f32).view.setOn (Rect.unit (s := S16x8x128) ![5, 0, 0] S1x8x128.size inb_S16x8x128_S1x8x128_5_0_0).toLoadRect.set
      ⊆ (tileM 5 : Memref sig .tc .vmem S8x128 .f32).view.set := load_sub 5 _
theorem load_tile_5 :
    (scrM : Memref sig .tc .vmem S16x8x128 .f32).view.readAt (Elt F) (Rect.unit (s := S16x8x128) ![5, 0, 0] S1x8x128.size inb_S16x8x128_S1x8x128_5_0_0).toLoadRect (comm m c)
      = tile m c 5 := load_tile m c 5 _
omit [FloatOps F] in
theorem load_sub_6 :
    (scrM : Memref sig .tc .vmem S16x8x128 .f32).view.setOn (Rect.unit (s := S16x8x128) ![6, 0, 0] S1x8x128.size inb_S16x8x128_S1x8x128_6_0_0).toLoadRect.set
      ⊆ (tileM 6 : Memref sig .tc .vmem S8x128 .f32).view.set := load_sub 6 _
theorem load_tile_6 :
    (scrM : Memref sig .tc .vmem S16x8x128 .f32).view.readAt (Elt F) (Rect.unit (s := S16x8x128) ![6, 0, 0] S1x8x128.size inb_S16x8x128_S1x8x128_6_0_0).toLoadRect (comm m c)
      = tile m c 6 := load_tile m c 6 _
omit [FloatOps F] in
theorem load_sub_7 :
    (scrM : Memref sig .tc .vmem S16x8x128 .f32).view.setOn (Rect.unit (s := S16x8x128) ![7, 0, 0] S1x8x128.size inb_S16x8x128_S1x8x128_7_0_0).toLoadRect.set
      ⊆ (tileM 7 : Memref sig .tc .vmem S8x128 .f32).view.set := load_sub 7 _
theorem load_tile_7 :
    (scrM : Memref sig .tc .vmem S16x8x128 .f32).view.readAt (Elt F) (Rect.unit (s := S16x8x128) ![7, 0, 0] S1x8x128.size inb_S16x8x128_S1x8x128_7_0_0).toLoadRect (comm m c)
      = tile m c 7 := load_tile m c 7 _
omit [FloatOps F] in
theorem load_sub_8 :
    (scrM : Memref sig .tc .vmem S16x8x128 .f32).view.setOn (Rect.unit (s := S16x8x128) ![8, 0, 0] S1x8x128.size inb_S16x8x128_S1x8x128_8_0_0).toLoadRect.set
      ⊆ (tileM 8 : Memref sig .tc .vmem S8x128 .f32).view.set := load_sub 8 _
theorem load_tile_8 :
    (scrM : Memref sig .tc .vmem S16x8x128 .f32).view.readAt (Elt F) (Rect.unit (s := S16x8x128) ![8, 0, 0] S1x8x128.size inb_S16x8x128_S1x8x128_8_0_0).toLoadRect (comm m c)
      = tile m c 8 := load_tile m c 8 _
omit [FloatOps F] in
theorem load_sub_9 :
    (scrM : Memref sig .tc .vmem S16x8x128 .f32).view.setOn (Rect.unit (s := S16x8x128) ![9, 0, 0] S1x8x128.size inb_S16x8x128_S1x8x128_9_0_0).toLoadRect.set
      ⊆ (tileM 9 : Memref sig .tc .vmem S8x128 .f32).view.set := load_sub 9 _
theorem load_tile_9 :
    (scrM : Memref sig .tc .vmem S16x8x128 .f32).view.readAt (Elt F) (Rect.unit (s := S16x8x128) ![9, 0, 0] S1x8x128.size inb_S16x8x128_S1x8x128_9_0_0).toLoadRect (comm m c)
      = tile m c 9 := load_tile m c 9 _
omit [FloatOps F] in
theorem load_sub_10 :
    (scrM : Memref sig .tc .vmem S16x8x128 .f32).view.setOn (Rect.unit (s := S16x8x128) ![10, 0, 0] S1x8x128.size inb_S16x8x128_S1x8x128_10_0_0).toLoadRect.set
      ⊆ (tileM 10 : Memref sig .tc .vmem S8x128 .f32).view.set := load_sub 10 _
theorem load_tile_10 :
    (scrM : Memref sig .tc .vmem S16x8x128 .f32).view.readAt (Elt F) (Rect.unit (s := S16x8x128) ![10, 0, 0] S1x8x128.size inb_S16x8x128_S1x8x128_10_0_0).toLoadRect (comm m c)
      = tile m c 10 := load_tile m c 10 _
omit [FloatOps F] in
theorem load_sub_11 :
    (scrM : Memref sig .tc .vmem S16x8x128 .f32).view.setOn (Rect.unit (s := S16x8x128) ![11, 0, 0] S1x8x128.size inb_S16x8x128_S1x8x128_11_0_0).toLoadRect.set
      ⊆ (tileM 11 : Memref sig .tc .vmem S8x128 .f32).view.set := load_sub 11 _
theorem load_tile_11 :
    (scrM : Memref sig .tc .vmem S16x8x128 .f32).view.readAt (Elt F) (Rect.unit (s := S16x8x128) ![11, 0, 0] S1x8x128.size inb_S16x8x128_S1x8x128_11_0_0).toLoadRect (comm m c)
      = tile m c 11 := load_tile m c 11 _
omit [FloatOps F] in
theorem load_sub_12 :
    (scrM : Memref sig .tc .vmem S16x8x128 .f32).view.setOn (Rect.unit (s := S16x8x128) ![12, 0, 0] S1x8x128.size inb_S16x8x128_S1x8x128_12_0_0).toLoadRect.set
      ⊆ (tileM 12 : Memref sig .tc .vmem S8x128 .f32).view.set := load_sub 12 _
theorem load_tile_12 :
    (scrM : Memref sig .tc .vmem S16x8x128 .f32).view.readAt (Elt F) (Rect.unit (s := S16x8x128) ![12, 0, 0] S1x8x128.size inb_S16x8x128_S1x8x128_12_0_0).toLoadRect (comm m c)
      = tile m c 12 := load_tile m c 12 _
omit [FloatOps F] in
theorem load_sub_13 :
    (scrM : Memref sig .tc .vmem S16x8x128 .f32).view.setOn (Rect.unit (s := S16x8x128) ![13, 0, 0] S1x8x128.size inb_S16x8x128_S1x8x128_13_0_0).toLoadRect.set
      ⊆ (tileM 13 : Memref sig .tc .vmem S8x128 .f32).view.set := load_sub 13 _
theorem load_tile_13 :
    (scrM : Memref sig .tc .vmem S16x8x128 .f32).view.readAt (Elt F) (Rect.unit (s := S16x8x128) ![13, 0, 0] S1x8x128.size inb_S16x8x128_S1x8x128_13_0_0).toLoadRect (comm m c)
      = tile m c 13 := load_tile m c 13 _
omit [FloatOps F] in
theorem load_sub_14 :
    (scrM : Memref sig .tc .vmem S16x8x128 .f32).view.setOn (Rect.unit (s := S16x8x128) ![14, 0, 0] S1x8x128.size inb_S16x8x128_S1x8x128_14_0_0).toLoadRect.set
      ⊆ (tileM 14 : Memref sig .tc .vmem S8x128 .f32).view.set := load_sub 14 _
theorem load_tile_14 :
    (scrM : Memref sig .tc .vmem S16x8x128 .f32).view.readAt (Elt F) (Rect.unit (s := S16x8x128) ![14, 0, 0] S1x8x128.size inb_S16x8x128_S1x8x128_14_0_0).toLoadRect (comm m c)
      = tile m c 14 := load_tile m c 14 _
omit [FloatOps F] in
theorem load_sub_15 :
    (scrM : Memref sig .tc .vmem S16x8x128 .f32).view.setOn (Rect.unit (s := S16x8x128) ![15, 0, 0] S1x8x128.size inb_S16x8x128_S1x8x128_15_0_0).toLoadRect.set
      ⊆ (tileM 15 : Memref sig .tc .vmem S8x128 .f32).view.set := load_sub 15 _
theorem load_tile_15 :
    (scrM : Memref sig .tc .vmem S16x8x128 .f32).view.readAt (Elt F) (Rect.unit (s := S16x8x128) ![15, 0, 0] S1x8x128.size inb_S16x8x128_S1x8x128_15_0_0).toLoadRect (comm m c)
      = tile m c 15 := load_tile m c 15 _

end Mem
end Step

namespace Step
section Recs
variable (K : Dev nD × Fin 33 → ℕ)

instance records_persistent : BI.Persistent (records (F := F) m K) := by unfold records; infer_instance

abbrev kS (d : Fin 16) : Fin 33 := ⟨1 + d.val, by have := d.isLt; omega⟩
abbrev kR (d : Fin 16) : Fin 33 := ⟨17 + d.val, by have := d.isLt; omega⟩

omit [FloatOps F] in
theorem kcell_bar (c' : Dev nD) : kcell (c', (0 : Fin 33)) = barCell c' := rfl
omit [FloatOps F] in
theorem kcell_send (c' : Dev nD) (d : Fin 16) : kcell (c', kS d) = sendCell c' d := by
  show ((c' : Thread nD τ), csem (kS d)) = ((c' : Thread nD τ), SemLoc.dma (sendS d))
  congr 1
  unfold csem
  rw [if_neg (by show ¬ (1 + d.val = 0); omega)]
  congr 1
  exact Fin.ext (by show 3 + (1 + d.val) = 4 + d.val; omega)
omit [FloatOps F] in
theorem kcell_recv (c' : Dev nD) (d : Fin 16) : kcell (c', kR d) = recvCell c' d := by
  show ((c' : Thread nD τ), csem (kR d)) = ((c' : Thread nD τ), SemLoc.dma (recvS d))
  congr 1
  unfold csem
  rw [if_neg (by show ¬ (17 + d.val = 0); omega)]
  congr 1
  exact Fin.ext (by show 3 + (17 + d.val) = 20 + d.val; omega)

theorem rec_inv (ck : Dev nD × Fin 33) : records (F := F) m K ⊢ cellInv ER (Rd m) (K ck) (kcell ck) := by
  unfold records
  have h : (bigSep Finset.univ fun ck : Dev nD × Fin 33 => cellInv ER (Rd (F := F) m) (K ck) (kcell ck)) ⊢ cellInv ER (Rd (F := F) m) (K ck) (kcell ck) :=
    bigSep_elim (Φ := fun ck : Dev nD × Fin 33 => cellInv ER (Rd (F := F) m) (K ck) (kcell ck)) (Finset.mem_univ ck)
  iintro ⟨H, -⟩
  iapply h; iexact H
theorem rec_reached (ck : Dev nD × Fin 33) : records (F := F) m K ⊢ reached ER (kcell ck) 0 := by
  unfold records
  have h : (bigSep Finset.univ fun ck : Dev nD × Fin 33 => (reached ER (kcell ck) 0 : sProp 𝕄)) ⊢ (reached ER (kcell ck) 0 : sProp 𝕄) :=
    bigSep_elim (Φ := fun ck : Dev nD × Fin 33 => (reached ER (kcell ck) 0 : sProp 𝕄)) (Finset.mem_univ ck)
  iintro ⟨-, H⟩
  iapply h; iexact H

theorem inv_bar (c' : Dev nD) : records (F := F) m K ⊢ cellInv ER (Rd m) (K (c', 0)) (barCell c') := rec_inv m K (c', 0)
theorem inv_send (c' : Dev nD) (d : Fin 16) : records (F := F) m K ⊢ cellInv ER (Rd m) (K (c', kS d)) (sendCell c' d) := by
  have h := rec_inv m K (c', kS d); rw [kcell_send] at h; exact h
theorem inv_recv (c' : Dev nD) (d : Fin 16) : records (F := F) m K ⊢ cellInv ER (Rd m) (K (c', kR d)) (recvCell c' d) := by
  have h := rec_inv m K (c', kR d); rw [kcell_recv] at h; exact h
theorem rch_bar (c' : Dev nD) : records (F := F) m K ⊢ reached ER (barCell c') 0 := rec_reached m K (c', 0)
theorem rch_send (c' : Dev nD) (d : Fin 16) : records (F := F) m K ⊢ reached ER (sendCell c' d) 0 := by
  have h := rec_reached m K (c', kS d); rw [kcell_send] at h; exact h
theorem rch_recv (c' : Dev nD) (d : Fin 16) : records (F := F) m K ⊢ reached ER (recvCell c' d) 0 := by
  have h := rec_reached m K (c', kR d); rw [kcell_recv] at h; exact h

end Recs
end Step

end Cert.Kernel.Hand
end
-- ==== Proof.HandKernel.Body.lean ====
/-
  The body of one device, stepped from the exchange's invariant.

  In program order a device signals its fifteen peers (handing each the tile of its communication buffer that peer will
  fill), forms its row sums and sums of squares and stores them into tile 0, waits for the fifteen peers' units (receiving
  from each the tile it is to fill), copies tile 0 into that tile of every peer under fifteen read shares, loads γ, β and
  its own tile, waits for each arrival and loads the arrived tile, stores the result block, and waits for the fifteen
  departures, which bring the read shares back. The thirty-two semaphores end at zero and closed, the communication buffer
  whole at the exchanged contents, and the result block is the closed expression of the device's blocks and the sixteen tiles.
-/
import proofs.«900827_g7700000000000828_dist_layernorm_colshard_i_m512_n256_v7x_i16_f32_1_alg».proof.Proof.HandKernel.Proto
import proofs.«900827_g7700000000000828_dist_layernorm_colshard_i_m512_n256_v7x_i16_f32_1_alg».proof.Proof.HandKernel.Tables
import proofs.«900827_g7700000000000828_dist_layernorm_colshard_i_m512_n256_v7x_i16_f32_1_alg».proof.Proof.HandKernel.Slots
import proofs.«900827_g7700000000000828_dist_layernorm_colshard_i_m512_n256_v7x_i16_f32_1_alg».proof.Proof.HandKernel.Levels
import proofs.«900827_g7700000000000828_dist_layernorm_colshard_i_m512_n256_v7x_i16_f32_1_alg».proof.Proof.HandKernel.Steps2
import proofs.«900827_g7700000000000828_dist_layernorm_colshard_i_m512_n256_v7x_i16_f32_1_alg».proof.Proof.HandKernel.Steps1
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body

variable (K : Dev nD × Fin 33 → ℕ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ credits c ∗ levAts L lv ∗ ∃ f, scrPts c f)
    ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ
    ∗ stg c cc0_stg0_0 (xS m c) ∗ stg c cc0_stg1_0 (gS m c) ∗ stg c cc0_stg2_0 (bS m c) ∗ stg c cc0_stg3_0 (outAt m c))

set_option maxHeartbeats 1600000 in
set_option maxRecDepth 65536 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost linear positions credits
  iintro ⟨⟨⟨⟨#Hrec, ⟨HatB, Hpos⟩, Htoks⟩, ⟨HcB, HcR⟩, #Hlev, ⟨%f0, Hscr⟩⟩,
    Ho, ⟨%d0, %g0, %hg0, Hx⟩, ⟨%d1, %g1, %hg1, Hg⟩, ⟨%d2, %g2, %hg2, Hb⟩, ⟨%d3, %g3, %hg3, Hout⟩⟩, Hk⟩
  have hx : g0 = xS m c := by rw [hg0]; unfold Dat.before; rw [if_pos (fetch0_0 t0_0)]; rfl
  have hg : g1 = gS m c := by rw [hg1]; unfold Dat.before; rw [if_pos (fetch0_1 t0_0)]; rfl
  have hb : g2 = bS m c := by rw [hg2]; unfold Dat.before; rw [if_pos (fetch0_2 t0_0)]; rfl
  subst hx; subst hg; subst hb
  unfold Dat.owesAt Pipeline.owesWithin
  icases Ho with ⟨%W, %hW, HO⟩
  rw [show (dats m 0 c).owed t0_0.castSucc = oweB c 15 from rfl]
  -- the fifteen-fold resources, written out
  ihave Hpos' := (Entails.of_eq (bigSep_fin16 _)) $$ Hpos
  icases Hpos' with ⟨⟨HaS0, HaR0⟩, ⟨HaS1, HaR1⟩, ⟨HaS2, HaR2⟩, ⟨HaS3, HaR3⟩, ⟨HaS4, HaR4⟩, ⟨HaS5, HaR5⟩, ⟨HaS6, HaR6⟩, ⟨HaS7, HaR7⟩, ⟨HaS8, HaR8⟩, ⟨HaS9, HaR9⟩, ⟨HaS10, HaR10⟩, ⟨HaS11, HaR11⟩, ⟨HaS12, HaR12⟩, ⟨HaS13, HaR13⟩, ⟨HaS14, HaR14⟩, ⟨HaS15, HaR15⟩⟩
  ihave Htoks' := (Entails.of_eq (bigSep_offs _)) $$ Htoks
  unfold payToks
  icases Htoks' with ⟨⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩, ⟨HtB7, HtR7, HtS7⟩, ⟨HtB8, HtR8, HtS8⟩, ⟨HtB9, HtR9, HtS9⟩, ⟨HtB10, HtR10, HtS10⟩, ⟨HtB11, HtR11, HtS11⟩, ⟨HtB12, HtR12, HtS12⟩, ⟨HtB13, HtR13, HtS13⟩, ⟨HtB14, HtR14, HtS14⟩, ⟨HtB15, HtR15, HtS15⟩⟩
  ihave HcR' := (Entails.of_eq (bigSep_offs _)) $$ HcR
  icases HcR' with ⟨HcR1, HcR2, HcR3, HcR4, HcR5, HcR6, HcR7, HcR8, HcR9, HcR10, HcR11, HcR12, HcR13, HcR14, HcR15⟩
  ihave Htl := (scr_tiles c f0).1 $$ Hscr
  ihave Htl' := (Entails.of_eq (bigSep_fin16 _)) $$ Htl
  icases Htl' with ⟨Ht0, Ht1, Ht2, Ht3, Ht4, Ht5, Ht6, Ht7, Ht8, Ht9, Ht10, Ht11, Ht12, Ht13, Ht14, Ht15⟩
  -- the signal of offset 1
  ihave #HIb1 := (Step.inv_bar m K (c + (1 : Fin 16))) $$ Hrec
  ihave #Hrb1 := (Step.rch_bar m K (c + (1 : Fin 16))) $$ Hrec
  ihave #HrR15 := (Step.rch_recv m K c 15) $$ Hrec
  iapply (Step.sig_step m c 1 (by decide) 15 (by decide) _ (dev_sig_1 c) _ (oweB c 14) (owe_sig_1 c) W) $$ [HO HtB1 Ht15]
  · isplitr; · iexact HIb1
    isplitl [HO]; · iexact HO
    isplitl [HtB1]; · iexact HtB1
    isplitl [Ht15]
    · isplitl [Ht15]; · iexists _; iexact Ht15
      iexact HrR15
    iexact Hrb1
  iintro HO
  -- the signal of offset 2
  ihave #HIb2 := (Step.inv_bar m K (c + (2 : Fin 16))) $$ Hrec
  ihave #Hrb2 := (Step.rch_bar m K (c + (2 : Fin 16))) $$ Hrec
  ihave #HrR14 := (Step.rch_recv m K c 14) $$ Hrec
  iapply (Step.sig_step m c 2 (by decide) 14 (by decide) _ (dev_sig_2 c) _ (oweB c 13) (owe_sig_2 c) W) $$ [HO HtB2 Ht14]
  · isplitr; · iexact HIb2
    isplitl [HO]; · iexact HO
    isplitl [HtB2]; · iexact HtB2
    isplitl [Ht14]
    · isplitl [Ht14]; · iexists _; iexact Ht14
      iexact HrR14
    iexact Hrb2
  iintro HO
  simp only [k0_part2_eq_skeleton]; unfold k0_part2_skel
  simp only [semSignalWord, semWaitWord, Prog.lift, Prog.bind_op, Prog.bind_ret, Prog.pure_eq_ret]
  -- the signal of offset 3
  ihave #HIb3 := (Step.inv_bar m K (c + (3 : Fin 16))) $$ Hrec
  ihave #Hrb3 := (Step.rch_bar m K (c + (3 : Fin 16))) $$ Hrec
  ihave #HrR13 := (Step.rch_recv m K c 13) $$ Hrec
  iapply (Step.sig_step m c 3 (by decide) 13 (by decide) _ (dev_sig_3 c) _ (oweB c 12) (owe_sig_3 c) W) $$ [HO HtB3 Ht13]
  · isplitr; · iexact HIb3
    isplitl [HO]; · iexact HO
    isplitl [HtB3]; · iexact HtB3
    isplitl [Ht13]
    · isplitl [Ht13]; · iexists _; iexact Ht13
      iexact HrR13
    iexact Hrb3
  iintro HO
  -- the signal of offset 4
  ihave #HIb4 := (Step.inv_bar m K (c + (4 : Fin 16))) $$ Hrec
  ihave #Hrb4 := (Step.rch_bar m K (c + (4 : Fin 16))) $$ Hrec
  ihave #HrR12 := (Step.rch_recv m K c 12) $$ Hrec
  iapply (Step.sig_step m c 4 (by decide) 12 (by decide) _ (dev_sig_4 c) _ (oweB c 11) (owe_sig_4 c) W) $$ [HO HtB4 Ht12]
  · isplitr; · iexact HIb4
    isplitl [HO]; · iexact HO
    isplitl [HtB4]; · iexact HtB4
    isplitl [Ht12]
    · isplitl [Ht12]; · iexists _; iexact Ht12
      iexact HrR12
    iexact Hrb4
  iintro HO
  simp only [k0_part3_eq_skeleton]; unfold k0_part3_skel
  simp only [semSignalWord, semWaitWord, Prog.lift, Prog.bind_op, Prog.bind_ret, Prog.pure_eq_ret]
  -- the signal of offset 5
  ihave #HIb5 := (Step.inv_bar m K (c + (5 : Fin 16))) $$ Hrec
  ihave #Hrb5 := (Step.rch_bar m K (c + (5 : Fin 16))) $$ Hrec
  ihave #HrR11 := (Step.rch_recv m K c 11) $$ Hrec
  iapply (Step.sig_step m c 5 (by decide) 11 (by decide) _ (dev_sig_5 c) _ (oweB c 10) (owe_sig_5 c) W) $$ [HO HtB5 Ht11]
  · isplitr; · iexact HIb5
    isplitl [HO]; · iexact HO
    isplitl [HtB5]; · iexact HtB5
    isplitl [Ht11]
    · isplitl [Ht11]; · iexists _; iexact Ht11
      iexact HrR11
    iexact Hrb5
  iintro HO
  -- the signal of offset 6
  ihave #HIb6 := (Step.inv_bar m K (c + (6 : Fin 16))) $$ Hrec
  ihave #Hrb6 := (Step.rch_bar m K (c + (6 : Fin 16))) $$ Hrec
  ihave #HrR10 := (Step.rch_recv m K c 10) $$ Hrec
  iapply (Step.sig_step m c 6 (by decide) 10 (by decide) _ (dev_sig_6 c) _ (oweB c 9) (owe_sig_6 c) W) $$ [HO HtB6 Ht10]
  · isplitr; · iexact HIb6
    isplitl [HO]; · iexact HO
    isplitl [HtB6]; · iexact HtB6
    isplitl [Ht10]
    · isplitl [Ht10]; · iexists _; iexact Ht10
      iexact HrR10
    iexact Hrb6
  iintro HO
  -- the signal of offset 7
  ihave #HIb7 := (Step.inv_bar m K (c + (7 : Fin 16))) $$ Hrec
  ihave #Hrb7 := (Step.rch_bar m K (c + (7 : Fin 16))) $$ Hrec
  ihave #HrR9 := (Step.rch_recv m K c 9) $$ Hrec
  iapply (Step.sig_step m c 7 (by decide) 9 (by decide) _ (dev_sig_7 c) _ (oweB c 8) (owe_sig_7 c) W) $$ [HO HtB7 Ht9]
  · isplitr; · iexact HIb7
    isplitl [HO]; · iexact HO
    isplitl [HtB7]; · iexact HtB7
    isplitl [Ht9]
    · isplitl [Ht9]; · iexists _; iexact Ht9
      iexact HrR9
    iexact Hrb7
  iintro HO
  simp only [k0_part4_eq_skeleton]; unfold k0_part4_skel
  simp only [semSignalWord, semWaitWord, Prog.lift, Prog.bind_op, Prog.bind_ret, Prog.pure_eq_ret]
  -- the signal of offset 8
  ihave #HIb8 := (Step.inv_bar m K (c + (8 : Fin 16))) $$ Hrec
  ihave #Hrb8 := (Step.rch_bar m K (c + (8 : Fin 16))) $$ Hrec
  ihave #HrR8 := (Step.rch_recv m K c 8) $$ Hrec
  iapply (Step.sig_step m c 8 (by decide) 8 (by decide) _ (dev_sig_8 c) _ (oweB c 7) (owe_sig_8 c) W) $$ [HO HtB8 Ht8]
  · isplitr; · iexact HIb8
    isplitl [HO]; · iexact HO
    isplitl [HtB8]; · iexact HtB8
    isplitl [Ht8]
    · isplitl [Ht8]; · iexists _; iexact Ht8
      iexact HrR8
    iexact Hrb8
  iintro HO
  -- the signal of offset 9
  ihave #HIb9 := (Step.inv_bar m K (c + (9 : Fin 16))) $$ Hrec
  ihave #Hrb9 := (Step.rch_bar m K (c + (9 : Fin 16))) $$ Hrec
  ihave #HrR7 := (Step.rch_recv m K c 7) $$ Hrec
  iapply (Step.sig_step m c 9 (by decide) 7 (by decide) _ (dev_sig_9 c) _ (oweB c 6) (owe_sig_9 c) W) $$ [HO HtB9 Ht7]
  · isplitr; · iexact HIb9
    isplitl [HO]; · iexact HO
    isplitl [HtB9]; · iexact HtB9
    isplitl [Ht7]
    · isplitl [Ht7]; · iexists _; iexact Ht7
      iexact HrR7
    iexact Hrb9
  iintro HO
  simp only [k0_part5_eq_skeleton]; unfold k0_part5_skel
  simp only [semSignalWord, semWaitWord, Prog.lift, Prog.bind_op, Prog.bind_ret, Prog.pure_eq_ret]
  -- the signal of offset 10
  ihave #HIb10 := (Step.inv_bar m K (c + (10 : Fin 16))) $$ Hrec
  ihave #Hrb10 := (Step.rch_bar m K (c + (10 : Fin 16))) $$ Hrec
  ihave #HrR6 := (Step.rch_recv m K c 6) $$ Hrec
  iapply (Step.sig_step m c 10 (by decide) 6 (by decide) _ (dev_sig_10 c) _ (oweB c 5) (owe_sig_10 c) W) $$ [HO HtB10 Ht6]
  · isplitr; · iexact HIb10
    isplitl [HO]; · iexact HO
    isplitl [HtB10]; · iexact HtB10
    isplitl [Ht6]
    · isplitl [Ht6]; · iexists _; iexact Ht6
      iexact HrR6
    iexact Hrb10
  iintro HO
  -- the signal of offset 11
  ihave #HIb11 := (Step.inv_bar m K (c + (11 : Fin 16))) $$ Hrec
  ihave #Hrb11 := (Step.rch_bar m K (c + (11 : Fin 16))) $$ Hrec
  ihave #HrR5 := (Step.rch_recv m K c 5) $$ Hrec
  iapply (Step.sig_step m c 11 (by decide) 5 (by decide) _ (dev_sig_11 c) _ (oweB c 4) (owe_sig_11 c) W) $$ [HO HtB11 Ht5]
  · isplitr; · iexact HIb11
    isplitl [HO]; · iexact HO
    isplitl [HtB11]; · iexact HtB11
    isplitl [Ht5]
    · isplitl [Ht5]; · iexists _; iexact Ht5
      iexact HrR5
    iexact Hrb11
  iintro HO
  -- the signal of offset 12
  ihave #HIb12 := (Step.inv_bar m K (c + (12 : Fin 16))) $$ Hrec
  ihave #Hrb12 := (Step.rch_bar m K (c + (12 : Fin 16))) $$ Hrec
  ihave #HrR4 := (Step.rch_recv m K c 4) $$ Hrec
  iapply (Step.sig_step m c 12 (by decide) 4 (by decide) _ (dev_sig_12 c) _ (oweB c 3) (owe_sig_12 c) W) $$ [HO HtB12 Ht4]
  · isplitr; · iexact HIb12
    isplitl [HO]; · iexact HO
    isplitl [HtB12]; · iexact HtB12
    isplitl [Ht4]
    · isplitl [Ht4]; · iexists _; iexact Ht4
      iexact HrR4
    iexact Hrb12
  iintro HO
  simp only [k0_part6_eq_skeleton]; unfold k0_part6_skel
  simp only [semSignalWord, semWaitWord, Prog.lift, Prog.bind_op, Prog.bind_ret, Prog.pure_eq_ret]
  -- the signal of offset 13
  ihave #HIb13 := (Step.inv_bar m K (c + (13 : Fin 16))) $$ Hrec
  ihave #Hrb13 := (Step.rch_bar m K (c + (13 : Fin 16))) $$ Hrec
  ihave #HrR3 := (Step.rch_recv m K c 3) $$ Hrec
  iapply (Step.sig_step m c 13 (by decide) 3 (by decide) _ (dev_sig_13 c) _ (oweB c 2) (owe_sig_13 c) W) $$ [HO HtB13 Ht3]
  · isplitr; · iexact HIb13
    isplitl [HO]; · iexact HO
    isplitl [HtB13]; · iexact HtB13
    isplitl [Ht3]
    · isplitl [Ht3]; · iexists _; iexact Ht3
      iexact HrR3
    iexact Hrb13
  iintro HO
  -- the signal of offset 14
  ihave #HIb14 := (Step.inv_bar m K (c + (14 : Fin 16))) $$ Hrec
  ihave #Hrb14 := (Step.rch_bar m K (c + (14 : Fin 16))) $$ Hrec
  ihave #HrR2 := (Step.rch_recv m K c 2) $$ Hrec
  iapply (Step.sig_step m c 14 (by decide) 2 (by decide) _ (dev_sig_14 c) _ (oweB c 1) (owe_sig_14 c) W) $$ [HO HtB14 Ht2]
  · isplitr; · iexact HIb14
    isplitl [HO]; · iexact HO
    isplitl [HtB14]; · iexact HtB14
    isplitl [Ht2]
    · isplitl [Ht2]; · iexists _; iexact Ht2
      iexact HrR2
    iexact Hrb14
  iintro HO
  simp only [k0_part7_eq_skeleton]; unfold k0_part7_skel
  simp only [semSignalWord, semWaitWord, Prog.lift, Prog.bind_op, Prog.bind_ret, Prog.pure_eq_ret]
  -- the signal of offset 15
  ihave #HIb15 := (Step.inv_bar m K (c + (15 : Fin 16))) $$ Hrec
  ihave #Hrb15 := (Step.rch_bar m K (c + (15 : Fin 16))) $$ Hrec
  ihave #HrR1 := (Step.rch_recv m K c 1) $$ Hrec
  iapply (Step.sig_step m c 15 (by decide) 1 (by decide) _ (dev_sig_15 c) _ (oweB c 0) (owe_sig_15 c) W) $$ [HO HtB15 Ht1]
  · isplitr; · iexact HIb15
    isplitl [HO]; · iexact HO
    isplitl [HtB15]; · iexact HtB15
    isplitl [Ht1]
    · isplitl [Ht1]; · iexists _; iexact Ht1
      iexact HrR1
    iexact Hrb15
  iintro HO
  -- the loads and the two stores: tile 0 now holds this device's sums
  iapply (wp_load 𝒱₀ (c : Thread nD τ) none Set.univ (m := xM) (Finset.subset_univ _)) $$ Hx; iintro Hx
  rw [Step.read_x]
  iapply (Step.tile_load c 0 fullShare _ load_sub_r0) $$ Ht0; iintro Ht0
  iapply (Step.tile0_store c _ store_sub_r0) $$ Ht0; iintro Ht0
  iapply (Step.tile_load c 0 fullShare _ load_sub_r4) $$ Ht0; iintro Ht0
  iapply (Step.tile0_store c _ store_sub_r4) $$ Ht0; iintro Ht0
  ihave Hc0 := (Entails.of_eq (tile0_stored m c f0 fullShare)) $$ Ht0
  ihave Hsh := (tile0_shares c (comm m c)).1 $$ Hc0
  icases Hsh with ⟨Hkept, Hl⟩
  ihave Hl' := (Entails.of_eq (bigSep_fin16 _)) $$ Hl
  icases Hl' with ⟨Hl0, Hl1, Hl2, Hl3, Hl4, Hl5, Hl6, Hl7, Hl8, Hl9, Hl10, Hl11, Hl12, Hl13, Hl14, Hl15⟩
  -- the wait for the fifteen peers
  ihave #HIbar := (Step.inv_bar m K c) $$ Hrec
  iapply (Step.barwait_step m c _ _ (mayWait_bar c)) $$ [HcB HO HatB]
  · isplitr; · iexact HIbar
    isplitl [HcB]; · iexact HcB
    isplitl [HO]; · iexact HO
    isplitr; · iexact Hlev
    iexact HatB
  iintro ⟨HO, HatB, Hp15, Hp14, Hp13, Hp12, Hp11, Hp10, Hp9, Hp8, Hp7, Hp6, Hp5, Hp4, Hp3, Hp2, Hp1⟩
  unfold Step.peerPay
  icases Hp1 with ⟨⟨%fn1, Hpt1⟩, #HrP1⟩
  icases Hp2 with ⟨⟨%fn2, Hpt2⟩, #HrP2⟩
  icases Hp3 with ⟨⟨%fn3, Hpt3⟩, #HrP3⟩
  icases Hp4 with ⟨⟨%fn4, Hpt4⟩, #HrP4⟩
  icases Hp5 with ⟨⟨%fn5, Hpt5⟩, #HrP5⟩
  icases Hp6 with ⟨⟨%fn6, Hpt6⟩, #HrP6⟩
  icases Hp7 with ⟨⟨%fn7, Hpt7⟩, #HrP7⟩
  icases Hp8 with ⟨⟨%fn8, Hpt8⟩, #HrP8⟩
  icases Hp9 with ⟨⟨%fn9, Hpt9⟩, #HrP9⟩
  icases Hp10 with ⟨⟨%fn10, Hpt10⟩, #HrP10⟩
  icases Hp11 with ⟨⟨%fn11, Hpt11⟩, #HrP11⟩
  icases Hp12 with ⟨⟨%fn12, Hpt12⟩, #HrP12⟩
  icases Hp13 with ⟨⟨%fn13, Hpt13⟩, #HrP13⟩
  icases Hp14 with ⟨⟨%fn14, Hpt14⟩, #HrP14⟩
  icases Hp15 with ⟨⟨%fn15, Hpt15⟩, #HrP15⟩
  simp only [k0_part8_eq_skeleton]; unfold k0_part8_skel
  simp only [semSignalWord, semWaitWord, Prog.lift, Prog.bind_op, Prog.bind_ret, Prog.pure_eq_ret]
  -- the copy of offset 1
  ihave #HIs1 := (Step.inv_send m K c 1) $$ Hrec
  ihave #HIr1 := (Step.inv_recv m K (c + (1 : Fin 16)) 1) $$ Hrec
  ihave #Hrs1 := (Step.rch_send m K c 1) $$ Hrec
  iapply (Step.copy_step m c 1 (by decide) _ (dev_dma_1 c) _ _ _ tileM_lit_0 _ tileM_lit_1 _ _ sendS_lit_1 recvS_lit_1 (oweR c 14) (owe_dma_1 c) _ fn1
      (Entails.of_eq (landed_eq m c 1 fn1 (comm m c) (fun _ _ => rfl)))) $$ [Hl1 Hpt1 HO HtS1 HtR1]
  · isplitr; · iexact HIs1
    isplitr; · iexact HIr1
    isplitl [Hl1]; · iexact Hl1
    isplitl [Hpt1]; · iexact Hpt1
    isplitl [HO]; · iexact HO
    isplitl [HtS1]; · iexact HtS1
    isplitr; · iexact Hrs1
    isplitl [HtR1]; · iexact HtR1
    iexact HrP1
  iintro ⟨HcS1, HO⟩
  -- the copy of offset 2
  ihave #HIs2 := (Step.inv_send m K c 2) $$ Hrec
  ihave #HIr2 := (Step.inv_recv m K (c + (2 : Fin 16)) 2) $$ Hrec
  ihave #Hrs2 := (Step.rch_send m K c 2) $$ Hrec
  iapply (Step.copy_step m c 2 (by decide) _ (dev_dma_2 c) _ _ _ tileM_lit_0 _ tileM_lit_2 _ _ sendS_lit_2 recvS_lit_2 (oweR c 13) (owe_dma_2 c) _ fn2
      (Entails.of_eq (landed_eq m c 2 fn2 (comm m c) (fun _ _ => rfl)))) $$ [Hl2 Hpt2 HO HtS2 HtR2]
  · isplitr; · iexact HIs2
    isplitr; · iexact HIr2
    isplitl [Hl2]; · iexact Hl2
    isplitl [Hpt2]; · iexact Hpt2
    isplitl [HO]; · iexact HO
    isplitl [HtS2]; · iexact HtS2
    isplitr; · iexact Hrs2
    isplitl [HtR2]; · iexact HtR2
    iexact HrP2
  iintro ⟨HcS2, HO⟩
  simp only [k0_part9_eq_skeleton]; unfold k0_part9_skel
  simp only [semSignalWord, semWaitWord, Prog.lift, Prog.bind_op, Prog.bind_ret, Prog.pure_eq_ret]
  -- the copy of offset 3
  ihave #HIs3 := (Step.inv_send m K c 3) $$ Hrec
  ihave #HIr3 := (Step.inv_recv m K (c + (3 : Fin 16)) 3) $$ Hrec
  ihave #Hrs3 := (Step.rch_send m K c 3) $$ Hrec
  iapply (Step.copy_step m c 3 (by decide) _ (dev_dma_3 c) _ _ _ tileM_lit_0 _ tileM_lit_3 _ _ sendS_lit_3 recvS_lit_3 (oweR c 12) (owe_dma_3 c) _ fn3
      (Entails.of_eq (landed_eq m c 3 fn3 (comm m c) (fun _ _ => rfl)))) $$ [Hl3 Hpt3 HO HtS3 HtR3]
  · isplitr; · iexact HIs3
    isplitr; · iexact HIr3
    isplitl [Hl3]; · iexact Hl3
    isplitl [Hpt3]; · iexact Hpt3
    isplitl [HO]; · iexact HO
    isplitl [HtS3]; · iexact HtS3
    isplitr; · iexact Hrs3
    isplitl [HtR3]; · iexact HtR3
    iexact HrP3
  iintro ⟨HcS3, HO⟩
  simp only [k0_part10_eq_skeleton]; unfold k0_part10_skel
  simp only [semSignalWord, semWaitWord, Prog.lift, Prog.bind_op, Prog.bind_ret, Prog.pure_eq_ret]
  -- the copy of offset 4
  ihave #HIs4 := (Step.inv_send m K c 4) $$ Hrec
  ihave #HIr4 := (Step.inv_recv m K (c + (4 : Fin 16)) 4) $$ Hrec
  ihave #Hrs4 := (Step.rch_send m K c 4) $$ Hrec
  iapply (Step.copy_step m c 4 (by decide) _ (dev_dma_4 c) _ _ _ tileM_lit_0 _ tileM_lit_4 _ _ sendS_lit_4 recvS_lit_4 (oweR c 11) (owe_dma_4 c) _ fn4
      (Entails.of_eq (landed_eq m c 4 fn4 (comm m c) (fun _ _ => rfl)))) $$ [Hl4 Hpt4 HO HtS4 HtR4]
  · isplitr; · iexact HIs4
    isplitr; · iexact HIr4
    isplitl [Hl4]; · iexact Hl4
    isplitl [Hpt4]; · iexact Hpt4
    isplitl [HO]; · iexact HO
    isplitl [HtS4]; · iexact HtS4
    isplitr; · iexact Hrs4
    isplitl [HtR4]; · iexact HtR4
    iexact HrP4
  iintro ⟨HcS4, HO⟩
  -- the copy of offset 5
  ihave #HIs5 := (Step.inv_send m K c 5) $$ Hrec
  ihave #HIr5 := (Step.inv_recv m K (c + (5 : Fin 16)) 5) $$ Hrec
  ihave #Hrs5 := (Step.rch_send m K c 5) $$ Hrec
  iapply (Step.copy_step m c 5 (by decide) _ (dev_dma_5 c) _ _ _ tileM_lit_0 _ tileM_lit_5 _ _ sendS_lit_5 recvS_lit_5 (oweR c 10) (owe_dma_5 c) _ fn5
      (Entails.of_eq (landed_eq m c 5 fn5 (comm m c) (fun _ _ => rfl)))) $$ [Hl5 Hpt5 HO HtS5 HtR5]
  · isplitr; · iexact HIs5
    isplitr; · iexact HIr5
    isplitl [Hl5]; · iexact Hl5
    isplitl [Hpt5]; · iexact Hpt5
    isplitl [HO]; · iexact HO
    isplitl [HtS5]; · iexact HtS5
    isplitr; · iexact Hrs5
    isplitl [HtR5]; · iexact HtR5
    iexact HrP5
  iintro ⟨HcS5, HO⟩
  simp only [k0_part11_eq_skeleton]; unfold k0_part11_skel
  simp only [semSignalWord, semWaitWord, Prog.lift, Prog.bind_op, Prog.bind_ret, Prog.pure_eq_ret]
  -- the copy of offset 6
  ihave #HIs6 := (Step.inv_send m K c 6) $$ Hrec
  ihave #HIr6 := (Step.inv_recv m K (c + (6 : Fin 16)) 6) $$ Hrec
  ihave #Hrs6 := (Step.rch_send m K c 6) $$ Hrec
  iapply (Step.copy_step m c 6 (by decide) _ (dev_dma_6 c) _ _ _ tileM_lit_0 _ tileM_lit_6 _ _ sendS_lit_6 recvS_lit_6 (oweR c 9) (owe_dma_6 c) _ fn6
      (Entails.of_eq (landed_eq m c 6 fn6 (comm m c) (fun _ _ => rfl)))) $$ [Hl6 Hpt6 HO HtS6 HtR6]
  · isplitr; · iexact HIs6
    isplitr; · iexact HIr6
    isplitl [Hl6]; · iexact Hl6
    isplitl [Hpt6]; · iexact Hpt6
    isplitl [HO]; · iexact HO
    isplitl [HtS6]; · iexact HtS6
    isplitr; · iexact Hrs6
    isplitl [HtR6]; · iexact HtR6
    iexact HrP6
  iintro ⟨HcS6, HO⟩
  simp only [k0_part12_eq_skeleton]; unfold k0_part12_skel
  simp only [semSignalWord, semWaitWord, Prog.lift, Prog.bind_op, Prog.bind_ret, Prog.pure_eq_ret]
  -- the copy of offset 7
  ihave #HIs7 := (Step.inv_send m K c 7) $$ Hrec
  ihave #HIr7 := (Step.inv_recv m K (c + (7 : Fin 16)) 7) $$ Hrec
  ihave #Hrs7 := (Step.rch_send m K c 7) $$ Hrec
  iapply (Step.copy_step m c 7 (by decide) _ (dev_dma_7 c) _ _ _ tileM_lit_0 _ tileM_lit_7 _ _ sendS_lit_7 recvS_lit_7 (oweR c 8) (owe_dma_7 c) _ fn7
      (Entails.of_eq (landed_eq m c 7 fn7 (comm m c) (fun _ _ => rfl)))) $$ [Hl7 Hpt7 HO HtS7 HtR7]
  · isplitr; · iexact HIs7
    isplitr; · iexact HIr7
    isplitl [Hl7]; · iexact Hl7
    isplitl [Hpt7]; · iexact Hpt7
    isplitl [HO]; · iexact HO
    isplitl [HtS7]; · iexact HtS7
    isplitr; · iexact Hrs7
    isplitl [HtR7]; · iexact HtR7
    iexact HrP7
  iintro ⟨HcS7, HO⟩
  -- the copy of offset 8
  ihave #HIs8 := (Step.inv_send m K c 8) $$ Hrec
  ihave #HIr8 := (Step.inv_recv m K (c + (8 : Fin 16)) 8) $$ Hrec
  ihave #Hrs8 := (Step.rch_send m K c 8) $$ Hrec
  iapply (Step.copy_step m c 8 (by decide) _ (dev_dma_8 c) _ _ _ tileM_lit_0 _ tileM_lit_8 _ _ sendS_lit_8 recvS_lit_8 (oweR c 7) (owe_dma_8 c) _ fn8
      (Entails.of_eq (landed_eq m c 8 fn8 (comm m c) (fun _ _ => rfl)))) $$ [Hl8 Hpt8 HO HtS8 HtR8]
  · isplitr; · iexact HIs8
    isplitr; · iexact HIr8
    isplitl [Hl8]; · iexact Hl8
    isplitl [Hpt8]; · iexact Hpt8
    isplitl [HO]; · iexact HO
    isplitl [HtS8]; · iexact HtS8
    isplitr; · iexact Hrs8
    isplitl [HtR8]; · iexact HtR8
    iexact HrP8
  iintro ⟨HcS8, HO⟩
  simp only [k0_part13_eq_skeleton]; unfold k0_part13_skel
  simp only [semSignalWord, semWaitWord, Prog.lift, Prog.bind_op, Prog.bind_ret, Prog.pure_eq_ret]
  -- the copy of offset 9
  ihave #HIs9 := (Step.inv_send m K c 9) $$ Hrec
  ihave #HIr9 := (Step.inv_recv m K (c + (9 : Fin 16)) 9) $$ Hrec
  ihave #Hrs9 := (Step.rch_send m K c 9) $$ Hrec
  iapply (Step.copy_step m c 9 (by decide) _ (dev_dma_9 c) _ _ _ tileM_lit_0 _ tileM_lit_9 _ _ sendS_lit_9 recvS_lit_9 (oweR c 6) (owe_dma_9 c) _ fn9
      (Entails.of_eq (landed_eq m c 9 fn9 (comm m c) (fun _ _ => rfl)))) $$ [Hl9 Hpt9 HO HtS9 HtR9]
  · isplitr; · iexact HIs9
    isplitr; · iexact HIr9
    isplitl [Hl9]; · iexact Hl9
    isplitl [Hpt9]; · iexact Hpt9
    isplitl [HO]; · iexact HO
    isplitl [HtS9]; · iexact HtS9
    isplitr; · iexact Hrs9
    isplitl [HtR9]; · iexact HtR9
    iexact HrP9
  iintro ⟨HcS9, HO⟩
  simp only [k0_part14_eq_skeleton]; unfold k0_part14_skel
  simp only [semSignalWord, semWaitWord, Prog.lift, Prog.bind_op, Prog.bind_ret, Prog.pure_eq_ret]
  -- the copy of offset 10
  ihave #HIs10 := (Step.inv_send m K c 10) $$ Hrec
  ihave #HIr10 := (Step.inv_recv m K (c + (10 : Fin 16)) 10) $$ Hrec
  ihave #Hrs10 := (Step.rch_send m K c 10) $$ Hrec
  iapply (Step.copy_step m c 10 (by decide) _ (dev_dma_10 c) _ _ _ tileM_lit_0 _ tileM_lit_10 _ _ sendS_lit_10 recvS_lit_10 (oweR c 5) (owe_dma_10 c) _ fn10
      (Entails.of_eq (landed_eq m c 10 fn10 (comm m c) (fun _ _ => rfl)))) $$ [Hl10 Hpt10 HO HtS10 HtR10]
  · isplitr; · iexact HIs10
    isplitr; · iexact HIr10
    isplitl [Hl10]; · iexact Hl10
    isplitl [Hpt10]; · iexact Hpt10
    isplitl [HO]; · iexact HO
    isplitl [HtS10]; · iexact HtS10
    isplitr; · iexact Hrs10
    isplitl [HtR10]; · iexact HtR10
    iexact HrP10
  iintro ⟨HcS10, HO⟩
  -- the copy of offset 11
  ihave #HIs11 := (Step.inv_send m K c 11) $$ Hrec
  ihave #HIr11 := (Step.inv_recv m K (c + (11 : Fin 16)) 11) $$ Hrec
  ihave #Hrs11 := (Step.rch_send m K c 11) $$ Hrec
  iapply (Step.copy_step m c 11 (by decide) _ (dev_dma_11 c) _ _ _ tileM_lit_0 _ tileM_lit_11 _ _ sendS_lit_11 recvS_lit_11 (oweR c 4) (owe_dma_11 c) _ fn11
      (Entails.of_eq (landed_eq m c 11 fn11 (comm m c) (fun _ _ => rfl)))) $$ [Hl11 Hpt11 HO HtS11 HtR11]
  · isplitr; · iexact HIs11
    isplitr; · iexact HIr11
    isplitl [Hl11]; · iexact Hl11
    isplitl [Hpt11]; · iexact Hpt11
    isplitl [HO]; · iexact HO
    isplitl [HtS11]; · iexact HtS11
    isplitr; · iexact Hrs11
    isplitl [HtR11]; · iexact HtR11
    iexact HrP11
  iintro ⟨HcS11, HO⟩
  simp only [k0_part15_eq_skeleton]; unfold k0_part15_skel
  simp only [semSignalWord, semWaitWord, Prog.lift, Prog.bind_op, Prog.bind_ret, Prog.pure_eq_ret]
  -- the copy of offset 12
  ihave #HIs12 := (Step.inv_send m K c 12) $$ Hrec
  ihave #HIr12 := (Step.inv_recv m K (c + (12 : Fin 16)) 12) $$ Hrec
  ihave #Hrs12 := (Step.rch_send m K c 12) $$ Hrec
  iapply (Step.copy_step m c 12 (by decide) _ (dev_dma_12 c) _ _ _ tileM_lit_0 _ tileM_lit_12 _ _ sendS_lit_12 recvS_lit_12 (oweR c 3) (owe_dma_12 c) _ fn12
      (Entails.of_eq (landed_eq m c 12 fn12 (comm m c) (fun _ _ => rfl)))) $$ [Hl12 Hpt12 HO HtS12 HtR12]
  · isplitr; · iexact HIs12
    isplitr; · iexact HIr12
    isplitl [Hl12]; · iexact Hl12
    isplitl [Hpt12]; · iexact Hpt12
    isplitl [HO]; · iexact HO
    isplitl [HtS12]; · iexact HtS12
    isplitr; · iexact Hrs12
    isplitl [HtR12]; · iexact HtR12
    iexact HrP12
  iintro ⟨HcS12, HO⟩
  simp only [k0_part16_eq_skeleton]; unfold k0_part16_skel
  simp only [semSignalWord, semWaitWord, Prog.lift, Prog.bind_op, Prog.bind_ret, Prog.pure_eq_ret]
  -- the copy of offset 13
  ihave #HIs13 := (Step.inv_send m K c 13) $$ Hrec
  ihave #HIr13 := (Step.inv_recv m K (c + (13 : Fin 16)) 13) $$ Hrec
  ihave #Hrs13 := (Step.rch_send m K c 13) $$ Hrec
  iapply (Step.copy_step m c 13 (by decide) _ (dev_dma_13 c) _ _ _ tileM_lit_0 _ tileM_lit_13 _ _ sendS_lit_13 recvS_lit_13 (oweR c 2) (owe_dma_13 c) _ fn13
      (Entails.of_eq (landed_eq m c 13 fn13 (comm m c) (fun _ _ => rfl)))) $$ [Hl13 Hpt13 HO HtS13 HtR13]
  · isplitr; · iexact HIs13
    isplitr; · iexact HIr13
    isplitl [Hl13]; · iexact Hl13
    isplitl [Hpt13]; · iexact Hpt13
    isplitl [HO]; · iexact HO
    isplitl [HtS13]; · iexact HtS13
    isplitr; · iexact Hrs13
    isplitl [HtR13]; · iexact HtR13
    iexact HrP13
  iintro ⟨HcS13, HO⟩
  -- the copy of offset 14
  ihave #HIs14 := (Step.inv_send m K c 14) $$ Hrec
  ihave #HIr14 := (Step.inv_recv m K (c + (14 : Fin 16)) 14) $$ Hrec
  ihave #Hrs14 := (Step.rch_send m K c 14) $$ Hrec
  iapply (Step.copy_step m c 14 (by decide) _ (dev_dma_14 c) _ _ _ tileM_lit_0 _ tileM_lit_14 _ _ sendS_lit_14 recvS_lit_14 (oweR c 1) (owe_dma_14 c) _ fn14
      (Entails.of_eq (landed_eq m c 14 fn14 (comm m c) (fun _ _ => rfl)))) $$ [Hl14 Hpt14 HO HtS14 HtR14]
  · isplitr; · iexact HIs14
    isplitr; · iexact HIr14
    isplitl [Hl14]; · iexact Hl14
    isplitl [Hpt14]; · iexact Hpt14
    isplitl [HO]; · iexact HO
    isplitl [HtS14]; · iexact HtS14
    isplitr; · iexact Hrs14
    isplitl [HtR14]; · iexact HtR14
    iexact HrP14
  iintro ⟨HcS14, HO⟩
  simp only [k0_part17_eq_skeleton]; unfold k0_part17_skel
  simp only [semSignalWord, semWaitWord, Prog.lift, Prog.bind_op, Prog.bind_ret, Prog.pure_eq_ret]
  -- the copy of offset 15
  ihave #HIs15 := (Step.inv_send m K c 15) $$ Hrec
  ihave #HIr15 := (Step.inv_recv m K (c + (15 : Fin 16)) 15) $$ Hrec
  ihave #Hrs15 := (Step.rch_send m K c 15) $$ Hrec
  iapply (Step.copy_step m c 15 (by decide) _ (dev_dma_15 c) _ _ _ tileM_lit_0 _ tileM_lit_15 _ _ sendS_lit_15 recvS_lit_15 (oweR c 0) (owe_dma_15 c) _ fn15
      (Entails.of_eq (landed_eq m c 15 fn15 (comm m c) (fun _ _ => rfl)))) $$ [Hl15 Hpt15 HO HtS15 HtR15]
  · isplitr; · iexact HIs15
    isplitr; · iexact HIr15
    isplitl [Hl15]; · iexact Hl15
    isplitl [Hpt15]; · iexact Hpt15
    isplitl [HO]; · iexact HO
    isplitl [HtS15]; · iexact HtS15
    isplitr; · iexact Hrs15
    isplitl [HtR15]; · iexact HtR15
    iexact HrP15
  iintro ⟨HcS15, HO⟩
  -- the loads of γ, β and of this device's own tile
  iapply (wp_load 𝒱₀ (c : Thread nD τ) none Set.univ (m := gM) (Finset.subset_univ _)) $$ Hg; iintro Hg
  rw [Step.read_g]
  iapply (wp_load 𝒱₀ (c : Thread nD τ) none Set.univ (m := bM) (Finset.subset_univ _)) $$ Hb; iintro Hb
  rw [Step.read_b]
  iapply (Step.tile_load c 0 kept _ Step.load_sub_0) $$ Hkept; iintro Hkept
  rw [Step.load_tile_0 m c]
  -- the arrival of the copy of offset 1
  ihave #HIv1 := (Step.inv_recv m K c 1) $$ Hrec
  iapply (recv_step m _ c 1 (by decide) _ (tileM 0) (tileM 1) _ _ (tile_credit 1))
  isplitr; · iexact HIv1
  isplitl [HcR1]; · iexact HcR1
  isplitl [HO]; · iexact HO
  isplitl [HaR1]; · iexact HaR1
  iintro ⟨Hv1, HzR1, HO⟩
  unfold recvPay
  iapply (Step.tile_load c 1 fullShare _ Step.load_sub_1) $$ Hv1; iintro Hv1
  rw [Step.load_tile_1 m c]
  simp only [k0_part18_eq_skeleton]; unfold k0_part18_skel
  simp only [semSignalWord, semWaitWord, Prog.lift, Prog.bind_op, Prog.bind_ret, Prog.pure_eq_ret]
  -- the arrival of the copy of offset 2
  ihave #HIv2 := (Step.inv_recv m K c 2) $$ Hrec
  iapply (recv_step m _ c 2 (by decide) _ (tileM 0) (tileM 2) _ _ (tile_credit 2))
  isplitr; · iexact HIv2
  isplitl [HcR2]; · iexact HcR2
  isplitl [HO]; · iexact HO
  isplitl [HaR2]; · iexact HaR2
  iintro ⟨Hv2, HzR2, HO⟩
  unfold recvPay
  iapply (Step.tile_load c 2 fullShare _ Step.load_sub_2) $$ Hv2; iintro Hv2
  rw [Step.load_tile_2 m c]
  -- the arrival of the copy of offset 3
  ihave #HIv3 := (Step.inv_recv m K c 3) $$ Hrec
  iapply (recv_step m _ c 3 (by decide) _ (tileM 0) (tileM 3) _ _ (tile_credit 3))
  isplitr; · iexact HIv3
  isplitl [HcR3]; · iexact HcR3
  isplitl [HO]; · iexact HO
  isplitl [HaR3]; · iexact HaR3
  iintro ⟨Hv3, HzR3, HO⟩
  unfold recvPay
  iapply (Step.tile_load c 3 fullShare _ Step.load_sub_3) $$ Hv3; iintro Hv3
  rw [Step.load_tile_3 m c]
  simp only [k0_part19_eq_skeleton]; unfold k0_part19_skel
  simp only [semSignalWord, semWaitWord, Prog.lift, Prog.bind_op, Prog.bind_ret, Prog.pure_eq_ret]
  -- the arrival of the copy of offset 4
  ihave #HIv4 := (Step.inv_recv m K c 4) $$ Hrec
  iapply (recv_step m _ c 4 (by decide) _ (tileM 0) (tileM 4) _ _ (tile_credit 4))
  isplitr; · iexact HIv4
  isplitl [HcR4]; · iexact HcR4
  isplitl [HO]; · iexact HO
  isplitl [HaR4]; · iexact HaR4
  iintro ⟨Hv4, HzR4, HO⟩
  unfold recvPay
  iapply (Step.tile_load c 4 fullShare _ Step.load_sub_4) $$ Hv4; iintro Hv4
  rw [Step.load_tile_4 m c]
  -- the arrival of the copy of offset 5
  ihave #HIv5 := (Step.inv_recv m K c 5) $$ Hrec
  iapply (recv_step m _ c 5 (by decide) _ (tileM 0) (tileM 5) _ _ (tile_credit 5))
  isplitr; · iexact HIv5
  isplitl [HcR5]; · iexact HcR5
  isplitl [HO]; · iexact HO
  isplitl [HaR5]; · iexact HaR5
  iintro ⟨Hv5, HzR5, HO⟩
  unfold recvPay
  iapply (Step.tile_load c 5 fullShare _ Step.load_sub_5) $$ Hv5; iintro Hv5
  rw [Step.load_tile_5 m c]
  -- the arrival of the copy of offset 6
  ihave #HIv6 := (Step.inv_recv m K c 6) $$ Hrec
  iapply (recv_step m _ c 6 (by decide) _ (tileM 0) (tileM 6) _ _ (tile_credit 6))
  isplitr; · iexact HIv6
  isplitl [HcR6]; · iexact HcR6
  isplitl [HO]; · iexact HO
  isplitl [HaR6]; · iexact HaR6
  iintro ⟨Hv6, HzR6, HO⟩
  unfold recvPay
  simp only [k0_part20_eq_skeleton]; unfold k0_part20_skel
  simp only [semSignalWord, semWaitWord, Prog.lift, Prog.bind_op, Prog.bind_ret, Prog.pure_eq_ret]
  iapply (Step.tile_load c 6 fullShare _ Step.load_sub_6) $$ Hv6; iintro Hv6
  rw [Step.load_tile_6 m c]
  -- the arrival of the copy of offset 7
  ihave #HIv7 := (Step.inv_recv m K c 7) $$ Hrec
  iapply (recv_step m _ c 7 (by decide) _ (tileM 0) (tileM 7) _ _ (tile_credit 7))
  isplitr; · iexact HIv7
  isplitl [HcR7]; · iexact HcR7
  isplitl [HO]; · iexact HO
  isplitl [HaR7]; · iexact HaR7
  iintro ⟨Hv7, HzR7, HO⟩
  unfold recvPay
  iapply (Step.tile_load c 7 fullShare _ Step.load_sub_7) $$ Hv7; iintro Hv7
  rw [Step.load_tile_7 m c]
  -- the arrival of the copy of offset 8
  ihave #HIv8 := (Step.inv_recv m K c 8) $$ Hrec
  iapply (recv_step m _ c 8 (by decide) _ (tileM 0) (tileM 8) _ _ (tile_credit 8))
  isplitr; · iexact HIv8
  isplitl [HcR8]; · iexact HcR8
  isplitl [HO]; · iexact HO
  isplitl [HaR8]; · iexact HaR8
  iintro ⟨Hv8, HzR8, HO⟩
  unfold recvPay
  iapply (Step.tile_load c 8 fullShare _ Step.load_sub_8) $$ Hv8; iintro Hv8
  rw [Step.load_tile_8 m c]
  simp only [k0_part21_eq_skeleton]; unfold k0_part21_skel
  simp only [semSignalWord, semWaitWord, Prog.lift, Prog.bind_op, Prog.bind_ret, Prog.pure_eq_ret]
  -- the arrival of the copy of offset 9
  ihave #HIv9 := (Step.inv_recv m K c 9) $$ Hrec
  iapply (recv_step m _ c 9 (by decide) _ (tileM 0) (tileM 9) _ _ (tile_credit 9))
  isplitr; · iexact HIv9
  isplitl [HcR9]; · iexact HcR9
  isplitl [HO]; · iexact HO
  isplitl [HaR9]; · iexact HaR9
  iintro ⟨Hv9, HzR9, HO⟩
  unfold recvPay
  iapply (Step.tile_load c 9 fullShare _ Step.load_sub_9) $$ Hv9; iintro Hv9
  rw [Step.load_tile_9 m c]
  -- the arrival of the copy of offset 10
  ihave #HIv10 := (Step.inv_recv m K c 10) $$ Hrec
  iapply (recv_step m _ c 10 (by decide) _ (tileM 0) (tileM 10) _ _ (tile_credit 10))
  isplitr; · iexact HIv10
  isplitl [HcR10]; · iexact HcR10
  isplitl [HO]; · iexact HO
  isplitl [HaR10]; · iexact HaR10
  iintro ⟨Hv10, HzR10, HO⟩
  unfold recvPay
  iapply (Step.tile_load c 10 fullShare _ Step.load_sub_10) $$ Hv10; iintro Hv10
  rw [Step.load_tile_10 m c]
  simp only [k0_part22_eq_skeleton]; unfold k0_part22_skel
  simp only [semSignalWord, semWaitWord, Prog.lift, Prog.bind_op, Prog.bind_ret, Prog.pure_eq_ret]
  -- the arrival of the copy of offset 11
  ihave #HIv11 := (Step.inv_recv m K c 11) $$ Hrec
  iapply (recv_step m _ c 11 (by decide) _ (tileM 0) (tileM 11) _ _ (tile_credit 11))
  isplitr; · iexact HIv11
  isplitl [HcR11]; · iexact HcR11
  isplitl [HO]; · iexact HO
  isplitl [HaR11]; · iexact HaR11
  iintro ⟨Hv11, HzR11, HO⟩
  unfold recvPay
  iapply (Step.tile_load c 11 fullShare _ Step.load_sub_11) $$ Hv11; iintro Hv11
  rw [Step.load_tile_11 m c]
  -- the arrival of the copy of offset 12
  ihave #HIv12 := (Step.inv_recv m K c 12) $$ Hrec
  iapply (recv_step m _ c 12 (by decide) _ (tileM 0) (tileM 12) _ _ (tile_credit 12))
  isplitr; · iexact HIv12
  isplitl [HcR12]; · iexact HcR12
  isplitl [HO]; · iexact HO
  isplitl [HaR12]; · iexact HaR12
  iintro ⟨Hv12, HzR12, HO⟩
  unfold recvPay
  iapply (Step.tile_load c 12 fullShare _ Step.load_sub_12) $$ Hv12; iintro Hv12
  rw [Step.load_tile_12 m c]
  -- the arrival of the copy of offset 13
  ihave #HIv13 := (Step.inv_recv m K c 13) $$ Hrec
  iapply (recv_step m _ c 13 (by decide) _ (tileM 0) (tileM 13) _ _ (tile_credit 13))
  isplitr; · iexact HIv13
  isplitl [HcR13]; · iexact HcR13
  isplitl [HO]; · iexact HO
  isplitl [HaR13]; · iexact HaR13
  iintro ⟨Hv13, HzR13, HO⟩
  unfold recvPay
  iapply (Step.tile_load c 13 fullShare _ Step.load_sub_13) $$ Hv13; iintro Hv13
  rw [Step.load_tile_13 m c]
  simp only [k0_part23_eq_skeleton]; unfold k0_part23_skel
  simp only [semSignalWord, semWaitWord, Prog.lift, Prog.bind_op, Prog.bind_ret, Prog.pure_eq_ret]
  -- the arrival of the copy of offset 14
  ihave #HIv14 := (Step.inv_recv m K c 14) $$ Hrec
  iapply (recv_step m _ c 14 (by decide) _ (tileM 0) (tileM 14) _ _ (tile_credit 14))
  isplitr; · iexact HIv14
  isplitl [HcR14]; · iexact HcR14
  isplitl [HO]; · iexact HO
  isplitl [HaR14]; · iexact HaR14
  iintro ⟨Hv14, HzR14, HO⟩
  unfold recvPay
  iapply (Step.tile_load c 14 fullShare _ Step.load_sub_14) $$ Hv14; iintro Hv14
  rw [Step.load_tile_14 m c]
  -- the arrival of the copy of offset 15
  ihave #HIv15 := (Step.inv_recv m K c 15) $$ Hrec
  iapply (recv_step m _ c 15 (by decide) _ (tileM 0) (tileM 15) _ _ (tile_credit 15))
  isplitr; · iexact HIv15
  isplitl [HcR15]; · iexact HcR15
  isplitl [HO]; · iexact HO
  isplitl [HaR15]; · iexact HaR15
  iintro ⟨Hv15, HzR15, HO⟩
  unfold recvPay
  iapply (Step.tile_load c 15 fullShare _ Step.load_sub_15) $$ Hv15; iintro Hv15
  rw [Step.load_tile_15 m c]
  simp only [k0_part24_eq_skeleton]; unfold k0_part24_skel
  simp only [semSignalWord, semWaitWord, Prog.lift, Prog.bind_op, Prog.bind_ret, Prog.pure_eq_ret]
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S512x256) ![0, 0] S512x256.size inb_S512x256_S512x256_0_0) (Mk := Finset.univ) (Finset.subset_univ _)) $$ Hout; iintro Hout
  rw [Step.write_out]
  -- the departure of the copy of offset 1
  iapply (sendwait_step m _ c 1 (by decide) _ (tileM 1) (tileM 0) _ _ (tile_credit 0))
  isplitr; · iexact HIs1
  isplitl [HcS1]; · iexact HcS1
  isplitl [HO]; · iexact HO
  isplitl [HaS1]; · iexact HaS1
  iintro ⟨Hb1, HzS1, HO⟩
  -- the departure of the copy of offset 2
  iapply (sendwait_step m _ c 2 (by decide) _ (tileM 2) (tileM 0) _ _ (tile_credit 0))
  isplitr; · iexact HIs2
  isplitl [HcS2]; · iexact HcS2
  isplitl [HO]; · iexact HO
  isplitl [HaS2]; · iexact HaS2
  iintro ⟨Hb2, HzS2, HO⟩
  simp only [k0_part25_eq_skeleton]; unfold k0_part25_skel
  simp only [semSignalWord, semWaitWord, Prog.lift, Prog.bind_op, Prog.bind_ret, Prog.pure_eq_ret]
  -- the departure of the copy of offset 3
  iapply (sendwait_step m _ c 3 (by decide) _ (tileM 3) (tileM 0) _ _ (tile_credit 0))
  isplitr; · iexact HIs3
  isplitl [HcS3]; · iexact HcS3
  isplitl [HO]; · iexact HO
  isplitl [HaS3]; · iexact HaS3
  iintro ⟨Hb3, HzS3, HO⟩
  -- the departure of the copy of offset 4
  iapply (sendwait_step m _ c 4 (by decide) _ (tileM 4) (tileM 0) _ _ (tile_credit 0))
  isplitr; · iexact HIs4
  isplitl [HcS4]; · iexact HcS4
  isplitl [HO]; · iexact HO
  isplitl [HaS4]; · iexact HaS4
  iintro ⟨Hb4, HzS4, HO⟩
  -- the departure of the copy of offset 5
  iapply (sendwait_step m _ c 5 (by decide) _ (tileM 5) (tileM 0) _ _ (tile_credit 0))
  isplitr; · iexact HIs5
  isplitl [HcS5]; · iexact HcS5
  isplitl [HO]; · iexact HO
  isplitl [HaS5]; · iexact HaS5
  iintro ⟨Hb5, HzS5, HO⟩
  -- the departure of the copy of offset 6
  iapply (sendwait_step m _ c 6 (by decide) _ (tileM 6) (tileM 0) _ _ (tile_credit 0))
  isplitr; · iexact HIs6
  isplitl [HcS6]; · iexact HcS6
  isplitl [HO]; · iexact HO
  isplitl [HaS6]; · iexact HaS6
  iintro ⟨Hb6, HzS6, HO⟩
  simp only [k0_part26_eq_skeleton]; unfold k0_part26_skel
  simp only [semSignalWord, semWaitWord, Prog.lift, Prog.bind_op, Prog.bind_ret, Prog.pure_eq_ret]
  -- the departure of the copy of offset 7
  iapply (sendwait_step m _ c 7 (by decide) _ (tileM 7) (tileM 0) _ _ (tile_credit 0))
  isplitr; · iexact HIs7
  isplitl [HcS7]; · iexact HcS7
  isplitl [HO]; · iexact HO
  isplitl [HaS7]; · iexact HaS7
  iintro ⟨Hb7, HzS7, HO⟩
  -- the departure of the copy of offset 8
  iapply (sendwait_step m _ c 8 (by decide) _ (tileM 8) (tileM 0) _ _ (tile_credit 0))
  isplitr; · iexact HIs8
  isplitl [HcS8]; · iexact HcS8
  isplitl [HO]; · iexact HO
  isplitl [HaS8]; · iexact HaS8
  iintro ⟨Hb8, HzS8, HO⟩
  -- the departure of the copy of offset 9
  iapply (sendwait_step m _ c 9 (by decide) _ (tileM 9) (tileM 0) _ _ (tile_credit 0))
  isplitr; · iexact HIs9
  isplitl [HcS9]; · iexact HcS9
  isplitl [HO]; · iexact HO
  isplitl [HaS9]; · iexact HaS9
  iintro ⟨Hb9, HzS9, HO⟩
  simp only [k0_part27_eq_skeleton]; unfold k0_part27_skel
  simp only [semSignalWord, semWaitWord, Prog.lift, Prog.bind_op, Prog.bind_ret, Prog.pure_eq_ret]
  -- the departure of the copy of offset 10
  iapply (sendwait_step m _ c 10 (by decide) _ (tileM 10) (tileM 0) _ _ (tile_credit 0))
  isplitr; · iexact HIs10
  isplitl [HcS10]; · iexact HcS10
  isplitl [HO]; · iexact HO
  isplitl [HaS10]; · iexact HaS10
  iintro ⟨Hb10, HzS10, HO⟩
  -- the departure of the copy of offset 11
  iapply (sendwait_step m _ c 11 (by decide) _ (tileM 11) (tileM 0) _ _ (tile_credit 0))
  isplitr; · iexact HIs11
  isplitl [HcS11]; · iexact HcS11
  isplitl [HO]; · iexact HO
  isplitl [HaS11]; · iexact HaS11
  iintro ⟨Hb11, HzS11, HO⟩
  -- the departure of the copy of offset 12
  iapply (sendwait_step m _ c 12 (by decide) _ (tileM 12) (tileM 0) _ _ (tile_credit 0))
  isplitr; · iexact HIs12
  isplitl [HcS12]; · iexact HcS12
  isplitl [HO]; · iexact HO
  isplitl [HaS12]; · iexact HaS12
  iintro ⟨Hb12, HzS12, HO⟩
  -- the departure of the copy of offset 13
  iapply (sendwait_step m _ c 13 (by decide) _ (tileM 13) (tileM 0) _ _ (tile_credit 0))
  isplitr; · iexact HIs13
  isplitl [HcS13]; · iexact HcS13
  isplitl [HO]; · iexact HO
  isplitl [HaS13]; · iexact HaS13
  iintro ⟨Hb13, HzS13, HO⟩
  -- the departure of the copy of offset 14
  iapply (sendwait_step m _ c 14 (by decide) _ (tileM 14) (tileM 0) _ _ (tile_credit 0))
  isplitr; · iexact HIs14
  isplitl [HcS14]; · iexact HcS14
  isplitl [HO]; · iexact HO
  isplitl [HaS14]; · iexact HaS14
  iintro ⟨Hb14, HzS14, HO⟩
  -- the departure of the copy of offset 15
  iapply (sendwait_step m _ c 15 (by decide) _ (tileM 15) (tileM 0) _ _ (tile_credit 0))
  isplitr; · iexact HIs15
  isplitl [HcS15]; · iexact HcS15
  isplitl [HO]; · iexact HO
  isplitl [HaS15]; · iexact HaS15
  iintro ⟨Hb15, HzS15, HO⟩
  -- the two idle cells close; everything goes back together
  ihave #HIs0 := (Step.inv_send m K c 0) $$ Hrec
  ihave #HIv0 := (Step.inv_recv m K c 0) $$ Hrec
  imod (idle_close m _ _ c) $$ [HaS0 HaR0] with ⟨HzS0, HzR0⟩
  · isplitr; · iexact HIs0
    isplitl [HaS0]; · iexact HaS0
    isplitr; · iexact HIv0
    iexact HaR0
  rw [wp_ret]; imodintro
  iapply Hk
  unfold bodyPost Φ₁ Dat.owesAt Pipeline.owesWithin sendPay
  rw [show (dats m 0 c).owed t0_0.succ = 0 from rfl]
  isplitl [Hkept Hl0 Hb1 Hb2 Hb3 Hb4 Hb5 Hb6 Hb7 Hb8 Hb9 Hb10 Hb11 Hb12 Hb13 Hb14 Hb15 Hv1 Hv2 Hv3 Hv4 Hv5 Hv6 Hv7 Hv8 Hv9 Hv10 Hv11 Hv12 Hv13 Hv14 Hv15 HzS0 HzR0 HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15]
  · isplitl [Hkept Hl0 Hb1 Hb2 Hb3 Hb4 Hb5 Hb6 Hb7 Hb8 Hb9 Hb10 Hb11 Hb12 Hb13 Hb14 Hb15 Hv1 Hv2 Hv3 Hv4 Hv5 Hv6 Hv7 Hv8 Hv9 Hv10 Hv11 Hv12 Hv13 Hv14 Hv15]
    · iapply (scr_rejoin m c)
      iapply (Entails.of_eq (bigSep_fin16 (fun d : Fin 16 => tilePts (F := F) c d fullShare (comm m c))).symm)
      isplitl [Hkept Hl0 Hb1 Hb2 Hb3 Hb4 Hb5 Hb6 Hb7 Hb8 Hb9 Hb10 Hb11 Hb12 Hb13 Hb14 Hb15]
      · iapply (tile0_shares c (comm m c)).2
        isplitl [Hkept]; · iexact Hkept
        iapply (Entails.of_eq (bigSep_fin16 (fun d : Fin 16 => tilePts (F := F) c 0 (lent d) (comm m c))).symm)
        isplitl [Hl0]; · iexact Hl0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        isplitl [Hb10]; · iexact Hb10
        isplitl [Hb11]; · iexact Hb11
        isplitl [Hb12]; · iexact Hb12
        isplitl [Hb13]; · iexact Hb13
        isplitl [Hb14]; · iexact Hb14
        iexact Hb15
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      isplitl [Hv10]; · iexact Hv10
      isplitl [Hv11]; · iexact Hv11
      isplitl [Hv12]; · iexact Hv12
      isplitl [Hv13]; · iexact Hv13
      isplitl [Hv14]; · iexact Hv14
      iexact Hv15
    · iapply (ownSems_of_closed c)
      iapply (Entails.of_eq (bigSep_fin16 (fun d : Fin 16 => iprop(semVal (sendCell c d) 0 ∗ semVal (recvCell c d) 0))).symm)
      isplitl [HzS0 HzR0]
      · isplitl [HzS0]; · iexact HzS0
        iexact HzR0
      isplitl [HzS1 HzR1]
      · isplitl [HzS1]; · iexact HzS1
        iexact HzR1
      isplitl [HzS2 HzR2]
      · isplitl [HzS2]; · iexact HzS2
        iexact HzR2
      isplitl [HzS3 HzR3]
      · isplitl [HzS3]; · iexact HzS3
        iexact HzR3
      isplitl [HzS4 HzR4]
      · isplitl [HzS4]; · iexact HzS4
        iexact HzR4
      isplitl [HzS5 HzR5]
      · isplitl [HzS5]; · iexact HzS5
        iexact HzR5
      isplitl [HzS6 HzR6]
      · isplitl [HzS6]; · iexact HzS6
        iexact HzR6
      isplitl [HzS7 HzR7]
      · isplitl [HzS7]; · iexact HzS7
        iexact HzR7
      isplitl [HzS8 HzR8]
      · isplitl [HzS8]; · iexact HzS8
        iexact HzR8
      isplitl [HzS9 HzR9]
      · isplitl [HzS9]; · iexact HzS9
        iexact HzR9
      isplitl [HzS10 HzR10]
      · isplitl [HzS10]; · iexact HzS10
        iexact HzR10
      isplitl [HzS11 HzR11]
      · isplitl [HzS11]; · iexact HzS11
        iexact HzR11
      isplitl [HzS12 HzR12]
      · isplitl [HzS12]; · iexact HzS12
        iexact HzR12
      isplitl [HzS13 HzR13]
      · isplitl [HzS13]; · iexact HzS13
        iexact HzR13
      isplitl [HzS14 HzR14]
      · isplitl [HzS14]; · iexact HzS14
        iexact HzR14
      isplitl [HzS15]; · iexact HzS15
      iexact HzR15
  isplitl [HO]
  · iexists _
    isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Hout

omit [FloatOps F] in
theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

set_option maxRecDepth 65536 in
def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 65536 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  unfold bodyPre' Φ₀ start
  iintro ⟨⟨⟨⟨%K, Hgh⟩, Hcr, Hlev⟩, Hscr⟩, Ho, Hx, Hg, Hb, Hout⟩
  iapply (sound_body m K c fun _ => bodyPost m c)
  unfold bodyPre
  isplitr []
  · isplitl [Hgh Hcr Hlev Hscr]
    · isplitl [Hgh]; · iexact Hgh
      isplitl [Hcr]; · iexact Hcr
      isplitl [Hlev]; · iexact Hlev
      iexact Hscr
    isplitl [Ho]; · iexact Ho
    isplitl [Hx]; · iexact Hx
    isplitl [Hg]; · iexact Hg
    isplitl [Hb]; · iexact Hb
    iexact Hout
  · iintro H; iexact H

end Body

/-- info: 'Cert.Kernel.Hand.body_obligation' depends on axioms: [propext, Classical.choice, Quot.sound] -/
#guard_msgs in #print axioms body_obligation

end Cert.Kernel.Hand

end
-- ==== Proof.Claims.lean ====
/-
  The five statements of the certificate, each assembled from the run of its program.

  Sixteen devices each hold 256 of the 4096 columns of `x`, `γ` and `β`. The kernel's run leaves every array of its
  pipeline at a known final value: the three argument blocks as they were, the result block at a pointwise expression
  of the device's own blocks and of the row totals its fifteen peers sent it. The reference's run leaves its result at
  the composition of its operations. From finite inputs both are the real layer norm
  `γ_j (x_ij - μ_i) / √(σ²_i + ε) + β_j`, the kernel's through `E[x²] - μ² = σ²`, so device `c`'s result block is
  columns `256 c … 256 c + 255` of the reference's result.
-/
import proofs.«900827_g7700000000000828_dist_layernorm_colshard_i_m512_n256_v7x_i16_f32_1_alg».proof.Defs
import proofs.«900827_g7700000000000828_dist_layernorm_colshard_i_m512_n256_v7x_i16_f32_1_alg».proof.Proof.RefRun
import proofs.«900827_g7700000000000828_dist_layernorm_colshard_i_m512_n256_v7x_i16_f32_1_alg».proof.Proof.Bridge
import proofs.«900827_g7700000000000828_dist_layernorm_colshard_i_m512_n256_v7x_i16_f32_1_alg».proof.Proof.HandKernelIdeal.Final
import proofs.«900827_g7700000000000828_dist_layernorm_colshard_i_m512_n256_v7x_i16_f32_1_alg».proof.Proof.HandKernelIdeal.Launch
import proofs.«900827_g7700000000000828_dist_layernorm_colshard_i_m512_n256_v7x_i16_f32_1_alg».proof.Proof.HandKernelIdeal.Body
import proofs.«900827_g7700000000000828_dist_layernorm_colshard_i_m512_n256_v7x_i16_f32_1_alg».proof.Proof.HandKernel.Launch
import proofs.«900827_g7700000000000828_dist_layernorm_colshard_i_m512_n256_v7x_i16_f32_1_alg».proof.Proof.HandKernel.Body
import proofs.«900827_g7700000000000828_dist_layernorm_colshard_i_m512_n256_v7x_i16_f32_1_alg».proof.Proof.Gen.Kernel
import proofs.«900827_g7700000000000828_dist_layernorm_colshard_i_m512_n256_v7x_i16_f32_1_alg».proof.Proof.Gen.KernelIdeal
import proofs.«900827_g7700000000000828_dist_layernorm_colshard_i_m512_n256_v7x_i16_f32_1_alg».proof.Proof.Gen.ReferenceIdeal
import proofs.«900827_g7700000000000828_dist_layernorm_colshard_i_m512_n256_v7x_i16_f32_1_alg».proof.Proof.Gen.Pre_finite_inputs_Kernel
import proofs.«900827_g7700000000000828_dist_layernorm_colshard_i_m512_n256_v7x_i16_f32_1_alg».proof.Proof.Gen.Pre_finite_inputs_ReferenceIdeal

noncomputable section

namespace Cert.Proof.Claims

open Idealize.ShloMosaic Idealize.ShloMosaic.TcCoe Idealize.SL.Sem

/-- The program as printed, on the machine words: every execution ends, and the exchange and the pipeline leave each
    device's three argument blocks as they were (the final contents of an input array are its initial contents). -/
theorem frame_p : Cert.frame_Kernel := fun m ρ _ =>
  (θ_run Cert.Kernel.defs _ _).mono
    (fun _ h c => ⟨(h c 0).trans (Cert.Kernel.Hand.finalA_in0 m c), (h c 1).trans (Cert.Kernel.Hand.finalA_in1 m c),
      (h c 2).trans (Cert.Kernel.Hand.finalA_in2 m c)⟩)
    (Cert.Kernel.Hand.run_main (F := Bits) m ρ (Cert.Kernel.Hand.body_obligation m))

/-- The same program read on the extended reals: the same run, the same three arrays untouched. -/
theorem frame_pi : Cert.frame_KernelIdeal := fun m ρ _ =>
  (θ_run Cert.KernelIdeal.defs _ _).mono
    (fun _ h c => ⟨(h c 0).trans (Cert.KernelIdeal.Hand.finalA_in0 m c), (h c 1).trans (Cert.KernelIdeal.Hand.finalA_in1 m c),
      (h c 2).trans (Cert.KernelIdeal.Hand.finalA_in2 m c)⟩)
    (Cert.KernelIdeal.Hand.run_main (F := Ideal) m ρ (Cert.KernelIdeal.Hand.body_obligation m))

/-- The reference is a straight line of host operations, none of which writes an argument. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation: there is nothing to preserve. -/
theorem preserves : Cert.preserves_Kernel_KernelIdeal := trivial

/-- On the extended reals, from finite inputs of which each device holds its sixteenth of the columns: the reference
    ends with the layer norm of the whole arrays, and device `c` ends with columns `256 c … 256 c + 255` of it —
    its result block is a pointwise expression of its own blocks and of the row totals the exchange gave it, which
    are the whole rows' sums and sums of squares, and `E[x²] - μ² = σ²`. -/
theorem algebraic : Cert.algebraic_KernelIdeal_ReferenceIdeal := by
  intro m ρ m' ρ' hpre hblk
  refine ⟨Cert.ReferenceIdeal.Hand.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono
      (fun _ h c => ⟨(h c 3).trans ((Cert.KernelIdeal.Hand.finalA_out m c).trans (Cert.LN.Bridge.out_block m m' hpre hblk c)),
        (h c 0).trans (Cert.KernelIdeal.Hand.finalA_in0 m c), (h c 1).trans (Cert.KernelIdeal.Hand.finalA_in1 m c),
        (h c 2).trans (Cert.KernelIdeal.Hand.finalA_in2 m c)⟩)
      (Cert.KernelIdeal.Hand.run_main (F := Ideal) m ρ (Cert.KernelIdeal.Hand.body_obligation m))
  · exact (θ_run Cert.ReferenceIdeal.defs _ _).mono (fun _ h => h 0) (Cert.ReferenceIdeal.Hand.run (F := Ideal) m' ρ')

end Cert.Proof.Claims

end
-- ==== Proof.lean ====
/- On sixteen devices that each hold 256 of the 4096 columns, the kernel computes the layer norm of the rows of `x`:
   every device ends with its columns of `γ_j (x_ij - μ_i) / √(σ²_i + ε) + β_j`, the value the one-device reference
   computes from the whole arrays, and neither program changes its arguments. -/
import proofs.«900827_g7700000000000828_dist_layernorm_colshard_i_m512_n256_v7x_i16_f32_1_alg».proof.Defs
import proofs.«900827_g7700000000000828_dist_layernorm_colshard_i_m512_n256_v7x_i16_f32_1_alg».proof.Proof.Claims
import proofs.«900827_g7700000000000828_dist_layernorm_colshard_i_m512_n256_v7x_i16_f32_1_alg».proof.Proof.Gen.Kernel
import proofs.«900827_g7700000000000828_dist_layernorm_colshard_i_m512_n256_v7x_i16_f32_1_alg».proof.Proof.Gen.KernelIdeal
import proofs.«900827_g7700000000000828_dist_layernorm_colshard_i_m512_n256_v7x_i16_f32_1_alg».proof.Proof.Gen.ReferenceIdeal
import proofs.«900827_g7700000000000828_dist_layernorm_colshard_i_m512_n256_v7x_i16_f32_1_alg».proof.Proof.Gen.Pre_finite_inputs_Kernel
import proofs.«900827_g7700000000000828_dist_layernorm_colshard_i_m512_n256_v7x_i16_f32_1_alg».proof.Proof.Gen.Pre_finite_inputs_ReferenceIdeal

noncomputable section

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, Claims.frame_p, Claims.frame_pi, Claims.frame_ri, Claims.preserves, Claims.algebraic⟩

end Cert.Proof

end
